-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16 : Shape := ⟨2, ![8192, 16]⟩
abbrev S8192x8192 : Shape := ⟨2, ![8192, 8192]⟩
abbrev S5x16x16 : Shape := ⟨3, ![5, 16, 16]⟩
abbrev S_ : Shape := ⟨0, ![]⟩

class Facts : Prop where
  bcast_S_S8192x16 : S_.BroadcastsInDim S8192x16 (![] : Fin 0 → Fin S8192x16.rank)
  reducesTo_S8192x16_S_d0_1 : S8192x16.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S5x16x16 : S_.BroadcastsInDim S5x16x16 (![] : Fin 0 → Fin S5x16x16.rank)
  reducesTo_S5x16x16_S_d0_1_2 : S5x16x16.ReducesTo [0, 1, 2] S_

variable [Facts]

def fn {F : FTy → Type} [FloatOps F] (main_arg0 : FVec F S8192x16 .f32) (main_arg1 : FVec F S8192x8192 .f32) (main_arg2 : FVec F S5x16x16 .f32) : IVec S_ 1 :=
  let main_v0 : FVec F S8192x16 .f32 := Host.absf main_arg0
  let main_cst : FVec F S_ .f32 := constant S_ .f32 0x7F800000#32
  let main_v1 : FVec F S8192x16 .f32 := broadcastInDim S8192x16 ![] bcast_S_S8192x16 main_cst
  let main_v2 : IVec S8192x16 1 := cmpf .olt main_v0 main_v1
  let main_c : IVec S_ 1 := constantI S_ 1 1#1
  let main_v3 : IVec S_ 1 := (fun x v => Host.reduce IntOp.andi x v reducesTo_S8192x16_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S5x16x16 .f32 := Host.absf main_arg2
  let main_cst_2 : FVec F S_ .f32 := constant S_ .f32 0x7F800000#32
  let main_v10 : FVec F S5x16x16 .f32 := broadcastInDim S5x16x16 ![] bcast_S_S5x16x16 main_cst_2
  let main_v11 : IVec S5x16x16 1 := cmpf .olt main_v9 main_v10
  let main_c_3 : IVec S_ 1 := constantI S_ 1 1#1
  let main_v12 : IVec S_ 1 := (fun x v => Host.reduce IntOp.andi x v reducesTo_S5x16x16_S_d0_1_2 h_S_) main_v11 main_c_3
  let main_v13 : IVec S_ 1 := andi main_v8 main_v12
  main_v13
-- ==== Kernel.lean ====
abbrev S8192x16 : Shape := ⟨2, ![8192, 16]⟩
abbrev S8192x8192 : Shape := ⟨2, ![8192, 8192]⟩
abbrev S5x16x16 : Shape := ⟨3, ![5, 16, 16]⟩
abbrev S1x16x16 : Shape := ⟨3, ![1, 16, 16]⟩
abbrev S16x16 : Shape := ⟨2, ![16, 16]⟩
abbrev S_ : Shape := ⟨0, ![]⟩
abbrev S1024x1024 : Shape := ⟨2, ![1024, 1024]⟩
abbrev S1024x16 : Shape := ⟨2, ![1024, 16]⟩

abbrev nBuf : Space → Nat
  | .hbm => 28
  | .vmem => 48
  | .smem => 0
  | _ => 0

abbrev bufTy : (tb : Table) → Fin (tcTables nBuf tb) → BufTy
  | .hbm, ⟨0, _⟩ => ⟨S8192x16, .f32⟩
  | .hbm, ⟨1, _⟩ => ⟨S8192x8192, .f32⟩
  | .hbm, ⟨2, _⟩ => ⟨S5x16x16, .f32⟩
  | .hbm, ⟨3, _⟩ => ⟨S1x16x16, .f32⟩
  | .hbm, ⟨4, _⟩ => ⟨S16x16, .f32⟩
  | .hbm, ⟨5, _⟩ => ⟨S8192x16, .f32⟩
  | .hbm, ⟨6, _⟩ => ⟨S_, .f32⟩
  | .hbm, ⟨7, _⟩ => ⟨S8192x16, .f32⟩
  | .hbm, ⟨8, _⟩ => ⟨S8192x16, .f32⟩
  | .hbm, ⟨9, _⟩ => ⟨S1x16x16, .f32⟩
  | .hbm, ⟨10, _⟩ => ⟨S16x16, .f32⟩
  | .hbm, ⟨11, _⟩ => ⟨S8192x16, .f32⟩
  | .hbm, ⟨12, _⟩ => ⟨S8192x16, .f32⟩
  | .hbm, ⟨13, _⟩ => ⟨S1x16x16, .f32⟩
  | .hbm, ⟨14, _⟩ => ⟨S16x16, .f32⟩
  | .hbm, ⟨15, _⟩ => ⟨S8192x16, .f32⟩
  | .hbm, ⟨16, _⟩ => ⟨S8192x16, .f32⟩
  | .hbm, ⟨17, _⟩ => ⟨S1x16x16, .f32⟩
  | .hbm, ⟨18, _⟩ => ⟨S16x16, .f32⟩
  | .hbm, ⟨19, _⟩ => ⟨S8192x16, .f32⟩
  | .hbm, ⟨20, _⟩ => ⟨S8192x16, .f32⟩
  | .hbm, ⟨21, _⟩ => ⟨S1x16x16, .f32⟩
  | .hbm, ⟨22, _⟩ => ⟨S16x16, .f32⟩
  | .hbm, ⟨23, _⟩ => ⟨S8192x16, .f32⟩
  | .hbm, ⟨24, _⟩ => ⟨S8192x16, .f32⟩
  | .hbm, ⟨25, _⟩ => ⟨S_, .f32⟩
  | .hbm, ⟨26, _⟩ => ⟨S8192x16, .f32⟩
  | .hbm, ⟨27, _⟩ => ⟨S8192x16, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S16x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S1024x16, .f32⟩
  | .local _ .vmem, ⟨9, _⟩ => ⟨S1024x16, .f32⟩
  | .local _ .vmem, ⟨10, _⟩ => ⟨S1024x16, .f32⟩
  | .local _ .vmem, ⟨11, _⟩ => ⟨S1024x16, .f32⟩
  | .local _ .vmem, ⟨12, _⟩ => ⟨S1024x1024, .f32⟩
  | .local _ .vmem, ⟨13, _⟩ => ⟨S1024x1024, .f32⟩
  | .local _ .vmem, ⟨14, _⟩ => ⟨S1024x16, .f32⟩
  | .local _ .vmem, ⟨15, _⟩ => ⟨S1024x16, .f32⟩
  | .local _ .vmem, ⟨16, _⟩ => ⟨S16x16, .f32⟩
  | .local _ .vmem, ⟨17, _⟩ => ⟨S1024x16, .f32⟩
  | .local _ .vmem, ⟨18, _⟩ => ⟨S1024x16, .f32⟩
  | .local _ .vmem, ⟨19, _⟩ => ⟨S1024x16, .f32⟩
  | .local _ .vmem, ⟨20, _⟩ => ⟨S1024x16, .f32⟩
  | .local _ .vmem, ⟨21, _⟩ => ⟨S1024x16, .f32⟩
  | .local _ .vmem, ⟨22, _⟩ => ⟨S1024x16, .f32⟩
  | .local _ .vmem, ⟨23, _⟩ => ⟨S1024x16, .f32⟩
  | .local _ .vmem, ⟨24, _⟩ => ⟨S1024x1024, .f32⟩
  | .local _ .vmem, ⟨25, _⟩ => ⟨S1024x1024, .f32⟩
  | .local _ .vmem, ⟨26, _⟩ => ⟨S1024x16, .f32⟩
  | .local _ .vmem, ⟨27, _⟩ => ⟨S1024x16, .f32⟩
  | .local _ .vmem, ⟨28, _⟩ => ⟨S16x16, .f32⟩
  | .local _ .vmem, ⟨29, _⟩ => ⟨S1024x16, .f32⟩
  | .local _ .vmem, ⟨30, _⟩ => ⟨S1024x16, .f32⟩
  | .local _ .vmem, ⟨31, _⟩ => ⟨S1024x16, .f32⟩
  | .local _ .vmem, ⟨32, _⟩ => ⟨S1024x16, .f32⟩
  | .local _ .vmem, ⟨33, _⟩ => ⟨S1024x16, .f32⟩
  | .local _ .vmem, ⟨34, _⟩ => ⟨S1024x16, .f32⟩
  | .local _ .vmem, ⟨35, _⟩ => ⟨S1024x16, .f32⟩
  | .local _ .vmem, ⟨36, _⟩ => ⟨S1024x1024, .f32⟩
  | .local _ .vmem, ⟨37, _⟩ => ⟨S1024x1024, .f32⟩
  | .local _ .vmem, ⟨38, _⟩ => ⟨S1024x16, .f32⟩
  | .local _ .vmem, ⟨39, _⟩ => ⟨S1024x16, .f32⟩
  | .local _ .vmem, ⟨40, _⟩ => ⟨S16x16, .f32⟩
  | .local _ .vmem, ⟨41, _⟩ => ⟨S1024x16, .f32⟩
  | .local _ .vmem, ⟨42, _⟩ => ⟨S1024x16, .f32⟩
  | .local _ .vmem, ⟨43, _⟩ => ⟨S1024x16, .f32⟩
  | .local _ .vmem, ⟨44, _⟩ => ⟨S1024x16, .f32⟩
  | .local _ .vmem, ⟨45, _⟩ => ⟨S1024x16, .f32⟩
  | .local _ .vmem, ⟨46, _⟩ => ⟨S1024x16, .f32⟩
  | .local _ .vmem, ⟨47, _⟩ => ⟨S1024x16, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_call1_cst : Ref sig .tc := ⟨.hbm, 25, rfl⟩
abbrev main_call1_v0 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc2_scratch0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc3_stg5_0 : Ref sig .tc := ⟨.vmem, 45, rfl⟩
abbrev cc3_stg5_1 : Ref sig .tc := ⟨.vmem, 46, rfl⟩
abbrev cc3_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem3_1 : DmaSem sig := 39
abbrev cc3_sem4_0 : DmaSem sig := 40
abbrev cc3_sem4_1 : DmaSem sig := 41
abbrev cc3_sem5_0 : DmaSem sig := 42
abbrev cc3_sem5_1 : DmaSem sig := 43

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S16x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1024x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  slices_S5x16x16_S1x16x16_0_0_0 : S5x16x16.Slices ![0, 0, 0] S1x16x16
  shapeCasts_S1x16x16_S16x16 : S1x16x16.ShapeCasts S16x16
  bcast_S_S8192x16 : S_.BroadcastsInDim S8192x16 (![] : Fin 0 → Fin S8192x16.rank)
  slices_S5x16x16_S1x16x16_1_0_0 : S5x16x16.Slices ![1, 0, 0] S1x16x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  shapeCasts_S16x16_S16x16 : S16x16.ShapeCasts S16x16
  slices_S5x16x16_S1x16x16_2_0_0 : S5x16x16.Slices ![2, 0, 0] S1x16x16
  slices_S5x16x16_S1x16x16_3_0_0 : S5x16x16.Slices ![3, 0, 0] S1x16x16
  slices_S5x16x16_S1x16x16_4_0_0 : S5x16x16.Slices ![4, 0, 0] S1x16x16
  dot_S8192x16_S16x16_S8192x16_1_0_0_1_n_n_wf : DotDims.WF S8192x16 S16x16 S8192x16 [1] [0] [0] [1] [] []
  dot_S1024x1024_S1024x16_S1024x16_1_0_0_1_n_n_wf : DotDims.WF S1024x1024 S1024x16 S1024x16 [1] [0] [0] [1] [] []
  dot_S1024x16_S16x16_S1024x16_1_0_0_1_n_n_wf : DotDims.WF S1024x16 S16x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S8192x16.size a
  hwx0_1 : ∀ i : grid0.Coords, EltTy.bits .f32 = 32 ∨ (Rect.block (s := S8192x16) S1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x16.size a ≤ S16x16.size a
  hwx0_2 : ∀ i : grid0.Coords, EltTy.bits .f32 = 32 ∨ (Rect.block (s := S16x16) S16x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S8192x16.size a
  hwx0_3 : ∀ i : grid0.Coords, EltTy.bits .f32 = 32 ∨ (Rect.block (s := S8192x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S8192x16.size a
  hwx0_4 : ∀ i : grid0.Coords, EltTy.bits .f32 = 32 ∨ (Rect.block (s := S8192x16) S1024x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x16.size a ≤ S8192x16.size a
  hwx0_5 : ∀ i : grid0.Coords, EltTy.bits .f32 = 32 ∨ (Rect.block (s := S8192x16) S1024x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x16.size a ≤ S8192x16.size a
  hwx1_1 : ∀ i : grid1.Coords, EltTy.bits .f32 = 32 ∨ (Rect.block (s := S8192x16) S1024x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x16.size a ≤ S8192x16.size a
  hwx1_3 : ∀ i : grid1.Coords, EltTy.bits .f32 = 32 ∨ (Rect.block (s := S8192x16) S1024x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x16.size a ≤ S8192x16.size a
  hwx1_4 : ∀ i : grid1.Coords, EltTy.bits .f32 = 32 ∨ (Rect.block (s := S8192x16) S1024x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x16.size a ≤ S8192x16.size a
  hwx1_5 : ∀ i : grid1.Coords, EltTy.bits .f32 = 32 ∨ (Rect.block (s := S8192x16) S1024x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x16.size a ≤ S8192x16.size a
  hwx2_1 : ∀ i : grid2.Coords, EltTy.bits .f32 = 32 ∨ (Rect.block (s := S8192x16) S1024x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x16.size a ≤ S8192x16.size a
  hwx2_3 : ∀ i : grid2.Coords, EltTy.bits .f32 = 32 ∨ (Rect.block (s := S8192x16) S1024x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x16.size a ≤ S8192x16.size a
  hwx2_4 : ∀ i : grid2.Coords, EltTy.bits .f32 = 32 ∨ (Rect.block (s := S8192x16) S1024x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x16.size a ≤ S8192x16.size a
  hwx2_5 : ∀ i : grid2.Coords, EltTy.bits .f32 = 32 ∨ (Rect.block (s := S8192x16) S1024x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x8192.size a
  hwx3_0 : ∀ i : grid3.Coords, EltTy.bits .f32 = 32 ∨ (Rect.block (s := S8192x8192) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x16.size a ≤ S8192x16.size a
  hwx3_1 : ∀ i : grid3.Coords, EltTy.bits .f32 = 32 ∨ (Rect.block (s := S8192x16) S1024x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x16.size a ≤ S16x16.size a
  hwx3_2 : ∀ i : grid3.Coords, EltTy.bits .f32 = 32 ∨ (Rect.block (s := S16x16) S16x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x16.size a ≤ S8192x16.size a
  hwx3_3 : ∀ i : grid3.Coords, EltTy.bits .f32 = 32 ∨ (Rect.block (s := S8192x16) S1024x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x16.size a ≤ S8192x16.size a
  hwx3_4 : ∀ i : grid3.Coords, EltTy.bits .f32 = 32 ∨ (Rect.block (s := S8192x16) S1024x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x16.size a ≤ S8192x16.size a
  hwx3_5 : ∀ i : grid3.Coords, EltTy.bits .f32 = 32 ∨ (Rect.block (s := S8192x16) S1024x16.size (cc3_transform_5 i) (hinb3_5 i)).WholeWords (EltTy.packing .f32)

variable [Facts₀]

def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1024x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1024x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_0) S1024x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S1024x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9_0) S1024x16.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9_1) S1024x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9_0) S1024x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9_1) S1024x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12_0) S1024x16.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v12_1) S1024x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_arg1) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12_0) S1024x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S16x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12_1) S1024x16.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v15_0) S1024x16.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v15_1) S1024x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun i => !(k3_cond2 i == 1#1) | 5 => fun i => !(k3_cond2 i == 1#1) | ⟨_ + 6, h⟩ => absurd h (Nat.not_lt.2 (Nat.le_add_left _ _))

class Facts : Prop extends Facts₀ where

variable [Facts]
-- ==== ReferenceIdeal.lean ====
abbrev S8192x16 : Shape := ⟨2, ![8192, 16]⟩
abbrev S8192x8192 : Shape := ⟨2, ![8192, 8192]⟩
abbrev S5x16x16 : Shape := ⟨3, ![5, 16, 16]⟩
abbrev S1x16x16 : Shape := ⟨3, ![1, 16, 16]⟩
abbrev S16x16 : Shape := ⟨2, ![16, 16]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S8192x8192, .f32⟩
  | .hbm, ⟨2, _⟩ => ⟨S5x16x16, .f32⟩
  | .hbm, ⟨3, _⟩ => ⟨S1x16x16, .f32⟩
  | .hbm, ⟨4, _⟩ => ⟨S16x16, .f32⟩
  | .hbm, ⟨5, _⟩ => ⟨S8192x16, .f32⟩
  | .hbm, ⟨6, _⟩ => ⟨S_, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S1x16x16, .f32⟩
  | .hbm, ⟨11, _⟩ => ⟨S16x16, .f32⟩
  | .hbm, ⟨12, _⟩ => ⟨S8192x16, .f32⟩
  | .hbm, ⟨13, _⟩ => ⟨S_, .f32⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S8192x16, .f32⟩
  | .hbm, ⟨18, _⟩ => ⟨S1x16x16, .f32⟩
  | .hbm, ⟨19, _⟩ => ⟨S16x16, .f32⟩
  | .hbm, ⟨20, _⟩ => ⟨S8192x16, .f32⟩
  | .hbm, ⟨21, _⟩ => ⟨S_, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S1x16x16, .f32⟩
  | .hbm, ⟨27, _⟩ => ⟨S16x16, .f32⟩
  | .hbm, ⟨28, _⟩ => ⟨S8192x16, .f32⟩
  | .hbm, ⟨29, _⟩ => ⟨S_, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S1x16x16, .f32⟩
  | .hbm, ⟨35, _⟩ => ⟨S16x16, .f32⟩
  | .hbm, ⟨36, _⟩ => ⟨S8192x16, .f32⟩
  | .hbm, ⟨37, _⟩ => ⟨S_, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S_, .f32⟩
  | .hbm, ⟨42, _⟩ => ⟨S8192x16, .f32⟩
  | .hbm, ⟨43, _⟩ => ⟨S8192x16, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call1_cst : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call2_cst : Ref sig .tc := ⟨.hbm, 21, rfl⟩
abbrev main_call2_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call3_cst : Ref sig .tc := ⟨.hbm, 29, rfl⟩
abbrev main_call3_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call4_cst : Ref sig .tc := ⟨.hbm, 37, rfl⟩
abbrev main_call4_v0 : Ref sig .tc := ⟨.hbm, 38, rfl⟩
abbrev main_v26 : Ref sig .tc := ⟨.hbm, 39, rfl⟩
abbrev main_v27 : Ref sig .tc := ⟨.hbm, 40, rfl⟩
abbrev main_call5_cst : Ref sig .tc := ⟨.hbm, 41, rfl⟩
abbrev main_call5_v0 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  slices_S5x16x16_S1x16x16_0_0_0 : S5x16x16.Slices ![0, 0, 0] S1x16x16
  shapeCasts_S1x16x16_S16x16 : S1x16x16.ShapeCasts S16x16
  bcast_S_S8192x16 : S_.BroadcastsInDim S8192x16 (![] : Fin 0 → Fin S8192x16.rank)
  slices_S5x16x16_S1x16x16_1_0_0 : S5x16x16.Slices ![1, 0, 0] S1x16x16
  slices_S5x16x16_S1x16x16_2_0_0 : S5x16x16.Slices ![2, 0, 0] S1x16x16
  slices_S5x16x16_S1x16x16_3_0_0 : S5x16x16.Slices ![3, 0, 0] S1x16x16
  slices_S5x16x16_S1x16x16_4_0_0 : S5x16x16.Slices ![4, 0, 0] S1x16x16
  dot_S8192x16_S16x16_S8192x16_1_0_0_1_n_n_wf : DotDims.WF S8192x16 S16x16 S8192x16 [1] [0] [0] [1] [] []
  dot_S8192x8192_S8192x16_S8192x16_1_0_0_1_n_n_wf : DotDims.WF S8192x8192 S8192x16 S8192x16 [1] [0] [0] [1] [] []

variable [Facts₀]

def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf

class Facts : Prop extends Facts₀ where

variable [Facts]
-- ==== Proof.Kernel.R0.Runs.lean ====
/-
  One kernel region of @main (a propagation step xp' = L·xp with the hop's contribution added, acc' = acc + relu(xp'·W)):
  what its three control cases share. The grid is 8 × 8 points (row tile i, contraction tile k), point t = 8·i + k. The
  body resets its scratch accumulator where k = 0, adds the product of the point's two tiles to it at every point, and
  where k = 7 copies the accumulator out and stores the second output. Stated at any float type and at any contents
  `V` of the core's buffers when the region is entered.
-/
import proofs.«163433_j78743930404901_1_alg».proof.Proof.Gen.Kernel.Launch
import proofs.«163433_j78743930404901_1_alg».proof.Proof.Gen.Kernel.Skeleton
import proofs.«163433_j78743930404901_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the point's block whether or not the point fetched it: a point
    that does not fetch has the block index of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- `k = 0`, as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- `k = 7`, as the body computes it. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where `k ≠ 7` the body stores nothing into the two outputs and their blocks are not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev VO0_4 : View sig .tc .vmem S1024x16 .f32 := (Memref.whole cc0_stg4_0 : Memref sig .tc .vmem S1024x16 .f32).view
abbrev VO0_5 : View sig .tc .vmem S1024x16 .f32 := (Memref.whole cc0_stg5_0 : Memref sig .tc .vmem S1024x16 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x16 .f32 := win0_5.stage (cfg0.slots t 5)
abbrev hs0_5 (t : Fin cfg0.N) : (ms0_5 t).IsWhole := hstage0_5 ((cfg0.slots t 5).cast nbuf0_5)
/-- The accumulator: a whole scoped buffer of the kernel's own, carried from point to point. -/
abbrev scM0_0 : Memref sig .tc .vmem S1024x16 .f32 := Memref.whole cc0_scratch0
abbrev VS0_0 : View sig .tc .vmem S1024x16 .f32 := scM0_0.view

/-- What the region hands the body beside the windows: the accumulator at some contents, every other scoped
    buffer no window stages, and the generator register. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Region0

end Cert.Kernel.H

end
-- ==== Proof.Kernel.R0.RunA.lean ====
/-
  At the points with k = 0 (the accumulator is reset, then the point's product added; the outputs are left alone): the body's triple, run once symbolically. The pieces each buffer ends with are read off the run.
-/
import proofs.«163433_j78743930404901_1_alg».proof.Proof.Kernel.R0.Runs

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

set_option maxHeartbeats 1000000 in
/-- On whole memrefs — the four inputs at their contents, the two outputs at contents handed back untouched, the
    accumulator at anything — the body runs to its end holding the inputs and outputs as they were and the
    accumulator with the pieces `LS0` written. -/
noncomputable def kernelRun0_A (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond0_0 i) (hc1 : ¬cond0_1 i)
    (x0 : Vec F S1024x1024 .f32) (x1 : Vec F S1024x16 .f32) (x2 : Vec F S16x16 .f32) (x3 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__step_kernel i arg2 harg2 arg3 harg3 arg4 harg4 arg5 harg5 arg6 harg6 arg7 harg7 arg8 harg8) K } := by
  refine ⟨?_, fun xi4 xi5 E K => ?run⟩
  case run =>
    simp only [cc0__step_kernel_eq_skeleton]; unfold cc0__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region0

end Cert.Kernel.H

end
-- ==== Proof.Kernel.R0.RunB.lean ====
/-
  At the points with 0 < k < 7 (the point's product is added to the accumulator; the outputs are left alone): the body's triple, run once symbolically. The pieces each buffer ends with are read off the run.
-/
import proofs.«163433_j78743930404901_1_alg».proof.Proof.Kernel.R0.RunA

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

set_option maxHeartbeats 1000000 in
/-- As at `k = 0`, but the accumulator enters at the contents `xs0` the point before left. -/
noncomputable def kernelRun0_B (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : ¬cond0_1 i)
    (x0 : Vec F S1024x1024 .f32) (x1 : Vec F S1024x16 .f32) (x2 : Vec F S16x16 .f32) (x3 : Vec F S1024x16 .f32) (xs0 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__step_kernel i arg2 harg2 arg3 harg3 arg4 harg4 arg5 harg5 arg6 harg6 arg7 harg7 arg8 harg8) K } := by
  refine ⟨?_, fun xi4 xi5 E K => ?run⟩
  case run =>
    simp only [cc0__step_kernel_eq_skeleton]; unfold cc0__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region0

end Cert.Kernel.H

end
-- ==== Proof.Kernel.R0.RunC.lean ====
/-
  At the points with k = 7 (the last product is added, the accumulator copied to the first output, and the second output stored): the body's triple, run once symbolically. The pieces each buffer ends with are read off the run.
-/
import proofs.«163433_j78743930404901_1_alg».proof.Proof.Kernel.R0.RunB

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

set_option maxHeartbeats 1000000 in
/-- The accumulator enters at `xs0`; the two outputs enter at anything and leave with the pieces `L4`, `L5` written. -/
noncomputable def kernelRun0_C (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i)
    (x0 : Vec F S1024x1024 .f32) (x1 : Vec F S1024x16 .f32) (x2 : Vec F S16x16 .f32) (x3 : Vec F S1024x16 .f32) (xs0 : Vec F S1024x16 .f32) :
    Σ' (L4 : List (View.Piece (Elt F) S1024x16 .f32)) (L5 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__step_kernel i arg2 harg2 arg3 harg3 arg4 harg4 arg5 harg5 arg6 harg6 arg7 harg7 arg8 harg8) K } := by
  refine ⟨?_, ?_, ?_, fun E K => ?run⟩
  case run =>
    simp only [cc0__step_kernel_eq_skeleton]; unfold cc0__step_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Region0

end Cert.Kernel.H

end
-- ==== Proof.Kernel.R0.Data.lean ====
/-
  What each control case of the region leaves in the accumulator and the outputs, those contents after each grid point
  by recursion on the point, the region's invariant (the accumulator carried from point to point), its proof data and
  the body's obligation at every point.
-/
import proofs.«163433_j78743930404901_1_alg».proof.Proof.Kernel.R0.RunC

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What each case leaves -/

/-- The accumulator after a point with `k = 0`: the case's pieces read back. -/
def sout0_A (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond0_0 i) (hc1 : ¬cond0_1 i) (x0 : Vec F S1024x1024 .f32) (x1 : Vec F S1024x16 .f32) (x2 : Vec F S16x16 .f32) (x3 : Vec F S1024x16 .f32) : Vec F S1024x16 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).1)
/-- Its pieces cover the buffer. -/
theorem scover0_A (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond0_0 i) (hc1 : ¬cond0_1 i) (x0 : Vec F S1024x1024 .f32) (x1 : Vec F S1024x16 .f32) (x2 : Vec F S16x16 .f32) (x3 : Vec F S1024x16 .f32) (y : S1024x16.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S1024x16.size (by sl_kernel_rfl) y

/-- The accumulator after a point with `0 < k < 7`, entered at `xs0`. -/
def sout0_B (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : ¬cond0_1 i) (x0 : Vec F S1024x1024 .f32) (x1 : Vec F S1024x16 .f32) (x2 : Vec F S16x16 .f32) (x3 : Vec F S1024x16 .f32) (xs0 : Vec F S1024x16 .f32) : Vec F S1024x16 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0).1)
theorem scover0_B (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : ¬cond0_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun0_B c i arg2 harg2 arg3 harg3 arg4 harg4 arg5 harg5 arg6 harg6 arg7 harg7 arg8 harg8 hc0 hc1 x0 x1 x2 x3 xs0).1, y ∈ pc.1.set :=
  View.cover_of_tiledL (kernelRun0_B c i arg2 harg2 arg3 harg3 arg4 harg4 arg5 harg5 arg6 harg6 arg7 harg7 arg8 harg8 hc0 hc1 x0 x1 x2 x3 xs0).1 S1024x16.size (by sl_kernel_rfl) y

/-- After a point with `k = 7`, entered at `xs0`: the first output, the second output, the accumulator. -/
def out0_C_4 (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i) (x0 : Vec F S1024x1024 .f32) (x1 : Vec F S1024x16 .f32) (x2 : Vec F S16x16 .f32) (x3 : Vec F S1024x16 .f32) (xs0 : Vec F S1024x16 .f32) : Vec F S1024x16 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0).1)
theorem cover0_C_4 (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun0_C c i arg2 harg2 arg3 harg3 arg4 harg4 arg5 harg5 arg6 harg6 arg7 harg7 arg8 harg8 hc0 hc1 x0 x1 x2 x3 xs0).1, y ∈ pc.1.set :=
  View.cover_of_tiledL (kernelRun0_C c i arg2 harg2 arg3 harg3 arg4 harg4 arg5 harg5 arg6 harg6 arg7 harg7 arg8 harg8 hc0 hc1 x0 x1 x2 x3 xs0).1 S1024x16.size (by sl_kernel_rfl) y
def out0_C_5 (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i) (x0 : Vec F S1024x1024 .f32) (x1 : Vec F S1024x16 .f32) (x2 : Vec F S16x16 .f32) (x3 : Vec F S1024x16 .f32) (xs0 : Vec F S1024x16 .f32) : Vec F S1024x16 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 xs0).2.1)
theorem cover0_C_5 (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun0_C c i arg2 harg2 arg3 harg3 arg4 harg4 arg5 harg5 arg6 harg6 arg7 harg7 arg8 harg8 hc0 hc1 x0 x1 x2 x3 xs0).2.1, y ∈ pc.1.set :=
  View.cover_of_tiledL (kernelRun0_C c i arg2 harg2 arg3 harg3 arg4 harg4 arg5 harg5 arg6 harg6 arg7 harg7 arg8 harg8 hc0 hc1 x0 x1 x2 x3 xs0).2.1 S1024x16.size (by sl_kernel_rfl) y
def sout0_C (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i) (x0 : Vec F S1024x1024 .f32) (x1 : Vec F S1024x16 .f32) (x2 : Vec F S16x16 .f32) (x3 : Vec F S1024x16 .f32) (xs0 : Vec F S1024x16 .f32) : Vec F S1024x16 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0).2.2.1)
theorem scover0_C (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun0_C c i arg2 harg2 arg3 harg3 arg4 harg4 arg5 harg5 arg6 harg6 arg7 harg7 arg8 harg8 hc0 hc1 x0 x1 x2 x3 xs0).2.2.1, y ∈ pc.1.set :=
  View.cover_of_tiledL (kernelRun0_C c i arg2 harg2 arg3 harg3 arg4 harg4 arg5 harg5 arg6 harg6 arg7 harg7 arg8 harg8 hc0 hc1 x0 x1 x2 x3 xs0).2.2.1 S1024x16.size (by sl_kernel_rfl) y

/-- What stands for an output's staging buffer at a point that stores nothing into it: nothing reads it there. -/
def idleOut0 : Vec F S1024x16 .f32 := VO0_4.read (Elt F) VO0_4.junk

/-! ## The same at a grid point, on the point's memrefs and blocks -/

def soutAt0_A (c : Dev nD) (t : Fin cfg0.N) (h0 : t.val % 8 = 0) (h1 : ¬t.val % 8 = 7) : Vec F S1024x16 .f32 :=
  sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t)
def soutAt0_B (c : Dev nD) (t : Fin cfg0.N) (h0 : ¬t.val % 8 = 0) (h1 : ¬t.val % 8 = 7) (xs0 : Vec F S1024x16 .f32) : Vec F S1024x16 .f32 :=
  sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) xs0
def out4At0_C (c : Dev nD) (t : Fin cfg0.N) (h0 : ¬t.val % 8 = 0) (h1 : t.val % 8 = 7) (xs0 : Vec F S1024x16 .f32) : Vec F S1024x16 .f32 :=
  out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) xs0
def out5At0_C (c : Dev nD) (t : Fin cfg0.N) (h0 : ¬t.val % 8 = 0) (h1 : t.val % 8 = 7) (xs0 : Vec F S1024x16 .f32) : Vec F S1024x16 .f32 :=
  out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) xs0
def soutAt0_C (c : Dev nD) (t : Fin cfg0.N) (h0 : ¬t.val % 8 = 0) (h1 : t.val % 8 = 7) (xs0 : Vec F S1024x16 .f32) : Vec F S1024x16 .f32 :=
  sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) xs0

/-! ## The contents after each point -/

/-- After point `n`: the first output's staging buffer, the second's, the accumulator. The accumulator of a
    point with `k > 0` is computed from what the point before left in it. -/
def outsAt0 (c : Dev nD) : (n : ℕ) → n < cfg0.N → Vec F S1024x16 .f32 × Vec F S1024x16 .f32 × Vec F S1024x16 .f32
  | 0, hn => (idleOut0, idleOut0, soutAt0_A V c ⟨0, hn⟩ (Nat.zero_mod _) (by simp))
  | n + 1, hn =>
    if h0 : (n + 1) % 8 = 0 then
      (idleOut0, idleOut0, soutAt0_A V c ⟨n + 1, hn⟩ h0 (by dsimp only; omega))
    else
      if h1 : (n + 1) % 8 = 7 then
        (out4At0_C V c ⟨n + 1, hn⟩ h0 h1 (outsAt0 c n (Nat.lt_of_succ_lt hn)).2.2,
         out5At0_C V c ⟨n + 1, hn⟩ h0 h1 (outsAt0 c n (Nat.lt_of_succ_lt hn)).2.2,
         soutAt0_C V c ⟨n + 1, hn⟩ h0 h1 (outsAt0 c n (Nat.lt_of_succ_lt hn)).2.2)
      else
        (idleOut0, idleOut0, soutAt0_B V c ⟨n + 1, hn⟩ h0 h1 (outsAt0 c n (Nat.lt_of_succ_lt hn)).2.2)

theorem outsAt0_A (c : Dev nD) (t : Fin cfg0.N) (h0 : t.val % 8 = 0) (h1 : ¬t.val % 8 = 7) :
    outsAt0 V c t.val t.isLt = (idleOut0, idleOut0, soutAt0_A V c t h0 h1) := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 V c t.val t.isLt = (idleOut0, idleOut0, soutAt0_B V c t h0 h1 (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt
      = (out4At0_C V c t h0 h1 (outsAt0 V c (t.val - 1) (Nat.lt_of_le_of_lt (Nat.sub_le _ _) t.isLt)).2.2,
         out5At0_C V c t h0 h1 (outsAt0 V c (t.val - 1) (Nat.lt_of_le_of_lt (Nat.sub_le _ _) t.isLt)).2.2,
         soutAt0_C V c t h0 h1 (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The invariant: the accumulator carried between points -/

/-- The scoped buffers of the other calls, which this region never opens. -/
abbrev others0 (c : Dev nD) : sProp 𝕄 :=
  Pipeline.scopedRestBut (Ix := Unit) (Name := ℕ) (U := UR sig nD τ) (Lvl := ℕ) (Val := Elt F) spec0 c [cc0_scratch0]

/-- Before point `n`: at the first point what the region was handed; afterwards the accumulator at what the
    point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ others0 c) ∗ (∃ r, prngReg c r)) := by
  cases n with
  | zero => exact absurd rfl hz
  | succ n => rfl

/-! ## The region's proof data -/

/-- The arrays as the region finds them; after the body at point `t` each input's buffer at its block and the
    outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in
/-- The body at any point. The point's residue mod 8 says which case it is in; the invariant hands the body the
    accumulator (at anything before the first point, else at what the point before left) and takes it back at
    this point's contents; an idle output is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 64 := lt_of_lt_of_eq t.isLt (show cfg0.N = 64 from N_0)
  by_cases h0 : t.val % 8 = 0
  · have h1 : ¬t.val % 8 = 7 := by omega
    have hnc1 : ¬cond0_1 (grid0.coords t) := fun h => h1 ((hcond0_1 t).mp h)
    rw [Dat.leavesExact_idle (dat0 V c) 4 t (idleAt0_4 t hnc1) (noFlush0_4 t hnc1),
      Dat.leavesExact_idle (dat0 V c) 5 t (idleAt0_5 t hnc1) (noFlush0_5 t hnc1)]
    rw [outsAt0_A V c t h0 h1]
    unfold soutAt0_A sout0_A; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) hnc1 (iblk0 V c 0 t) (iblk0 V c 1 t) (iblk0 V c 2 t) (iblk0 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) hnc1 (iblk0 V c 0 t) (iblk0 V c 1 t) (iblk0 V c 2 t) (iblk0 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hnc0 : ¬cond0_0 (grid0.coords t) := fun h => h0 ((hcond0_0 t).mp h)
    by_cases h1 : t.val % 8 = 7
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [outsAt0_C V c t h0 h1]
      unfold out4At0_C out5At0_C soutAt0_C out0_C_4 out0_C_5 sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ hnc0 hc1 (iblk0 V c 0 t) (iblk0 V c 1 t) (iblk0 V c 2 t) (iblk0 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _)
    · have hnc1 : ¬cond0_1 (grid0.coords t) := fun h => h1 ((hcond0_1 t).mp h)
      rw [Dat.leavesExact_idle (dat0 V c) 4 t (idleAt0_4 t hnc1) (noFlush0_4 t hnc1),
        Dat.leavesExact_idle (dat0 V c) 5 t (idleAt0_5 t hnc1) (noFlush0_5 t hnc1)]
      rw [outsAt0_B V c t h0 h1]
      unfold soutAt0_B sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ hnc0 hnc1 (iblk0 V c 0 t) (iblk0 V c 1 t) (iblk0 V c 2 t) (iblk0 V c 3 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The obligation at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end Region0

end Cert.Kernel.H

end
-- ==== Proof.Kernel.R1.Runs.lean ====
/-
  One kernel region of @main (a propagation step xp' = L·xp with the hop's contribution added, acc' = acc + relu(xp'·W)):
  what its three control cases share. The grid is 8 × 8 points (row tile i, contraction tile k), point t = 8·i + k. The
  body resets its scratch accumulator where k = 0, adds the product of the point's two tiles to it at every point, and
  where k = 7 copies the accumulator out and stores the second output. Stated at any float type and at any contents
  `V` of the core's buffers when the region is entered.
-/
import proofs.«163433_j78743930404901_1_alg».proof.Proof.Gen.Kernel.Launch
import proofs.«163433_j78743930404901_1_alg».proof.Proof.Gen.Kernel.Skeleton
import proofs.«163433_j78743930404901_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the point's block whether or not the point fetched it: a point
    that does not fetch has the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the grid -/

/-- `k = 0`, as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- `k = 7`, as the body computes it. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where `k ≠ 7` the body stores nothing into the two outputs and their blocks are not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

/-! ## The memrefs the body is called with -/

abbrev VO1_4 : View sig .tc .vmem S1024x16 .f32 := (Memref.whole cc1_stg4_0 : Memref sig .tc .vmem S1024x16 .f32).view
abbrev VO1_5 : View sig .tc .vmem S1024x16 .f32 := (Memref.whole cc1_stg5_0 : Memref sig .tc .vmem S1024x16 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x16 .f32 := win1_5.stage (cfg1.slots t 5)
abbrev hs1_5 (t : Fin cfg1.N) : (ms1_5 t).IsWhole := hstage1_5 ((cfg1.slots t 5).cast nbuf1_5)
/-- The accumulator: a whole scoped buffer of the kernel's own, carried from point to point. -/
abbrev scM1_0 : Memref sig .tc .vmem S1024x16 .f32 := Memref.whole cc1_scratch0
abbrev VS1_0 : View sig .tc .vmem S1024x16 .f32 := scM1_0.view

/-- What the region hands the body beside the windows: the accumulator at some contents, every other scoped
    buffer no window stages, and the generator register. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Region1

end Cert.Kernel.H

end
-- ==== Proof.Kernel.R1.RunA.lean ====
/-
  At the points with k = 0 (the accumulator is reset, then the point's product added; the outputs are left alone): the body's triple, run once symbolically. The pieces each buffer ends with are read off the run.
-/
import proofs.«163433_j78743930404901_1_alg».proof.Proof.Kernel.R1.Runs

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

set_option maxHeartbeats 1000000 in
/-- On whole memrefs — the four inputs at their contents, the two outputs at contents handed back untouched, the
    accumulator at anything — the body runs to its end holding the inputs and outputs as they were and the
    accumulator with the pieces `LS0` written. -/
noncomputable def kernelRun1_A (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond1_0 i) (hc1 : ¬cond1_1 i)
    (x0 : Vec F S1024x1024 .f32) (x1 : Vec F S1024x16 .f32) (x2 : Vec F S16x16 .f32) (x3 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__step_kernel i arg2 harg2 arg3 harg3 arg4 harg4 arg5 harg5 arg6 harg6 arg7 harg7 arg8 harg8) K } := by
  refine ⟨?_, fun xi4 xi5 E K => ?run⟩
  case run =>
    simp only [cc1__step_kernel_eq_skeleton]; unfold cc1__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region1

end Cert.Kernel.H

end
-- ==== Proof.Kernel.R1.RunB.lean ====
/-
  At the points with 0 < k < 7 (the point's product is added to the accumulator; the outputs are left alone): the body's triple, run once symbolically. The pieces each buffer ends with are read off the run.
-/
import proofs.«163433_j78743930404901_1_alg».proof.Proof.Kernel.R1.RunA

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

set_option maxHeartbeats 1000000 in
/-- As at `k = 0`, but the accumulator enters at the contents `xs0` the point before left. -/
noncomputable def kernelRun1_B (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : ¬cond1_1 i)
    (x0 : Vec F S1024x1024 .f32) (x1 : Vec F S1024x16 .f32) (x2 : Vec F S16x16 .f32) (x3 : Vec F S1024x16 .f32) (xs0 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__step_kernel i arg2 harg2 arg3 harg3 arg4 harg4 arg5 harg5 arg6 harg6 arg7 harg7 arg8 harg8) K } := by
  refine ⟨?_, fun xi4 xi5 E K => ?run⟩
  case run =>
    simp only [cc1__step_kernel_eq_skeleton]; unfold cc1__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region1

end Cert.Kernel.H

end
-- ==== Proof.Kernel.R1.RunC.lean ====
/-
  At the points with k = 7 (the last product is added, the accumulator copied to the first output, and the second output stored): the body's triple, run once symbolically. The pieces each buffer ends with are read off the run.
-/
import proofs.«163433_j78743930404901_1_alg».proof.Proof.Kernel.R1.RunB

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

set_option maxHeartbeats 1000000 in
/-- The accumulator enters at `xs0`; the two outputs enter at anything and leave with the pieces `L4`, `L5` written. -/
noncomputable def kernelRun1_C (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i)
    (x0 : Vec F S1024x1024 .f32) (x1 : Vec F S1024x16 .f32) (x2 : Vec F S16x16 .f32) (x3 : Vec F S1024x16 .f32) (xs0 : Vec F S1024x16 .f32) :
    Σ' (L4 : List (View.Piece (Elt F) S1024x16 .f32)) (L5 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__step_kernel i arg2 harg2 arg3 harg3 arg4 harg4 arg5 harg5 arg6 harg6 arg7 harg7 arg8 harg8) K } := by
  refine ⟨?_, ?_, ?_, fun E K => ?run⟩
  case run =>
    simp only [cc1__step_kernel_eq_skeleton]; unfold cc1__step_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Region1

end Cert.Kernel.H

end
-- ==== Proof.Kernel.R1.Data.lean ====
/-
  What each control case of the region leaves in the accumulator and the outputs, those contents after each grid point
  by recursion on the point, the region's invariant (the accumulator carried from point to point), its proof data and
  the body's obligation at every point.
-/
import proofs.«163433_j78743930404901_1_alg».proof.Proof.Kernel.R1.RunC

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What each case leaves -/

/-- The accumulator after a point with `k = 0`: the case's pieces read back. -/
def sout1_A (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond1_0 i) (hc1 : ¬cond1_1 i) (x0 : Vec F S1024x1024 .f32) (x1 : Vec F S1024x16 .f32) (x2 : Vec F S16x16 .f32) (x3 : Vec F S1024x16 .f32) : Vec F S1024x16 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).1)
/-- Its pieces cover the buffer. -/
theorem scover1_A (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond1_0 i) (hc1 : ¬cond1_1 i) (x0 : Vec F S1024x1024 .f32) (x1 : Vec F S1024x16 .f32) (x2 : Vec F S16x16 .f32) (x3 : Vec F S1024x16 .f32) (y : S1024x16.Idx) :
    ∃ pc ∈ (kernelRun1_A c i arg2 harg2 arg3 harg3 arg4 harg4 arg5 harg5 arg6 harg6 arg7 harg7 arg8 harg8 hc0 hc1 x0 x1 x2 x3).1, y ∈ pc.1.set :=
  View.cover_of_tiledL (kernelRun1_A c i arg2 harg2 arg3 harg3 arg4 harg4 arg5 harg5 arg6 harg6 arg7 harg7 arg8 harg8 hc0 hc1 x0 x1 x2 x3).1 S1024x16.size (by sl_kernel_rfl) y

/-- The accumulator after a point with `0 < k < 7`, entered at `xs0`. -/
def sout1_B (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : ¬cond1_1 i) (x0 : Vec F S1024x1024 .f32) (x1 : Vec F S1024x16 .f32) (x2 : Vec F S16x16 .f32) (x3 : Vec F S1024x16 .f32) (xs0 : Vec F S1024x16 .f32) : Vec F S1024x16 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0).1)
theorem scover1_B (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : ¬cond1_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun1_B c i arg2 harg2 arg3 harg3 arg4 harg4 arg5 harg5 arg6 harg6 arg7 harg7 arg8 harg8 hc0 hc1 x0 x1 x2 x3 xs0).1, y ∈ pc.1.set :=
  View.cover_of_tiledL (kernelRun1_B c i arg2 harg2 arg3 harg3 arg4 harg4 arg5 harg5 arg6 harg6 arg7 harg7 arg8 harg8 hc0 hc1 x0 x1 x2 x3 xs0).1 S1024x16.size (by sl_kernel_rfl) y

/-- After a point with `k = 7`, entered at `xs0`: the first output, the second output, the accumulator. -/
def out1_C_4 (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i) (x0 : Vec F S1024x1024 .f32) (x1 : Vec F S1024x16 .f32) (x2 : Vec F S16x16 .f32) (x3 : Vec F S1024x16 .f32) (xs0 : Vec F S1024x16 .f32) : Vec F S1024x16 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0).1)
theorem cover1_C_4 (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun1_C c i arg2 harg2 arg3 harg3 arg4 harg4 arg5 harg5 arg6 harg6 arg7 harg7 arg8 harg8 hc0 hc1 x0 x1 x2 x3 xs0).1, y ∈ pc.1.set :=
  View.cover_of_tiledL (kernelRun1_C c i arg2 harg2 arg3 harg3 arg4 harg4 arg5 harg5 arg6 harg6 arg7 harg7 arg8 harg8 hc0 hc1 x0 x1 x2 x3 xs0).1 S1024x16.size (by sl_kernel_rfl) y
def out1_C_5 (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i) (x0 : Vec F S1024x1024 .f32) (x1 : Vec F S1024x16 .f32) (x2 : Vec F S16x16 .f32) (x3 : Vec F S1024x16 .f32) (xs0 : Vec F S1024x16 .f32) : Vec F S1024x16 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 xs0).2.1)
theorem cover1_C_5 (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun1_C c i arg2 harg2 arg3 harg3 arg4 harg4 arg5 harg5 arg6 harg6 arg7 harg7 arg8 harg8 hc0 hc1 x0 x1 x2 x3 xs0).2.1, y ∈ pc.1.set :=
  View.cover_of_tiledL (kernelRun1_C c i arg2 harg2 arg3 harg3 arg4 harg4 arg5 harg5 arg6 harg6 arg7 harg7 arg8 harg8 hc0 hc1 x0 x1 x2 x3 xs0).2.1 S1024x16.size (by sl_kernel_rfl) y
def sout1_C (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i) (x0 : Vec F S1024x1024 .f32) (x1 : Vec F S1024x16 .f32) (x2 : Vec F S16x16 .f32) (x3 : Vec F S1024x16 .f32) (xs0 : Vec F S1024x16 .f32) : Vec F S1024x16 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0).2.2.1)
theorem scover1_C (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun1_C c i arg2 harg2 arg3 harg3 arg4 harg4 arg5 harg5 arg6 harg6 arg7 harg7 arg8 harg8 hc0 hc1 x0 x1 x2 x3 xs0).2.2.1, y ∈ pc.1.set :=
  View.cover_of_tiledL (kernelRun1_C c i arg2 harg2 arg3 harg3 arg4 harg4 arg5 harg5 arg6 harg6 arg7 harg7 arg8 harg8 hc0 hc1 x0 x1 x2 x3 xs0).2.2.1 S1024x16.size (by sl_kernel_rfl) y

/-- What stands for an output's staging buffer at a point that stores nothing into it: nothing reads it there. -/
def idleOut1 : Vec F S1024x16 .f32 := VO1_4.read (Elt F) VO1_4.junk

/-! ## The same at a grid point, on the point's memrefs and blocks -/

def soutAt1_A (c : Dev nD) (t : Fin cfg1.N) (h0 : t.val % 8 = 0) (h1 : ¬t.val % 8 = 7) : Vec F S1024x16 .f32 :=
  sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t)
def soutAt1_B (c : Dev nD) (t : Fin cfg1.N) (h0 : ¬t.val % 8 = 0) (h1 : ¬t.val % 8 = 7) (xs0 : Vec F S1024x16 .f32) : Vec F S1024x16 .f32 :=
  sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) xs0
def out4At1_C (c : Dev nD) (t : Fin cfg1.N) (h0 : ¬t.val % 8 = 0) (h1 : t.val % 8 = 7) (xs0 : Vec F S1024x16 .f32) : Vec F S1024x16 .f32 :=
  out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) xs0
def out5At1_C (c : Dev nD) (t : Fin cfg1.N) (h0 : ¬t.val % 8 = 0) (h1 : t.val % 8 = 7) (xs0 : Vec F S1024x16 .f32) : Vec F S1024x16 .f32 :=
  out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) xs0
def soutAt1_C (c : Dev nD) (t : Fin cfg1.N) (h0 : ¬t.val % 8 = 0) (h1 : t.val % 8 = 7) (xs0 : Vec F S1024x16 .f32) : Vec F S1024x16 .f32 :=
  sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) xs0

/-! ## The contents after each point -/

/-- After point `n`: the first output's staging buffer, the second's, the accumulator. The accumulator of a
    point with `k > 0` is computed from what the point before left in it. -/
def outsAt1 (c : Dev nD) : (n : ℕ) → n < cfg1.N → Vec F S1024x16 .f32 × Vec F S1024x16 .f32 × Vec F S1024x16 .f32
  | 0, hn => (idleOut1, idleOut1, soutAt1_A V c ⟨0, hn⟩ (Nat.zero_mod _) (by simp))
  | n + 1, hn =>
    if h0 : (n + 1) % 8 = 0 then
      (idleOut1, idleOut1, soutAt1_A V c ⟨n + 1, hn⟩ h0 (by dsimp only; omega))
    else
      if h1 : (n + 1) % 8 = 7 then
        (out4At1_C V c ⟨n + 1, hn⟩ h0 h1 (outsAt1 c n (Nat.lt_of_succ_lt hn)).2.2,
         out5At1_C V c ⟨n + 1, hn⟩ h0 h1 (outsAt1 c n (Nat.lt_of_succ_lt hn)).2.2,
         soutAt1_C V c ⟨n + 1, hn⟩ h0 h1 (outsAt1 c n (Nat.lt_of_succ_lt hn)).2.2)
      else
        (idleOut1, idleOut1, soutAt1_B V c ⟨n + 1, hn⟩ h0 h1 (outsAt1 c n (Nat.lt_of_succ_lt hn)).2.2)

theorem outsAt1_A (c : Dev nD) (t : Fin cfg1.N) (h0 : t.val % 8 = 0) (h1 : ¬t.val % 8 = 7) :
    outsAt1 V c t.val t.isLt = (idleOut1, idleOut1, soutAt1_A V c t h0 h1) := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = (idleOut1, idleOut1, soutAt1_B V c t h0 h1 (outsAt1 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt
      = (out4At1_C V c t h0 h1 (outsAt1 V c (t.val - 1) (Nat.lt_of_le_of_lt (Nat.sub_le _ _) t.isLt)).2.2,
         out5At1_C V c t h0 h1 (outsAt1 V c (t.val - 1) (Nat.lt_of_le_of_lt (Nat.sub_le _ _) t.isLt)).2.2,
         soutAt1_C V c t h0 h1 (outsAt1 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The invariant: the accumulator carried between points -/

/-- The scoped buffers of the other calls, which this region never opens. -/
abbrev others1 (c : Dev nD) : sProp 𝕄 :=
  Pipeline.scopedRestBut (Ix := Unit) (Name := ℕ) (U := UR sig nD τ) (Lvl := ℕ) (Val := Elt F) spec1 c [cc1_scratch0]

/-- Before point `n`: at the first point what the region was handed; afterwards the accumulator at what the
    point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ others1 c) ∗ (∃ r, prngReg c r)) := by
  cases n with
  | zero => exact absurd rfl hz
  | succ n => rfl

/-! ## The region's proof data -/

/-- The arrays as the region finds them; after the body at point `t` each input's buffer at its block and the
    outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]

set_option maxHeartbeats 4800000 in
/-- The body at any point. The point's residue mod 8 says which case it is in; the invariant hands the body the
    accumulator (at anything before the first point, else at what the point before left) and takes it back at
    this point's contents; an idle output is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 64 := lt_of_lt_of_eq t.isLt (show cfg1.N = 64 from N_1)
  by_cases h0 : t.val % 8 = 0
  · have h1 : ¬t.val % 8 = 7 := by omega
    have hnc1 : ¬cond1_1 (grid1.coords t) := fun h => h1 ((hcond1_1 t).mp h)
    rw [Dat.leavesExact_idle (dat1 V c) 4 t (idleAt1_4 t hnc1) (noFlush1_4 t hnc1),
      Dat.leavesExact_idle (dat1 V c) 5 t (idleAt1_5 t hnc1) (noFlush1_5 t hnc1)]
    rw [outsAt1_A V c t h0 h1]
    unfold soutAt1_A sout1_A; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) hnc1 (iblk1 V c 0 t) (iblk1 V c 1 t) (iblk1 V c 2 t) (iblk1 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) hnc1 (iblk1 V c 0 t) (iblk1 V c 1 t) (iblk1 V c 2 t) (iblk1 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hnc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [show (dat1 V c).leavesExact 5 t = owns (c : Thread nD τ) (ms1_5 t) fullShare ((dat1 V c).after 5 t) from by
        unfold Dat.leavesExact; rw [liveAt1_5 t hc1], after1_5]
      rw [outsAt1_C V c t h0 h1]
      unfold out4At1_C out5At1_C soutAt1_C out1_C_4 out1_C_5 sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ hnc0 hc1 (iblk1 V c 0 t) (iblk1 V c 1 t) (iblk1 V c 2 t) (iblk1 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _)
    · have hnc1 : ¬cond1_1 (grid1.coords t) := fun h => h1 ((hcond1_1 t).mp h)
      rw [Dat.leavesExact_idle (dat1 V c) 4 t (idleAt1_4 t hnc1) (noFlush1_4 t hnc1),
        Dat.leavesExact_idle (dat1 V c) 5 t (idleAt1_5 t hnc1) (noFlush1_5 t hnc1)]
      rw [outsAt1_B V c t h0 h1]
      unfold soutAt1_B sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ hnc0 hnc1 (iblk1 V c 0 t) (iblk1 V c 1 t) (iblk1 V c 2 t) (iblk1 V c 3 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The obligation at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

end Region1

end Cert.Kernel.H

end
-- ==== Proof.Kernel.R2.Runs.lean ====
/-
  One kernel region of @main (a propagation step xp' = L·xp with the hop's contribution added, acc' = acc + relu(xp'·W)):
  what its three control cases share. The grid is 8 × 8 points (row tile i, contraction tile k), point t = 8·i + k. The
  body resets its scratch accumulator where k = 0, adds the product of the point's two tiles to it at every point, and
  where k = 7 copies the accumulator out and stores the second output. Stated at any float type and at any contents
  `V` of the core's buffers when the region is entered.
-/
import proofs.«163433_j78743930404901_1_alg».proof.Proof.Gen.Kernel.Launch
import proofs.«163433_j78743930404901_1_alg».proof.Proof.Gen.Kernel.Skeleton
import proofs.«163433_j78743930404901_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the point's block whether or not the point fetched it: a point
    that does not fetch has the block index of the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, decided over the grid -/

/-- `k = 0`, as the body computes it. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- `k = 7`, as the body computes it. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where `k ≠ 7` the body stores nothing into the two outputs and their blocks are not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_4 : ∀ t : Fin cfg2.N, cond2_1 (grid2.coords t) → cfg2.idle 4 (grid2.coords t) = false := by decide +kernel
theorem liveAt2_5 : ∀ t : Fin cfg2.N, cond2_1 (grid2.coords t) → cfg2.idle 5 (grid2.coords t) = false := by decide +kernel

/-! ## The memrefs the body is called with -/

abbrev VO2_4 : View sig .tc .vmem S1024x16 .f32 := (Memref.whole cc2_stg4_0 : Memref sig .tc .vmem S1024x16 .f32).view
abbrev VO2_5 : View sig .tc .vmem S1024x16 .f32 := (Memref.whole cc2_stg5_0 : Memref sig .tc .vmem S1024x16 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x16 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S16x16 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x16 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x16 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x16 .f32 := win2_5.stage (cfg2.slots t 5)
abbrev hs2_5 (t : Fin cfg2.N) : (ms2_5 t).IsWhole := hstage2_5 ((cfg2.slots t 5).cast nbuf2_5)
/-- The accumulator: a whole scoped buffer of the kernel's own, carried from point to point. -/
abbrev scM2_0 : Memref sig .tc .vmem S1024x16 .f32 := Memref.whole cc2_scratch0
abbrev VS2_0 : View sig .tc .vmem S1024x16 .f32 := scM2_0.view

/-- What the region hands the body beside the windows: the accumulator at some contents, every other scoped
    buffer no window stages, and the generator register. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Region2

end Cert.Kernel.H

end
-- ==== Proof.Kernel.R2.RunA.lean ====
/-
  At the points with k = 0 (the accumulator is reset, then the point's product added; the outputs are left alone): the body's triple, run once symbolically. The pieces each buffer ends with are read off the run.
-/
import proofs.«163433_j78743930404901_1_alg».proof.Proof.Kernel.R2.Runs

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

set_option maxHeartbeats 1000000 in
/-- On whole memrefs — the four inputs at their contents, the two outputs at contents handed back untouched, the
    accumulator at anything — the body runs to its end holding the inputs and outputs as they were and the
    accumulator with the pieces `LS0` written. -/
noncomputable def kernelRun2_A (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i)
    (x0 : Vec F S1024x1024 .f32) (x1 : Vec F S1024x16 .f32) (x2 : Vec F S16x16 .f32) (x3 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__step_kernel i arg2 harg2 arg3 harg3 arg4 harg4 arg5 harg5 arg6 harg6 arg7 harg7 arg8 harg8) K } := by
  refine ⟨?_, fun xi4 xi5 E K => ?run⟩
  case run =>
    simp only [cc2__step_kernel_eq_skeleton]; unfold cc2__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region2

end Cert.Kernel.H

end
-- ==== Proof.Kernel.R2.RunB.lean ====
/-
  At the points with 0 < k < 7 (the point's product is added to the accumulator; the outputs are left alone): the body's triple, run once symbolically. The pieces each buffer ends with are read off the run.
-/
import proofs.«163433_j78743930404901_1_alg».proof.Proof.Kernel.R2.RunA

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

set_option maxHeartbeats 1000000 in
/-- As at `k = 0`, but the accumulator enters at the contents `xs0` the point before left. -/
noncomputable def kernelRun2_B (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i)
    (x0 : Vec F S1024x1024 .f32) (x1 : Vec F S1024x16 .f32) (x2 : Vec F S16x16 .f32) (x3 : Vec F S1024x16 .f32) (xs0 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__step_kernel i arg2 harg2 arg3 harg3 arg4 harg4 arg5 harg5 arg6 harg6 arg7 harg7 arg8 harg8) K } := by
  refine ⟨?_, fun xi4 xi5 E K => ?run⟩
  case run =>
    simp only [cc2__step_kernel_eq_skeleton]; unfold cc2__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region2

end Cert.Kernel.H

end
-- ==== Proof.Kernel.R2.RunC.lean ====
/-
  At the points with k = 7 (the last product is added, the accumulator copied to the first output, and the second output stored): the body's triple, run once symbolically. The pieces each buffer ends with are read off the run.
-/
import proofs.«163433_j78743930404901_1_alg».proof.Proof.Kernel.R2.RunB

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

set_option maxHeartbeats 1000000 in
/-- The accumulator enters at `xs0`; the two outputs enter at anything and leave with the pieces `L4`, `L5` written. -/
noncomputable def kernelRun2_C (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x1024 .f32) (x1 : Vec F S1024x16 .f32) (x2 : Vec F S16x16 .f32) (x3 : Vec F S1024x16 .f32) (xs0 : Vec F S1024x16 .f32) :
    Σ' (L4 : List (View.Piece (Elt F) S1024x16 .f32)) (L5 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2__step_kernel i arg2 harg2 arg3 harg3 arg4 harg4 arg5 harg5 arg6 harg6 arg7 harg7 arg8 harg8) K } := by
  refine ⟨?_, ?_, ?_, fun E K => ?run⟩
  case run =>
    simp only [cc2__step_kernel_eq_skeleton]; unfold cc2__step_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Region2

end Cert.Kernel.H

end
-- ==== Proof.Kernel.R2.Data.lean ====
/-
  What each control case of the region leaves in the accumulator and the outputs, those contents after each grid point
  by recursion on the point, the region's invariant (the accumulator carried from point to point), its proof data and
  the body's obligation at every point.
-/
import proofs.«163433_j78743930404901_1_alg».proof.Proof.Kernel.R2.RunC

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-! ## What each case leaves -/

/-- The accumulator after a point with `k = 0`: the case's pieces read back. -/
def sout2_A (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i) (x0 : Vec F S1024x1024 .f32) (x1 : Vec F S1024x16 .f32) (x2 : Vec F S16x16 .f32) (x3 : Vec F S1024x16 .f32) : Vec F S1024x16 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2 x3).1)
/-- Its pieces cover the buffer. -/
theorem scover2_A (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i) (x0 : Vec F S1024x1024 .f32) (x1 : Vec F S1024x16 .f32) (x2 : Vec F S16x16 .f32) (x3 : Vec F S1024x16 .f32) (y : S1024x16.Idx) :
    ∃ pc ∈ (kernelRun2_A c i arg2 harg2 arg3 harg3 arg4 harg4 arg5 harg5 arg6 harg6 arg7 harg7 arg8 harg8 hc0 hc1 x0 x1 x2 x3).1, y ∈ pc.1.set :=
  View.cover_of_tiledL (kernelRun2_A c i arg2 harg2 arg3 harg3 arg4 harg4 arg5 harg5 arg6 harg6 arg7 harg7 arg8 harg8 hc0 hc1 x0 x1 x2 x3).1 S1024x16.size (by sl_kernel_rfl) y

/-- The accumulator after a point with `0 < k < 7`, entered at `xs0`. -/
def sout2_B (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i) (x0 : Vec F S1024x1024 .f32) (x1 : Vec F S1024x16 .f32) (x2 : Vec F S16x16 .f32) (x3 : Vec F S1024x16 .f32) (xs0 : Vec F S1024x16 .f32) : Vec F S1024x16 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 x3 xs0).1)
theorem scover2_B (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun2_B c i arg2 harg2 arg3 harg3 arg4 harg4 arg5 harg5 arg6 harg6 arg7 harg7 arg8 harg8 hc0 hc1 x0 x1 x2 x3 xs0).1, y ∈ pc.1.set :=
  View.cover_of_tiledL (kernelRun2_B c i arg2 harg2 arg3 harg3 arg4 harg4 arg5 harg5 arg6 harg6 arg7 harg7 arg8 harg8 hc0 hc1 x0 x1 x2 x3 xs0).1 S1024x16.size (by sl_kernel_rfl) y

/-- After a point with `k = 7`, entered at `xs0`: the first output, the second output, the accumulator. -/
def out2_C_4 (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i) (x0 : Vec F S1024x1024 .f32) (x1 : Vec F S1024x16 .f32) (x2 : Vec F S16x16 .f32) (x3 : Vec F S1024x16 .f32) (xs0 : Vec F S1024x16 .f32) : Vec F S1024x16 .f32 :=
  VO2_4.read (Elt F) (VO2_4.writes (Elt F) VO2_4.junk (kernelRun2_C c i arg2 harg2 arg3 harg3 arg4 harg4 arg5 harg5 arg6 harg6 arg7 harg7 arg8 harg8 hc0 hc1 x0 x1 x2 x3 xs0).1)
theorem cover2_C_4 (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun2_C c i arg2 harg2 arg3 harg3 arg4 harg4 arg5 harg5 arg6 harg6 arg7 harg7 arg8 harg8 hc0 hc1 x0 x1 x2 x3 xs0).1, y ∈ pc.1.set :=
  View.cover_of_tiledL (kernelRun2_C c i arg2 harg2 arg3 harg3 arg4 harg4 arg5 harg5 arg6 harg6 arg7 harg7 arg8 harg8 hc0 hc1 x0 x1 x2 x3 xs0).1 S1024x16.size (by sl_kernel_rfl) y
def out2_C_5 (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i) (x0 : Vec F S1024x1024 .f32) (x1 : Vec F S1024x16 .f32) (x2 : Vec F S16x16 .f32) (x3 : Vec F S1024x16 .f32) (xs0 : Vec F S1024x16 .f32) : Vec F S1024x16 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 xs0).2.1)
theorem cover2_C_5 (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun2_C c i arg2 harg2 arg3 harg3 arg4 harg4 arg5 harg5 arg6 harg6 arg7 harg7 arg8 harg8 hc0 hc1 x0 x1 x2 x3 xs0).2.1, y ∈ pc.1.set :=
  View.cover_of_tiledL (kernelRun2_C c i arg2 harg2 arg3 harg3 arg4 harg4 arg5 harg5 arg6 harg6 arg7 harg7 arg8 harg8 hc0 hc1 x0 x1 x2 x3 xs0).2.1 S1024x16.size (by sl_kernel_rfl) y
def sout2_C (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i) (x0 : Vec F S1024x1024 .f32) (x1 : Vec F S1024x16 .f32) (x2 : Vec F S16x16 .f32) (x3 : Vec F S1024x16 .f32) (xs0 : Vec F S1024x16 .f32) : Vec F S1024x16 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 x3 xs0).2.2.1)
theorem scover2_C (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun2_C c i arg2 harg2 arg3 harg3 arg4 harg4 arg5 harg5 arg6 harg6 arg7 harg7 arg8 harg8 hc0 hc1 x0 x1 x2 x3 xs0).2.2.1, y ∈ pc.1.set :=
  View.cover_of_tiledL (kernelRun2_C c i arg2 harg2 arg3 harg3 arg4 harg4 arg5 harg5 arg6 harg6 arg7 harg7 arg8 harg8 hc0 hc1 x0 x1 x2 x3 xs0).2.2.1 S1024x16.size (by sl_kernel_rfl) y

/-- What stands for an output's staging buffer at a point that stores nothing into it: nothing reads it there. -/
def idleOut2 : Vec F S1024x16 .f32 := VO2_4.read (Elt F) VO2_4.junk

/-! ## The same at a grid point, on the point's memrefs and blocks -/

def soutAt2_A (c : Dev nD) (t : Fin cfg2.N) (h0 : t.val % 8 = 0) (h1 : ¬t.val % 8 = 7) : Vec F S1024x16 .f32 :=
  sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t)
def soutAt2_B (c : Dev nD) (t : Fin cfg2.N) (h0 : ¬t.val % 8 = 0) (h1 : ¬t.val % 8 = 7) (xs0 : Vec F S1024x16 .f32) : Vec F S1024x16 .f32 :=
  sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) xs0
def out4At2_C (c : Dev nD) (t : Fin cfg2.N) (h0 : ¬t.val % 8 = 0) (h1 : t.val % 8 = 7) (xs0 : Vec F S1024x16 .f32) : Vec F S1024x16 .f32 :=
  out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) xs0
def out5At2_C (c : Dev nD) (t : Fin cfg2.N) (h0 : ¬t.val % 8 = 0) (h1 : t.val % 8 = 7) (xs0 : Vec F S1024x16 .f32) : Vec F S1024x16 .f32 :=
  out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) xs0
def soutAt2_C (c : Dev nD) (t : Fin cfg2.N) (h0 : ¬t.val % 8 = 0) (h1 : t.val % 8 = 7) (xs0 : Vec F S1024x16 .f32) : Vec F S1024x16 .f32 :=
  sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) xs0

/-! ## The contents after each point -/

/-- After point `n`: the first output's staging buffer, the second's, the accumulator. The accumulator of a
    point with `k > 0` is computed from what the point before left in it. -/
def outsAt2 (c : Dev nD) : (n : ℕ) → n < cfg2.N → Vec F S1024x16 .f32 × Vec F S1024x16 .f32 × Vec F S1024x16 .f32
  | 0, hn => (idleOut2, idleOut2, soutAt2_A V c ⟨0, hn⟩ (Nat.zero_mod _) (by simp))
  | n + 1, hn =>
    if h0 : (n + 1) % 8 = 0 then
      (idleOut2, idleOut2, soutAt2_A V c ⟨n + 1, hn⟩ h0 (by dsimp only; omega))
    else
      if h1 : (n + 1) % 8 = 7 then
        (out4At2_C V c ⟨n + 1, hn⟩ h0 h1 (outsAt2 c n (Nat.lt_of_succ_lt hn)).2.2,
         out5At2_C V c ⟨n + 1, hn⟩ h0 h1 (outsAt2 c n (Nat.lt_of_succ_lt hn)).2.2,
         soutAt2_C V c ⟨n + 1, hn⟩ h0 h1 (outsAt2 c n (Nat.lt_of_succ_lt hn)).2.2)
      else
        (idleOut2, idleOut2, soutAt2_B V c ⟨n + 1, hn⟩ h0 h1 (outsAt2 c n (Nat.lt_of_succ_lt hn)).2.2)

theorem outsAt2_A (c : Dev nD) (t : Fin cfg2.N) (h0 : t.val % 8 = 0) (h1 : ¬t.val % 8 = 7) :
    outsAt2 V c t.val t.isLt = (idleOut2, idleOut2, soutAt2_A V c t h0 h1) := by
  obtain ⟨n, hn⟩ := t
  cases n with
  | zero => rfl
  | succ n => exact (dif_pos h0).trans rfl

theorem outsAt2_B (c : Dev nD) (t : Fin cfg2.N) (h0 : ¬t.val % 8 = 0) (h1 : ¬t.val % 8 = 7) :
    outsAt2 V c t.val t.isLt = (idleOut2, idleOut2, soutAt2_B V c t h0 h1 (outsAt2 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 8 = 0) (h1 : t.val % 8 = 7) :
    outsAt2 V c t.val t.isLt
      = (out4At2_C V c t h0 h1 (outsAt2 V c (t.val - 1) (Nat.lt_of_le_of_lt (Nat.sub_le _ _) t.isLt)).2.2,
         out5At2_C V c t h0 h1 (outsAt2 V c (t.val - 1) (Nat.lt_of_le_of_lt (Nat.sub_le _ _) t.isLt)).2.2,
         soutAt2_C V c t h0 h1 (outsAt2 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The invariant: the accumulator carried between points -/

/-- The scoped buffers of the other calls, which this region never opens. -/
abbrev others2 (c : Dev nD) : sProp 𝕄 :=
  Pipeline.scopedRestBut (Ix := Unit) (Name := ℕ) (U := UR sig nD τ) (Lvl := ℕ) (Val := Elt F) spec2 c [cc2_scratch0]

/-- Before point `n`: at the first point what the region was handed; afterwards the accumulator at what the
    point before left in it. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2.2) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ others2 c) ∗ (∃ r, prngReg c r)) := by
  cases n with
  | zero => exact absurd rfl hz
  | succ n => rfl

/-! ## The region's proof data -/

/-- The arrays as the region finds them; after the body at point `t` each input's buffer at its block and the
    outputs' at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]

set_option maxHeartbeats 4800000 in
/-- The body at any point. The point's residue mod 8 says which case it is in; the invariant hands the body the
    accumulator (at anything before the first point, else at what the point before left) and takes it back at
    this point's contents; an idle output is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  have hN : t.val < 64 := lt_of_lt_of_eq t.isLt (show cfg2.N = 64 from N_2)
  by_cases h0 : t.val % 8 = 0
  · have h1 : ¬t.val % 8 = 7 := by omega
    have hnc1 : ¬cond2_1 (grid2.coords t) := fun h => h1 ((hcond2_1 t).mp h)
    rw [Dat.leavesExact_idle (dat2 V c) 4 t (idleAt2_4 t hnc1) (noFlush2_4 t hnc1),
      Dat.leavesExact_idle (dat2 V c) 5 t (idleAt2_5 t hnc1) (noFlush2_5 t hnc1)]
    rw [outsAt2_A V c t h0 h1]
    unfold soutAt2_A sout2_A; (try dsimp only)
    by_cases hz : t.val = 0
    · rw [PhiS2_castSucc V c t, PhiS2_zero V c _ _ hz, PhiA2_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) hnc1 (iblk2 V c 0 t) (iblk2 V c 1 t) (iblk2 V c 2 t) (iblk2 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) hnc1 (iblk2 V c 0 t) (iblk2 V c 1 t) (iblk2 V c 2 t) (iblk2 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hnc0 : ¬cond2_0 (grid2.coords t) := fun h => h0 ((hcond2_0 t).mp h)
    by_cases h1 : t.val % 8 = 7
    · have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4]
      rw [show (dat2 V c).leavesExact 5 t = owns (c : Thread nD τ) (ms2_5 t) fullShare ((dat2 V c).after 5 t) from by
        unfold Dat.leavesExact; rw [liveAt2_5 t hc1], after2_5]
      rw [outsAt2_C V c t h0 h1]
      unfold out4At2_C out5At2_C soutAt2_C out2_C_4 out2_C_5 sout2_C; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ hnc0 hc1 (iblk2 V c 0 t) (iblk2 V c 1 t) (iblk2 V c 2 t) (iblk2 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_C c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_C_4 c _ _ _ _ _ _ _ _ _ _ _ _ _ _ _ _ _ _ _ _ _ _)
      unfold owns; iexists _; isplitr
      swap; · iexact H5
      ipureintro; exact View.read_writes_of_cover _ _ _ _ _ (cover2_C_5 c _ _ _ _ _ _ _ _ _ _ _ _ _ _ _ _ _ _ _ _ _ _)
    · have hnc1 : ¬cond2_1 (grid2.coords t) := fun h => h1 ((hcond2_1 t).mp h)
      rw [Dat.leavesExact_idle (dat2 V c) 4 t (idleAt2_4 t hnc1) (noFlush2_4 t hnc1),
        Dat.leavesExact_idle (dat2 V c) 5 t (idleAt2_5 t hnc1) (noFlush2_5 t hnc1)]
      rw [outsAt2_B V c t h0 h1]
      unfold soutAt2_B sout2_B; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ hnc0 hnc1 (iblk2 V c 0 t) (iblk2 V c 1 t) (iblk2 V c 2 t) (iblk2 V c 3 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_B c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The obligation at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back, the accumulator's contents forgotten. -/
theorem hout2 (c : Dev nD) : (dat2 V c).Φ (Fin.last cfg2.N) ⊢ Pipeline.ΦA spec2 c := by
  have ht : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hoth⟩, Hg⟩
  isplitl [HS0 Hoth]
  · isplitl [HS0]
    · iexists _; iexact HS0
    iexact Hoth
  iexact Hg

end Region2

end Cert.Kernel.H

end
-- ==== Proof.Kernel.R3.Runs.lean ====
/-
  One kernel region of @main (a propagation step xp' = L·xp with the hop's contribution added, acc' = acc + relu(xp'·W)):
  what its three control cases share. The grid is 8 × 8 points (row tile i, contraction tile k), point t = 8·i + k. The
  body resets its scratch accumulator where k = 0, adds the product of the point's two tiles to it at every point, and
  where k = 7 copies the accumulator out and stores the second output. Stated at any float type and at any contents
  `V` of the core's buffers when the region is entered.
-/
import proofs.«163433_j78743930404901_1_alg».proof.Proof.Gen.Kernel.Launch
import proofs.«163433_j78743930404901_1_alg».proof.Proof.Gen.Kernel.Skeleton
import proofs.«163433_j78743930404901_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the point's block whether or not the point fetched it: a point
    that does not fetch has the block index of the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The two branch conditions, decided over the grid -/

/-- `k = 0`, as the body computes it. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- `k = 7`, as the body computes it. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Where `k ≠ 7` the body stores nothing into the two outputs and their blocks are not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
theorem liveAt3_4 : ∀ t : Fin cfg3.N, cond3_1 (grid3.coords t) → cfg3.idle 4 (grid3.coords t) = false := by decide +kernel
theorem liveAt3_5 : ∀ t : Fin cfg3.N, cond3_1 (grid3.coords t) → cfg3.idle 5 (grid3.coords t) = false := by decide +kernel

/-! ## The memrefs the body is called with -/

abbrev VO3_4 : View sig .tc .vmem S1024x16 .f32 := (Memref.whole cc3_stg4_0 : Memref sig .tc .vmem S1024x16 .f32).view
abbrev VO3_5 : View sig .tc .vmem S1024x16 .f32 := (Memref.whole cc3_stg5_0 : Memref sig .tc .vmem S1024x16 .f32).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x16 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S16x16 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x16 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x16 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x16 .f32 := win3_5.stage (cfg3.slots t 5)
abbrev hs3_5 (t : Fin cfg3.N) : (ms3_5 t).IsWhole := hstage3_5 ((cfg3.slots t 5).cast nbuf3_5)
/-- The accumulator: a whole scoped buffer of the kernel's own, carried from point to point. -/
abbrev scM3_0 : Memref sig .tc .vmem S1024x16 .f32 := Memref.whole cc3_scratch0
abbrev VS3_0 : View sig .tc .vmem S1024x16 .f32 := scM3_0.view

/-- What the region hands the body beside the windows: the accumulator at some contents, every other scoped
    buffer no window stages, and the generator register. -/
theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Region3

end Cert.Kernel.H

end
-- ==== Proof.Kernel.R3.RunA.lean ====
/-
  At the points with k = 0 (the accumulator is reset, then the point's product added; the outputs are left alone): the body's triple, run once symbolically. The pieces each buffer ends with are read off the run.
-/
import proofs.«163433_j78743930404901_1_alg».proof.Proof.Kernel.R3.Runs

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

set_option maxHeartbeats 1000000 in
/-- On whole memrefs — the four inputs at their contents, the two outputs at contents handed back untouched, the
    accumulator at anything — the body runs to its end holding the inputs and outputs as they were and the
    accumulator with the pieces `LS0` written. -/
noncomputable def kernelRun3_A (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond3_0 i) (hc1 : ¬cond3_1 i)
    (x0 : Vec F S1024x1024 .f32) (x1 : Vec F S1024x16 .f32) (x2 : Vec F S16x16 .f32) (x3 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc3__step_kernel i arg2 harg2 arg3 harg3 arg4 harg4 arg5 harg5 arg6 harg6 arg7 harg7 arg8 harg8) K } := by
  refine ⟨?_, fun xi4 xi5 E K => ?run⟩
  case run =>
    simp only [cc3__step_kernel_eq_skeleton]; unfold cc3__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region3

end Cert.Kernel.H

end
-- ==== Proof.Kernel.R3.RunB.lean ====
/-
  At the points with 0 < k < 7 (the point's product is added to the accumulator; the outputs are left alone): the body's triple, run once symbolically. The pieces each buffer ends with are read off the run.
-/
import proofs.«163433_j78743930404901_1_alg».proof.Proof.Kernel.R3.RunA

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

set_option maxHeartbeats 1000000 in
/-- As at `k = 0`, but the accumulator enters at the contents `xs0` the point before left. -/
noncomputable def kernelRun3_B (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : ¬cond3_1 i)
    (x0 : Vec F S1024x1024 .f32) (x1 : Vec F S1024x16 .f32) (x2 : Vec F S16x16 .f32) (x3 : Vec F S1024x16 .f32) (xs0 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc3__step_kernel i arg2 harg2 arg3 harg3 arg4 harg4 arg5 harg5 arg6 harg6 arg7 harg7 arg8 harg8) K } := by
  refine ⟨?_, fun xi4 xi5 E K => ?run⟩
  case run =>
    simp only [cc3__step_kernel_eq_skeleton]; unfold cc3__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region3

end Cert.Kernel.H

end
-- ==== Proof.Kernel.R3.RunC.lean ====
/-
  At the points with k = 7 (the last product is added, the accumulator copied to the first output, and the second output stored): the body's triple, run once symbolically. The pieces each buffer ends with are read off the run.
-/
import proofs.«163433_j78743930404901_1_alg».proof.Proof.Kernel.R3.RunB

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

set_option maxHeartbeats 1000000 in
/-- The accumulator enters at `xs0`; the two outputs enter at anything and leave with the pieces `L4`, `L5` written. -/
noncomputable def kernelRun3_C (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i)
    (x0 : Vec F S1024x1024 .f32) (x1 : Vec F S1024x16 .f32) (x2 : Vec F S16x16 .f32) (x3 : Vec F S1024x16 .f32) (xs0 : Vec F S1024x16 .f32) :
    Σ' (L4 : List (View.Piece (Elt F) S1024x16 .f32)) (L5 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc3__step_kernel i arg2 harg2 arg3 harg3 arg4 harg4 arg5 harg5 arg6 harg6 arg7 harg7 arg8 harg8) K } := by
  refine ⟨?_, ?_, ?_, fun E K => ?run⟩
  case run =>
    simp only [cc3__step_kernel_eq_skeleton]; unfold cc3__step_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Region3

end Cert.Kernel.H

end
-- ==== Proof.Kernel.R3.Data.lean ====
/-
  What each control case of the region leaves in the accumulator and the outputs, those contents after each grid point
  by recursion on the point, the region's invariant (the accumulator carried from point to point), its proof data and
  the body's obligation at every point.
-/
import proofs.«163433_j78743930404901_1_alg».proof.Proof.Kernel.R3.RunC

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## What each case leaves -/

/-- The accumulator after a point with `k = 0`: the case's pieces read back. -/
def sout3_A (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond3_0 i) (hc1 : ¬cond3_1 i) (x0 : Vec F S1024x1024 .f32) (x1 : Vec F S1024x16 .f32) (x2 : Vec F S16x16 .f32) (x3 : Vec F S1024x16 .f32) : Vec F S1024x16 .f32 :=
  VS3_0.read (Elt F) (VS3_0.writes (Elt F) VS3_0.junk (kernelRun3_A c i arg2 harg2 arg3 harg3 arg4 harg4 arg5 harg5 arg6 harg6 arg7 harg7 arg8 harg8 hc0 hc1 x0 x1 x2 x3).1)
/-- Its pieces cover the buffer. -/
theorem scover3_A (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond3_0 i) (hc1 : ¬cond3_1 i) (x0 : Vec F S1024x1024 .f32) (x1 : Vec F S1024x16 .f32) (x2 : Vec F S16x16 .f32) (x3 : Vec F S1024x16 .f32) (y : S1024x16.Idx) :
    ∃ pc ∈ (kernelRun3_A c i arg2 harg2 arg3 harg3 arg4 harg4 arg5 harg5 arg6 harg6 arg7 harg7 arg8 harg8 hc0 hc1 x0 x1 x2 x3).1, y ∈ pc.1.set :=
  View.cover_of_tiledL (kernelRun3_A c i arg2 harg2 arg3 harg3 arg4 harg4 arg5 harg5 arg6 harg6 arg7 harg7 arg8 harg8 hc0 hc1 x0 x1 x2 x3).1 S1024x16.size (by sl_kernel_rfl) y

/-- The accumulator after a point with `0 < k < 7`, entered at `xs0`. -/
def sout3_B (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : ¬cond3_1 i) (x0 : Vec F S1024x1024 .f32) (x1 : Vec F S1024x16 .f32) (x2 : Vec F S16x16 .f32) (x3 : Vec F S1024x16 .f32) (xs0 : Vec F S1024x16 .f32) : Vec F S1024x16 .f32 :=
  VS3_0.read (Elt F) (VS3_0.writes (Elt F) VS3_0.junk (kernelRun3_B c i arg2 harg2 arg3 harg3 arg4 harg4 arg5 harg5 arg6 harg6 arg7 harg7 arg8 harg8 hc0 hc1 x0 x1 x2 x3 xs0).1)
theorem scover3_B (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : ¬cond3_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun3_B c i arg2 harg2 arg3 harg3 arg4 harg4 arg5 harg5 arg6 harg6 arg7 harg7 arg8 harg8 hc0 hc1 x0 x1 x2 x3 xs0).1, y ∈ pc.1.set :=
  View.cover_of_tiledL (kernelRun3_B c i arg2 harg2 arg3 harg3 arg4 harg4 arg5 harg5 arg6 harg6 arg7 harg7 arg8 harg8 hc0 hc1 x0 x1 x2 x3 xs0).1 S1024x16.size (by sl_kernel_rfl) y

/-- After a point with `k = 7`, entered at `xs0`: the first output, the second output, the accumulator. -/
def out3_C_4 (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i) (x0 : Vec F S1024x1024 .f32) (x1 : Vec F S1024x16 .f32) (x2 : Vec F S16x16 .f32) (x3 : Vec F S1024x16 .f32) (xs0 : Vec F S1024x16 .f32) : Vec F S1024x16 .f32 :=
  VO3_4.read (Elt F) (VO3_4.writes (Elt F) VO3_4.junk (kernelRun3_C c i arg2 harg2 arg3 harg3 arg4 harg4 arg5 harg5 arg6 harg6 arg7 harg7 arg8 harg8 hc0 hc1 x0 x1 x2 x3 xs0).1)
theorem cover3_C_4 (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun3_C c i arg2 harg2 arg3 harg3 arg4 harg4 arg5 harg5 arg6 harg6 arg7 harg7 arg8 harg8 hc0 hc1 x0 x1 x2 x3 xs0).1, y ∈ pc.1.set :=
  View.cover_of_tiledL (kernelRun3_C c i arg2 harg2 arg3 harg3 arg4 harg4 arg5 harg5 arg6 harg6 arg7 harg7 arg8 harg8 hc0 hc1 x0 x1 x2 x3 xs0).1 S1024x16.size (by sl_kernel_rfl) y
def out3_C_5 (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i) (x0 : Vec F S1024x1024 .f32) (x1 : Vec F S1024x16 .f32) (x2 : Vec F S16x16 .f32) (x3 : Vec F S1024x16 .f32) (xs0 : Vec F S1024x16 .f32) : Vec F S1024x16 .f32 :=
  VO3_5.read (Elt F) (VO3_5.writes (Elt F) VO3_5.junk (kernelRun3_C c i arg2 harg2 arg3 harg3 arg4 harg4 arg5 harg5 arg6 harg6 arg7 harg7 arg8 harg8 hc0 hc1 x0 x1 x2 x3 xs0).2.1)
theorem cover3_C_5 (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun3_C c i arg2 harg2 arg3 harg3 arg4 harg4 arg5 harg5 arg6 harg6 arg7 harg7 arg8 harg8 hc0 hc1 x0 x1 x2 x3 xs0).2.1, y ∈ pc.1.set :=
  View.cover_of_tiledL (kernelRun3_C c i arg2 harg2 arg3 harg3 arg4 harg4 arg5 harg5 arg6 harg6 arg7 harg7 arg8 harg8 hc0 hc1 x0 x1 x2 x3 xs0).2.1 S1024x16.size (by sl_kernel_rfl) y
def sout3_C (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i) (x0 : Vec F S1024x1024 .f32) (x1 : Vec F S1024x16 .f32) (x2 : Vec F S16x16 .f32) (x3 : Vec F S1024x16 .f32) (xs0 : Vec F S1024x16 .f32) : Vec F S1024x16 .f32 :=
  VS3_0.read (Elt F) (VS3_0.writes (Elt F) VS3_0.junk (kernelRun3_C c i arg2 harg2 arg3 harg3 arg4 harg4 arg5 harg5 arg6 harg6 arg7 harg7 arg8 harg8 hc0 hc1 x0 x1 x2 x3 xs0).2.2.1)
theorem scover3_C (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun3_C c i arg2 harg2 arg3 harg3 arg4 harg4 arg5 harg5 arg6 harg6 arg7 harg7 arg8 harg8 hc0 hc1 x0 x1 x2 x3 xs0).2.2.1, y ∈ pc.1.set :=
  View.cover_of_tiledL (kernelRun3_C c i arg2 harg2 arg3 harg3 arg4 harg4 arg5 harg5 arg6 harg6 arg7 harg7 arg8 harg8 hc0 hc1 x0 x1 x2 x3 xs0).2.2.1 S1024x16.size (by sl_kernel_rfl) y

/-- What stands for an output's staging buffer at a point that stores nothing into it: nothing reads it there. -/
def idleOut3 : Vec F S1024x16 .f32 := VO3_4.read (Elt F) VO3_4.junk

/-! ## The same at a grid point, on the point's memrefs and blocks -/

def soutAt3_A (c : Dev nD) (t : Fin cfg3.N) (h0 : t.val % 8 = 0) (h1 : ¬t.val % 8 = 7) : Vec F S1024x16 .f32 :=
  sout3_A c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t)
def soutAt3_B (c : Dev nD) (t : Fin cfg3.N) (h0 : ¬t.val % 8 = 0) (h1 : ¬t.val % 8 = 7) (xs0 : Vec F S1024x16 .f32) : Vec F S1024x16 .f32 :=
  sout3_B c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) xs0
def out4At3_C (c : Dev nD) (t : Fin cfg3.N) (h0 : ¬t.val % 8 = 0) (h1 : t.val % 8 = 7) (xs0 : Vec F S1024x16 .f32) : Vec F S1024x16 .f32 :=
  out3_C_4 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) xs0
def out5At3_C (c : Dev nD) (t : Fin cfg3.N) (h0 : ¬t.val % 8 = 0) (h1 : t.val % 8 = 7) (xs0 : Vec F S1024x16 .f32) : Vec F S1024x16 .f32 :=
  out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) xs0
def soutAt3_C (c : Dev nD) (t : Fin cfg3.N) (h0 : ¬t.val % 8 = 0) (h1 : t.val % 8 = 7) (xs0 : Vec F S1024x16 .f32) : Vec F S1024x16 .f32 :=
  sout3_C c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) xs0

/-! ## The contents after each point -/

/-- After point `n`: the first output's staging buffer, the second's, the accumulator. The accumulator of a
    point with `k > 0` is computed from what the point before left in it. -/
def outsAt3 (c : Dev nD) : (n : ℕ) → n < cfg3.N → Vec F S1024x16 .f32 × Vec F S1024x16 .f32 × Vec F S1024x16 .f32
  | 0, hn => (idleOut3, idleOut3, soutAt3_A V c ⟨0, hn⟩ (Nat.zero_mod _) (by simp))
  | n + 1, hn =>
    if h0 : (n + 1) % 8 = 0 then
      (idleOut3, idleOut3, soutAt3_A V c ⟨n + 1, hn⟩ h0 (by dsimp only; omega))
    else
      if h1 : (n + 1) % 8 = 7 then
        (out4At3_C V c ⟨n + 1, hn⟩ h0 h1 (outsAt3 c n (Nat.lt_of_succ_lt hn)).2.2,
         out5At3_C V c ⟨n + 1, hn⟩ h0 h1 (outsAt3 c n (Nat.lt_of_succ_lt hn)).2.2,
         soutAt3_C V c ⟨n + 1, hn⟩ h0 h1 (outsAt3 c n (Nat.lt_of_succ_lt hn)).2.2)
      else
        (idleOut3, idleOut3, soutAt3_B V c ⟨n + 1, hn⟩ h0 h1 (outsAt3 c n (Nat.lt_of_succ_lt hn)).2.2)

theorem outsAt3_A (c : Dev nD) (t : Fin cfg3.N) (h0 : t.val % 8 = 0) (h1 : ¬t.val % 8 = 7) :
    outsAt3 V c t.val t.isLt = (idleOut3, idleOut3, soutAt3_A V c t h0 h1) := by
  obtain ⟨n, hn⟩ := t
  cases n with
  | zero => rfl
  | succ n => exact (dif_pos h0).trans rfl

theorem outsAt3_B (c : Dev nD) (t : Fin cfg3.N) (h0 : ¬t.val % 8 = 0) (h1 : ¬t.val % 8 = 7) :
    outsAt3 V c t.val t.isLt = (idleOut3, idleOut3, soutAt3_B V c t h0 h1 (outsAt3 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 8 = 0) (h1 : t.val % 8 = 7) :
    outsAt3 V c t.val t.isLt
      = (out4At3_C V c t h0 h1 (outsAt3 V c (t.val - 1) (Nat.lt_of_le_of_lt (Nat.sub_le _ _) t.isLt)).2.2,
         out5At3_C V c t h0 h1 (outsAt3 V c (t.val - 1) (Nat.lt_of_le_of_lt (Nat.sub_le _ _) t.isLt)).2.2,
         soutAt3_C V c t h0 h1 (outsAt3 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The invariant: the accumulator carried between points -/

/-- The scoped buffers of the other calls, which this region never opens. -/
abbrev others3 (c : Dev nD) : sProp 𝕄 :=
  Pipeline.scopedRestBut (Ix := Unit) (Name := ℕ) (U := UR sig nD τ) (Lvl := ℕ) (Val := Elt F) spec3 c [cc3_scratch0]

/-- Before point `n`: at the first point what the region was handed; afterwards the accumulator at what the
    point before left in it. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2.2) ∗ others3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3_0 fullShare ((outsAt3 V c n hn).2.2) ∗ others3 c) ∗ (∃ r, prngReg c r)) := rfl
theorem PhiS3_pos (c : Dev nD) (n : ℕ) (h : n ≤ cfg3.N) (hz : n ≠ 0) :
    PhiS3 V c n h = iprop(iprop(owns (c : Thread nD τ) scM3_0 fullShare ((outsAt3 V c (n - 1) (by omega)).2.2) ∗ others3 c) ∗ (∃ r, prngReg c r)) := by
  cases n with
  | zero => exact absurd rfl hz
  | succ n => rfl

/-! ## The region's proof data -/

/-- The arrays as the region finds them; after the body at point `t` each input's buffer at its block and the
    outputs' at `outsAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
    | ⟨5, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]
theorem after3_5 (c : Dev nD) (t : Fin cfg3.N) : (dat3 V c).after 5 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]
theorem leaves3_3 (c : Dev nD) (t : Fin cfg3.N) : (dat3 V c).leavesExact 3 t = owns (c : Thread nD τ) (ms3_3 t) fullShare (iblk3 V c 3 t) := by
  unfold Dat.leavesExact; rw [liveAt3_3 t, after3_3]

set_option maxHeartbeats 4800000 in
/-- The body at any point. The point's residue mod 8 says which case it is in; the invariant hands the body the
    accumulator (at anything before the first point, else at what the point before left) and takes it back at
    this point's contents; an idle output is handed back as found. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3]
  have hN : t.val < 64 := lt_of_lt_of_eq t.isLt (show cfg3.N = 64 from N_3)
  by_cases h0 : t.val % 8 = 0
  · have h1 : ¬t.val % 8 = 7 := by omega
    have hnc1 : ¬cond3_1 (grid3.coords t) := fun h => h1 ((hcond3_1 t).mp h)
    rw [Dat.leavesExact_idle (dat3 V c) 4 t (idleAt3_4 t hnc1) (noFlush3_4 t hnc1),
      Dat.leavesExact_idle (dat3 V c) 5 t (idleAt3_5 t hnc1) (noFlush3_5 t hnc1)]
    rw [outsAt3_A V c t h0 h1]
    unfold soutAt3_A sout3_A; (try dsimp only)
    by_cases hz : t.val = 0
    · rw [PhiS3_castSucc V c t, PhiS3_zero V c _ _ hz, PhiA3_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ ((hcond3_0 t).mpr h0) hnc1 (iblk3 V c 0 t) (iblk3 V c 1 t) (iblk3 V c 2 t) (iblk3 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ ((hcond3_0 t).mpr h0) hnc1 (iblk3 V c 0 t) (iblk3 V c 1 t) (iblk3 V c 2 t) (iblk3 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hnc0 : ¬cond3_0 (grid3.coords t) := fun h => h0 ((hcond3_0 t).mp h)
    by_cases h1 : t.val % 8 = 7
    · have hc1 : cond3_1 (grid3.coords t) := (hcond3_1 t).mpr h1
      rw [show (dat3 V c).leavesExact 4 t = owns (c : Thread nD τ) (ms3_4 t) fullShare ((dat3 V c).after 4 t) from by
        unfold Dat.leavesExact; rw [liveAt3_4 t hc1], after3_4]
      rw [show (dat3 V c).leavesExact 5 t = owns (c : Thread nD τ) (ms3_5 t) fullShare ((dat3 V c).after 5 t) from by
        unfold Dat.leavesExact; rw [liveAt3_5 t hc1], after3_5]
      rw [outsAt3_C V c t h0 h1]
      unfold out4At3_C out5At3_C soutAt3_C out3_C_4 out3_C_5 sout3_C; (try dsimp only)
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ hnc0 hc1 (iblk3 V c 0 t) (iblk3 V c 1 t) (iblk3 V c 2 t) (iblk3 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_C c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_C_4 c _ _ _ _ _ _ _ _ _ _ _ _ _ _ _ _ _ _ _ _ _ _)
      unfold owns; iexists _; isplitr
      swap; · iexact H5
      ipureintro; exact View.read_writes_of_cover _ _ _ _ _ (cover3_C_5 c _ _ _ _ _ _ _ _ _ _ _ _ _ _ _ _ _ _ _ _ _ _)
    · have hnc1 : ¬cond3_1 (grid3.coords t) := fun h => h1 ((hcond3_1 t).mp h)
      rw [Dat.leavesExact_idle (dat3 V c) 4 t (idleAt3_4 t hnc1) (noFlush3_4 t hnc1),
        Dat.leavesExact_idle (dat3 V c) 5 t (idleAt3_5 t hnc1) (noFlush3_5 t hnc1)]
      rw [outsAt3_B V c t h0 h1]
      unfold soutAt3_B sout3_B; (try dsimp only)
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ hnc0 hnc1 (iblk3 V c 0 t) (iblk3 V c 1 t) (iblk3 V c 2 t) (iblk3 V c 3 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_B c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The obligation at every point. -/
theorem body_obligation3 (c : Dev nD) : BodyObligation (dat3 (F := F) V c) (defs₀ (F := F)) Variants.none () Set.univ := fun t => by
  rw [bigSep_W3, bigSep_W3]
  exact sound_body3 V c t

/-- What the region is handed is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives it back, the accumulator's contents forgotten. -/
theorem hout3 (c : Dev nD) : (dat3 V c).Φ (Fin.last cfg3.N) ⊢ Pipeline.ΦA spec3 c := by
  have ht : (Fin.last cfg3.N).val ≠ 0 := by rw [Fin.val_last]; have : cfg3.N = 64 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS0, Hoth⟩, Hg⟩
  isplitl [HS0 Hoth]
  · isplitl [HS0]
    · iexists _; iexact HS0
    iexact Hoth
  iexact Hg

end Region3

end Cert.Kernel.H

end
-- ==== Proof.Kernel.Run.lean ====
/-
  @main from launch to return. The contents of the core's buffers at each boundary between @main's eleven items
  (seven stretches of host operations, four kernel regions) are a fold from the launch memory: a host stretch
  applies its operations, a region replaces its two result arrays by what its write-backs leave and touches
  nothing else. Every weakly fair execution terminates, and the final memory holds every unscoped buffer at the
  fold's last contents; in particular the three argument arrays end as launched.
-/
import proofs.«163433_j78743930404901_1_alg».proof.Proof.Kernel.R0.Data
import proofs.«163433_j78743930404901_1_alg».proof.Proof.Kernel.R1.Data
import proofs.«163433_j78743930404901_1_alg».proof.Proof.Kernel.R2.Data
import proofs.«163433_j78743930404901_1_alg».proof.Proof.Kernel.R3.Data
import proofs.«163433_j78743930404901_1_alg».proof.Proof.Gen.Kernel.Regions

-- membership in a rectangle of the kernel's extents is checked coordinate by coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
theorem W1_of (c : Dev nD) (r : Ref sig .tc) (h : r ∉ hostOps0_W) : W1 m ρ c r = W0 m ρ c r :=
  StableHlo.after_of_writes_sub hostOps0 _ hostOps0_writes h

/-- After the host stretch `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c r = W1 m ρ c r :=
  StableHlo.after_of_writes_sub hostOps0_1 _ hostOps0_1_writes h

/-- After the host stretch `hostOps0_2`. -/
abbrev W3 : Dev nD → Valuation τ sig (Elt F) := fun c => StableHlo.after hostOps0_2 (W2 m ρ c)
theorem W3_of (c : Dev nD) (r : Ref sig .tc) (h : r ∉ hostOps0_2_W) : W3 m ρ c r = W2 m ρ c r :=
  StableHlo.after_of_writes_sub hostOps0_2 _ hostOps0_2_writes h

/-- Region 0's entry contents read at the core's references. -/
abbrev Vin0 : (c : Dev nD) → (b : Ref sig .tc) → Buf (Elt F) ((c : Thread nD τ).loc b) := fun c b => W3 m ρ c b

/-- At region 0's exit: its arrays at what its write-backs leave, every other buffer as entered. -/
def W4 (c : Dev nD) : Valuation τ sig (Elt F) :=
  Pipeline.withArrays spec0 c (W3 m ρ c) fun w => (dat0 (Vin0 m ρ) c).arrAt w cfg0.N
theorem W4_arr (c : Dev nD) (w : Fin cfg0.W) :
    W4 m ρ c (Proc.devRef .tc (Pipeline.arrRef spec0 w)) = (dat0 (Vin0 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- Region 0's exit contents read at the core's references. -/
abbrev Vout0 : (c : Dev nD) → (b : Ref sig .tc) → Buf (Elt F) ((c : Thread nD τ).loc b) := fun c b => W4 m ρ c b
theorem hF0 (c : Dev nD) (w : Fin cfg0.W) : (dat0 (Vin0 m ρ) c).arrAt w cfg0.N = Vout0 m ρ c (Pipeline.arrRef spec0 w) :=
  (W4_arr m ρ c w).symm
theorem hrest0 (c : Dev nD) : ∀ b, b ∉ Finset.univ.image (Pipeline.arrRef spec0) → Vout0 m ρ c b = Vin0 m ρ c b :=
  fun b hb => W4_of_ne m ρ c b fun w e => hb (Finset.mem_image.mpr ⟨w, Finset.mem_univ _, e⟩)
/-- The region changes only its two result arrays: an input window's array is written back never, and a buffer no
    window stages passes by. -/
theorem W4_of (c : Dev nD) (b : Ref sig .tc) (h1 : b ≠ main_v6_0) (h2 : b ≠ main_v6_1) :
    W4 m ρ c (Proc.devRef .tc b) = W3 m ρ c (Proc.devRef .tc b) := by
  by_cases h : ∀ w, Pipeline.arrRef spec0 w ≠ b
  · exact W4_of_ne m ρ c b h
  · obtain ⟨w, hw⟩ := not_forall.mp h
    obtain rfl := not_not.mp hw
    rw [W4_arr]
    match w with
    | ⟨0, _⟩ => exact ((dat0 (Vin0 m ρ) c).arrAt_in 0 rfl _).trans (A_eq0 (Vin0 m ρ) c 0)
    | ⟨1, _⟩ => exact ((dat0 (Vin0 m ρ) c).arrAt_in 1 rfl _).trans (A_eq0 (Vin0 m ρ) c 1)
    | ⟨2, _⟩ => exact ((dat0 (Vin0 m ρ) c).arrAt_in 2 rfl _).trans (A_eq0 (Vin0 m ρ) c 2)
    | ⟨3, _⟩ => exact ((dat0 (Vin0 m ρ) c).arrAt_in 3 rfl _).trans (A_eq0 (Vin0 m ρ) c 3)
    | ⟨4, _⟩ => exact absurd rfl h1
    | ⟨5, _⟩ => exact absurd rfl h2

/-- After the host stretch `hostOps1`. -/
abbrev W5 : Dev nD → Valuation τ sig (Elt F) := fun c => StableHlo.after hostOps1 (W4 m ρ c)
theorem W5_of (c : Dev nD) (r : Ref sig .tc) (h : r ∉ hostOps1_W) : W5 m ρ c r = W4 m ρ c r :=
  StableHlo.after_of_writes_sub hostOps1 _ hostOps1_writes h

/-- Region 1's entry contents read at the core's references. -/
abbrev Vin1 : (c : Dev nD) → (b : Ref sig .tc) → Buf (Elt F) ((c : Thread nD τ).loc b) := fun c b => W5 m ρ c b

/-- At region 1's exit: its arrays at what its write-backs leave, every other buffer as entered. -/
def W6 (c : Dev nD) : Valuation τ sig (Elt F) :=
  Pipeline.withArrays spec1 c (W5 m ρ c) fun w => (dat1 (Vin1 m ρ) c).arrAt w cfg1.N
theorem W6_arr (c : Dev nD) (w : Fin cfg1.W) :
    W6 m ρ c (Proc.devRef .tc (Pipeline.arrRef spec1 w)) = (dat1 (Vin1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- Region 1's exit contents read at the core's references. -/
abbrev Vout1 : (c : Dev nD) → (b : Ref sig .tc) → Buf (Elt F) ((c : Thread nD τ).loc b) := fun c b => W6 m ρ c b
theorem hF1 (c : Dev nD) (w : Fin cfg1.W) : (dat1 (Vin1 m ρ) c).arrAt w cfg1.N = Vout1 m ρ c (Pipeline.arrRef spec1 w) :=
  (W6_arr m ρ c w).symm
theorem hrest1 (c : Dev nD) : ∀ b, b ∉ Finset.univ.image (Pipeline.arrRef spec1) → Vout1 m ρ c b = Vin1 m ρ c b :=
  fun b hb => W6_of_ne m ρ c b fun w e => hb (Finset.mem_image.mpr ⟨w, Finset.mem_univ _, e⟩)
/-- The region changes only its two result arrays: an input window's array is written back never, and a buffer no
    window stages passes by. -/
theorem W6_of (c : Dev nD) (b : Ref sig .tc) (h1 : b ≠ main_v9_0) (h2 : b ≠ main_v9_1) :
    W6 m ρ c (Proc.devRef .tc b) = W5 m ρ c (Proc.devRef .tc b) := by
  by_cases h : ∀ w, Pipeline.arrRef spec1 w ≠ b
  · exact W6_of_ne m ρ c b h
  · obtain ⟨w, hw⟩ := not_forall.mp h
    obtain rfl := not_not.mp hw
    rw [W6_arr]
    match w with
    | ⟨0, _⟩ => exact ((dat1 (Vin1 m ρ) c).arrAt_in 0 rfl _).trans (A_eq1 (Vin1 m ρ) c 0)
    | ⟨1, _⟩ => exact ((dat1 (Vin1 m ρ) c).arrAt_in 1 rfl _).trans (A_eq1 (Vin1 m ρ) c 1)
    | ⟨2, _⟩ => exact ((dat1 (Vin1 m ρ) c).arrAt_in 2 rfl _).trans (A_eq1 (Vin1 m ρ) c 2)
    | ⟨3, _⟩ => exact ((dat1 (Vin1 m ρ) c).arrAt_in 3 rfl _).trans (A_eq1 (Vin1 m ρ) c 3)
    | ⟨4, _⟩ => exact absurd rfl h1
    | ⟨5, _⟩ => exact absurd rfl h2

/-- After the host stretch `hostOps2`. -/
abbrev W7 : Dev nD → Valuation τ sig (Elt F) := fun c => StableHlo.after hostOps2 (W6 m ρ c)
theorem W7_of (c : Dev nD) (r : Ref sig .tc) (h : r ∉ hostOps2_W) : W7 m ρ c r = W6 m ρ c r :=
  StableHlo.after_of_writes_sub hostOps2 _ hostOps2_writes h

/-- Region 2's entry contents read at the core's references. -/
abbrev Vin2 : (c : Dev nD) → (b : Ref sig .tc) → Buf (Elt F) ((c : Thread nD τ).loc b) := fun c b => W7 m ρ c b

/-- At region 2's exit: its arrays at what its write-backs leave, every other buffer as entered. -/
def W8 (c : Dev nD) : Valuation τ sig (Elt F) :=
  Pipeline.withArrays spec2 c (W7 m ρ c) fun w => (dat2 (Vin2 m ρ) c).arrAt w cfg2.N
theorem W8_arr (c : Dev nD) (w : Fin cfg2.W) :
    W8 m ρ c (Proc.devRef .tc (Pipeline.arrRef spec2 w)) = (dat2 (Vin2 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- Region 2's exit contents read at the core's references. -/
abbrev Vout2 : (c : Dev nD) → (b : Ref sig .tc) → Buf (Elt F) ((c : Thread nD τ).loc b) := fun c b => W8 m ρ c b
theorem hF2 (c : Dev nD) (w : Fin cfg2.W) : (dat2 (Vin2 m ρ) c).arrAt w cfg2.N = Vout2 m ρ c (Pipeline.arrRef spec2 w) :=
  (W8_arr m ρ c w).symm
theorem hrest2 (c : Dev nD) : ∀ b, b ∉ Finset.univ.image (Pipeline.arrRef spec2) → Vout2 m ρ c b = Vin2 m ρ c b :=
  fun b hb => W8_of_ne m ρ c b fun w e => hb (Finset.mem_image.mpr ⟨w, Finset.mem_univ _, e⟩)
/-- The region changes only its two result arrays: an input window's array is written back never, and a buffer no
    window stages passes by. -/
theorem W8_of (c : Dev nD) (b : Ref sig .tc) (h1 : b ≠ main_v12_0) (h2 : b ≠ main_v12_1) :
    W8 m ρ c (Proc.devRef .tc b) = W7 m ρ c (Proc.devRef .tc b) := by
  by_cases h : ∀ w, Pipeline.arrRef spec2 w ≠ b
  · exact W8_of_ne m ρ c b h
  · obtain ⟨w, hw⟩ := not_forall.mp h
    obtain rfl := not_not.mp hw
    rw [W8_arr]
    match w with
    | ⟨0, _⟩ => exact ((dat2 (Vin2 m ρ) c).arrAt_in 0 rfl _).trans (A_eq2 (Vin2 m ρ) c 0)
    | ⟨1, _⟩ => exact ((dat2 (Vin2 m ρ) c).arrAt_in 1 rfl _).trans (A_eq2 (Vin2 m ρ) c 1)
    | ⟨2, _⟩ => exact ((dat2 (Vin2 m ρ) c).arrAt_in 2 rfl _).trans (A_eq2 (Vin2 m ρ) c 2)
    | ⟨3, _⟩ => exact ((dat2 (Vin2 m ρ) c).arrAt_in 3 rfl _).trans (A_eq2 (Vin2 m ρ) c 3)
    | ⟨4, _⟩ => exact absurd rfl h1
    | ⟨5, _⟩ => exact absurd rfl h2

/-- After the host stretch `hostOps3`. -/
abbrev W9 : Dev nD → Valuation τ sig (Elt F) := fun c => StableHlo.after hostOps3 (W8 m ρ c)
theorem W9_of (c : Dev nD) (r : Ref sig .tc) (h : r ∉ hostOps3_W) : W9 m ρ c r = W8 m ρ c r :=
  StableHlo.after_of_writes_sub hostOps3 _ hostOps3_writes h

/-- Region 3's entry contents read at the core's references. -/
abbrev Vin3 : (c : Dev nD) → (b : Ref sig .tc) → Buf (Elt F) ((c : Thread nD τ).loc b) := fun c b => W9 m ρ c b

/-- At region 3's exit: its arrays at what its write-backs leave, every other buffer as entered. -/
def W10 (c : Dev nD) : Valuation τ sig (Elt F) :=
  Pipeline.withArrays spec3 c (W9 m ρ c) fun w => (dat3 (Vin3 m ρ) c).arrAt w cfg3.N
theorem W10_arr (c : Dev nD) (w : Fin cfg3.W) :
    W10 m ρ c (Proc.devRef .tc (Pipeline.arrRef spec3 w)) = (dat3 (Vin3 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- Region 3's exit contents read at the core's references. -/
abbrev Vout3 : (c : Dev nD) → (b : Ref sig .tc) → Buf (Elt F) ((c : Thread nD τ).loc b) := fun c b => W10 m ρ c b
theorem hF3 (c : Dev nD) (w : Fin cfg3.W) : (dat3 (Vin3 m ρ) c).arrAt w cfg3.N = Vout3 m ρ c (Pipeline.arrRef spec3 w) :=
  (W10_arr m ρ c w).symm
theorem hrest3 (c : Dev nD) : ∀ b, b ∉ Finset.univ.image (Pipeline.arrRef spec3) → Vout3 m ρ c b = Vin3 m ρ c b :=
  fun b hb => W10_of_ne m ρ c b fun w e => hb (Finset.mem_image.mpr ⟨w, Finset.mem_univ _, e⟩)
/-- The region changes only its two result arrays: an input window's array is written back never, and a buffer no
    window stages passes by. -/
theorem W10_of (c : Dev nD) (b : Ref sig .tc) (h1 : b ≠ main_v15_0) (h2 : b ≠ main_v15_1) :
    W10 m ρ c (Proc.devRef .tc b) = W9 m ρ c (Proc.devRef .tc b) := by
  by_cases h : ∀ w, Pipeline.arrRef spec3 w ≠ b
  · exact W10_of_ne m ρ c b h
  · obtain ⟨w, hw⟩ := not_forall.mp h
    obtain rfl := not_not.mp hw
    rw [W10_arr]
    match w with
    | ⟨0, _⟩ => exact ((dat3 (Vin3 m ρ) c).arrAt_in 0 rfl _).trans (A_eq3 (Vin3 m ρ) c 0)
    | ⟨1, _⟩ => exact ((dat3 (Vin3 m ρ) c).arrAt_in 1 rfl _).trans (A_eq3 (Vin3 m ρ) c 1)
    | ⟨2, _⟩ => exact ((dat3 (Vin3 m ρ) c).arrAt_in 2 rfl _).trans (A_eq3 (Vin3 m ρ) c 2)
    | ⟨3, _⟩ => exact ((dat3 (Vin3 m ρ) c).arrAt_in 3 rfl _).trans (A_eq3 (Vin3 m ρ) c 3)
    | ⟨4, _⟩ => exact absurd rfl h1
    | ⟨5, _⟩ => exact absurd rfl h2

/-- After the host stretch `hostOps4`. -/
abbrev W11 : Dev nD → Valuation τ sig (Elt F) := fun c => StableHlo.after hostOps4 (W10 m ρ c)
theorem W11_of (c : Dev nD) (r : Ref sig .tc) (h : r ∉ hostOps4_W) : W11 m ρ c r = W10 m ρ c r :=
  StableHlo.after_of_writes_sub hostOps4 _ hostOps4_writes h

/-! ## The arguments end as launched -/

/-- `main_arg0` reaches the end as launched: no host stretch and no region writes it. -/
theorem W11_main_arg0 (c : Dev nD) : W11 m ρ c (Proc.devRef .tc main_arg0) = m ((c : Thread nD τ).loc main_arg0) :=
  (W11_of m ρ c main_arg0 (by decide)).trans <| (W10_of m ρ c main_arg0 (by decide) (by decide)).trans <| (W9_of m ρ c main_arg0 (by decide)).trans <|
  (W8_of m ρ c main_arg0 (by decide) (by decide)).trans <| (W7_of m ρ c main_arg0 (by decide)).trans <| (W6_of m ρ c main_arg0 (by decide) (by decide)).trans <|
  (W5_of m ρ c main_arg0 (by decide)).trans <| (W4_of m ρ c main_arg0 (by decide) (by decide)).trans <| (W3_of m ρ c main_arg0 (by decide)).trans <|
  (W2_of m ρ c main_arg0 (by decide)).trans <| (W1_of m ρ c main_arg0 (by decide)).trans rfl

/-- `main_arg1` reaches the end as launched: no host stretch and no region writes it. -/
theorem W11_main_arg1 (c : Dev nD) : W11 m ρ c (Proc.devRef .tc main_arg1) = m ((c : Thread nD τ).loc main_arg1) :=
  (W11_of m ρ c main_arg1 (by decide)).trans <| (W10_of m ρ c main_arg1 (by decide) (by decide)).trans <| (W9_of m ρ c main_arg1 (by decide)).trans <|
  (W8_of m ρ c main_arg1 (by decide) (by decide)).trans <| (W7_of m ρ c main_arg1 (by decide)).trans <| (W6_of m ρ c main_arg1 (by decide) (by decide)).trans <|
  (W5_of m ρ c main_arg1 (by decide)).trans <| (W4_of m ρ c main_arg1 (by decide) (by decide)).trans <| (W3_of m ρ c main_arg1 (by decide)).trans <|
  (W2_of m ρ c main_arg1 (by decide)).trans <| (W1_of m ρ c main_arg1 (by decide)).trans rfl

/-- `main_arg2` reaches the end as launched: no host stretch and no region writes it. -/
theorem W11_main_arg2 (c : Dev nD) : W11 m ρ c (Proc.devRef .tc main_arg2) = m ((c : Thread nD τ).loc main_arg2) :=
  (W11_of m ρ c main_arg2 (by decide)).trans <| (W10_of m ρ c main_arg2 (by decide) (by decide)).trans <| (W9_of m ρ c main_arg2 (by decide)).trans <|
  (W8_of m ρ c main_arg2 (by decide) (by decide)).trans <| (W7_of m ρ c main_arg2 (by decide)).trans <| (W6_of m ρ c main_arg2 (by decide) (by decide)).trans <|
  (W5_of m ρ c main_arg2 (by decide)).trans <| (W4_of m ρ c main_arg2 (by decide) (by decide)).trans <| (W3_of m ρ c main_arg2 (by decide)).trans <|
  (W2_of m ρ c main_arg2 (by decide)).trans <| (W1_of m ρ c main_arg2 (by decide)).trans rfl

/-! ## The proof data family and what rides beside the buffers -/

/-- No call has a prefetched table. -/
abbrev admH : (p : Fin 4) → (pcfgs (F := F) p).Adm := fun p => (cfgs p).toPCfg_adm
/-- Each region's proof data at its own entry contents. -/
def pdatsH : (p : Fin 4) → (c : Dev nD) → Dat τ (Elt F) Unit ℕ (UR sig nD τ) ℕ (Pipeline.pin (pcfgs (F := F)) admH p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
abbrev 𝒱H : Variants := Variants.none
/-- No core owes another anything. -/
abbrev LH : GSem nD τ sig → Finset Unit := fun _ => ∅
abbrev lvH : GSem nD τ sig → Unit → ℕ := fun _ _ => 0
/-- The generator register at some state and the core owing nothing ride beside the buffers through every item. -/
abbrev RH (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state beside the core owing nothing. -/
abbrev TnH (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 as a segment: entered with every unscoped buffer at `W3`, left with them at `W4`. Its arrays are
    split out of the unscoped buffers and put back at their exit contents; the generator register goes into the
    region's invariant and comes back; nothing is owed; the kernel has no semaphore of its own. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ LH lvH 0 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m ρ) c)
    unfold Pipeline.ΦA
    iintro ⟨Hp, -, Hr⟩
    isplitl [Hr]; · iexact Hr
    iexact Hp
  hout c := by
    rw [Pipeline.ownSems0_none]
    refine BIBase.Entails.trans (hout0 (Vin0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vin0 m ρ c) (Vout0 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W5`, left with them at `W6`. Its arrays are
    split out of the unscoped buffers and put back at their exit contents; the generator register goes into the
    region's invariant and comes back; nothing is owed; the kernel has no semaphore of its own. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ LH lvH 1 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m ρ) c)
    unfold Pipeline.ΦA
    iintro ⟨Hp, -, Hr⟩
    isplitl [Hr]; · iexact Hr
    iexact Hp
  hout c := by
    rw [Pipeline.ownSems0_none]
    refine BIBase.Entails.trans (hout1 (Vin1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Vin1 m ρ c) (Vout1 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W7`, left with them at `W8`. Its arrays are
    split out of the unscoped buffers and put back at their exit contents; the generator register goes into the
    region's invariant and comes back; nothing is owed; the kernel has no semaphore of its own. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ LH lvH 2 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vin2 m ρ) c)
    unfold Pipeline.ΦA
    iintro ⟨Hp, -, Hr⟩
    isplitl [Hr]; · iexact Hr
    iexact Hp
  hout c := by
    rw [Pipeline.ownSems0_none]
    refine BIBase.Entails.trans (hout2 (Vin2 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Vin2 m ρ c) (Vout2 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W9`, left with them at `W10`. Its arrays are
    split out of the unscoped buffers and put back at their exit contents; the generator register goes into the
    region's invariant and comes back; nothing is owed; the kernel has no semaphore of its own. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ LH lvH 3 fun _ _ => rfl
  pre c := iprop(StableHlo.held (c : Thread nD τ) (Pipeline.ucRefs τ sig) (W9 m ρ c) ∗ RH c)
  post c := iprop(StableHlo.held (c : Thread nD τ) (Pipeline.ucRefs τ sig) (W10 m ρ c) ∗ RH c)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (Vin3 m ρ) c)
    unfold Pipeline.ΦA
    iintro ⟨Hp, -, Hr⟩
    isplitl [Hr]; · iexact Hr
    iexact Hp
  hout c := by
    rw [Pipeline.ownSems0_none]
    refine BIBase.Entails.trans (hout3 (Vin3 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (Vin3 m ρ c) (Vout3 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the launch -/

abbrev segsH : List (Pipeline.Seg (pcfgs (F := F)) admH (pdatsH m ρ) () defs₀ 𝒱H LH lvH) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)) ]

theorem main_run (c : Dev nD) : main (F := F) c = Pipeline.Seg.run (segsH m ρ) := (main_chain c).trans (by chain_rfl)

set_option backward.isDefEq.respectTransparency.types false in
/-- Every weakly fair execution of @main terminates, and the final memory holds every unscoped buffer of every
    core at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) admH (pdatsH m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ RH c) ⊢ _
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The frame: every weakly fair execution of @main terminates and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c)⟩) (run_all m ρ)

end Cert.Kernel.H

end
-- ==== Proof.KernelIdeal.R0.Runs.lean ====
/-
  One kernel region of @main (a propagation step xp' = L·xp with the hop's contribution added, acc' = acc + relu(xp'·W)):
  what its three control cases share. The grid is 8 × 8 points (row tile i, contraction tile k), point t = 8·i + k. The
  body resets its scratch accumulator where k = 0, adds the product of the point's two tiles to it at every point, and
  where k = 7 copies the accumulator out and stores the second output. Stated at any float type and at any contents
  `V` of the core's buffers when the region is entered.
-/
import proofs.«163433_j78743930404901_1_alg».proof.Proof.Gen.KernelIdeal.Launch
import proofs.«163433_j78743930404901_1_alg».proof.Proof.Gen.KernelIdeal.Skeleton
import proofs.«163433_j78743930404901_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the point's block whether or not the point fetched it: a point
    that does not fetch has the block index of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- `k = 0`, as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- `k = 7`, as the body computes it. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where `k ≠ 7` the body stores nothing into the two outputs and their blocks are not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev VO0_4 : View sig .tc .vmem S1024x16 .f32 := (Memref.whole cc0_stg4_0 : Memref sig .tc .vmem S1024x16 .f32).view
abbrev VO0_5 : View sig .tc .vmem S1024x16 .f32 := (Memref.whole cc0_stg5_0 : Memref sig .tc .vmem S1024x16 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x16 .f32 := win0_5.stage (cfg0.slots t 5)
abbrev hs0_5 (t : Fin cfg0.N) : (ms0_5 t).IsWhole := hstage0_5 ((cfg0.slots t 5).cast nbuf0_5)
/-- The accumulator: a whole scoped buffer of the kernel's own, carried from point to point. -/
abbrev scM0_0 : Memref sig .tc .vmem S1024x16 .f32 := Memref.whole cc0_scratch0
abbrev VS0_0 : View sig .tc .vmem S1024x16 .f32 := scM0_0.view

/-- What the region hands the body beside the windows: the accumulator at some contents, every other scoped
    buffer no window stages, and the generator register. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Region0

end Cert.KernelIdeal.H

end
-- ==== Proof.KernelIdeal.R0.RunA.lean ====
/-
  At the points with k = 0 (the accumulator is reset, then the point's product added; the outputs are left alone): the body's triple, run once symbolically. The pieces each buffer ends with are read off the run.
-/
import proofs.«163433_j78743930404901_1_alg».proof.Proof.KernelIdeal.R0.Runs

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

set_option maxHeartbeats 1000000 in
/-- On whole memrefs — the four inputs at their contents, the two outputs at contents handed back untouched, the
    accumulator at anything — the body runs to its end holding the inputs and outputs as they were and the
    accumulator with the pieces `LS0` written. -/
noncomputable def kernelRun0_A (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond0_0 i) (hc1 : ¬cond0_1 i)
    (x0 : Vec F S1024x1024 .f32) (x1 : Vec F S1024x16 .f32) (x2 : Vec F S16x16 .f32) (x3 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__step_kernel i arg2 harg2 arg3 harg3 arg4 harg4 arg5 harg5 arg6 harg6 arg7 harg7 arg8 harg8) K } := by
  refine ⟨?_, fun xi4 xi5 E K => ?run⟩
  case run =>
    simp only [cc0__step_kernel_eq_skeleton]; unfold cc0__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region0

end Cert.KernelIdeal.H

end
-- ==== Proof.KernelIdeal.R0.RunB.lean ====
/-
  At the points with 0 < k < 7 (the point's product is added to the accumulator; the outputs are left alone): the body's triple, run once symbolically. The pieces each buffer ends with are read off the run.
-/
import proofs.«163433_j78743930404901_1_alg».proof.Proof.KernelIdeal.R0.RunA

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

set_option maxHeartbeats 1000000 in
/-- As at `k = 0`, but the accumulator enters at the contents `xs0` the point before left. -/
noncomputable def kernelRun0_B (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : ¬cond0_1 i)
    (x0 : Vec F S1024x1024 .f32) (x1 : Vec F S1024x16 .f32) (x2 : Vec F S16x16 .f32) (x3 : Vec F S1024x16 .f32) (xs0 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__step_kernel i arg2 harg2 arg3 harg3 arg4 harg4 arg5 harg5 arg6 harg6 arg7 harg7 arg8 harg8) K } := by
  refine ⟨?_, fun xi4 xi5 E K => ?run⟩
  case run =>
    simp only [cc0__step_kernel_eq_skeleton]; unfold cc0__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region0

end Cert.KernelIdeal.H

end
-- ==== Proof.KernelIdeal.R0.RunC.lean ====
/-
  At the points with k = 7 (the last product is added, the accumulator copied to the first output, and the second output stored): the body's triple, run once symbolically. The pieces each buffer ends with are read off the run.
-/
import proofs.«163433_j78743930404901_1_alg».proof.Proof.KernelIdeal.R0.RunB

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

set_option maxHeartbeats 1000000 in
/-- The accumulator enters at `xs0`; the two outputs enter at anything and leave with the pieces `L4`, `L5` written. -/
noncomputable def kernelRun0_C (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i)
    (x0 : Vec F S1024x1024 .f32) (x1 : Vec F S1024x16 .f32) (x2 : Vec F S16x16 .f32) (x3 : Vec F S1024x16 .f32) (xs0 : Vec F S1024x16 .f32) :
    Σ' (L4 : List (View.Piece (Elt F) S1024x16 .f32)) (L5 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__step_kernel i arg2 harg2 arg3 harg3 arg4 harg4 arg5 harg5 arg6 harg6 arg7 harg7 arg8 harg8) K } := by
  refine ⟨?_, ?_, ?_, fun E K => ?run⟩
  case run =>
    simp only [cc0__step_kernel_eq_skeleton]; unfold cc0__step_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Region0

end Cert.KernelIdeal.H

end
-- ==== Proof.KernelIdeal.R0.Data.lean ====
/-
  What each control case of the region leaves in the accumulator and the outputs, those contents after each grid point
  by recursion on the point, the region's invariant (the accumulator carried from point to point), its proof data and
  the body's obligation at every point.
-/
import proofs.«163433_j78743930404901_1_alg».proof.Proof.KernelIdeal.R0.RunC

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What each case leaves -/

/-- The accumulator after a point with `k = 0`: the case's pieces read back. -/
def sout0_A (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond0_0 i) (hc1 : ¬cond0_1 i) (x0 : Vec F S1024x1024 .f32) (x1 : Vec F S1024x16 .f32) (x2 : Vec F S16x16 .f32) (x3 : Vec F S1024x16 .f32) : Vec F S1024x16 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).1)
/-- Its pieces cover the buffer. -/
theorem scover0_A (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond0_0 i) (hc1 : ¬cond0_1 i) (x0 : Vec F S1024x1024 .f32) (x1 : Vec F S1024x16 .f32) (x2 : Vec F S16x16 .f32) (x3 : Vec F S1024x16 .f32) (y : S1024x16.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S1024x16.size (by sl_kernel_rfl) y

/-- The accumulator after a point with `0 < k < 7`, entered at `xs0`. -/
def sout0_B (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : ¬cond0_1 i) (x0 : Vec F S1024x1024 .f32) (x1 : Vec F S1024x16 .f32) (x2 : Vec F S16x16 .f32) (x3 : Vec F S1024x16 .f32) (xs0 : Vec F S1024x16 .f32) : Vec F S1024x16 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0).1)
theorem scover0_B (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : ¬cond0_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun0_B c i arg2 harg2 arg3 harg3 arg4 harg4 arg5 harg5 arg6 harg6 arg7 harg7 arg8 harg8 hc0 hc1 x0 x1 x2 x3 xs0).1, y ∈ pc.1.set :=
  View.cover_of_tiledL (kernelRun0_B c i arg2 harg2 arg3 harg3 arg4 harg4 arg5 harg5 arg6 harg6 arg7 harg7 arg8 harg8 hc0 hc1 x0 x1 x2 x3 xs0).1 S1024x16.size (by sl_kernel_rfl) y

/-- After a point with `k = 7`, entered at `xs0`: the first output, the second output, the accumulator. -/
def out0_C_4 (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i) (x0 : Vec F S1024x1024 .f32) (x1 : Vec F S1024x16 .f32) (x2 : Vec F S16x16 .f32) (x3 : Vec F S1024x16 .f32) (xs0 : Vec F S1024x16 .f32) : Vec F S1024x16 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0).1)
theorem cover0_C_4 (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun0_C c i arg2 harg2 arg3 harg3 arg4 harg4 arg5 harg5 arg6 harg6 arg7 harg7 arg8 harg8 hc0 hc1 x0 x1 x2 x3 xs0).1, y ∈ pc.1.set :=
  View.cover_of_tiledL (kernelRun0_C c i arg2 harg2 arg3 harg3 arg4 harg4 arg5 harg5 arg6 harg6 arg7 harg7 arg8 harg8 hc0 hc1 x0 x1 x2 x3 xs0).1 S1024x16.size (by sl_kernel_rfl) y
def out0_C_5 (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i) (x0 : Vec F S1024x1024 .f32) (x1 : Vec F S1024x16 .f32) (x2 : Vec F S16x16 .f32) (x3 : Vec F S1024x16 .f32) (xs0 : Vec F S1024x16 .f32) : Vec F S1024x16 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 xs0).2.1)
theorem cover0_C_5 (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun0_C c i arg2 harg2 arg3 harg3 arg4 harg4 arg5 harg5 arg6 harg6 arg7 harg7 arg8 harg8 hc0 hc1 x0 x1 x2 x3 xs0).2.1, y ∈ pc.1.set :=
  View.cover_of_tiledL (kernelRun0_C c i arg2 harg2 arg3 harg3 arg4 harg4 arg5 harg5 arg6 harg6 arg7 harg7 arg8 harg8 hc0 hc1 x0 x1 x2 x3 xs0).2.1 S1024x16.size (by sl_kernel_rfl) y
def sout0_C (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i) (x0 : Vec F S1024x1024 .f32) (x1 : Vec F S1024x16 .f32) (x2 : Vec F S16x16 .f32) (x3 : Vec F S1024x16 .f32) (xs0 : Vec F S1024x16 .f32) : Vec F S1024x16 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0).2.2.1)
theorem scover0_C (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun0_C c i arg2 harg2 arg3 harg3 arg4 harg4 arg5 harg5 arg6 harg6 arg7 harg7 arg8 harg8 hc0 hc1 x0 x1 x2 x3 xs0).2.2.1, y ∈ pc.1.set :=
  View.cover_of_tiledL (kernelRun0_C c i arg2 harg2 arg3 harg3 arg4 harg4 arg5 harg5 arg6 harg6 arg7 harg7 arg8 harg8 hc0 hc1 x0 x1 x2 x3 xs0).2.2.1 S1024x16.size (by sl_kernel_rfl) y

/-- What stands for an output's staging buffer at a point that stores nothing into it: nothing reads it there. -/
def idleOut0 : Vec F S1024x16 .f32 := VO0_4.read (Elt F) VO0_4.junk

/-! ## The same at a grid point, on the point's memrefs and blocks -/

def soutAt0_A (c : Dev nD) (t : Fin cfg0.N) (h0 : t.val % 8 = 0) (h1 : ¬t.val % 8 = 7) : Vec F S1024x16 .f32 :=
  sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t)
def soutAt0_B (c : Dev nD) (t : Fin cfg0.N) (h0 : ¬t.val % 8 = 0) (h1 : ¬t.val % 8 = 7) (xs0 : Vec F S1024x16 .f32) : Vec F S1024x16 .f32 :=
  sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) xs0
def out4At0_C (c : Dev nD) (t : Fin cfg0.N) (h0 : ¬t.val % 8 = 0) (h1 : t.val % 8 = 7) (xs0 : Vec F S1024x16 .f32) : Vec F S1024x16 .f32 :=
  out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) xs0
def out5At0_C (c : Dev nD) (t : Fin cfg0.N) (h0 : ¬t.val % 8 = 0) (h1 : t.val % 8 = 7) (xs0 : Vec F S1024x16 .f32) : Vec F S1024x16 .f32 :=
  out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) xs0
def soutAt0_C (c : Dev nD) (t : Fin cfg0.N) (h0 : ¬t.val % 8 = 0) (h1 : t.val % 8 = 7) (xs0 : Vec F S1024x16 .f32) : Vec F S1024x16 .f32 :=
  sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) xs0

/-! ## The contents after each point -/

/-- After point `n`: the first output's staging buffer, the second's, the accumulator. The accumulator of a
    point with `k > 0` is computed from what the point before left in it. -/
def outsAt0 (c : Dev nD) : (n : ℕ) → n < cfg0.N → Vec F S1024x16 .f32 × Vec F S1024x16 .f32 × Vec F S1024x16 .f32
  | 0, hn => (idleOut0, idleOut0, soutAt0_A V c ⟨0, hn⟩ (Nat.zero_mod _) (by simp))
  | n + 1, hn =>
    if h0 : (n + 1) % 8 = 0 then
      (idleOut0, idleOut0, soutAt0_A V c ⟨n + 1, hn⟩ h0 (by dsimp only; omega))
    else
      if h1 : (n + 1) % 8 = 7 then
        (out4At0_C V c ⟨n + 1, hn⟩ h0 h1 (outsAt0 c n (Nat.lt_of_succ_lt hn)).2.2,
         out5At0_C V c ⟨n + 1, hn⟩ h0 h1 (outsAt0 c n (Nat.lt_of_succ_lt hn)).2.2,
         soutAt0_C V c ⟨n + 1, hn⟩ h0 h1 (outsAt0 c n (Nat.lt_of_succ_lt hn)).2.2)
      else
        (idleOut0, idleOut0, soutAt0_B V c ⟨n + 1, hn⟩ h0 h1 (outsAt0 c n (Nat.lt_of_succ_lt hn)).2.2)

theorem outsAt0_A (c : Dev nD) (t : Fin cfg0.N) (h0 : t.val % 8 = 0) (h1 : ¬t.val % 8 = 7) :
    outsAt0 V c t.val t.isLt = (idleOut0, idleOut0, soutAt0_A V c t h0 h1) := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 V c t.val t.isLt = (idleOut0, idleOut0, soutAt0_B V c t h0 h1 (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt
      = (out4At0_C V c t h0 h1 (outsAt0 V c (t.val - 1) (Nat.lt_of_le_of_lt (Nat.sub_le _ _) t.isLt)).2.2,
         out5At0_C V c t h0 h1 (outsAt0 V c (t.val - 1) (Nat.lt_of_le_of_lt (Nat.sub_le _ _) t.isLt)).2.2,
         soutAt0_C V c t h0 h1 (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The invariant: the accumulator carried between points -/

/-- The scoped buffers of the other calls, which this region never opens. -/
abbrev others0 (c : Dev nD) : sProp 𝕄 :=
  Pipeline.scopedRestBut (Ix := Unit) (Name := ℕ) (U := UR sig nD τ) (Lvl := ℕ) (Val := Elt F) spec0 c [cc0_scratch0]

/-- Before point `n`: at the first point what the region was handed; afterwards the accumulator at what the
    point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ others0 c) ∗ (∃ r, prngReg c r)) := by
  cases n with
  | zero => exact absurd rfl hz
  | succ n => rfl

/-! ## The region's proof data -/

/-- The arrays as the region finds them; after the body at point `t` each input's buffer at its block and the
    outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in
/-- The body at any point. The point's residue mod 8 says which case it is in; the invariant hands the body the
    accumulator (at anything before the first point, else at what the point before left) and takes it back at
    this point's contents; an idle output is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 64 := lt_of_lt_of_eq t.isLt (show cfg0.N = 64 from N_0)
  by_cases h0 : t.val % 8 = 0
  · have h1 : ¬t.val % 8 = 7 := by omega
    have hnc1 : ¬cond0_1 (grid0.coords t) := fun h => h1 ((hcond0_1 t).mp h)
    rw [Dat.leavesExact_idle (dat0 V c) 4 t (idleAt0_4 t hnc1) (noFlush0_4 t hnc1),
      Dat.leavesExact_idle (dat0 V c) 5 t (idleAt0_5 t hnc1) (noFlush0_5 t hnc1)]
    rw [outsAt0_A V c t h0 h1]
    unfold soutAt0_A sout0_A; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) hnc1 (iblk0 V c 0 t) (iblk0 V c 1 t) (iblk0 V c 2 t) (iblk0 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) hnc1 (iblk0 V c 0 t) (iblk0 V c 1 t) (iblk0 V c 2 t) (iblk0 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hnc0 : ¬cond0_0 (grid0.coords t) := fun h => h0 ((hcond0_0 t).mp h)
    by_cases h1 : t.val % 8 = 7
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [outsAt0_C V c t h0 h1]
      unfold out4At0_C out5At0_C soutAt0_C out0_C_4 out0_C_5 sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ hnc0 hc1 (iblk0 V c 0 t) (iblk0 V c 1 t) (iblk0 V c 2 t) (iblk0 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _)
    · have hnc1 : ¬cond0_1 (grid0.coords t) := fun h => h1 ((hcond0_1 t).mp h)
      rw [Dat.leavesExact_idle (dat0 V c) 4 t (idleAt0_4 t hnc1) (noFlush0_4 t hnc1),
        Dat.leavesExact_idle (dat0 V c) 5 t (idleAt0_5 t hnc1) (noFlush0_5 t hnc1)]
      rw [outsAt0_B V c t h0 h1]
      unfold soutAt0_B sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ hnc0 hnc1 (iblk0 V c 0 t) (iblk0 V c 1 t) (iblk0 V c 2 t) (iblk0 V c 3 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The obligation at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end Region0

end Cert.KernelIdeal.H

end
-- ==== Proof.KernelIdeal.R1.Runs.lean ====
/-
  One kernel region of @main (a propagation step xp' = L·xp with the hop's contribution added, acc' = acc + relu(xp'·W)):
  what its three control cases share. The grid is 8 × 8 points (row tile i, contraction tile k), point t = 8·i + k. The
  body resets its scratch accumulator where k = 0, adds the product of the point's two tiles to it at every point, and
  where k = 7 copies the accumulator out and stores the second output. Stated at any float type and at any contents
  `V` of the core's buffers when the region is entered.
-/
import proofs.«163433_j78743930404901_1_alg».proof.Proof.Gen.KernelIdeal.Launch
import proofs.«163433_j78743930404901_1_alg».proof.Proof.Gen.KernelIdeal.Skeleton
import proofs.«163433_j78743930404901_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the point's block whether or not the point fetched it: a point
    that does not fetch has the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the grid -/

/-- `k = 0`, as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- `k = 7`, as the body computes it. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where `k ≠ 7` the body stores nothing into the two outputs and their blocks are not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

/-! ## The memrefs the body is called with -/

abbrev VO1_4 : View sig .tc .vmem S1024x16 .f32 := (Memref.whole cc1_stg4_0 : Memref sig .tc .vmem S1024x16 .f32).view
abbrev VO1_5 : View sig .tc .vmem S1024x16 .f32 := (Memref.whole cc1_stg5_0 : Memref sig .tc .vmem S1024x16 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x16 .f32 := win1_5.stage (cfg1.slots t 5)
abbrev hs1_5 (t : Fin cfg1.N) : (ms1_5 t).IsWhole := hstage1_5 ((cfg1.slots t 5).cast nbuf1_5)
/-- The accumulator: a whole scoped buffer of the kernel's own, carried from point to point. -/
abbrev scM1_0 : Memref sig .tc .vmem S1024x16 .f32 := Memref.whole cc1_scratch0
abbrev VS1_0 : View sig .tc .vmem S1024x16 .f32 := scM1_0.view

/-- What the region hands the body beside the windows: the accumulator at some contents, every other scoped
    buffer no window stages, and the generator register. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Region1

end Cert.KernelIdeal.H

end
-- ==== Proof.KernelIdeal.R1.RunA.lean ====
/-
  At the points with k = 0 (the accumulator is reset, then the point's product added; the outputs are left alone): the body's triple, run once symbolically. The pieces each buffer ends with are read off the run.
-/
import proofs.«163433_j78743930404901_1_alg».proof.Proof.KernelIdeal.R1.Runs

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

set_option maxHeartbeats 1000000 in
/-- On whole memrefs — the four inputs at their contents, the two outputs at contents handed back untouched, the
    accumulator at anything — the body runs to its end holding the inputs and outputs as they were and the
    accumulator with the pieces `LS0` written. -/
noncomputable def kernelRun1_A (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond1_0 i) (hc1 : ¬cond1_1 i)
    (x0 : Vec F S1024x1024 .f32) (x1 : Vec F S1024x16 .f32) (x2 : Vec F S16x16 .f32) (x3 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__step_kernel i arg2 harg2 arg3 harg3 arg4 harg4 arg5 harg5 arg6 harg6 arg7 harg7 arg8 harg8) K } := by
  refine ⟨?_, fun xi4 xi5 E K => ?run⟩
  case run =>
    simp only [cc1__step_kernel_eq_skeleton]; unfold cc1__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region1

end Cert.KernelIdeal.H

end
-- ==== Proof.KernelIdeal.R1.RunB.lean ====
/-
  At the points with 0 < k < 7 (the point's product is added to the accumulator; the outputs are left alone): the body's triple, run once symbolically. The pieces each buffer ends with are read off the run.
-/
import proofs.«163433_j78743930404901_1_alg».proof.Proof.KernelIdeal.R1.RunA

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

set_option maxHeartbeats 1000000 in
/-- As at `k = 0`, but the accumulator enters at the contents `xs0` the point before left. -/
noncomputable def kernelRun1_B (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : ¬cond1_1 i)
    (x0 : Vec F S1024x1024 .f32) (x1 : Vec F S1024x16 .f32) (x2 : Vec F S16x16 .f32) (x3 : Vec F S1024x16 .f32) (xs0 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__step_kernel i arg2 harg2 arg3 harg3 arg4 harg4 arg5 harg5 arg6 harg6 arg7 harg7 arg8 harg8) K } := by
  refine ⟨?_, fun xi4 xi5 E K => ?run⟩
  case run =>
    simp only [cc1__step_kernel_eq_skeleton]; unfold cc1__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region1

end Cert.KernelIdeal.H

end
-- ==== Proof.KernelIdeal.R1.RunC.lean ====
/-
  At the points with k = 7 (the last product is added, the accumulator copied to the first output, and the second output stored): the body's triple, run once symbolically. The pieces each buffer ends with are read off the run.
-/
import proofs.«163433_j78743930404901_1_alg».proof.Proof.KernelIdeal.R1.RunB

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

set_option maxHeartbeats 1000000 in
/-- The accumulator enters at `xs0`; the two outputs enter at anything and leave with the pieces `L4`, `L5` written. -/
noncomputable def kernelRun1_C (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i)
    (x0 : Vec F S1024x1024 .f32) (x1 : Vec F S1024x16 .f32) (x2 : Vec F S16x16 .f32) (x3 : Vec F S1024x16 .f32) (xs0 : Vec F S1024x16 .f32) :
    Σ' (L4 : List (View.Piece (Elt F) S1024x16 .f32)) (L5 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__step_kernel i arg2 harg2 arg3 harg3 arg4 harg4 arg5 harg5 arg6 harg6 arg7 harg7 arg8 harg8) K } := by
  refine ⟨?_, ?_, ?_, fun E K => ?run⟩
  case run =>
    simp only [cc1__step_kernel_eq_skeleton]; unfold cc1__step_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Region1

end Cert.KernelIdeal.H

end
-- ==== Proof.KernelIdeal.R1.Data.lean ====
/-
  What each control case of the region leaves in the accumulator and the outputs, those contents after each grid point
  by recursion on the point, the region's invariant (the accumulator carried from point to point), its proof data and
  the body's obligation at every point.
-/
import proofs.«163433_j78743930404901_1_alg».proof.Proof.KernelIdeal.R1.RunC

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What each case leaves -/

/-- The accumulator after a point with `k = 0`: the case's pieces read back. -/
def sout1_A (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond1_0 i) (hc1 : ¬cond1_1 i) (x0 : Vec F S1024x1024 .f32) (x1 : Vec F S1024x16 .f32) (x2 : Vec F S16x16 .f32) (x3 : Vec F S1024x16 .f32) : Vec F S1024x16 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).1)
/-- Its pieces cover the buffer. -/
theorem scover1_A (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond1_0 i) (hc1 : ¬cond1_1 i) (x0 : Vec F S1024x1024 .f32) (x1 : Vec F S1024x16 .f32) (x2 : Vec F S16x16 .f32) (x3 : Vec F S1024x16 .f32) (y : S1024x16.Idx) :
    ∃ pc ∈ (kernelRun1_A c i arg2 harg2 arg3 harg3 arg4 harg4 arg5 harg5 arg6 harg6 arg7 harg7 arg8 harg8 hc0 hc1 x0 x1 x2 x3).1, y ∈ pc.1.set :=
  View.cover_of_tiledL (kernelRun1_A c i arg2 harg2 arg3 harg3 arg4 harg4 arg5 harg5 arg6 harg6 arg7 harg7 arg8 harg8 hc0 hc1 x0 x1 x2 x3).1 S1024x16.size (by sl_kernel_rfl) y

/-- The accumulator after a point with `0 < k < 7`, entered at `xs0`. -/
def sout1_B (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : ¬cond1_1 i) (x0 : Vec F S1024x1024 .f32) (x1 : Vec F S1024x16 .f32) (x2 : Vec F S16x16 .f32) (x3 : Vec F S1024x16 .f32) (xs0 : Vec F S1024x16 .f32) : Vec F S1024x16 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0).1)
theorem scover1_B (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : ¬cond1_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun1_B c i arg2 harg2 arg3 harg3 arg4 harg4 arg5 harg5 arg6 harg6 arg7 harg7 arg8 harg8 hc0 hc1 x0 x1 x2 x3 xs0).1, y ∈ pc.1.set :=
  View.cover_of_tiledL (kernelRun1_B c i arg2 harg2 arg3 harg3 arg4 harg4 arg5 harg5 arg6 harg6 arg7 harg7 arg8 harg8 hc0 hc1 x0 x1 x2 x3 xs0).1 S1024x16.size (by sl_kernel_rfl) y

/-- After a point with `k = 7`, entered at `xs0`: the first output, the second output, the accumulator. -/
def out1_C_4 (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i) (x0 : Vec F S1024x1024 .f32) (x1 : Vec F S1024x16 .f32) (x2 : Vec F S16x16 .f32) (x3 : Vec F S1024x16 .f32) (xs0 : Vec F S1024x16 .f32) : Vec F S1024x16 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0).1)
theorem cover1_C_4 (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun1_C c i arg2 harg2 arg3 harg3 arg4 harg4 arg5 harg5 arg6 harg6 arg7 harg7 arg8 harg8 hc0 hc1 x0 x1 x2 x3 xs0).1, y ∈ pc.1.set :=
  View.cover_of_tiledL (kernelRun1_C c i arg2 harg2 arg3 harg3 arg4 harg4 arg5 harg5 arg6 harg6 arg7 harg7 arg8 harg8 hc0 hc1 x0 x1 x2 x3 xs0).1 S1024x16.size (by sl_kernel_rfl) y
def out1_C_5 (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i) (x0 : Vec F S1024x1024 .f32) (x1 : Vec F S1024x16 .f32) (x2 : Vec F S16x16 .f32) (x3 : Vec F S1024x16 .f32) (xs0 : Vec F S1024x16 .f32) : Vec F S1024x16 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 xs0).2.1)
theorem cover1_C_5 (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun1_C c i arg2 harg2 arg3 harg3 arg4 harg4 arg5 harg5 arg6 harg6 arg7 harg7 arg8 harg8 hc0 hc1 x0 x1 x2 x3 xs0).2.1, y ∈ pc.1.set :=
  View.cover_of_tiledL (kernelRun1_C c i arg2 harg2 arg3 harg3 arg4 harg4 arg5 harg5 arg6 harg6 arg7 harg7 arg8 harg8 hc0 hc1 x0 x1 x2 x3 xs0).2.1 S1024x16.size (by sl_kernel_rfl) y
def sout1_C (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i) (x0 : Vec F S1024x1024 .f32) (x1 : Vec F S1024x16 .f32) (x2 : Vec F S16x16 .f32) (x3 : Vec F S1024x16 .f32) (xs0 : Vec F S1024x16 .f32) : Vec F S1024x16 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0).2.2.1)
theorem scover1_C (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun1_C c i arg2 harg2 arg3 harg3 arg4 harg4 arg5 harg5 arg6 harg6 arg7 harg7 arg8 harg8 hc0 hc1 x0 x1 x2 x3 xs0).2.2.1, y ∈ pc.1.set :=
  View.cover_of_tiledL (kernelRun1_C c i arg2 harg2 arg3 harg3 arg4 harg4 arg5 harg5 arg6 harg6 arg7 harg7 arg8 harg8 hc0 hc1 x0 x1 x2 x3 xs0).2.2.1 S1024x16.size (by sl_kernel_rfl) y

/-- What stands for an output's staging buffer at a point that stores nothing into it: nothing reads it there. -/
def idleOut1 : Vec F S1024x16 .f32 := VO1_4.read (Elt F) VO1_4.junk

/-! ## The same at a grid point, on the point's memrefs and blocks -/

def soutAt1_A (c : Dev nD) (t : Fin cfg1.N) (h0 : t.val % 8 = 0) (h1 : ¬t.val % 8 = 7) : Vec F S1024x16 .f32 :=
  sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t)
def soutAt1_B (c : Dev nD) (t : Fin cfg1.N) (h0 : ¬t.val % 8 = 0) (h1 : ¬t.val % 8 = 7) (xs0 : Vec F S1024x16 .f32) : Vec F S1024x16 .f32 :=
  sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) xs0
def out4At1_C (c : Dev nD) (t : Fin cfg1.N) (h0 : ¬t.val % 8 = 0) (h1 : t.val % 8 = 7) (xs0 : Vec F S1024x16 .f32) : Vec F S1024x16 .f32 :=
  out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) xs0
def out5At1_C (c : Dev nD) (t : Fin cfg1.N) (h0 : ¬t.val % 8 = 0) (h1 : t.val % 8 = 7) (xs0 : Vec F S1024x16 .f32) : Vec F S1024x16 .f32 :=
  out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) xs0
def soutAt1_C (c : Dev nD) (t : Fin cfg1.N) (h0 : ¬t.val % 8 = 0) (h1 : t.val % 8 = 7) (xs0 : Vec F S1024x16 .f32) : Vec F S1024x16 .f32 :=
  sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) xs0

/-! ## The contents after each point -/

/-- After point `n`: the first output's staging buffer, the second's, the accumulator. The accumulator of a
    point with `k > 0` is computed from what the point before left in it. -/
def outsAt1 (c : Dev nD) : (n : ℕ) → n < cfg1.N → Vec F S1024x16 .f32 × Vec F S1024x16 .f32 × Vec F S1024x16 .f32
  | 0, hn => (idleOut1, idleOut1, soutAt1_A V c ⟨0, hn⟩ (Nat.zero_mod _) (by simp))
  | n + 1, hn =>
    if h0 : (n + 1) % 8 = 0 then
      (idleOut1, idleOut1, soutAt1_A V c ⟨n + 1, hn⟩ h0 (by dsimp only; omega))
    else
      if h1 : (n + 1) % 8 = 7 then
        (out4At1_C V c ⟨n + 1, hn⟩ h0 h1 (outsAt1 c n (Nat.lt_of_succ_lt hn)).2.2,
         out5At1_C V c ⟨n + 1, hn⟩ h0 h1 (outsAt1 c n (Nat.lt_of_succ_lt hn)).2.2,
         soutAt1_C V c ⟨n + 1, hn⟩ h0 h1 (outsAt1 c n (Nat.lt_of_succ_lt hn)).2.2)
      else
        (idleOut1, idleOut1, soutAt1_B V c ⟨n + 1, hn⟩ h0 h1 (outsAt1 c n (Nat.lt_of_succ_lt hn)).2.2)

theorem outsAt1_A (c : Dev nD) (t : Fin cfg1.N) (h0 : t.val % 8 = 0) (h1 : ¬t.val % 8 = 7) :
    outsAt1 V c t.val t.isLt = (idleOut1, idleOut1, soutAt1_A V c t h0 h1) := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = (idleOut1, idleOut1, soutAt1_B V c t h0 h1 (outsAt1 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt
      = (out4At1_C V c t h0 h1 (outsAt1 V c (t.val - 1) (Nat.lt_of_le_of_lt (Nat.sub_le _ _) t.isLt)).2.2,
         out5At1_C V c t h0 h1 (outsAt1 V c (t.val - 1) (Nat.lt_of_le_of_lt (Nat.sub_le _ _) t.isLt)).2.2,
         soutAt1_C V c t h0 h1 (outsAt1 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The invariant: the accumulator carried between points -/

/-- The scoped buffers of the other calls, which this region never opens. -/
abbrev others1 (c : Dev nD) : sProp 𝕄 :=
  Pipeline.scopedRestBut (Ix := Unit) (Name := ℕ) (U := UR sig nD τ) (Lvl := ℕ) (Val := Elt F) spec1 c [cc1_scratch0]

/-- Before point `n`: at the first point what the region was handed; afterwards the accumulator at what the
    point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ others1 c) ∗ (∃ r, prngReg c r)) := by
  cases n with
  | zero => exact absurd rfl hz
  | succ n => rfl

/-! ## The region's proof data -/

/-- The arrays as the region finds them; after the body at point `t` each input's buffer at its block and the
    outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]

set_option maxHeartbeats 4800000 in
/-- The body at any point. The point's residue mod 8 says which case it is in; the invariant hands the body the
    accumulator (at anything before the first point, else at what the point before left) and takes it back at
    this point's contents; an idle output is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 64 := lt_of_lt_of_eq t.isLt (show cfg1.N = 64 from N_1)
  by_cases h0 : t.val % 8 = 0
  · have h1 : ¬t.val % 8 = 7 := by omega
    have hnc1 : ¬cond1_1 (grid1.coords t) := fun h => h1 ((hcond1_1 t).mp h)
    rw [Dat.leavesExact_idle (dat1 V c) 4 t (idleAt1_4 t hnc1) (noFlush1_4 t hnc1),
      Dat.leavesExact_idle (dat1 V c) 5 t (idleAt1_5 t hnc1) (noFlush1_5 t hnc1)]
    rw [outsAt1_A V c t h0 h1]
    unfold soutAt1_A sout1_A; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) hnc1 (iblk1 V c 0 t) (iblk1 V c 1 t) (iblk1 V c 2 t) (iblk1 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) hnc1 (iblk1 V c 0 t) (iblk1 V c 1 t) (iblk1 V c 2 t) (iblk1 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hnc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [show (dat1 V c).leavesExact 5 t = owns (c : Thread nD τ) (ms1_5 t) fullShare ((dat1 V c).after 5 t) from by
        unfold Dat.leavesExact; rw [liveAt1_5 t hc1], after1_5]
      rw [outsAt1_C V c t h0 h1]
      unfold out4At1_C out5At1_C soutAt1_C out1_C_4 out1_C_5 sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ hnc0 hc1 (iblk1 V c 0 t) (iblk1 V c 1 t) (iblk1 V c 2 t) (iblk1 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _)
    · have hnc1 : ¬cond1_1 (grid1.coords t) := fun h => h1 ((hcond1_1 t).mp h)
      rw [Dat.leavesExact_idle (dat1 V c) 4 t (idleAt1_4 t hnc1) (noFlush1_4 t hnc1),
        Dat.leavesExact_idle (dat1 V c) 5 t (idleAt1_5 t hnc1) (noFlush1_5 t hnc1)]
      rw [outsAt1_B V c t h0 h1]
      unfold soutAt1_B sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ hnc0 hnc1 (iblk1 V c 0 t) (iblk1 V c 1 t) (iblk1 V c 2 t) (iblk1 V c 3 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The obligation at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

end Region1

end Cert.KernelIdeal.H

end
-- ==== Proof.KernelIdeal.R2.Runs.lean ====
/-
  One kernel region of @main (a propagation step xp' = L·xp with the hop's contribution added, acc' = acc + relu(xp'·W)):
  what its three control cases share. The grid is 8 × 8 points (row tile i, contraction tile k), point t = 8·i + k. The
  body resets its scratch accumulator where k = 0, adds the product of the point's two tiles to it at every point, and
  where k = 7 copies the accumulator out and stores the second output. Stated at any float type and at any contents
  `V` of the core's buffers when the region is entered.
-/
import proofs.«163433_j78743930404901_1_alg».proof.Proof.Gen.KernelIdeal.Launch
import proofs.«163433_j78743930404901_1_alg».proof.Proof.Gen.KernelIdeal.Skeleton
import proofs.«163433_j78743930404901_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the point's block whether or not the point fetched it: a point
    that does not fetch has the block index of the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, decided over the grid -/

/-- `k = 0`, as the body computes it. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- `k = 7`, as the body computes it. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where `k ≠ 7` the body stores nothing into the two outputs and their blocks are not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_4 : ∀ t : Fin cfg2.N, cond2_1 (grid2.coords t) → cfg2.idle 4 (grid2.coords t) = false := by decide +kernel
theorem liveAt2_5 : ∀ t : Fin cfg2.N, cond2_1 (grid2.coords t) → cfg2.idle 5 (grid2.coords t) = false := by decide +kernel

/-! ## The memrefs the body is called with -/

abbrev VO2_4 : View sig .tc .vmem S1024x16 .f32 := (Memref.whole cc2_stg4_0 : Memref sig .tc .vmem S1024x16 .f32).view
abbrev VO2_5 : View sig .tc .vmem S1024x16 .f32 := (Memref.whole cc2_stg5_0 : Memref sig .tc .vmem S1024x16 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x16 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S16x16 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x16 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x16 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x16 .f32 := win2_5.stage (cfg2.slots t 5)
abbrev hs2_5 (t : Fin cfg2.N) : (ms2_5 t).IsWhole := hstage2_5 ((cfg2.slots t 5).cast nbuf2_5)
/-- The accumulator: a whole scoped buffer of the kernel's own, carried from point to point. -/
abbrev scM2_0 : Memref sig .tc .vmem S1024x16 .f32 := Memref.whole cc2_scratch0
abbrev VS2_0 : View sig .tc .vmem S1024x16 .f32 := scM2_0.view

/-- What the region hands the body beside the windows: the accumulator at some contents, every other scoped
    buffer no window stages, and the generator register. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Region2

end Cert.KernelIdeal.H

end
-- ==== Proof.KernelIdeal.R2.RunA.lean ====
/-
  At the points with k = 0 (the accumulator is reset, then the point's product added; the outputs are left alone): the body's triple, run once symbolically. The pieces each buffer ends with are read off the run.
-/
import proofs.«163433_j78743930404901_1_alg».proof.Proof.KernelIdeal.R2.Runs

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

set_option maxHeartbeats 1000000 in
/-- On whole memrefs — the four inputs at their contents, the two outputs at contents handed back untouched, the
    accumulator at anything — the body runs to its end holding the inputs and outputs as they were and the
    accumulator with the pieces `LS0` written. -/
noncomputable def kernelRun2_A (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i)
    (x0 : Vec F S1024x1024 .f32) (x1 : Vec F S1024x16 .f32) (x2 : Vec F S16x16 .f32) (x3 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__step_kernel i arg2 harg2 arg3 harg3 arg4 harg4 arg5 harg5 arg6 harg6 arg7 harg7 arg8 harg8) K } := by
  refine ⟨?_, fun xi4 xi5 E K => ?run⟩
  case run =>
    simp only [cc2__step_kernel_eq_skeleton]; unfold cc2__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region2

end Cert.KernelIdeal.H

end
-- ==== Proof.KernelIdeal.R2.RunB.lean ====
/-
  At the points with 0 < k < 7 (the point's product is added to the accumulator; the outputs are left alone): the body's triple, run once symbolically. The pieces each buffer ends with are read off the run.
-/
import proofs.«163433_j78743930404901_1_alg».proof.Proof.KernelIdeal.R2.RunA

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

set_option maxHeartbeats 1000000 in
/-- As at `k = 0`, but the accumulator enters at the contents `xs0` the point before left. -/
noncomputable def kernelRun2_B (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i)
    (x0 : Vec F S1024x1024 .f32) (x1 : Vec F S1024x16 .f32) (x2 : Vec F S16x16 .f32) (x3 : Vec F S1024x16 .f32) (xs0 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__step_kernel i arg2 harg2 arg3 harg3 arg4 harg4 arg5 harg5 arg6 harg6 arg7 harg7 arg8 harg8) K } := by
  refine ⟨?_, fun xi4 xi5 E K => ?run⟩
  case run =>
    simp only [cc2__step_kernel_eq_skeleton]; unfold cc2__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region2

end Cert.KernelIdeal.H

end
-- ==== Proof.KernelIdeal.R2.RunC.lean ====
/-
  At the points with k = 7 (the last product is added, the accumulator copied to the first output, and the second output stored): the body's triple, run once symbolically. The pieces each buffer ends with are read off the run.
-/
import proofs.«163433_j78743930404901_1_alg».proof.Proof.KernelIdeal.R2.RunB

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

set_option maxHeartbeats 1000000 in
/-- The accumulator enters at `xs0`; the two outputs enter at anything and leave with the pieces `L4`, `L5` written. -/
noncomputable def kernelRun2_C (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x1024 .f32) (x1 : Vec F S1024x16 .f32) (x2 : Vec F S16x16 .f32) (x3 : Vec F S1024x16 .f32) (xs0 : Vec F S1024x16 .f32) :
    Σ' (L4 : List (View.Piece (Elt F) S1024x16 .f32)) (L5 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2__step_kernel i arg2 harg2 arg3 harg3 arg4 harg4 arg5 harg5 arg6 harg6 arg7 harg7 arg8 harg8) K } := by
  refine ⟨?_, ?_, ?_, fun E K => ?run⟩
  case run =>
    simp only [cc2__step_kernel_eq_skeleton]; unfold cc2__step_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Region2

end Cert.KernelIdeal.H

end
-- ==== Proof.KernelIdeal.R2.Data.lean ====
/-
  What each control case of the region leaves in the accumulator and the outputs, those contents after each grid point
  by recursion on the point, the region's invariant (the accumulator carried from point to point), its proof data and
  the body's obligation at every point.
-/
import proofs.«163433_j78743930404901_1_alg».proof.Proof.KernelIdeal.R2.RunC

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-! ## What each case leaves -/

/-- The accumulator after a point with `k = 0`: the case's pieces read back. -/
def sout2_A (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i) (x0 : Vec F S1024x1024 .f32) (x1 : Vec F S1024x16 .f32) (x2 : Vec F S16x16 .f32) (x3 : Vec F S1024x16 .f32) : Vec F S1024x16 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2 x3).1)
/-- Its pieces cover the buffer. -/
theorem scover2_A (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i) (x0 : Vec F S1024x1024 .f32) (x1 : Vec F S1024x16 .f32) (x2 : Vec F S16x16 .f32) (x3 : Vec F S1024x16 .f32) (y : S1024x16.Idx) :
    ∃ pc ∈ (kernelRun2_A c i arg2 harg2 arg3 harg3 arg4 harg4 arg5 harg5 arg6 harg6 arg7 harg7 arg8 harg8 hc0 hc1 x0 x1 x2 x3).1, y ∈ pc.1.set :=
  View.cover_of_tiledL (kernelRun2_A c i arg2 harg2 arg3 harg3 arg4 harg4 arg5 harg5 arg6 harg6 arg7 harg7 arg8 harg8 hc0 hc1 x0 x1 x2 x3).1 S1024x16.size (by sl_kernel_rfl) y

/-- The accumulator after a point with `0 < k < 7`, entered at `xs0`. -/
def sout2_B (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i) (x0 : Vec F S1024x1024 .f32) (x1 : Vec F S1024x16 .f32) (x2 : Vec F S16x16 .f32) (x3 : Vec F S1024x16 .f32) (xs0 : Vec F S1024x16 .f32) : Vec F S1024x16 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 x3 xs0).1)
theorem scover2_B (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun2_B c i arg2 harg2 arg3 harg3 arg4 harg4 arg5 harg5 arg6 harg6 arg7 harg7 arg8 harg8 hc0 hc1 x0 x1 x2 x3 xs0).1, y ∈ pc.1.set :=
  View.cover_of_tiledL (kernelRun2_B c i arg2 harg2 arg3 harg3 arg4 harg4 arg5 harg5 arg6 harg6 arg7 harg7 arg8 harg8 hc0 hc1 x0 x1 x2 x3 xs0).1 S1024x16.size (by sl_kernel_rfl) y

/-- After a point with `k = 7`, entered at `xs0`: the first output, the second output, the accumulator. -/
def out2_C_4 (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i) (x0 : Vec F S1024x1024 .f32) (x1 : Vec F S1024x16 .f32) (x2 : Vec F S16x16 .f32) (x3 : Vec F S1024x16 .f32) (xs0 : Vec F S1024x16 .f32) : Vec F S1024x16 .f32 :=
  VO2_4.read (Elt F) (VO2_4.writes (Elt F) VO2_4.junk (kernelRun2_C c i arg2 harg2 arg3 harg3 arg4 harg4 arg5 harg5 arg6 harg6 arg7 harg7 arg8 harg8 hc0 hc1 x0 x1 x2 x3 xs0).1)
theorem cover2_C_4 (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun2_C c i arg2 harg2 arg3 harg3 arg4 harg4 arg5 harg5 arg6 harg6 arg7 harg7 arg8 harg8 hc0 hc1 x0 x1 x2 x3 xs0).1, y ∈ pc.1.set :=
  View.cover_of_tiledL (kernelRun2_C c i arg2 harg2 arg3 harg3 arg4 harg4 arg5 harg5 arg6 harg6 arg7 harg7 arg8 harg8 hc0 hc1 x0 x1 x2 x3 xs0).1 S1024x16.size (by sl_kernel_rfl) y
def out2_C_5 (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i) (x0 : Vec F S1024x1024 .f32) (x1 : Vec F S1024x16 .f32) (x2 : Vec F S16x16 .f32) (x3 : Vec F S1024x16 .f32) (xs0 : Vec F S1024x16 .f32) : Vec F S1024x16 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 xs0).2.1)
theorem cover2_C_5 (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun2_C c i arg2 harg2 arg3 harg3 arg4 harg4 arg5 harg5 arg6 harg6 arg7 harg7 arg8 harg8 hc0 hc1 x0 x1 x2 x3 xs0).2.1, y ∈ pc.1.set :=
  View.cover_of_tiledL (kernelRun2_C c i arg2 harg2 arg3 harg3 arg4 harg4 arg5 harg5 arg6 harg6 arg7 harg7 arg8 harg8 hc0 hc1 x0 x1 x2 x3 xs0).2.1 S1024x16.size (by sl_kernel_rfl) y
def sout2_C (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i) (x0 : Vec F S1024x1024 .f32) (x1 : Vec F S1024x16 .f32) (x2 : Vec F S16x16 .f32) (x3 : Vec F S1024x16 .f32) (xs0 : Vec F S1024x16 .f32) : Vec F S1024x16 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 x3 xs0).2.2.1)
theorem scover2_C (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun2_C c i arg2 harg2 arg3 harg3 arg4 harg4 arg5 harg5 arg6 harg6 arg7 harg7 arg8 harg8 hc0 hc1 x0 x1 x2 x3 xs0).2.2.1, y ∈ pc.1.set :=
  View.cover_of_tiledL (kernelRun2_C c i arg2 harg2 arg3 harg3 arg4 harg4 arg5 harg5 arg6 harg6 arg7 harg7 arg8 harg8 hc0 hc1 x0 x1 x2 x3 xs0).2.2.1 S1024x16.size (by sl_kernel_rfl) y

/-- What stands for an output's staging buffer at a point that stores nothing into it: nothing reads it there. -/
def idleOut2 : Vec F S1024x16 .f32 := VO2_4.read (Elt F) VO2_4.junk

/-! ## The same at a grid point, on the point's memrefs and blocks -/

def soutAt2_A (c : Dev nD) (t : Fin cfg2.N) (h0 : t.val % 8 = 0) (h1 : ¬t.val % 8 = 7) : Vec F S1024x16 .f32 :=
  sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t)
def soutAt2_B (c : Dev nD) (t : Fin cfg2.N) (h0 : ¬t.val % 8 = 0) (h1 : ¬t.val % 8 = 7) (xs0 : Vec F S1024x16 .f32) : Vec F S1024x16 .f32 :=
  sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) xs0
def out4At2_C (c : Dev nD) (t : Fin cfg2.N) (h0 : ¬t.val % 8 = 0) (h1 : t.val % 8 = 7) (xs0 : Vec F S1024x16 .f32) : Vec F S1024x16 .f32 :=
  out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) xs0
def out5At2_C (c : Dev nD) (t : Fin cfg2.N) (h0 : ¬t.val % 8 = 0) (h1 : t.val % 8 = 7) (xs0 : Vec F S1024x16 .f32) : Vec F S1024x16 .f32 :=
  out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) xs0
def soutAt2_C (c : Dev nD) (t : Fin cfg2.N) (h0 : ¬t.val % 8 = 0) (h1 : t.val % 8 = 7) (xs0 : Vec F S1024x16 .f32) : Vec F S1024x16 .f32 :=
  sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) xs0

/-! ## The contents after each point -/

/-- After point `n`: the first output's staging buffer, the second's, the accumulator. The accumulator of a
    point with `k > 0` is computed from what the point before left in it. -/
def outsAt2 (c : Dev nD) : (n : ℕ) → n < cfg2.N → Vec F S1024x16 .f32 × Vec F S1024x16 .f32 × Vec F S1024x16 .f32
  | 0, hn => (idleOut2, idleOut2, soutAt2_A V c ⟨0, hn⟩ (Nat.zero_mod _) (by simp))
  | n + 1, hn =>
    if h0 : (n + 1) % 8 = 0 then
      (idleOut2, idleOut2, soutAt2_A V c ⟨n + 1, hn⟩ h0 (by dsimp only; omega))
    else
      if h1 : (n + 1) % 8 = 7 then
        (out4At2_C V c ⟨n + 1, hn⟩ h0 h1 (outsAt2 c n (Nat.lt_of_succ_lt hn)).2.2,
         out5At2_C V c ⟨n + 1, hn⟩ h0 h1 (outsAt2 c n (Nat.lt_of_succ_lt hn)).2.2,
         soutAt2_C V c ⟨n + 1, hn⟩ h0 h1 (outsAt2 c n (Nat.lt_of_succ_lt hn)).2.2)
      else
        (idleOut2, idleOut2, soutAt2_B V c ⟨n + 1, hn⟩ h0 h1 (outsAt2 c n (Nat.lt_of_succ_lt hn)).2.2)

theorem outsAt2_A (c : Dev nD) (t : Fin cfg2.N) (h0 : t.val % 8 = 0) (h1 : ¬t.val % 8 = 7) :
    outsAt2 V c t.val t.isLt = (idleOut2, idleOut2, soutAt2_A V c t h0 h1) := by
  obtain ⟨n, hn⟩ := t
  cases n with
  | zero => rfl
  | succ n => exact (dif_pos h0).trans rfl

theorem outsAt2_B (c : Dev nD) (t : Fin cfg2.N) (h0 : ¬t.val % 8 = 0) (h1 : ¬t.val % 8 = 7) :
    outsAt2 V c t.val t.isLt = (idleOut2, idleOut2, soutAt2_B V c t h0 h1 (outsAt2 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 8 = 0) (h1 : t.val % 8 = 7) :
    outsAt2 V c t.val t.isLt
      = (out4At2_C V c t h0 h1 (outsAt2 V c (t.val - 1) (Nat.lt_of_le_of_lt (Nat.sub_le _ _) t.isLt)).2.2,
         out5At2_C V c t h0 h1 (outsAt2 V c (t.val - 1) (Nat.lt_of_le_of_lt (Nat.sub_le _ _) t.isLt)).2.2,
         soutAt2_C V c t h0 h1 (outsAt2 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The invariant: the accumulator carried between points -/

/-- The scoped buffers of the other calls, which this region never opens. -/
abbrev others2 (c : Dev nD) : sProp 𝕄 :=
  Pipeline.scopedRestBut (Ix := Unit) (Name := ℕ) (U := UR sig nD τ) (Lvl := ℕ) (Val := Elt F) spec2 c [cc2_scratch0]

/-- Before point `n`: at the first point what the region was handed; afterwards the accumulator at what the
    point before left in it. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2.2) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ others2 c) ∗ (∃ r, prngReg c r)) := by
  cases n with
  | zero => exact absurd rfl hz
  | succ n => rfl

/-! ## The region's proof data -/

/-- The arrays as the region finds them; after the body at point `t` each input's buffer at its block and the
    outputs' at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]

set_option maxHeartbeats 4800000 in
/-- The body at any point. The point's residue mod 8 says which case it is in; the invariant hands the body the
    accumulator (at anything before the first point, else at what the point before left) and takes it back at
    this point's contents; an idle output is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  have hN : t.val < 64 := lt_of_lt_of_eq t.isLt (show cfg2.N = 64 from N_2)
  by_cases h0 : t.val % 8 = 0
  · have h1 : ¬t.val % 8 = 7 := by omega
    have hnc1 : ¬cond2_1 (grid2.coords t) := fun h => h1 ((hcond2_1 t).mp h)
    rw [Dat.leavesExact_idle (dat2 V c) 4 t (idleAt2_4 t hnc1) (noFlush2_4 t hnc1),
      Dat.leavesExact_idle (dat2 V c) 5 t (idleAt2_5 t hnc1) (noFlush2_5 t hnc1)]
    rw [outsAt2_A V c t h0 h1]
    unfold soutAt2_A sout2_A; (try dsimp only)
    by_cases hz : t.val = 0
    · rw [PhiS2_castSucc V c t, PhiS2_zero V c _ _ hz, PhiA2_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) hnc1 (iblk2 V c 0 t) (iblk2 V c 1 t) (iblk2 V c 2 t) (iblk2 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) hnc1 (iblk2 V c 0 t) (iblk2 V c 1 t) (iblk2 V c 2 t) (iblk2 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hnc0 : ¬cond2_0 (grid2.coords t) := fun h => h0 ((hcond2_0 t).mp h)
    by_cases h1 : t.val % 8 = 7
    · have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4]
      rw [show (dat2 V c).leavesExact 5 t = owns (c : Thread nD τ) (ms2_5 t) fullShare ((dat2 V c).after 5 t) from by
        unfold Dat.leavesExact; rw [liveAt2_5 t hc1], after2_5]
      rw [outsAt2_C V c t h0 h1]
      unfold out4At2_C out5At2_C soutAt2_C out2_C_4 out2_C_5 sout2_C; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ hnc0 hc1 (iblk2 V c 0 t) (iblk2 V c 1 t) (iblk2 V c 2 t) (iblk2 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_C c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_C_4 c _ _ _ _ _ _ _ _ _ _ _ _ _ _ _ _ _ _ _ _ _ _)
      unfold owns; iexists _; isplitr
      swap; · iexact H5
      ipureintro; exact View.read_writes_of_cover _ _ _ _ _ (cover2_C_5 c _ _ _ _ _ _ _ _ _ _ _ _ _ _ _ _ _ _ _ _ _ _)
    · have hnc1 : ¬cond2_1 (grid2.coords t) := fun h => h1 ((hcond2_1 t).mp h)
      rw [Dat.leavesExact_idle (dat2 V c) 4 t (idleAt2_4 t hnc1) (noFlush2_4 t hnc1),
        Dat.leavesExact_idle (dat2 V c) 5 t (idleAt2_5 t hnc1) (noFlush2_5 t hnc1)]
      rw [outsAt2_B V c t h0 h1]
      unfold soutAt2_B sout2_B; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ hnc0 hnc1 (iblk2 V c 0 t) (iblk2 V c 1 t) (iblk2 V c 2 t) (iblk2 V c 3 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_B c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The obligation at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back, the accumulator's contents forgotten. -/
theorem hout2 (c : Dev nD) : (dat2 V c).Φ (Fin.last cfg2.N) ⊢ Pipeline.ΦA spec2 c := by
  have ht : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hoth⟩, Hg⟩
  isplitl [HS0 Hoth]
  · isplitl [HS0]
    · iexists _; iexact HS0
    iexact Hoth
  iexact Hg

end Region2

end Cert.KernelIdeal.H

end
-- ==== Proof.KernelIdeal.R3.Runs.lean ====
/-
  One kernel region of @main (a propagation step xp' = L·xp with the hop's contribution added, acc' = acc + relu(xp'·W)):
  what its three control cases share. The grid is 8 × 8 points (row tile i, contraction tile k), point t = 8·i + k. The
  body resets its scratch accumulator where k = 0, adds the product of the point's two tiles to it at every point, and
  where k = 7 copies the accumulator out and stores the second output. Stated at any float type and at any contents
  `V` of the core's buffers when the region is entered.
-/
import proofs.«163433_j78743930404901_1_alg».proof.Proof.Gen.KernelIdeal.Launch
import proofs.«163433_j78743930404901_1_alg».proof.Proof.Gen.KernelIdeal.Skeleton
import proofs.«163433_j78743930404901_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the point's block whether or not the point fetched it: a point
    that does not fetch has the block index of the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The two branch conditions, decided over the grid -/

/-- `k = 0`, as the body computes it. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- `k = 7`, as the body computes it. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Where `k ≠ 7` the body stores nothing into the two outputs and their blocks are not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
theorem liveAt3_4 : ∀ t : Fin cfg3.N, cond3_1 (grid3.coords t) → cfg3.idle 4 (grid3.coords t) = false := by decide +kernel
theorem liveAt3_5 : ∀ t : Fin cfg3.N, cond3_1 (grid3.coords t) → cfg3.idle 5 (grid3.coords t) = false := by decide +kernel

/-! ## The memrefs the body is called with -/

abbrev VO3_4 : View sig .tc .vmem S1024x16 .f32 := (Memref.whole cc3_stg4_0 : Memref sig .tc .vmem S1024x16 .f32).view
abbrev VO3_5 : View sig .tc .vmem S1024x16 .f32 := (Memref.whole cc3_stg5_0 : Memref sig .tc .vmem S1024x16 .f32).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x16 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S16x16 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x16 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x16 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x16 .f32 := win3_5.stage (cfg3.slots t 5)
abbrev hs3_5 (t : Fin cfg3.N) : (ms3_5 t).IsWhole := hstage3_5 ((cfg3.slots t 5).cast nbuf3_5)
/-- The accumulator: a whole scoped buffer of the kernel's own, carried from point to point. -/
abbrev scM3_0 : Memref sig .tc .vmem S1024x16 .f32 := Memref.whole cc3_scratch0
abbrev VS3_0 : View sig .tc .vmem S1024x16 .f32 := scM3_0.view

/-- What the region hands the body beside the windows: the accumulator at some contents, every other scoped
    buffer no window stages, and the generator register. -/
theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Region3

end Cert.KernelIdeal.H

end
-- ==== Proof.KernelIdeal.R3.RunA.lean ====
/-
  At the points with k = 0 (the accumulator is reset, then the point's product added; the outputs are left alone): the body's triple, run once symbolically. The pieces each buffer ends with are read off the run.
-/
import proofs.«163433_j78743930404901_1_alg».proof.Proof.KernelIdeal.R3.Runs

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

set_option maxHeartbeats 1000000 in
/-- On whole memrefs — the four inputs at their contents, the two outputs at contents handed back untouched, the
    accumulator at anything — the body runs to its end holding the inputs and outputs as they were and the
    accumulator with the pieces `LS0` written. -/
noncomputable def kernelRun3_A (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond3_0 i) (hc1 : ¬cond3_1 i)
    (x0 : Vec F S1024x1024 .f32) (x1 : Vec F S1024x16 .f32) (x2 : Vec F S16x16 .f32) (x3 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc3__step_kernel i arg2 harg2 arg3 harg3 arg4 harg4 arg5 harg5 arg6 harg6 arg7 harg7 arg8 harg8) K } := by
  refine ⟨?_, fun xi4 xi5 E K => ?run⟩
  case run =>
    simp only [cc3__step_kernel_eq_skeleton]; unfold cc3__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region3

end Cert.KernelIdeal.H

end
-- ==== Proof.KernelIdeal.R3.RunB.lean ====
/-
  At the points with 0 < k < 7 (the point's product is added to the accumulator; the outputs are left alone): the body's triple, run once symbolically. The pieces each buffer ends with are read off the run.
-/
import proofs.«163433_j78743930404901_1_alg».proof.Proof.KernelIdeal.R3.RunA

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

set_option maxHeartbeats 1000000 in
/-- As at `k = 0`, but the accumulator enters at the contents `xs0` the point before left. -/
noncomputable def kernelRun3_B (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : ¬cond3_1 i)
    (x0 : Vec F S1024x1024 .f32) (x1 : Vec F S1024x16 .f32) (x2 : Vec F S16x16 .f32) (x3 : Vec F S1024x16 .f32) (xs0 : Vec F S1024x16 .f32) :
    { LS0 : List (View.Piece (Elt F) S1024x16 .f32) //
      ∀ (xi4 xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc3__step_kernel i arg2 harg2 arg3 harg3 arg4 harg4 arg5 harg5 arg6 harg6 arg7 harg7 arg8 harg8) K } := by
  refine ⟨?_, fun xi4 xi5 E K => ?run⟩
  case run =>
    simp only [cc3__step_kernel_eq_skeleton]; unfold cc3__step_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Region3

end Cert.KernelIdeal.H

end
-- ==== Proof.KernelIdeal.R3.RunC.lean ====
/-
  At the points with k = 7 (the last product is added, the accumulator copied to the first output, and the second output stored): the body's triple, run once symbolically. The pieces each buffer ends with are read off the run.
-/
import proofs.«163433_j78743930404901_1_alg».proof.Proof.KernelIdeal.R3.RunB

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

set_option maxHeartbeats 1000000 in
/-- The accumulator enters at `xs0`; the two outputs enter at anything and leave with the pieces `L4`, `L5` written. -/
noncomputable def kernelRun3_C (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i)
    (x0 : Vec F S1024x1024 .f32) (x1 : Vec F S1024x16 .f32) (x2 : Vec F S16x16 .f32) (x3 : Vec F S1024x16 .f32) (xs0 : Vec F S1024x16 .f32) :
    Σ' (L4 : List (View.Piece (Elt F) S1024x16 .f32)) (L5 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc3__step_kernel i arg2 harg2 arg3 harg3 arg4 harg4 arg5 harg5 arg6 harg6 arg7 harg7 arg8 harg8) K } := by
  refine ⟨?_, ?_, ?_, fun E K => ?run⟩
  case run =>
    simp only [cc3__step_kernel_eq_skeleton]; unfold cc3__step_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Region3

end Cert.KernelIdeal.H

end
-- ==== Proof.KernelIdeal.R3.Data.lean ====
/-
  What each control case of the region leaves in the accumulator and the outputs, those contents after each grid point
  by recursion on the point, the region's invariant (the accumulator carried from point to point), its proof data and
  the body's obligation at every point.
-/
import proofs.«163433_j78743930404901_1_alg».proof.Proof.KernelIdeal.R3.RunC

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## What each case leaves -/

/-- The accumulator after a point with `k = 0`: the case's pieces read back. -/
def sout3_A (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond3_0 i) (hc1 : ¬cond3_1 i) (x0 : Vec F S1024x1024 .f32) (x1 : Vec F S1024x16 .f32) (x2 : Vec F S16x16 .f32) (x3 : Vec F S1024x16 .f32) : Vec F S1024x16 .f32 :=
  VS3_0.read (Elt F) (VS3_0.writes (Elt F) VS3_0.junk (kernelRun3_A c i arg2 harg2 arg3 harg3 arg4 harg4 arg5 harg5 arg6 harg6 arg7 harg7 arg8 harg8 hc0 hc1 x0 x1 x2 x3).1)
/-- Its pieces cover the buffer. -/
theorem scover3_A (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond3_0 i) (hc1 : ¬cond3_1 i) (x0 : Vec F S1024x1024 .f32) (x1 : Vec F S1024x16 .f32) (x2 : Vec F S16x16 .f32) (x3 : Vec F S1024x16 .f32) (y : S1024x16.Idx) :
    ∃ pc ∈ (kernelRun3_A c i arg2 harg2 arg3 harg3 arg4 harg4 arg5 harg5 arg6 harg6 arg7 harg7 arg8 harg8 hc0 hc1 x0 x1 x2 x3).1, y ∈ pc.1.set :=
  View.cover_of_tiledL (kernelRun3_A c i arg2 harg2 arg3 harg3 arg4 harg4 arg5 harg5 arg6 harg6 arg7 harg7 arg8 harg8 hc0 hc1 x0 x1 x2 x3).1 S1024x16.size (by sl_kernel_rfl) y

/-- The accumulator after a point with `0 < k < 7`, entered at `xs0`. -/
def sout3_B (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : ¬cond3_1 i) (x0 : Vec F S1024x1024 .f32) (x1 : Vec F S1024x16 .f32) (x2 : Vec F S16x16 .f32) (x3 : Vec F S1024x16 .f32) (xs0 : Vec F S1024x16 .f32) : Vec F S1024x16 .f32 :=
  VS3_0.read (Elt F) (VS3_0.writes (Elt F) VS3_0.junk (kernelRun3_B c i arg2 harg2 arg3 harg3 arg4 harg4 arg5 harg5 arg6 harg6 arg7 harg7 arg8 harg8 hc0 hc1 x0 x1 x2 x3 xs0).1)
theorem scover3_B (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : ¬cond3_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun3_B c i arg2 harg2 arg3 harg3 arg4 harg4 arg5 harg5 arg6 harg6 arg7 harg7 arg8 harg8 hc0 hc1 x0 x1 x2 x3 xs0).1, y ∈ pc.1.set :=
  View.cover_of_tiledL (kernelRun3_B c i arg2 harg2 arg3 harg3 arg4 harg4 arg5 harg5 arg6 harg6 arg7 harg7 arg8 harg8 hc0 hc1 x0 x1 x2 x3 xs0).1 S1024x16.size (by sl_kernel_rfl) y

/-- After a point with `k = 7`, entered at `xs0`: the first output, the second output, the accumulator. -/
def out3_C_4 (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i) (x0 : Vec F S1024x1024 .f32) (x1 : Vec F S1024x16 .f32) (x2 : Vec F S16x16 .f32) (x3 : Vec F S1024x16 .f32) (xs0 : Vec F S1024x16 .f32) : Vec F S1024x16 .f32 :=
  VO3_4.read (Elt F) (VO3_4.writes (Elt F) VO3_4.junk (kernelRun3_C c i arg2 harg2 arg3 harg3 arg4 harg4 arg5 harg5 arg6 harg6 arg7 harg7 arg8 harg8 hc0 hc1 x0 x1 x2 x3 xs0).1)
theorem cover3_C_4 (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun3_C c i arg2 harg2 arg3 harg3 arg4 harg4 arg5 harg5 arg6 harg6 arg7 harg7 arg8 harg8 hc0 hc1 x0 x1 x2 x3 xs0).1, y ∈ pc.1.set :=
  View.cover_of_tiledL (kernelRun3_C c i arg2 harg2 arg3 harg3 arg4 harg4 arg5 harg5 arg6 harg6 arg7 harg7 arg8 harg8 hc0 hc1 x0 x1 x2 x3 xs0).1 S1024x16.size (by sl_kernel_rfl) y
def out3_C_5 (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i) (x0 : Vec F S1024x1024 .f32) (x1 : Vec F S1024x16 .f32) (x2 : Vec F S16x16 .f32) (x3 : Vec F S1024x16 .f32) (xs0 : Vec F S1024x16 .f32) : Vec F S1024x16 .f32 :=
  VO3_5.read (Elt F) (VO3_5.writes (Elt F) VO3_5.junk (kernelRun3_C c i arg2 harg2 arg3 harg3 arg4 harg4 arg5 harg5 arg6 harg6 arg7 harg7 arg8 harg8 hc0 hc1 x0 x1 x2 x3 xs0).2.1)
theorem cover3_C_5 (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun3_C c i arg2 harg2 arg3 harg3 arg4 harg4 arg5 harg5 arg6 harg6 arg7 harg7 arg8 harg8 hc0 hc1 x0 x1 x2 x3 xs0).2.1, y ∈ pc.1.set :=
  View.cover_of_tiledL (kernelRun3_C c i arg2 harg2 arg3 harg3 arg4 harg4 arg5 harg5 arg6 harg6 arg7 harg7 arg8 harg8 hc0 hc1 x0 x1 x2 x3 xs0).2.1 S1024x16.size (by sl_kernel_rfl) y
def sout3_C (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i) (x0 : Vec F S1024x1024 .f32) (x1 : Vec F S1024x16 .f32) (x2 : Vec F S16x16 .f32) (x3 : Vec F S1024x16 .f32) (xs0 : Vec F S1024x16 .f32) : Vec F S1024x16 .f32 :=
  VS3_0.read (Elt F) (VS3_0.writes (Elt F) VS3_0.junk (kernelRun3_C c i arg2 harg2 arg3 harg3 arg4 harg4 arg5 harg5 arg6 harg6 arg7 harg7 arg8 harg8 hc0 hc1 x0 x1 x2 x3 xs0).2.2.1)
theorem scover3_C (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i) (x0 : Vec F S1024x1024 .f32) (x1 : Vec F S1024x16 .f32) (x2 : Vec F S16x16 .f32) (x3 : Vec F S1024x16 .f32) (xs0 : Vec F S1024x16 .f32) (y : S1024x16.Idx) :
    ∃ pc ∈ (kernelRun3_C c i arg2 harg2 arg3 harg3 arg4 harg4 arg5 harg5 arg6 harg6 arg7 harg7 arg8 harg8 hc0 hc1 x0 x1 x2 x3 xs0).2.2.1, y ∈ pc.1.set :=
  View.cover_of_tiledL (kernelRun3_C c i arg2 harg2 arg3 harg3 arg4 harg4 arg5 harg5 arg6 harg6 arg7 harg7 arg8 harg8 hc0 hc1 x0 x1 x2 x3 xs0).2.2.1 S1024x16.size (by sl_kernel_rfl) y

/-- What stands for an output's staging buffer at a point that stores nothing into it: nothing reads it there. -/
def idleOut3 : Vec F S1024x16 .f32 := VO3_4.read (Elt F) VO3_4.junk

/-! ## The same at a grid point, on the point's memrefs and blocks -/

def soutAt3_A (c : Dev nD) (t : Fin cfg3.N) (h0 : t.val % 8 = 0) (h1 : ¬t.val % 8 = 7) : Vec F S1024x16 .f32 :=
  sout3_A c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t)
def soutAt3_B (c : Dev nD) (t : Fin cfg3.N) (h0 : ¬t.val % 8 = 0) (h1 : ¬t.val % 8 = 7) (xs0 : Vec F S1024x16 .f32) : Vec F S1024x16 .f32 :=
  sout3_B c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) xs0
def out4At3_C (c : Dev nD) (t : Fin cfg3.N) (h0 : ¬t.val % 8 = 0) (h1 : t.val % 8 = 7) (xs0 : Vec F S1024x16 .f32) : Vec F S1024x16 .f32 :=
  out3_C_4 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) xs0
def out5At3_C (c : Dev nD) (t : Fin cfg3.N) (h0 : ¬t.val % 8 = 0) (h1 : t.val % 8 = 7) (xs0 : Vec F S1024x16 .f32) : Vec F S1024x16 .f32 :=
  out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) xs0
def soutAt3_C (c : Dev nD) (t : Fin cfg3.N) (h0 : ¬t.val % 8 = 0) (h1 : t.val % 8 = 7) (xs0 : Vec F S1024x16 .f32) : Vec F S1024x16 .f32 :=
  sout3_C c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) xs0

/-! ## The contents after each point -/

/-- After point `n`: the first output's staging buffer, the second's, the accumulator. The accumulator of a
    point with `k > 0` is computed from what the point before left in it. -/
def outsAt3 (c : Dev nD) : (n : ℕ) → n < cfg3.N → Vec F S1024x16 .f32 × Vec F S1024x16 .f32 × Vec F S1024x16 .f32
  | 0, hn => (idleOut3, idleOut3, soutAt3_A V c ⟨0, hn⟩ (Nat.zero_mod _) (by simp))
  | n + 1, hn =>
    if h0 : (n + 1) % 8 = 0 then
      (idleOut3, idleOut3, soutAt3_A V c ⟨n + 1, hn⟩ h0 (by dsimp only; omega))
    else
      if h1 : (n + 1) % 8 = 7 then
        (out4At3_C V c ⟨n + 1, hn⟩ h0 h1 (outsAt3 c n (Nat.lt_of_succ_lt hn)).2.2,
         out5At3_C V c ⟨n + 1, hn⟩ h0 h1 (outsAt3 c n (Nat.lt_of_succ_lt hn)).2.2,
         soutAt3_C V c ⟨n + 1, hn⟩ h0 h1 (outsAt3 c n (Nat.lt_of_succ_lt hn)).2.2)
      else
        (idleOut3, idleOut3, soutAt3_B V c ⟨n + 1, hn⟩ h0 h1 (outsAt3 c n (Nat.lt_of_succ_lt hn)).2.2)

theorem outsAt3_A (c : Dev nD) (t : Fin cfg3.N) (h0 : t.val % 8 = 0) (h1 : ¬t.val % 8 = 7) :
    outsAt3 V c t.val t.isLt = (idleOut3, idleOut3, soutAt3_A V c t h0 h1) := by
  obtain ⟨n, hn⟩ := t
  cases n with
  | zero => rfl
  | succ n => exact (dif_pos h0).trans rfl

theorem outsAt3_B (c : Dev nD) (t : Fin cfg3.N) (h0 : ¬t.val % 8 = 0) (h1 : ¬t.val % 8 = 7) :
    outsAt3 V c t.val t.isLt = (idleOut3, idleOut3, soutAt3_B V c t h0 h1 (outsAt3 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 8 = 0) (h1 : t.val % 8 = 7) :
    outsAt3 V c t.val t.isLt
      = (out4At3_C V c t h0 h1 (outsAt3 V c (t.val - 1) (Nat.lt_of_le_of_lt (Nat.sub_le _ _) t.isLt)).2.2,
         out5At3_C V c t h0 h1 (outsAt3 V c (t.val - 1) (Nat.lt_of_le_of_lt (Nat.sub_le _ _) t.isLt)).2.2,
         soutAt3_C V c t h0 h1 (outsAt3 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The invariant: the accumulator carried between points -/

/-- The scoped buffers of the other calls, which this region never opens. -/
abbrev others3 (c : Dev nD) : sProp 𝕄 :=
  Pipeline.scopedRestBut (Ix := Unit) (Name := ℕ) (U := UR sig nD τ) (Lvl := ℕ) (Val := Elt F) spec3 c [cc3_scratch0]

/-- Before point `n`: at the first point what the region was handed; afterwards the accumulator at what the
    point before left in it. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2.2) ∗ others3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3_0 fullShare ((outsAt3 V c n hn).2.2) ∗ others3 c) ∗ (∃ r, prngReg c r)) := rfl
theorem PhiS3_pos (c : Dev nD) (n : ℕ) (h : n ≤ cfg3.N) (hz : n ≠ 0) :
    PhiS3 V c n h = iprop(iprop(owns (c : Thread nD τ) scM3_0 fullShare ((outsAt3 V c (n - 1) (by omega)).2.2) ∗ others3 c) ∗ (∃ r, prngReg c r)) := by
  cases n with
  | zero => exact absurd rfl hz
  | succ n => rfl

/-! ## The region's proof data -/

/-- The arrays as the region finds them; after the body at point `t` each input's buffer at its block and the
    outputs' at `outsAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
    | ⟨5, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]
theorem after3_5 (c : Dev nD) (t : Fin cfg3.N) : (dat3 V c).after 5 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]
theorem leaves3_3 (c : Dev nD) (t : Fin cfg3.N) : (dat3 V c).leavesExact 3 t = owns (c : Thread nD τ) (ms3_3 t) fullShare (iblk3 V c 3 t) := by
  unfold Dat.leavesExact; rw [liveAt3_3 t, after3_3]

set_option maxHeartbeats 4800000 in
/-- The body at any point. The point's residue mod 8 says which case it is in; the invariant hands the body the
    accumulator (at anything before the first point, else at what the point before left) and takes it back at
    this point's contents; an idle output is handed back as found. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3]
  have hN : t.val < 64 := lt_of_lt_of_eq t.isLt (show cfg3.N = 64 from N_3)
  by_cases h0 : t.val % 8 = 0
  · have h1 : ¬t.val % 8 = 7 := by omega
    have hnc1 : ¬cond3_1 (grid3.coords t) := fun h => h1 ((hcond3_1 t).mp h)
    rw [Dat.leavesExact_idle (dat3 V c) 4 t (idleAt3_4 t hnc1) (noFlush3_4 t hnc1),
      Dat.leavesExact_idle (dat3 V c) 5 t (idleAt3_5 t hnc1) (noFlush3_5 t hnc1)]
    rw [outsAt3_A V c t h0 h1]
    unfold soutAt3_A sout3_A; (try dsimp only)
    by_cases hz : t.val = 0
    · rw [PhiS3_castSucc V c t, PhiS3_zero V c _ _ hz, PhiA3_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ ((hcond3_0 t).mpr h0) hnc1 (iblk3 V c 0 t) (iblk3 V c 1 t) (iblk3 V c 2 t) (iblk3 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ ((hcond3_0 t).mpr h0) hnc1 (iblk3 V c 0 t) (iblk3 V c 1 t) (iblk3 V c 2 t) (iblk3 V c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_A c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hnc0 : ¬cond3_0 (grid3.coords t) := fun h => h0 ((hcond3_0 t).mp h)
    by_cases h1 : t.val % 8 = 7
    · have hc1 : cond3_1 (grid3.coords t) := (hcond3_1 t).mpr h1
      rw [show (dat3 V c).leavesExact 4 t = owns (c : Thread nD τ) (ms3_4 t) fullShare ((dat3 V c).after 4 t) from by
        unfold Dat.leavesExact; rw [liveAt3_4 t hc1], after3_4]
      rw [show (dat3 V c).leavesExact 5 t = owns (c : Thread nD τ) (ms3_5 t) fullShare ((dat3 V c).after 5 t) from by
        unfold Dat.leavesExact; rw [liveAt3_5 t hc1], after3_5]
      rw [outsAt3_C V c t h0 h1]
      unfold out4At3_C out5At3_C soutAt3_C out3_C_4 out3_C_5 sout3_C; (try dsimp only)
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ hnc0 hc1 (iblk3 V c 0 t) (iblk3 V c 1 t) (iblk3 V c 2 t) (iblk3 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_C c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_C_4 c _ _ _ _ _ _ _ _ _ _ _ _ _ _ _ _ _ _ _ _ _ _)
      unfold owns; iexists _; isplitr
      swap; · iexact H5
      ipureintro; exact View.read_writes_of_cover _ _ _ _ _ (cover3_C_5 c _ _ _ _ _ _ _ _ _ _ _ _ _ _ _ _ _ _ _ _ _ _)
    · have hnc1 : ¬cond3_1 (grid3.coords t) := fun h => h1 ((hcond3_1 t).mp h)
      rw [Dat.leavesExact_idle (dat3 V c) 4 t (idleAt3_4 t hnc1) (noFlush3_4 t hnc1),
        Dat.leavesExact_idle (dat3 V c) 5 t (idleAt3_5 t hnc1) (noFlush3_5 t hnc1)]
      rw [outsAt3_B V c t h0 h1]
      unfold soutAt3_B sout3_B; (try dsimp only)
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ hnc0 hnc1 (iblk3 V c 0 t) (iblk3 V c 1 t) (iblk3 V c 2 t) (iblk3 V c 3 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_B c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The obligation at every point. -/
theorem body_obligation3 (c : Dev nD) : BodyObligation (dat3 (F := F) V c) (defs₀ (F := F)) Variants.none () Set.univ := fun t => by
  rw [bigSep_W3, bigSep_W3]
  exact sound_body3 V c t

/-- What the region is handed is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives it back, the accumulator's contents forgotten. -/
theorem hout3 (c : Dev nD) : (dat3 V c).Φ (Fin.last cfg3.N) ⊢ Pipeline.ΦA spec3 c := by
  have ht : (Fin.last cfg3.N).val ≠ 0 := by rw [Fin.val_last]; have : cfg3.N = 64 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS0, Hoth⟩, Hg⟩
  isplitl [HS0 Hoth]
  · isplitl [HS0]
    · iexists _; iexact HS0
    iexact Hoth
  iexact Hg

end Region3

end Cert.KernelIdeal.H

end
-- ==== Proof.KernelIdeal.Run.lean ====
/-
  @main from launch to return. The contents of the core's buffers at each boundary between @main's eleven items
  (seven stretches of host operations, four kernel regions) are a fold from the launch memory: a host stretch
  applies its operations, a region replaces its two result arrays by what its write-backs leave and touches
  nothing else. Every weakly fair execution terminates, and the final memory holds every unscoped buffer at the
  fold's last contents; in particular the three argument arrays end as launched.
-/
import proofs.«163433_j78743930404901_1_alg».proof.Proof.KernelIdeal.R0.Data
import proofs.«163433_j78743930404901_1_alg».proof.Proof.KernelIdeal.R1.Data
import proofs.«163433_j78743930404901_1_alg».proof.Proof.KernelIdeal.R2.Data
import proofs.«163433_j78743930404901_1_alg».proof.Proof.KernelIdeal.R3.Data
import proofs.«163433_j78743930404901_1_alg».proof.Proof.Gen.KernelIdeal.Regions

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
theorem W1_of (c : Dev nD) (r : Ref sig .tc) (h : r ∉ hostOps0_W) : W1 m ρ c r = W0 m ρ c r :=
  StableHlo.after_of_writes_sub hostOps0 _ hostOps0_writes h

/-- After the host stretch `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c r = W1 m ρ c r :=
  StableHlo.after_of_writes_sub hostOps0_1 _ hostOps0_1_writes h

/-- After the host stretch `hostOps0_2`. -/
abbrev W3 : Dev nD → Valuation τ sig (Elt F) := fun c => StableHlo.after hostOps0_2 (W2 m ρ c)
theorem W3_of (c : Dev nD) (r : Ref sig .tc) (h : r ∉ hostOps0_2_W) : W3 m ρ c r = W2 m ρ c r :=
  StableHlo.after_of_writes_sub hostOps0_2 _ hostOps0_2_writes h

/-- Region 0's entry contents read at the core's references. -/
abbrev Vin0 : (c : Dev nD) → (b : Ref sig .tc) → Buf (Elt F) ((c : Thread nD τ).loc b) := fun c b => W3 m ρ c b

/-- At region 0's exit: its arrays at what its write-backs leave, every other buffer as entered. -/
def W4 (c : Dev nD) : Valuation τ sig (Elt F) :=
  Pipeline.withArrays spec0 c (W3 m ρ c) fun w => (dat0 (Vin0 m ρ) c).arrAt w cfg0.N
theorem W4_arr (c : Dev nD) (w : Fin cfg0.W) :
    W4 m ρ c (Proc.devRef .tc (Pipeline.arrRef spec0 w)) = (dat0 (Vin0 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- Region 0's exit contents read at the core's references. -/
abbrev Vout0 : (c : Dev nD) → (b : Ref sig .tc) → Buf (Elt F) ((c : Thread nD τ).loc b) := fun c b => W4 m ρ c b
theorem hF0 (c : Dev nD) (w : Fin cfg0.W) : (dat0 (Vin0 m ρ) c).arrAt w cfg0.N = Vout0 m ρ c (Pipeline.arrRef spec0 w) :=
  (W4_arr m ρ c w).symm
theorem hrest0 (c : Dev nD) : ∀ b, b ∉ Finset.univ.image (Pipeline.arrRef spec0) → Vout0 m ρ c b = Vin0 m ρ c b :=
  fun b hb => W4_of_ne m ρ c b fun w e => hb (Finset.mem_image.mpr ⟨w, Finset.mem_univ _, e⟩)
/-- The region changes only its two result arrays: an input window's array is written back never, and a buffer no
    window stages passes by. -/
theorem W4_of (c : Dev nD) (b : Ref sig .tc) (h1 : b ≠ main_v6_0) (h2 : b ≠ main_v6_1) :
    W4 m ρ c (Proc.devRef .tc b) = W3 m ρ c (Proc.devRef .tc b) := by
  by_cases h : ∀ w, Pipeline.arrRef spec0 w ≠ b
  · exact W4_of_ne m ρ c b h
  · obtain ⟨w, hw⟩ := not_forall.mp h
    obtain rfl := not_not.mp hw
    rw [W4_arr]
    match w with
    | ⟨0, _⟩ => exact ((dat0 (Vin0 m ρ) c).arrAt_in 0 rfl _).trans (A_eq0 (Vin0 m ρ) c 0)
    | ⟨1, _⟩ => exact ((dat0 (Vin0 m ρ) c).arrAt_in 1 rfl _).trans (A_eq0 (Vin0 m ρ) c 1)
    | ⟨2, _⟩ => exact ((dat0 (Vin0 m ρ) c).arrAt_in 2 rfl _).trans (A_eq0 (Vin0 m ρ) c 2)
    | ⟨3, _⟩ => exact ((dat0 (Vin0 m ρ) c).arrAt_in 3 rfl _).trans (A_eq0 (Vin0 m ρ) c 3)
    | ⟨4, _⟩ => exact absurd rfl h1
    | ⟨5, _⟩ => exact absurd rfl h2

/-- After the host stretch `hostOps1`. -/
abbrev W5 : Dev nD → Valuation τ sig (Elt F) := fun c => StableHlo.after hostOps1 (W4 m ρ c)
theorem W5_of (c : Dev nD) (r : Ref sig .tc) (h : r ∉ hostOps1_W) : W5 m ρ c r = W4 m ρ c r :=
  StableHlo.after_of_writes_sub hostOps1 _ hostOps1_writes h

/-- Region 1's entry contents read at the core's references. -/
abbrev Vin1 : (c : Dev nD) → (b : Ref sig .tc) → Buf (Elt F) ((c : Thread nD τ).loc b) := fun c b => W5 m ρ c b

/-- At region 1's exit: its arrays at what its write-backs leave, every other buffer as entered. -/
def W6 (c : Dev nD) : Valuation τ sig (Elt F) :=
  Pipeline.withArrays spec1 c (W5 m ρ c) fun w => (dat1 (Vin1 m ρ) c).arrAt w cfg1.N
theorem W6_arr (c : Dev nD) (w : Fin cfg1.W) :
    W6 m ρ c (Proc.devRef .tc (Pipeline.arrRef spec1 w)) = (dat1 (Vin1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- Region 1's exit contents read at the core's references. -/
abbrev Vout1 : (c : Dev nD) → (b : Ref sig .tc) → Buf (Elt F) ((c : Thread nD τ).loc b) := fun c b => W6 m ρ c b
theorem hF1 (c : Dev nD) (w : Fin cfg1.W) : (dat1 (Vin1 m ρ) c).arrAt w cfg1.N = Vout1 m ρ c (Pipeline.arrRef spec1 w) :=
  (W6_arr m ρ c w).symm
theorem hrest1 (c : Dev nD) : ∀ b, b ∉ Finset.univ.image (Pipeline.arrRef spec1) → Vout1 m ρ c b = Vin1 m ρ c b :=
  fun b hb => W6_of_ne m ρ c b fun w e => hb (Finset.mem_image.mpr ⟨w, Finset.mem_univ _, e⟩)
/-- The region changes only its two result arrays: an input window's array is written back never, and a buffer no
    window stages passes by. -/
theorem W6_of (c : Dev nD) (b : Ref sig .tc) (h1 : b ≠ main_v9_0) (h2 : b ≠ main_v9_1) :
    W6 m ρ c (Proc.devRef .tc b) = W5 m ρ c (Proc.devRef .tc b) := by
  by_cases h : ∀ w, Pipeline.arrRef spec1 w ≠ b
  · exact W6_of_ne m ρ c b h
  · obtain ⟨w, hw⟩ := not_forall.mp h
    obtain rfl := not_not.mp hw
    rw [W6_arr]
    match w with
    | ⟨0, _⟩ => exact ((dat1 (Vin1 m ρ) c).arrAt_in 0 rfl _).trans (A_eq1 (Vin1 m ρ) c 0)
    | ⟨1, _⟩ => exact ((dat1 (Vin1 m ρ) c).arrAt_in 1 rfl _).trans (A_eq1 (Vin1 m ρ) c 1)
    | ⟨2, _⟩ => exact ((dat1 (Vin1 m ρ) c).arrAt_in 2 rfl _).trans (A_eq1 (Vin1 m ρ) c 2)
    | ⟨3, _⟩ => exact ((dat1 (Vin1 m ρ) c).arrAt_in 3 rfl _).trans (A_eq1 (Vin1 m ρ) c 3)
    | ⟨4, _⟩ => exact absurd rfl h1
    | ⟨5, _⟩ => exact absurd rfl h2

/-- After the host stretch `hostOps2`. -/
abbrev W7 : Dev nD → Valuation τ sig (Elt F) := fun c => StableHlo.after hostOps2 (W6 m ρ c)
theorem W7_of (c : Dev nD) (r : Ref sig .tc) (h : r ∉ hostOps2_W) : W7 m ρ c r = W6 m ρ c r :=
  StableHlo.after_of_writes_sub hostOps2 _ hostOps2_writes h

/-- Region 2's entry contents read at the core's references. -/
abbrev Vin2 : (c : Dev nD) → (b : Ref sig .tc) → Buf (Elt F) ((c : Thread nD τ).loc b) := fun c b => W7 m ρ c b

/-- At region 2's exit: its arrays at what its write-backs leave, every other buffer as entered. -/
def W8 (c : Dev nD) : Valuation τ sig (Elt F) :=
  Pipeline.withArrays spec2 c (W7 m ρ c) fun w => (dat2 (Vin2 m ρ) c).arrAt w cfg2.N
theorem W8_arr (c : Dev nD) (w : Fin cfg2.W) :
    W8 m ρ c (Proc.devRef .tc (Pipeline.arrRef spec2 w)) = (dat2 (Vin2 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- Region 2's exit contents read at the core's references. -/
abbrev Vout2 : (c : Dev nD) → (b : Ref sig .tc) → Buf (Elt F) ((c : Thread nD τ).loc b) := fun c b => W8 m ρ c b
theorem hF2 (c : Dev nD) (w : Fin cfg2.W) : (dat2 (Vin2 m ρ) c).arrAt w cfg2.N = Vout2 m ρ c (Pipeline.arrRef spec2 w) :=
  (W8_arr m ρ c w).symm
theorem hrest2 (c : Dev nD) : ∀ b, b ∉ Finset.univ.image (Pipeline.arrRef spec2) → Vout2 m ρ c b = Vin2 m ρ c b :=
  fun b hb => W8_of_ne m ρ c b fun w e => hb (Finset.mem_image.mpr ⟨w, Finset.mem_univ _, e⟩)
/-- The region changes only its two result arrays: an input window's array is written back never, and a buffer no
    window stages passes by. -/
theorem W8_of (c : Dev nD) (b : Ref sig .tc) (h1 : b ≠ main_v12_0) (h2 : b ≠ main_v12_1) :
    W8 m ρ c (Proc.devRef .tc b) = W7 m ρ c (Proc.devRef .tc b) := by
  by_cases h : ∀ w, Pipeline.arrRef spec2 w ≠ b
  · exact W8_of_ne m ρ c b h
  · obtain ⟨w, hw⟩ := not_forall.mp h
    obtain rfl := not_not.mp hw
    rw [W8_arr]
    match w with
    | ⟨0, _⟩ => exact ((dat2 (Vin2 m ρ) c).arrAt_in 0 rfl _).trans (A_eq2 (Vin2 m ρ) c 0)
    | ⟨1, _⟩ => exact ((dat2 (Vin2 m ρ) c).arrAt_in 1 rfl _).trans (A_eq2 (Vin2 m ρ) c 1)
    | ⟨2, _⟩ => exact ((dat2 (Vin2 m ρ) c).arrAt_in 2 rfl _).trans (A_eq2 (Vin2 m ρ) c 2)
    | ⟨3, _⟩ => exact ((dat2 (Vin2 m ρ) c).arrAt_in 3 rfl _).trans (A_eq2 (Vin2 m ρ) c 3)
    | ⟨4, _⟩ => exact absurd rfl h1
    | ⟨5, _⟩ => exact absurd rfl h2

/-- After the host stretch `hostOps3`. -/
abbrev W9 : Dev nD → Valuation τ sig (Elt F) := fun c => StableHlo.after hostOps3 (W8 m ρ c)
theorem W9_of (c : Dev nD) (r : Ref sig .tc) (h : r ∉ hostOps3_W) : W9 m ρ c r = W8 m ρ c r :=
  StableHlo.after_of_writes_sub hostOps3 _ hostOps3_writes h

/-- Region 3's entry contents read at the core's references. -/
abbrev Vin3 : (c : Dev nD) → (b : Ref sig .tc) → Buf (Elt F) ((c : Thread nD τ).loc b) := fun c b => W9 m ρ c b

/-- At region 3's exit: its arrays at what its write-backs leave, every other buffer as entered. -/
def W10 (c : Dev nD) : Valuation τ sig (Elt F) :=
  Pipeline.withArrays spec3 c (W9 m ρ c) fun w => (dat3 (Vin3 m ρ) c).arrAt w cfg3.N
theorem W10_arr (c : Dev nD) (w : Fin cfg3.W) :
    W10 m ρ c (Proc.devRef .tc (Pipeline.arrRef spec3 w)) = (dat3 (Vin3 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- Region 3's exit contents read at the core's references. -/
abbrev Vout3 : (c : Dev nD) → (b : Ref sig .tc) → Buf (Elt F) ((c : Thread nD τ).loc b) := fun c b => W10 m ρ c b
theorem hF3 (c : Dev nD) (w : Fin cfg3.W) : (dat3 (Vin3 m ρ) c).arrAt w cfg3.N = Vout3 m ρ c (Pipeline.arrRef spec3 w) :=
  (W10_arr m ρ c w).symm
theorem hrest3 (c : Dev nD) : ∀ b, b ∉ Finset.univ.image (Pipeline.arrRef spec3) → Vout3 m ρ c b = Vin3 m ρ c b :=
  fun b hb => W10_of_ne m ρ c b fun w e => hb (Finset.mem_image.mpr ⟨w, Finset.mem_univ _, e⟩)
/-- The region changes only its two result arrays: an input window's array is written back never, and a buffer no
    window stages passes by. -/
theorem W10_of (c : Dev nD) (b : Ref sig .tc) (h1 : b ≠ main_v15_0) (h2 : b ≠ main_v15_1) :
    W10 m ρ c (Proc.devRef .tc b) = W9 m ρ c (Proc.devRef .tc b) := by
  by_cases h : ∀ w, Pipeline.arrRef spec3 w ≠ b
  · exact W10_of_ne m ρ c b h
  · obtain ⟨w, hw⟩ := not_forall.mp h
    obtain rfl := not_not.mp hw
    rw [W10_arr]
    match w with
    | ⟨0, _⟩ => exact ((dat3 (Vin3 m ρ) c).arrAt_in 0 rfl _).trans (A_eq3 (Vin3 m ρ) c 0)
    | ⟨1, _⟩ => exact ((dat3 (Vin3 m ρ) c).arrAt_in 1 rfl _).trans (A_eq3 (Vin3 m ρ) c 1)
    | ⟨2, _⟩ => exact ((dat3 (Vin3 m ρ) c).arrAt_in 2 rfl _).trans (A_eq3 (Vin3 m ρ) c 2)
    | ⟨3, _⟩ => exact ((dat3 (Vin3 m ρ) c).arrAt_in 3 rfl _).trans (A_eq3 (Vin3 m ρ) c 3)
    | ⟨4, _⟩ => exact absurd rfl h1
    | ⟨5, _⟩ => exact absurd rfl h2

/-- After the host stretch `hostOps4`. -/
abbrev W11 : Dev nD → Valuation τ sig (Elt F) := fun c => StableHlo.after hostOps4 (W10 m ρ c)
theorem W11_of (c : Dev nD) (r : Ref sig .tc) (h : r ∉ hostOps4_W) : W11 m ρ c r = W10 m ρ c r :=
  StableHlo.after_of_writes_sub hostOps4 _ hostOps4_writes h

/-! ## The arguments end as launched -/

/-- `main_arg0` reaches the end as launched: no host stretch and no region writes it. -/
theorem W11_main_arg0 (c : Dev nD) : W11 m ρ c (Proc.devRef .tc main_arg0) = m ((c : Thread nD τ).loc main_arg0) :=
  (W11_of m ρ c main_arg0 (by decide)).trans <| (W10_of m ρ c main_arg0 (by decide) (by decide)).trans <| (W9_of m ρ c main_arg0 (by decide)).trans <|
  (W8_of m ρ c main_arg0 (by decide) (by decide)).trans <| (W7_of m ρ c main_arg0 (by decide)).trans <| (W6_of m ρ c main_arg0 (by decide) (by decide)).trans <|
  (W5_of m ρ c main_arg0 (by decide)).trans <| (W4_of m ρ c main_arg0 (by decide) (by decide)).trans <| (W3_of m ρ c main_arg0 (by decide)).trans <|
  (W2_of m ρ c main_arg0 (by decide)).trans <| (W1_of m ρ c main_arg0 (by decide)).trans rfl

/-- `main_arg1` reaches the end as launched: no host stretch and no region writes it. -/
theorem W11_main_arg1 (c : Dev nD) : W11 m ρ c (Proc.devRef .tc main_arg1) = m ((c : Thread nD τ).loc main_arg1) :=
  (W11_of m ρ c main_arg1 (by decide)).trans <| (W10_of m ρ c main_arg1 (by decide) (by decide)).trans <| (W9_of m ρ c main_arg1 (by decide)).trans <|
  (W8_of m ρ c main_arg1 (by decide) (by decide)).trans <| (W7_of m ρ c main_arg1 (by decide)).trans <| (W6_of m ρ c main_arg1 (by decide) (by decide)).trans <|
  (W5_of m ρ c main_arg1 (by decide)).trans <| (W4_of m ρ c main_arg1 (by decide) (by decide)).trans <| (W3_of m ρ c main_arg1 (by decide)).trans <|
  (W2_of m ρ c main_arg1 (by decide)).trans <| (W1_of m ρ c main_arg1 (by decide)).trans rfl

/-- `main_arg2` reaches the end as launched: no host stretch and no region writes it. -/
theorem W11_main_arg2 (c : Dev nD) : W11 m ρ c (Proc.devRef .tc main_arg2) = m ((c : Thread nD τ).loc main_arg2) :=
  (W11_of m ρ c main_arg2 (by decide)).trans <| (W10_of m ρ c main_arg2 (by decide) (by decide)).trans <| (W9_of m ρ c main_arg2 (by decide)).trans <|
  (W8_of m ρ c main_arg2 (by decide) (by decide)).trans <| (W7_of m ρ c main_arg2 (by decide)).trans <| (W6_of m ρ c main_arg2 (by decide) (by decide)).trans <|
  (W5_of m ρ c main_arg2 (by decide)).trans <| (W4_of m ρ c main_arg2 (by decide) (by decide)).trans <| (W3_of m ρ c main_arg2 (by decide)).trans <|
  (W2_of m ρ c main_arg2 (by decide)).trans <| (W1_of m ρ c main_arg2 (by decide)).trans rfl

/-! ## The proof data family and what rides beside the buffers -/

/-- No call has a prefetched table. -/
abbrev admH : (p : Fin 4) → (pcfgs (F := F) p).Adm := fun p => (cfgs p).toPCfg_adm
/-- Each region's proof data at its own entry contents. -/
def pdatsH : (p : Fin 4) → (c : Dev nD) → Dat τ (Elt F) Unit ℕ (UR sig nD τ) ℕ (Pipeline.pin (pcfgs (F := F)) admH p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
abbrev 𝒱H : Variants := Variants.none
/-- No core owes another anything. -/
abbrev LH : GSem nD τ sig → Finset Unit := fun _ => ∅
abbrev lvH : GSem nD τ sig → Unit → ℕ := fun _ _ => 0
/-- The generator register at some state and the core owing nothing ride beside the buffers through every item. -/
abbrev RH (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state beside the core owing nothing. -/
abbrev TnH (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 as a segment: entered with every unscoped buffer at `W3`, left with them at `W4`. Its arrays are
    split out of the unscoped buffers and put back at their exit contents; the generator register goes into the
    region's invariant and comes back; nothing is owed; the kernel has no semaphore of its own. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ LH lvH 0 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m ρ) c)
    unfold Pipeline.ΦA
    iintro ⟨Hp, -, Hr⟩
    isplitl [Hr]; · iexact Hr
    iexact Hp
  hout c := by
    rw [Pipeline.ownSems0_none]
    refine BIBase.Entails.trans (hout0 (Vin0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vin0 m ρ c) (Vout0 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W5`, left with them at `W6`. Its arrays are
    split out of the unscoped buffers and put back at their exit contents; the generator register goes into the
    region's invariant and comes back; nothing is owed; the kernel has no semaphore of its own. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ LH lvH 1 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m ρ) c)
    unfold Pipeline.ΦA
    iintro ⟨Hp, -, Hr⟩
    isplitl [Hr]; · iexact Hr
    iexact Hp
  hout c := by
    rw [Pipeline.ownSems0_none]
    refine BIBase.Entails.trans (hout1 (Vin1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Vin1 m ρ c) (Vout1 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W7`, left with them at `W8`. Its arrays are
    split out of the unscoped buffers and put back at their exit contents; the generator register goes into the
    region's invariant and comes back; nothing is owed; the kernel has no semaphore of its own. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ LH lvH 2 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vin2 m ρ) c)
    unfold Pipeline.ΦA
    iintro ⟨Hp, -, Hr⟩
    isplitl [Hr]; · iexact Hr
    iexact Hp
  hout c := by
    rw [Pipeline.ownSems0_none]
    refine BIBase.Entails.trans (hout2 (Vin2 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Vin2 m ρ c) (Vout2 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W9`, left with them at `W10`. Its arrays are
    split out of the unscoped buffers and put back at their exit contents; the generator register goes into the
    region's invariant and comes back; nothing is owed; the kernel has no semaphore of its own. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ LH lvH 3 fun _ _ => rfl
  pre c := iprop(StableHlo.held (c : Thread nD τ) (Pipeline.ucRefs τ sig) (W9 m ρ c) ∗ RH c)
  post c := iprop(StableHlo.held (c : Thread nD τ) (Pipeline.ucRefs τ sig) (W10 m ρ c) ∗ RH c)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (Vin3 m ρ) c)
    unfold Pipeline.ΦA
    iintro ⟨Hp, -, Hr⟩
    isplitl [Hr]; · iexact Hr
    iexact Hp
  hout c := by
    rw [Pipeline.ownSems0_none]
    refine BIBase.Entails.trans (hout3 (Vin3 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (Vin3 m ρ c) (Vout3 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the launch -/

abbrev segsH : List (Pipeline.Seg (pcfgs (F := F)) admH (pdatsH m ρ) () defs₀ 𝒱H LH lvH) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)) ]

theorem main_run (c : Dev nD) : main (F := F) c = Pipeline.Seg.run (segsH m ρ) := (main_chain c).trans (by chain_rfl)

set_option backward.isDefEq.respectTransparency.types false in
/-- Every weakly fair execution of @main terminates, and the final memory holds every unscoped buffer of every
    core at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) admH (pdatsH m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ RH c) ⊢ _
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The frame: every weakly fair execution of @main terminates and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c)⟩) (run_all m ρ)

end Cert.KernelIdeal.H

end
-- ==== Proof.KernelIdeal.Terms.lean ====
/-
  The layer as ONE term of its three arguments, at the ideal values: the features propagated p times, xp_p = L·xp_{p-1},
  each hop's contribution relu(xp_p · W_p) summed in order, and a last relu — written with the very operations the
  plain program applies.
-/
import proofs.«163433_j78743930404901_1_alg».proof.KernelIdeal
import proofs.«163433_j78743930404901_1_alg».proof.ReferenceIdeal
import proofs.«163433_j78743930404901_1_alg».proof.Proof.Gen.KernelIdeal
import proofs.«163433_j78743930404901_1_alg».proof.Proof.Gen.ReferenceIdeal
import Idealize.ShloMosaic.PureOps.Ideal

noncomputable section

namespace Cert.KernelIdeal.H

open Cert.KernelIdeal
open Cert.KernelIdeal.Facts₀ Cert.KernelIdeal.Facts
open Idealize.ShloMosaic

/-! ## The terms -/

section Terms

variable (x : FVec Ideal S8192x16 .f32) (L : FVec Ideal S8192x8192 .f32) (w : FVec Ideal S5x16x16 .f32)

/-- The five weight matrices: slices of the stacked weights, reshaped. -/
abbrev wmat0 : FVec Ideal S16x16 .f32 := shapeCast _ (extractStridedSlice S1x16x16 ![0, 0, 0] w slices_S5x16x16_S1x16x16_0_0_0) shapeCasts_S1x16x16_S16x16
abbrev wmat1 : FVec Ideal S16x16 .f32 := shapeCast _ (extractStridedSlice S1x16x16 ![1, 0, 0] w slices_S5x16x16_S1x16x16_1_0_0) shapeCasts_S1x16x16_S16x16
abbrev wmat2 : FVec Ideal S16x16 .f32 := shapeCast _ (extractStridedSlice S1x16x16 ![2, 0, 0] w slices_S5x16x16_S1x16x16_2_0_0) shapeCasts_S1x16x16_S16x16
abbrev wmat3 : FVec Ideal S16x16 .f32 := shapeCast _ (extractStridedSlice S1x16x16 ![3, 0, 0] w slices_S5x16x16_S1x16x16_3_0_0) shapeCasts_S1x16x16_S16x16
abbrev wmat4 : FVec Ideal S16x16 .f32 := shapeCast _ (extractStridedSlice S1x16x16 ![4, 0, 0] w slices_S5x16x16_S1x16x16_4_0_0) shapeCasts_S1x16x16_S16x16
/-- The zero array a relu compares with. -/
abbrev zeros : FVec Ideal S8192x16 .f32 := broadcastInDim S8192x16 ![] bcast_S_S8192x16 (constant S_ .f32 0x00000000#32)
/-- One propagation step, `L · y`. -/
abbrev prop (y : FVec Ideal S8192x16 .f32) : FVec Ideal S8192x16 .f32 :=
  Host.dotGeneral Cert.ReferenceIdeal.dot_S8192x8192_S8192x16_S8192x16_1_0_0_1_n_n none L y
/-- One hop's contribution, `relu (y · W)`. -/
abbrev hop (y : FVec Ideal S8192x16 .f32) (W : FVec Ideal S16x16 .f32) : FVec Ideal S8192x16 .f32 :=
  maximumf (Host.dotGeneral dot_S8192x16_S16x16_S8192x16_1_0_0_1_n_n none y W) zeros
/-- The features after p propagation steps and the running sum of the hops' contributions. -/
abbrev xp1 := prop L x
abbrev xp2 := prop L (xp1 x L)
abbrev xp3 := prop L (xp2 x L)
abbrev xp4 := prop L (xp3 x L)
abbrev acc_0 := hop x (wmat0 w)
abbrev acc_1 := addf (acc_0 x w) (hop (xp1 x L) (wmat1 w))
abbrev acc_2 := addf (acc_1 x L w) (hop (xp2 x L) (wmat2 w))
abbrev acc_3 := addf (acc_2 x L w) (hop (xp3 x L) (wmat3 w))
abbrev acc_4 := addf (acc_3 x L w) (hop (xp4 x L) (wmat4 w))
/-- The layer's output. -/
def layer : FVec Ideal S8192x16 .f32 := maximumf (acc_4 x L w) zeros

end Terms

end Cert.KernelIdeal.H

end
-- ==== Proof.KernelIdeal.R0.Pieces.lean ====
/-
  What the pieces found by the region's three runs hold, as values. At a point with k = 0 the accumulator ends at the point's
  product added to the zero block; at a point with k > 0 at the point's product added to what the accumulator
  held on entry; at a point with k = 7 the first output is that same accumulator and the second output is the
  residual block plus the rectified product of the (rounded) accumulator with the weight block. Hence the
  accumulator after point n is the closed recursion acc0: restarted from the zero block at every point with
  k = 0, and otherwise carried from the point before.
-/
import proofs.«163433_j78743930404901_1_alg».proof.Proof.KernelIdeal.R0.Data
import Idealize.ShloMosaic.Lib.Pipeline.Value

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- The two-coordinate zero offset, as the constant function. -/
theorem hz0 : (![0, 0] : Fin 2 → Nat) = fun _ => 0 := funext fun a => by fin_cases a <;> rfl

/-! ## The found pieces, read back as the payloads -/

/-- A point with `k = 0`: the zero block is stored, read back, and the point's product added to it. -/
theorem pieceS0_A (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond0_0 i) (hc1 : ¬cond0_1 i) (x0 : Vec F S1024x1024 .f32) (x1 : Vec F S1024x16 .f32) (x2 : Vec F S16x16 .f32) (x3 : Vec F S1024x16 .f32) :
    sout0_A c i arg2 harg2 arg3 harg3 arg4 harg4 arg5 harg5 arg6 harg6 arg7 harg7 arg8 harg8 hc0 hc1 x0 x1 x2 x3 = k0_pay2 x0 x1 (k0_pay1 (F := F)) := by
  unfold sout0_A
  rw [View.read_writes_eq_canon _ _ _ (scover0_A c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x16) hz0, View.readCov_unit_zero (S := S1024x16) _ hz0]
  simp only [View.readAt_eq_ld, harg2.read_unread, harg3.read_unread, harg4.read_unread, harg5.read_unread, harg6.read_unread, harg7.read_unread, harg8.read_unread, View.ld_unit_zero (S := S1024x16) hz0, View.ld_unit_zero (S := S1024x1024) hz0, View.ld_unit_zero (S := S16x16) hz0, View.readCov_unit_zero (S := S1024x16) _ hz0]

/-- A point with `0 < k < 7`: the point's product is added to what the accumulator held on entry. -/
theorem pieceS0_B (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : ¬cond0_1 i) (x0 : Vec F S1024x1024 .f32) (x1 : Vec F S1024x16 .f32) (x2 : Vec F S16x16 .f32) (x3 : Vec F S1024x16 .f32) (xs0 : Vec F S1024x16 .f32) :
    sout0_B c i arg2 harg2 arg3 harg3 arg4 harg4 arg5 harg5 arg6 harg6 arg7 harg7 arg8 harg8 hc0 hc1 x0 x1 x2 x3 xs0 = k0_pay2 x0 x1 xs0 := by
  unfold sout0_B
  rw [View.read_writes_eq_canon _ _ _ (scover0_B c i arg2 harg2 arg3 harg3 arg4 harg4 arg5 harg5 arg6 harg6 arg7 harg7 arg8 harg8 hc0 hc1 x0 x1 x2 x3 xs0)]
  unfold kernelRun0_B
  dsimp only
  rw [View.canon_unit_zero hz0]
  simp only [View.readAt_eq_ld, harg2.read_unread, harg3.read_unread, harg4.read_unread, harg5.read_unread, harg6.read_unread, harg7.read_unread, harg8.read_unread, View.ld_unit_zero (S := S1024x16) hz0, View.ld_unit_zero (S := S1024x1024) hz0, View.ld_unit_zero (S := S16x16) hz0, View.readCov_unit_zero (S := S1024x16) _ hz0]

/-- A point with `k = 7`: the accumulator, as at `0 < k < 7`. -/
theorem pieceS0_C (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i) (x0 : Vec F S1024x1024 .f32) (x1 : Vec F S1024x16 .f32) (x2 : Vec F S16x16 .f32) (x3 : Vec F S1024x16 .f32) (xs0 : Vec F S1024x16 .f32) :
    sout0_C c i arg2 harg2 arg3 harg3 arg4 harg4 arg5 harg5 arg6 harg6 arg7 harg7 arg8 harg8 hc0 hc1 x0 x1 x2 x3 xs0 = k0_pay2 x0 x1 xs0 := by
  unfold sout0_C
  rw [View.read_writes_eq_canon _ _ _ (scover0_C c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz0]
  simp only [View.readAt_eq_ld, harg2.read_unread, harg3.read_unread, harg4.read_unread, harg5.read_unread, harg6.read_unread, harg7.read_unread, harg8.read_unread, View.ld_unit_zero (S := S1024x16) hz0, View.ld_unit_zero (S := S1024x1024) hz0, View.ld_unit_zero (S := S16x16) hz0, View.readCov_unit_zero (S := S1024x16) _ hz0]

/-- A point with `k = 7`: the first output is the accumulator just stored, read back. -/
theorem piece40_C (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i) (x0 : Vec F S1024x1024 .f32) (x1 : Vec F S1024x16 .f32) (x2 : Vec F S16x16 .f32) (x3 : Vec F S1024x16 .f32) (xs0 : Vec F S1024x16 .f32) :
    out0_C_4 c i arg2 harg2 arg3 harg3 arg4 harg4 arg5 harg5 arg6 harg6 arg7 harg7 arg8 harg8 hc0 hc1 x0 x1 x2 x3 xs0 = k0_pay2 x0 x1 xs0 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz0]
  simp only [View.readAt_eq_ld, harg2.read_unread, harg3.read_unread, harg4.read_unread, harg5.read_unread, harg6.read_unread, harg7.read_unread, harg8.read_unread, View.ld_unit_zero (S := S1024x16) hz0, View.ld_unit_zero (S := S1024x1024) hz0, View.ld_unit_zero (S := S16x16) hz0, View.readCov_unit_zero (S := S1024x16) _ hz0]

/-- A point with `k = 7`: the second output is the residual block plus the rectified product of the accumulator
    just stored with the weight block. -/
theorem piece50_C (c : Dev nD) (i : grid0.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond0_0 i) (hc1 : cond0_1 i) (x0 : Vec F S1024x1024 .f32) (x1 : Vec F S1024x16 .f32) (x2 : Vec F S16x16 .f32) (x3 : Vec F S1024x16 .f32) (xs0 : Vec F S1024x16 .f32) :
    out0_C_5 c i arg2 harg2 arg3 harg3 arg4 harg4 arg5 harg5 arg6 harg6 arg7 harg7 arg8 harg8 hc0 hc1 x0 x1 x2 x3 xs0 = k0_pay3 (k0_pay2 x0 x1 xs0) x2 x3 := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz0]
  simp only [View.readAt_eq_ld, harg2.read_unread, harg3.read_unread, harg4.read_unread, harg5.read_unread, harg6.read_unread, harg7.read_unread, harg8.read_unread, View.ld_unit_zero (S := S1024x16) hz0, View.ld_unit_zero (S := S1024x1024) hz0, View.ld_unit_zero (S := S16x16) hz0, View.readCov_unit_zero (S := S1024x16) _ hz0]

/-! ## The blocks at a point, at their literal types -/

/-- The left factor's block at point `t`. -/
abbrev lblk0 (c : Dev nD) (t : Fin cfg0.N) : Vec F S1024x1024 .f32 := iblk0 V c 0 t
/-- The right factor's block at point `t`. -/
abbrev xblk0 (c : Dev nD) (t : Fin cfg0.N) : Vec F S1024x16 .f32 := iblk0 V c 1 t
/-- The weight block at point `t`. -/
abbrev wblk0 (c : Dev nD) (t : Fin cfg0.N) : Vec F S16x16 .f32 := iblk0 V c 2 t
/-- The residual block at point `t`. -/
abbrev ablk0 (c : Dev nD) (t : Fin cfg0.N) : Vec F S1024x16 .f32 := iblk0 V c 3 t

/-! ## The accumulator's closed recursion -/

/-- The accumulator after point `n`: the point's product added to the zero block when `k = 0`, and to the
    accumulator after the point before otherwise. -/
def acc0 (c : Dev nD) : (n : ℕ) → n < cfg0.N → Vec F S1024x16 .f32
  | 0, h => k0_pay2 (lblk0 V c ⟨0, h⟩) (xblk0 V c ⟨0, h⟩) k0_pay1
  | n + 1, h =>
    if (n + 1) % 8 = 0 then k0_pay2 (lblk0 V c ⟨n + 1, h⟩) (xblk0 V c ⟨n + 1, h⟩) k0_pay1
    else k0_pay2 (lblk0 V c ⟨n + 1, h⟩) (xblk0 V c ⟨n + 1, h⟩) (acc0 c n (Nat.lt_of_succ_lt h))

theorem acc0_zero (c : Dev nD) (h : 0 < cfg0.N) :
    acc0 V c 0 h = k0_pay2 (lblk0 V c ⟨0, h⟩) (xblk0 V c ⟨0, h⟩) k0_pay1 := rfl
theorem acc0_reset (c : Dev nD) (n : ℕ) (h : n + 1 < cfg0.N) (h0 : (n + 1) % 8 = 0) :
    acc0 V c (n + 1) h = k0_pay2 (lblk0 V c ⟨n + 1, h⟩) (xblk0 V c ⟨n + 1, h⟩) k0_pay1 := by
  rw [acc0]; exact if_pos h0
theorem acc0_carry (c : Dev nD) (n : ℕ) (h : n + 1 < cfg0.N) (h0 : ¬(n + 1) % 8 = 0) :
    acc0 V c (n + 1) h
      = k0_pay2 (lblk0 V c ⟨n + 1, h⟩) (xblk0 V c ⟨n + 1, h⟩) (acc0 V c n (Nat.lt_of_succ_lt h)) := by
  rw [acc0]; exact if_neg h0

/-- What the recursion over the cases' found pieces leaves in the accumulator after point `n` is `acc0`: by
    induction on the point. -/
theorem outsAt0_acc (c : Dev nD) : ∀ (n : ℕ) (h : n < cfg0.N), (outsAt0 V c n h).2.2 = acc0 V c n h
  | 0, h => by
    rw [outsAt0_A V c ⟨0, h⟩ (Nat.zero_mod _) (by simp), acc0_zero]
    dsimp only
    unfold soutAt0_A
    exact pieceS0_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr (Nat.zero_mod _)) (fun hh => (by simp : ¬(⟨0, h⟩ : Fin cfg0.N).val % 8 = 7) ((hcond0_1 ⟨0, h⟩).mp hh)) (iblk0 V c 0 ⟨0, h⟩) (iblk0 V c 1 ⟨0, h⟩) (iblk0 V c 2 ⟨0, h⟩) (iblk0 V c 3 ⟨0, h⟩)
  | n + 1, h => by
    by_cases h0 : (n + 1) % 8 = 0
    · have h1 : ¬(n + 1) % 8 = 7 := by omega
      rw [outsAt0_A V c ⟨n + 1, h⟩ h0 h1, acc0_reset V c n h h0]
      dsimp only
      unfold soutAt0_A
      exact pieceS0_A (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) ((hcond0_0 ⟨n + 1, h⟩).mpr h0) (fun hh => h1 ((hcond0_1 ⟨n + 1, h⟩).mp hh)) (iblk0 V c 0 ⟨n + 1, h⟩) (iblk0 V c 1 ⟨n + 1, h⟩) (iblk0 V c 2 ⟨n + 1, h⟩) (iblk0 V c 3 ⟨n + 1, h⟩)
    · by_cases h1 : (n + 1) % 8 = 7
      · rw [outsAt0_C V c ⟨n + 1, h⟩ h0 h1, acc0_carry V c n h h0, ← outsAt0_acc c n (Nat.lt_of_succ_lt h)]
        dsimp only
        unfold soutAt0_C
        exact pieceS0_C (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) ((hcond0_1 ⟨n + 1, h⟩).mpr h1) (iblk0 V c 0 ⟨n + 1, h⟩) (iblk0 V c 1 ⟨n + 1, h⟩) (iblk0 V c 2 ⟨n + 1, h⟩) (iblk0 V c 3 ⟨n + 1, h⟩) ((outsAt0 V c n (Nat.lt_of_succ_lt h)).2.2)
      · rw [outsAt0_B V c ⟨n + 1, h⟩ h0 h1, acc0_carry V c n h h0, ← outsAt0_acc c n (Nat.lt_of_succ_lt h)]
        dsimp only
        unfold soutAt0_B
        exact pieceS0_B (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) (fun hh => h1 ((hcond0_1 ⟨n + 1, h⟩).mp hh)) (iblk0 V c 0 ⟨n + 1, h⟩) (iblk0 V c 1 ⟨n + 1, h⟩) (iblk0 V c 2 ⟨n + 1, h⟩) (iblk0 V c 3 ⟨n + 1, h⟩) ((outsAt0 V c n (Nat.lt_of_succ_lt h)).2.2)

/-- At a point with `k = 7` the first output's buffer is left holding the accumulator. -/
theorem outsAt0_out4 (c : Dev nD) (t : Fin cfg0.N) (h1 : t.val % 8 = 7) :
    (outsAt0 V c t.val t.isLt).1 = acc0 V c t.val t.isLt := by
  have h0 : ¬t.val % 8 = 0 := by omega
  obtain ⟨n, hn⟩ := t
  cases n with
  | zero => exact absurd (Nat.zero_mod _) h0
  | succ n =>
    dsimp only at h0 h1 ⊢
    rw [outsAt0_C V c ⟨n + 1, hn⟩ h0 h1, acc0_carry V c n hn h0, ← outsAt0_acc V c n (Nat.lt_of_succ_lt hn)]
    dsimp only
    unfold out4At0_C
    exact piece40_C (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun hh => h0 ((hcond0_0 ⟨n + 1, hn⟩).mp hh)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) ((outsAt0 V c n (Nat.lt_of_succ_lt hn)).2.2)

/-- At a point with `k = 7` the second output's buffer is left holding the residual block plus the rectified
    product of the accumulator with the weight block. -/
theorem outsAt0_out5 (c : Dev nD) (t : Fin cfg0.N) (h1 : t.val % 8 = 7) :
    (outsAt0 V c t.val t.isLt).2.1 = k0_pay3 (acc0 V c t.val t.isLt) (wblk0 V c t) (ablk0 V c t) := by
  have h0 : ¬t.val % 8 = 0 := by omega
  obtain ⟨n, hn⟩ := t
  cases n with
  | zero => exact absurd (Nat.zero_mod _) h0
  | succ n =>
    dsimp only at h0 h1 ⊢
    rw [outsAt0_C V c ⟨n + 1, hn⟩ h0 h1, acc0_carry V c n hn h0, ← outsAt0_acc V c n (Nat.lt_of_succ_lt hn)]
    dsimp only
    unfold out5At0_C
    exact piece50_C (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun hh => h0 ((hcond0_0 ⟨n + 1, hn⟩).mp hh)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) ((outsAt0 V c n (Nat.lt_of_succ_lt hn)).2.2)

end Region0

end Cert.KernelIdeal.H

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.Dots.lean ====
/-
  The dimension records of the two programs' matrix products are plain products.

  Every product in the kernel and in the reference contracts the left operand's column with the right operand's row
  and keeps the left row and the right column, no batch axis: an `[R, K]` by `[K, M]` product in the textbook sense.
  For each printed record the four axis readings are proved at the literal axes 0 and 1, and collected.
-/
import proofs.«163433_j78743930404901_1_alg».proof.KernelIdeal
import proofs.«163433_j78743930404901_1_alg».proof.ReferenceIdeal
import proofs.«163433_j78743930404901_1_alg».proof.Kernel
import proofs.«163433_j78743930404901_1_alg».proof.Proof.LibAffineRows

noncomputable section

namespace Cert.Dots

open Idealize.ShloMosaic

/-! ### `Cert.ReferenceIdeal.dot_S8192x8192_S8192x16_S8192x16_1_0_0_1_n_n` -/

theorem lhs_r_LX_0 [Cert.ReferenceIdeal.Facts₀] (i : (⟨2, ![8192, 16]⟩ : Shape).Idx) (q : Cert.ReferenceIdeal.dot_S8192x8192_S8192x16_S8192x16_1_0_0_1_n_n.contr.Idx) :
    (Cert.ReferenceIdeal.dot_S8192x8192_S8192x16_S8192x16_1_0_0_1_n_n.lhsIdx i q 0).val = (i 0).val := by
  unfold DotDims.lhsIdx
  rw [dif_neg (show ¬(0 : Fin Cert.ReferenceIdeal.S8192x8192.rank) ∈ Cert.ReferenceIdeal.dot_S8192x8192_S8192x16_S8192x16_1_0_0_1_n_n.lhsBatch from List.not_mem_nil),
    dif_pos (show (0 : Fin Cert.ReferenceIdeal.S8192x8192.rank) ∈ Cert.ReferenceIdeal.dot_S8192x8192_S8192x16_S8192x16_1_0_0_1_n_n.lhsNonContracting from List.mem_singleton.mpr rfl)]
  rfl

theorem lhs_r_LX_1 [Cert.ReferenceIdeal.Facts₀] (i : (⟨2, ![8192, 16]⟩ : Shape).Idx) (q : Cert.ReferenceIdeal.dot_S8192x8192_S8192x16_S8192x16_1_0_0_1_n_n.contr.Idx) :
    (Cert.ReferenceIdeal.dot_S8192x8192_S8192x16_S8192x16_1_0_0_1_n_n.lhsIdx i q 1).val = (q ⟨0, Nat.one_pos⟩).val :=
  Cert.ReferenceIdeal.dot_S8192x8192_S8192x16_S8192x16_1_0_0_1_n_n.lhsIdx_val_of_single rfl i q

theorem rhs_r_LX_0 [Cert.ReferenceIdeal.Facts₀] (i : (⟨2, ![8192, 16]⟩ : Shape).Idx) (q : Cert.ReferenceIdeal.dot_S8192x8192_S8192x16_S8192x16_1_0_0_1_n_n.contr.Idx) :
    (Cert.ReferenceIdeal.dot_S8192x8192_S8192x16_S8192x16_1_0_0_1_n_n.rhsIdx i q 0).val = (q ⟨0, Nat.one_pos⟩).val :=
  Cert.ReferenceIdeal.dot_S8192x8192_S8192x16_S8192x16_1_0_0_1_n_n.rhsIdx_val_of_single rfl i q

theorem rhs_r_LX_1 [Cert.ReferenceIdeal.Facts₀] (i : (⟨2, ![8192, 16]⟩ : Shape).Idx) (q : Cert.ReferenceIdeal.dot_S8192x8192_S8192x16_S8192x16_1_0_0_1_n_n.contr.Idx) :
    (Cert.ReferenceIdeal.dot_S8192x8192_S8192x16_S8192x16_1_0_0_1_n_n.rhsIdx i q 1).val = (i 1).val := by
  unfold DotDims.rhsIdx
  rw [dif_neg (show ¬(1 : Fin Cert.ReferenceIdeal.S8192x16.rank) ∈ Cert.ReferenceIdeal.dot_S8192x8192_S8192x16_S8192x16_1_0_0_1_n_n.rhsBatch from List.not_mem_nil),
    dif_pos (show (1 : Fin Cert.ReferenceIdeal.S8192x16.rank) ∈ Cert.ReferenceIdeal.dot_S8192x8192_S8192x16_S8192x16_1_0_0_1_n_n.rhsNonContracting from List.mem_singleton.mpr rfl)]
  rfl

/-- The reference's `L · X`: `[8192, 8192]` by `[8192, 16]`. -/
theorem r_LX [Cert.ReferenceIdeal.Facts₀] : Cert.Lib.PlainDot (R := 8192) (K := 8192) (M := 16) Cert.ReferenceIdeal.dot_S8192x8192_S8192x16_S8192x16_1_0_0_1_n_n where
  rank := rfl
  size := rfl
  l0 := lhs_r_LX_0
  l1 := lhs_r_LX_1
  r0 := rhs_r_LX_0
  r1 := rhs_r_LX_1

/-! ### `Cert.KernelIdeal.dot_S1024x1024_S1024x16_S1024x16_1_0_0_1_n_n` -/

theorem lhs_k_LX_0 [Cert.KernelIdeal.Facts₀] (i : (⟨2, ![1024, 16]⟩ : Shape).Idx) (q : Cert.KernelIdeal.dot_S1024x1024_S1024x16_S1024x16_1_0_0_1_n_n.contr.Idx) :
    (Cert.KernelIdeal.dot_S1024x1024_S1024x16_S1024x16_1_0_0_1_n_n.lhsIdx i q 0).val = (i 0).val := by
  unfold DotDims.lhsIdx
  rw [dif_neg (show ¬(0 : Fin Cert.KernelIdeal.S1024x1024.rank) ∈ Cert.KernelIdeal.dot_S1024x1024_S1024x16_S1024x16_1_0_0_1_n_n.lhsBatch from List.not_mem_nil),
    dif_pos (show (0 : Fin Cert.KernelIdeal.S1024x1024.rank) ∈ Cert.KernelIdeal.dot_S1024x1024_S1024x16_S1024x16_1_0_0_1_n_n.lhsNonContracting from List.mem_singleton.mpr rfl)]
  rfl

theorem lhs_k_LX_1 [Cert.KernelIdeal.Facts₀] (i : (⟨2, ![1024, 16]⟩ : Shape).Idx) (q : Cert.KernelIdeal.dot_S1024x1024_S1024x16_S1024x16_1_0_0_1_n_n.contr.Idx) :
    (Cert.KernelIdeal.dot_S1024x1024_S1024x16_S1024x16_1_0_0_1_n_n.lhsIdx i q 1).val = (q ⟨0, Nat.one_pos⟩).val :=
  Cert.KernelIdeal.dot_S1024x1024_S1024x16_S1024x16_1_0_0_1_n_n.lhsIdx_val_of_single rfl i q

theorem rhs_k_LX_0 [Cert.KernelIdeal.Facts₀] (i : (⟨2, ![1024, 16]⟩ : Shape).Idx) (q : Cert.KernelIdeal.dot_S1024x1024_S1024x16_S1024x16_1_0_0_1_n_n.contr.Idx) :
    (Cert.KernelIdeal.dot_S1024x1024_S1024x16_S1024x16_1_0_0_1_n_n.rhsIdx i q 0).val = (q ⟨0, Nat.one_pos⟩).val :=
  Cert.KernelIdeal.dot_S1024x1024_S1024x16_S1024x16_1_0_0_1_n_n.rhsIdx_val_of_single rfl i q

theorem rhs_k_LX_1 [Cert.KernelIdeal.Facts₀] (i : (⟨2, ![1024, 16]⟩ : Shape).Idx) (q : Cert.KernelIdeal.dot_S1024x1024_S1024x16_S1024x16_1_0_0_1_n_n.contr.Idx) :
    (Cert.KernelIdeal.dot_S1024x1024_S1024x16_S1024x16_1_0_0_1_n_n.rhsIdx i q 1).val = (i 1).val := by
  unfold DotDims.rhsIdx
  rw [dif_neg (show ¬(1 : Fin Cert.KernelIdeal.S1024x16.rank) ∈ Cert.KernelIdeal.dot_S1024x1024_S1024x16_S1024x16_1_0_0_1_n_n.rhsBatch from List.not_mem_nil),
    dif_pos (show (1 : Fin Cert.KernelIdeal.S1024x16.rank) ∈ Cert.KernelIdeal.dot_S1024x1024_S1024x16_S1024x16_1_0_0_1_n_n.rhsNonContracting from List.mem_singleton.mpr rfl)]
  rfl

/-- The kernel's block of `L · X`: `[1024, 1024]` by `[1024, 16]`. -/
theorem k_LX [Cert.KernelIdeal.Facts₀] : Cert.Lib.PlainDot (R := 1024) (K := 1024) (M := 16) Cert.KernelIdeal.dot_S1024x1024_S1024x16_S1024x16_1_0_0_1_n_n where
  rank := rfl
  size := rfl
  l0 := lhs_k_LX_0
  l1 := lhs_k_LX_1
  r0 := rhs_k_LX_0
  r1 := rhs_k_LX_1

/-! ### `Cert.KernelIdeal.dot_S1024x16_S16x16_S1024x16_1_0_0_1_n_n` -/

theorem lhs_k_XW_0 [Cert.KernelIdeal.Facts₀] (i : (⟨2, ![1024, 16]⟩ : Shape).Idx) (q : Cert.KernelIdeal.dot_S1024x16_S16x16_S1024x16_1_0_0_1_n_n.contr.Idx) :
    (Cert.KernelIdeal.dot_S1024x16_S16x16_S1024x16_1_0_0_1_n_n.lhsIdx i q 0).val = (i 0).val := by
  unfold DotDims.lhsIdx
  rw [dif_neg (show ¬(0 : Fin Cert.KernelIdeal.S1024x16.rank) ∈ Cert.KernelIdeal.dot_S1024x16_S16x16_S1024x16_1_0_0_1_n_n.lhsBatch from List.not_mem_nil),
    dif_pos (show (0 : Fin Cert.KernelIdeal.S1024x16.rank) ∈ Cert.KernelIdeal.dot_S1024x16_S16x16_S1024x16_1_0_0_1_n_n.lhsNonContracting from List.mem_singleton.mpr rfl)]
  rfl

theorem lhs_k_XW_1 [Cert.KernelIdeal.Facts₀] (i : (⟨2, ![1024, 16]⟩ : Shape).Idx) (q : Cert.KernelIdeal.dot_S1024x16_S16x16_S1024x16_1_0_0_1_n_n.contr.Idx) :
    (Cert.KernelIdeal.dot_S1024x16_S16x16_S1024x16_1_0_0_1_n_n.lhsIdx i q 1).val = (q ⟨0, Nat.one_pos⟩).val :=
  Cert.KernelIdeal.dot_S1024x16_S16x16_S1024x16_1_0_0_1_n_n.lhsIdx_val_of_single rfl i q

theorem rhs_k_XW_0 [Cert.KernelIdeal.Facts₀] (i : (⟨2, ![1024, 16]⟩ : Shape).Idx) (q : Cert.KernelIdeal.dot_S1024x16_S16x16_S1024x16_1_0_0_1_n_n.contr.Idx) :
    (Cert.KernelIdeal.dot_S1024x16_S16x16_S1024x16_1_0_0_1_n_n.rhsIdx i q 0).val = (q ⟨0, Nat.one_pos⟩).val :=
  Cert.KernelIdeal.dot_S1024x16_S16x16_S1024x16_1_0_0_1_n_n.rhsIdx_val_of_single rfl i q

theorem rhs_k_XW_1 [Cert.KernelIdeal.Facts₀] (i : (⟨2, ![1024, 16]⟩ : Shape).Idx) (q : Cert.KernelIdeal.dot_S1024x16_S16x16_S1024x16_1_0_0_1_n_n.contr.Idx) :
    (Cert.KernelIdeal.dot_S1024x16_S16x16_S1024x16_1_0_0_1_n_n.rhsIdx i q 1).val = (i 1).val := by
  unfold DotDims.rhsIdx
  rw [dif_neg (show ¬(1 : Fin Cert.KernelIdeal.S16x16.rank) ∈ Cert.KernelIdeal.dot_S1024x16_S16x16_S1024x16_1_0_0_1_n_n.rhsBatch from List.not_mem_nil),
    dif_pos (show (1 : Fin Cert.KernelIdeal.S16x16.rank) ∈ Cert.KernelIdeal.dot_S1024x16_S16x16_S1024x16_1_0_0_1_n_n.rhsNonContracting from List.mem_singleton.mpr rfl)]
  rfl

/-- The kernel's row tile by the weights: `[1024, 16]` by `[16, 16]`. -/
theorem k_XW [Cert.KernelIdeal.Facts₀] : Cert.Lib.PlainDot (R := 1024) (K := 16) (M := 16) Cert.KernelIdeal.dot_S1024x16_S16x16_S1024x16_1_0_0_1_n_n where
  rank := rfl
  size := rfl
  l0 := lhs_k_XW_0
  l1 := lhs_k_XW_1
  r0 := rhs_k_XW_0
  r1 := rhs_k_XW_1

/-! ### `Cert.KernelIdeal.dot_S8192x16_S16x16_S8192x16_1_0_0_1_n_n` -/

theorem lhs_k_host_XW_0 [Cert.KernelIdeal.Facts₀] (i : (⟨2, ![8192, 16]⟩ : Shape).Idx) (q : Cert.KernelIdeal.dot_S8192x16_S16x16_S8192x16_1_0_0_1_n_n.contr.Idx) :
    (Cert.KernelIdeal.dot_S8192x16_S16x16_S8192x16_1_0_0_1_n_n.lhsIdx i q 0).val = (i 0).val := by
  unfold DotDims.lhsIdx
  rw [dif_neg (show ¬(0 : Fin Cert.KernelIdeal.S8192x16.rank) ∈ Cert.KernelIdeal.dot_S8192x16_S16x16_S8192x16_1_0_0_1_n_n.lhsBatch from List.not_mem_nil),
    dif_pos (show (0 : Fin Cert.KernelIdeal.S8192x16.rank) ∈ Cert.KernelIdeal.dot_S8192x16_S16x16_S8192x16_1_0_0_1_n_n.lhsNonContracting from List.mem_singleton.mpr rfl)]
  rfl

theorem lhs_k_host_XW_1 [Cert.KernelIdeal.Facts₀] (i : (⟨2, ![8192, 16]⟩ : Shape).Idx) (q : Cert.KernelIdeal.dot_S8192x16_S16x16_S8192x16_1_0_0_1_n_n.contr.Idx) :
    (Cert.KernelIdeal.dot_S8192x16_S16x16_S8192x16_1_0_0_1_n_n.lhsIdx i q 1).val = (q ⟨0, Nat.one_pos⟩).val :=
  Cert.KernelIdeal.dot_S8192x16_S16x16_S8192x16_1_0_0_1_n_n.lhsIdx_val_of_single rfl i q

theorem rhs_k_host_XW_0 [Cert.KernelIdeal.Facts₀] (i : (⟨2, ![8192, 16]⟩ : Shape).Idx) (q : Cert.KernelIdeal.dot_S8192x16_S16x16_S8192x16_1_0_0_1_n_n.contr.Idx) :
    (Cert.KernelIdeal.dot_S8192x16_S16x16_S8192x16_1_0_0_1_n_n.rhsIdx i q 0).val = (q ⟨0, Nat.one_pos⟩).val :=
  Cert.KernelIdeal.dot_S8192x16_S16x16_S8192x16_1_0_0_1_n_n.rhsIdx_val_of_single rfl i q

theorem rhs_k_host_XW_1 [Cert.KernelIdeal.Facts₀] (i : (⟨2, ![8192, 16]⟩ : Shape).Idx) (q : Cert.KernelIdeal.dot_S8192x16_S16x16_S8192x16_1_0_0_1_n_n.contr.Idx) :
    (Cert.KernelIdeal.dot_S8192x16_S16x16_S8192x16_1_0_0_1_n_n.rhsIdx i q 1).val = (i 1).val := by
  unfold DotDims.rhsIdx
  rw [dif_neg (show ¬(1 : Fin Cert.KernelIdeal.S16x16.rank) ∈ Cert.KernelIdeal.dot_S8192x16_S16x16_S8192x16_1_0_0_1_n_n.rhsBatch from List.not_mem_nil),
    dif_pos (show (1 : Fin Cert.KernelIdeal.S16x16.rank) ∈ Cert.KernelIdeal.dot_S8192x16_S16x16_S8192x16_1_0_0_1_n_n.rhsNonContracting from List.mem_singleton.mpr rfl)]
  rfl

/-- The kernel program's host product by the weights: `[8192, 16]` by `[16, 16]`. -/
theorem k_host_XW [Cert.KernelIdeal.Facts₀] : Cert.Lib.PlainDot (R := 8192) (K := 16) (M := 16) Cert.KernelIdeal.dot_S8192x16_S16x16_S8192x16_1_0_0_1_n_n where
  rank := rfl
  size := rfl
  l0 := lhs_k_host_XW_0
  l1 := lhs_k_host_XW_1
  r0 := rhs_k_host_XW_0
  r1 := rhs_k_host_XW_1

/-! ### `Cert.ReferenceIdeal.dot_S8192x16_S16x16_S8192x16_1_0_0_1_n_n` -/

theorem lhs_r_XW_0 [Cert.ReferenceIdeal.Facts₀] (i : (⟨2, ![8192, 16]⟩ : Shape).Idx) (q : Cert.ReferenceIdeal.dot_S8192x16_S16x16_S8192x16_1_0_0_1_n_n.contr.Idx) :
    (Cert.ReferenceIdeal.dot_S8192x16_S16x16_S8192x16_1_0_0_1_n_n.lhsIdx i q 0).val = (i 0).val := by
  unfold DotDims.lhsIdx
  rw [dif_neg (show ¬(0 : Fin Cert.ReferenceIdeal.S8192x16.rank) ∈ Cert.ReferenceIdeal.dot_S8192x16_S16x16_S8192x16_1_0_0_1_n_n.lhsBatch from List.not_mem_nil),
    dif_pos (show (0 : Fin Cert.ReferenceIdeal.S8192x16.rank) ∈ Cert.ReferenceIdeal.dot_S8192x16_S16x16_S8192x16_1_0_0_1_n_n.lhsNonContracting from List.mem_singleton.mpr rfl)]
  rfl

theorem lhs_r_XW_1 [Cert.ReferenceIdeal.Facts₀] (i : (⟨2, ![8192, 16]⟩ : Shape).Idx) (q : Cert.ReferenceIdeal.dot_S8192x16_S16x16_S8192x16_1_0_0_1_n_n.contr.Idx) :
    (Cert.ReferenceIdeal.dot_S8192x16_S16x16_S8192x16_1_0_0_1_n_n.lhsIdx i q 1).val = (q ⟨0, Nat.one_pos⟩).val :=
  Cert.ReferenceIdeal.dot_S8192x16_S16x16_S8192x16_1_0_0_1_n_n.lhsIdx_val_of_single rfl i q

theorem rhs_r_XW_0 [Cert.ReferenceIdeal.Facts₀] (i : (⟨2, ![8192, 16]⟩ : Shape).Idx) (q : Cert.ReferenceIdeal.dot_S8192x16_S16x16_S8192x16_1_0_0_1_n_n.contr.Idx) :
    (Cert.ReferenceIdeal.dot_S8192x16_S16x16_S8192x16_1_0_0_1_n_n.rhsIdx i q 0).val = (q ⟨0, Nat.one_pos⟩).val :=
  Cert.ReferenceIdeal.dot_S8192x16_S16x16_S8192x16_1_0_0_1_n_n.rhsIdx_val_of_single rfl i q

theorem rhs_r_XW_1 [Cert.ReferenceIdeal.Facts₀] (i : (⟨2, ![8192, 16]⟩ : Shape).Idx) (q : Cert.ReferenceIdeal.dot_S8192x16_S16x16_S8192x16_1_0_0_1_n_n.contr.Idx) :
    (Cert.ReferenceIdeal.dot_S8192x16_S16x16_S8192x16_1_0_0_1_n_n.rhsIdx i q 1).val = (i 1).val := by
  unfold DotDims.rhsIdx
  rw [dif_neg (show ¬(1 : Fin Cert.ReferenceIdeal.S16x16.rank) ∈ Cert.ReferenceIdeal.dot_S8192x16_S16x16_S8192x16_1_0_0_1_n_n.rhsBatch from List.not_mem_nil),
    dif_pos (show (1 : Fin Cert.ReferenceIdeal.S16x16.rank) ∈ Cert.ReferenceIdeal.dot_S8192x16_S16x16_S8192x16_1_0_0_1_n_n.rhsNonContracting from List.mem_singleton.mpr rfl)]
  rfl

/-- The reference's product by the weights: `[8192, 16]` by `[16, 16]`. -/
theorem r_XW [Cert.ReferenceIdeal.Facts₀] : Cert.Lib.PlainDot (R := 8192) (K := 16) (M := 16) Cert.ReferenceIdeal.dot_S8192x16_S16x16_S8192x16_1_0_0_1_n_n where
  rank := rfl
  size := rfl
  l0 := lhs_r_XW_0
  l1 := lhs_r_XW_1
  r0 := rhs_r_XW_0
  r1 := rhs_r_XW_1

/-! ### `Cert.Kernel.dot_S1024x1024_S1024x16_S1024x16_1_0_0_1_n_n` -/

theorem lhs_k'_LX_0 [Cert.Kernel.Facts₀] (i : (⟨2, ![1024, 16]⟩ : Shape).Idx) (q : Cert.Kernel.dot_S1024x1024_S1024x16_S1024x16_1_0_0_1_n_n.contr.Idx) :
    (Cert.Kernel.dot_S1024x1024_S1024x16_S1024x16_1_0_0_1_n_n.lhsIdx i q 0).val = (i 0).val := by
  unfold DotDims.lhsIdx
  rw [dif_neg (show ¬(0 : Fin Cert.Kernel.S1024x1024.rank) ∈ Cert.Kernel.dot_S1024x1024_S1024x16_S1024x16_1_0_0_1_n_n.lhsBatch from List.not_mem_nil),
    dif_pos (show (0 : Fin Cert.Kernel.S1024x1024.rank) ∈ Cert.Kernel.dot_S1024x1024_S1024x16_S1024x16_1_0_0_1_n_n.lhsNonContracting from List.mem_singleton.mpr rfl)]
  rfl

theorem lhs_k'_LX_1 [Cert.Kernel.Facts₀] (i : (⟨2, ![1024, 16]⟩ : Shape).Idx) (q : Cert.Kernel.dot_S1024x1024_S1024x16_S1024x16_1_0_0_1_n_n.contr.Idx) :
    (Cert.Kernel.dot_S1024x1024_S1024x16_S1024x16_1_0_0_1_n_n.lhsIdx i q 1).val = (q ⟨0, Nat.one_pos⟩).val :=
  Cert.Kernel.dot_S1024x1024_S1024x16_S1024x16_1_0_0_1_n_n.lhsIdx_val_of_single rfl i q

theorem rhs_k'_LX_0 [Cert.Kernel.Facts₀] (i : (⟨2, ![1024, 16]⟩ : Shape).Idx) (q : Cert.Kernel.dot_S1024x1024_S1024x16_S1024x16_1_0_0_1_n_n.contr.Idx) :
    (Cert.Kernel.dot_S1024x1024_S1024x16_S1024x16_1_0_0_1_n_n.rhsIdx i q 0).val = (q ⟨0, Nat.one_pos⟩).val :=
  Cert.Kernel.dot_S1024x1024_S1024x16_S1024x16_1_0_0_1_n_n.rhsIdx_val_of_single rfl i q

theorem rhs_k'_LX_1 [Cert.Kernel.Facts₀] (i : (⟨2, ![1024, 16]⟩ : Shape).Idx) (q : Cert.Kernel.dot_S1024x1024_S1024x16_S1024x16_1_0_0_1_n_n.contr.Idx) :
    (Cert.Kernel.dot_S1024x1024_S1024x16_S1024x16_1_0_0_1_n_n.rhsIdx i q 1).val = (i 1).val := by
  unfold DotDims.rhsIdx
  rw [dif_neg (show ¬(1 : Fin Cert.Kernel.S1024x16.rank) ∈ Cert.Kernel.dot_S1024x1024_S1024x16_S1024x16_1_0_0_1_n_n.rhsBatch from List.not_mem_nil),
    dif_pos (show (1 : Fin Cert.Kernel.S1024x16.rank) ∈ Cert.Kernel.dot_S1024x1024_S1024x16_S1024x16_1_0_0_1_n_n.rhsNonContracting from List.mem_singleton.mpr rfl)]
  rfl

/-- The word-level kernel's block of `L · X`: `[1024, 1024]` by `[1024, 16]`. -/
theorem k'_LX [Cert.Kernel.Facts₀] : Cert.Lib.PlainDot (R := 1024) (K := 1024) (M := 16) Cert.Kernel.dot_S1024x1024_S1024x16_S1024x16_1_0_0_1_n_n where
  rank := rfl
  size := rfl
  l0 := lhs_k'_LX_0
  l1 := lhs_k'_LX_1
  r0 := rhs_k'_LX_0
  r1 := rhs_k'_LX_1

/-! ### `Cert.Kernel.dot_S1024x16_S16x16_S1024x16_1_0_0_1_n_n` -/

theorem lhs_k'_XW_0 [Cert.Kernel.Facts₀] (i : (⟨2, ![1024, 16]⟩ : Shape).Idx) (q : Cert.Kernel.dot_S1024x16_S16x16_S1024x16_1_0_0_1_n_n.contr.Idx) :
    (Cert.Kernel.dot_S1024x16_S16x16_S1024x16_1_0_0_1_n_n.lhsIdx i q 0).val = (i 0).val := by
  unfold DotDims.lhsIdx
  rw [dif_neg (show ¬(0 : Fin Cert.Kernel.S1024x16.rank) ∈ Cert.Kernel.dot_S1024x16_S16x16_S1024x16_1_0_0_1_n_n.lhsBatch from List.not_mem_nil),
    dif_pos (show (0 : Fin Cert.Kernel.S1024x16.rank) ∈ Cert.Kernel.dot_S1024x16_S16x16_S1024x16_1_0_0_1_n_n.lhsNonContracting from List.mem_singleton.mpr rfl)]
  rfl

theorem lhs_k'_XW_1 [Cert.Kernel.Facts₀] (i : (⟨2, ![1024, 16]⟩ : Shape).Idx) (q : Cert.Kernel.dot_S1024x16_S16x16_S1024x16_1_0_0_1_n_n.contr.Idx) :
    (Cert.Kernel.dot_S1024x16_S16x16_S1024x16_1_0_0_1_n_n.lhsIdx i q 1).val = (q ⟨0, Nat.one_pos⟩).val :=
  Cert.Kernel.dot_S1024x16_S16x16_S1024x16_1_0_0_1_n_n.lhsIdx_val_of_single rfl i q

theorem rhs_k'_XW_0 [Cert.Kernel.Facts₀] (i : (⟨2, ![1024, 16]⟩ : Shape).Idx) (q : Cert.Kernel.dot_S1024x16_S16x16_S1024x16_1_0_0_1_n_n.contr.Idx) :
    (Cert.Kernel.dot_S1024x16_S16x16_S1024x16_1_0_0_1_n_n.rhsIdx i q 0).val = (q ⟨0, Nat.one_pos⟩).val :=
  Cert.Kernel.dot_S1024x16_S16x16_S1024x16_1_0_0_1_n_n.rhsIdx_val_of_single rfl i q

theorem rhs_k'_XW_1 [Cert.Kernel.Facts₀] (i : (⟨2, ![1024, 16]⟩ : Shape).Idx) (q : Cert.Kernel.dot_S1024x16_S16x16_S1024x16_1_0_0_1_n_n.contr.Idx) :
    (Cert.Kernel.dot_S1024x16_S16x16_S1024x16_1_0_0_1_n_n.rhsIdx i q 1).val = (i 1).val := by
  unfold DotDims.rhsIdx
  rw [dif_neg (show ¬(1 : Fin Cert.Kernel.S16x16.rank) ∈ Cert.Kernel.dot_S1024x16_S16x16_S1024x16_1_0_0_1_n_n.rhsBatch from List.not_mem_nil),
    dif_pos (show (1 : Fin Cert.Kernel.S16x16.rank) ∈ Cert.Kernel.dot_S1024x16_S16x16_S1024x16_1_0_0_1_n_n.rhsNonContracting from List.mem_singleton.mpr rfl)]
  rfl

/-- The word-level kernel's row tile by the weights: `[1024, 16]` by `[16, 16]`. -/
theorem k'_XW [Cert.Kernel.Facts₀] : Cert.Lib.PlainDot (R := 1024) (K := 16) (M := 16) Cert.Kernel.dot_S1024x16_S16x16_S1024x16_1_0_0_1_n_n where
  rank := rfl
  size := rfl
  l0 := lhs_k'_XW_0
  l1 := lhs_k'_XW_1
  r0 := rhs_k'_XW_0
  r1 := rhs_k'_XW_1

/-! ### `Cert.Kernel.dot_S8192x16_S16x16_S8192x16_1_0_0_1_n_n` -/

theorem lhs_k'_host_XW_0 [Cert.Kernel.Facts₀] (i : (⟨2, ![8192, 16]⟩ : Shape).Idx) (q : Cert.Kernel.dot_S8192x16_S16x16_S8192x16_1_0_0_1_n_n.contr.Idx) :
    (Cert.Kernel.dot_S8192x16_S16x16_S8192x16_1_0_0_1_n_n.lhsIdx i q 0).val = (i 0).val := by
  unfold DotDims.lhsIdx
  rw [dif_neg (show ¬(0 : Fin Cert.Kernel.S8192x16.rank) ∈ Cert.Kernel.dot_S8192x16_S16x16_S8192x16_1_0_0_1_n_n.lhsBatch from List.not_mem_nil),
    dif_pos (show (0 : Fin Cert.Kernel.S8192x16.rank) ∈ Cert.Kernel.dot_S8192x16_S16x16_S8192x16_1_0_0_1_n_n.lhsNonContracting from List.mem_singleton.mpr rfl)]
  rfl

theorem lhs_k'_host_XW_1 [Cert.Kernel.Facts₀] (i : (⟨2, ![8192, 16]⟩ : Shape).Idx) (q : Cert.Kernel.dot_S8192x16_S16x16_S8192x16_1_0_0_1_n_n.contr.Idx) :
    (Cert.Kernel.dot_S8192x16_S16x16_S8192x16_1_0_0_1_n_n.lhsIdx i q 1).val = (q ⟨0, Nat.one_pos⟩).val :=
  Cert.Kernel.dot_S8192x16_S16x16_S8192x16_1_0_0_1_n_n.lhsIdx_val_of_single rfl i q

theorem rhs_k'_host_XW_0 [Cert.Kernel.Facts₀] (i : (⟨2, ![8192, 16]⟩ : Shape).Idx) (q : Cert.Kernel.dot_S8192x16_S16x16_S8192x16_1_0_0_1_n_n.contr.Idx) :
    (Cert.Kernel.dot_S8192x16_S16x16_S8192x16_1_0_0_1_n_n.rhsIdx i q 0).val = (q ⟨0, Nat.one_pos⟩).val :=
  Cert.Kernel.dot_S8192x16_S16x16_S8192x16_1_0_0_1_n_n.rhsIdx_val_of_single rfl i q

theorem rhs_k'_host_XW_1 [Cert.Kernel.Facts₀] (i : (⟨2, ![8192, 16]⟩ : Shape).Idx) (q : Cert.Kernel.dot_S8192x16_S16x16_S8192x16_1_0_0_1_n_n.contr.Idx) :
    (Cert.Kernel.dot_S8192x16_S16x16_S8192x16_1_0_0_1_n_n.rhsIdx i q 1).val = (i 1).val := by
  unfold DotDims.rhsIdx
  rw [dif_neg (show ¬(1 : Fin Cert.Kernel.S16x16.rank) ∈ Cert.Kernel.dot_S8192x16_S16x16_S8192x16_1_0_0_1_n_n.rhsBatch from List.not_mem_nil),
    dif_pos (show (1 : Fin Cert.Kernel.S16x16.rank) ∈ Cert.Kernel.dot_S8192x16_S16x16_S8192x16_1_0_0_1_n_n.rhsNonContracting from List.mem_singleton.mpr rfl)]
  rfl

/-- The word-level kernel program's host product by the weights: `[8192, 16]` by `[16, 16]`. -/
theorem k'_host_XW [Cert.Kernel.Facts₀] : Cert.Lib.PlainDot (R := 8192) (K := 16) (M := 16) Cert.Kernel.dot_S8192x16_S16x16_S8192x16_1_0_0_1_n_n where
  rank := rfl
  size := rfl
  l0 := lhs_k'_host_XW_0
  l1 := lhs_k'_host_XW_1
  r0 := rhs_k'_host_XW_0
  r1 := rhs_k'_host_XW_1

end Cert.Dots

end
-- ==== Proof.KernelIdeal.R0.Payloads.lean ====
/-
  The three values the region's kernel stores, read at an index over the extended reals.

  The first is a block of zeros. The second is the accumulator block plus the product of a `[1024, 1024]` block of
  the left matrix by a `[1024, 16]` block of the right one, the matrix unit's operands narrowed and its accumulator
  zero: over the extended reals the textbook sum. The third is the output block plus the positive part of the product
  of the `[1024, 16]` tile by the `[16, 16]` weights.
-/
import proofs.«163433_j78743930404901_1_alg».proof.Proof.Gen.KernelIdeal.Skeleton
import proofs.«163433_j78743930404901_1_alg».proof.Proof.Gen.KernelIdeal
import proofs.«163433_j78743930404901_1_alg».proof.Proof.Dots
import proofs.«163433_j78743930404901_1_alg».proof.Proof.LibAffineRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.H

open Cert.KernelIdeal Cert.KernelIdeal.Gen Idealize.ShloMosaic Idealize.ShloMosaic.ValueIdx

/-- The zero block at `(r, q)`. -/
theorem pay10_apply (r : Fin 1024) (q : Fin 16) : k0_pay1 (F := Ideal) (ix2 r q) = 0 := by
  unfold k0_pay1
  simp only [shapeCast_self, broadcast_apply]
  exact Ideal.ofBits_zero_f32

/-- The accumulator plus the block product at `(r, q)`. -/
theorem pay20_apply (v3 : Vec Ideal S1024x1024 .f32) (v5 v7 : Vec Ideal S1024x16 .f32) (r : Fin 1024) (q : Fin 16) :
    k0_pay2 v3 v5 v7 (ix2 r q) = v7 (ix2 r q) + ∑ kk : Fin 1024, v3 (ix2 r kk) * v5 (ix2 kk q) := by
  unfold k0_pay2
  simp only [shapeCast_self, addf_apply]
  rw [Cert.Lib.matmul_zero_apply Cert.Dots.k_LX]

/-- The output block plus the positive part of the tile's product by the weights at `(r, q)`. -/
theorem pay30_apply (v16 : Vec Ideal S1024x16 .f32) (v19 : Vec Ideal S16x16 .f32) (v25 : Vec Ideal S1024x16 .f32)
    (r : Fin 1024) (q : Fin 16) :
    k0_pay3 v16 v19 v25 (ix2 r q) = v25 (ix2 r q) + max (∑ a : Fin 16, v16 (ix2 r a) * v19 (ix2 a q)) 0 := by
  unfold k0_pay3
  simp only [shapeCast_self, addf_apply, maximumf_apply, broadcast_apply]
  rw [Cert.Lib.matmul_zero_apply Cert.Dots.k_XW,
    show (FloatOps.ofBits (F := Ideal) .f32 0x00000000#32 : Ideal .f32) = 0 from Ideal.ofBits_zero_f32]

end Cert.KernelIdeal.H

end
-- ==== Proof.LibBlockedSum.lean ====
/-
  Sums in blocks, and a chain of partial sums.

  A sum over `j < B * K` in a commutative monoid is the sum over the blocks `b < B` of the sums over the places
  `k < K` inside a block, the index being `j = K * b + k` (`sum_blocks`). An accumulator that starts from zero and
  takes the terms `P 0, P 1, …, P n` in order holds their sum (`chain_eq_sum`). Nothing here depends on the sizes.
-/
import Mathlib.Algebra.BigOperators.Fin
import Mathlib.Logic.Equiv.Fin.Basic

namespace Cert.Lib

/-- The place `k` of the block `b`, among `B` blocks of `K` places each, is below `B * K`. -/
theorem blk_lt {B K : ℕ} (b : Fin B) (k : Fin K) : K * b.val + k.val < B * K :=
  calc K * b.val + k.val < K * b.val + K := Nat.add_lt_add_left k.isLt _
    _ = (b.val + 1) * K := by rw [Nat.succ_mul, Nat.mul_comm]
    _ ≤ B * K := Nat.mul_le_mul_right _ b.isLt

/-- A sum over `j < B * K` is the sum over the blocks `b < B` of the sums over `k < K`, at `j = K * b + k`. -/
theorem sum_blocks {M : Type*} [AddCommMonoid M] (B K : ℕ) (f : Fin (B * K) → M) :
    ∑ j : Fin (B * K), f j = ∑ b : Fin B, ∑ k : Fin K, f ⟨K * b.val + k.val, blk_lt b k⟩ := by
  rw [← Equiv.sum_comp finProdFinEquiv f, Fintype.sum_prod_type]
  refine Finset.sum_congr rfl fun b _ => Finset.sum_congr rfl fun k _ => congrArg f (Fin.ext ?_)
  show k.val + K * b.val = K * b.val + k.val
  exact Nat.add_comm _ _

/-- The same over `j < N` where `N = B * K`. -/
theorem sum_blocks' {M : Type*} [AddCommMonoid M] {N : ℕ} (B K : ℕ) (hN : N = B * K) (f : Fin N → M) :
    ∑ j : Fin N, f j = ∑ b : Fin B, ∑ k : Fin K, f ⟨K * b.val + k.val, hN ▸ blk_lt b k⟩ := by
  subst hN
  exact sum_blocks B K f

/-- The accumulator after the terms `P 0, …, P n` were added in order to a zero. -/
def chain {M : Type*} [AddCommMonoid M] (P : ℕ → M) : ℕ → M
  | 0 => 0 + P 0
  | n + 1 => chain P n + P (n + 1)

/-- The accumulator holds the sum of the terms it took. -/
theorem chain_eq_sum {M : Type*} [AddCommMonoid M] (P : ℕ → M) (n : ℕ) :
    chain P n = ∑ i ∈ Finset.range (n + 1), P i := by
  induction n with
  | zero => simp [chain]
  | succ n ih => rw [chain, ih, Finset.sum_range_succ _ (n + 1)]

/-- The same, the sum written over `i < n + 1`. -/
theorem chain_eq_sum_fin {M : Type*} [AddCommMonoid M] (P : ℕ → M) (n : ℕ) :
    chain P n = ∑ i : Fin (n + 1), P i.val := by
  rw [chain_eq_sum, Fin.sum_univ_eq_sum_range]

end Cert.Lib
-- ==== Proof.KernelIdeal.R0.Value.lean ====
/-
  The first output of this region as a value at the ideal instance.

  The grid is 8 × 8, point t = 8·i + k. The matrix's block at t is rows 1024·i …, columns 1024·k …; the vector's block
  is rows 1024·k …. The accumulator is reset where k = 0 and takes, at every point, the product of the point's two blocks;
  so after point t it holds the partial sums over the column blocks 0 … k of row tile i, added in order to a zero
  (`acc0_chain`). At k = 7 these eight partial sums are the whole sum over the 8192 columns, which is the host's product
  of the matrix and the vector read at row 1024·i + r (`acc0_rows`, `acc0_last`). The first output's block (i, 0) is
  written back exactly there, the eight blocks cover the array, and so the array ends holding the product (`final0_4`).
-/
-- layout: arrays
import proofs.«163433_j78743930404901_1_alg».proof.Proof.KernelIdeal.R0.Pieces
import proofs.«163433_j78743930404901_1_alg».proof.Proof.KernelIdeal.R0.Payloads
import proofs.«163433_j78743930404901_1_alg».proof.Proof.Dots
import proofs.«163433_j78743930404901_1_alg».proof.Proof.LibBlockedSum
import proofs.«163433_j78743930404901_1_alg».proof.Proof.LibAffineRows
import proofs.«163433_j78743930404901_1_alg».proof.ReferenceIdeal
import proofs.«163433_j78743930404901_1_alg».proof.Proof.Gen.KernelIdeal
import proofs.«163433_j78743930404901_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window BodyObligation cellOf)

section Region0

variable (V : (c : Dev nD) → (b : Ref sig .tc) → Buf (Elt Ideal) ((c : Thread nD τ).loc b))

/-! ## Where the blocks lie -/

/-- The block index at point `t = 8·i + k`: the matrix's block is `(i, k)`, the vector's `(k, 0)`, the first output's
    `(i, 0)`. -/
theorem hidx0_L : ∀ t : Fin cfg0.N, win0_0.index t 0 = t.val / 8 ∧ win0_0.index t 1 = t.val % 8 :=
  (by decide +kernel : ∀ t : Fin grid0.N, _)
theorem hidx0_X : ∀ t : Fin cfg0.N, win0_1.index t 0 = t.val % 8 ∧ win0_1.index t 1 = 0 :=
  (by decide +kernel : ∀ t : Fin grid0.N, _)
theorem hidx0_4 : ∀ t : Fin cfg0.N, win0_4.index t 0 = t.val / 8 ∧ win0_4.index t 1 = 0 :=
  (by decide +kernel : ∀ t : Fin grid0.N, _)

/-- The matrix's block at point `t`, entry `(r, kk)`, is the matrix at row `1024·(t / 8) + r`, column `1024·(t % 8) + kk`. -/
theorem blk0_L (c : Dev nD) (t : Fin cfg0.N) (r kk : Fin 1024) (i j : Fin 8192)
    (hi : i.val = 1024 * (t.val / 8) + r.val) (hj : j.val = 1024 * (t.val % 8) + kk.val) :
    lblk0 V c t (ix2 r kk) = (V c main_arg1 : FVec Ideal S8192x8192 .f32) (ix2 i j) := by
  obtain ⟨e0, e1⟩ := hidx0_L t
  unfold lblk0 iblk0
  rw [View.read_apply]
  show (V c main_arg1 : FVec Ideal S8192x8192 .f32) _ = _
  congr 1
  funext a
  apply Fin.ext
  match a with
  | ⟨0, _⟩ => show win0_0.index t 0 * 1024 + 1 * r.val = i.val; rw [e0, hi]; omega
  | ⟨1, _⟩ => show win0_0.index t 1 * 1024 + 1 * kk.val = j.val; rw [e1, hj]; omega

/-- The vector's block at point `t`, entry `(kk, q)`, is the vector at row `1024·(t % 8) + kk`, column `q`. -/
theorem blk0_X (c : Dev nD) (t : Fin cfg0.N) (kk : Fin 1024) (q : Fin 16) (j : Fin 8192)
    (hj : j.val = 1024 * (t.val % 8) + kk.val) :
    xblk0 V c t (ix2 kk q) = (V c main_arg0 : FVec Ideal S8192x16 .f32) (ix2 j q) := by
  obtain ⟨e0, e1⟩ := hidx0_X t
  unfold xblk0 iblk0
  rw [View.read_apply]
  show (V c main_arg0 : FVec Ideal S8192x16 .f32) _ = _
  congr 1
  funext a
  apply Fin.ext
  match a with
  | ⟨0, _⟩ => show win0_1.index t 0 * 1024 + 1 * kk.val = j.val; rw [e0, hj]; omega
  | ⟨1, _⟩ => show win0_1.index t 1 * 16 + 1 * q.val = q.val; rw [e1]; omega

/-! ## The accumulator -/

/-- The product of the two blocks of point `n` at entry `(r, q)`; zero past the grid. -/
def prod0 (c : Dev nD) (r : Fin 1024) (q : Fin 16) (n : ℕ) : EReal :=
  if h : n < cfg0.N then ∑ kk : Fin 1024, lblk0 V c ⟨n, h⟩ (ix2 r kk) * xblk0 V c ⟨n, h⟩ (ix2 kk q) else 0

theorem prod0_of_lt (c : Dev nD) (r : Fin 1024) (q : Fin 16) (n : ℕ) (h : n < cfg0.N) :
    prod0 V c r q n = ∑ kk : Fin 1024, lblk0 V c ⟨n, h⟩ (ix2 r kk) * xblk0 V c ⟨n, h⟩ (ix2 kk q) := dif_pos h

/-- After point `n` the accumulator holds the products of the points of `n`'s row tile up to `n`, added in order to a
    zero. -/
theorem acc0_chain (c : Dev nD) (r : Fin 1024) (q : Fin 16) : ∀ (n : ℕ) (h : n < cfg0.N),
    acc0 V c n h (ix2 r q) = Cert.Lib.chain (fun j => prod0 V c r q (8 * (n / 8) + j)) (n % 8)
  | 0, h => by
    rw [acc0_zero, pay20_apply, pay10_apply]
    show 0 + _ = 0 + prod0 V c r q (8 * (0 / 8) + 0)
    rw [show 8 * (0 / 8) + 0 = 0 from rfl, prod0_of_lt V c r q 0 h]
  | n + 1, h => by
    by_cases h8 : (n + 1) % 8 = 0
    · rw [acc0_reset V c n h h8, pay20_apply, pay10_apply, h8]
      show 0 + _ = 0 + prod0 V c r q (8 * ((n + 1) / 8) + 0)
      rw [show 8 * ((n + 1) / 8) + 0 = n + 1 by omega, prod0_of_lt V c r q _ h]
    · rw [acc0_carry V c n h h8, pay20_apply, acc0_chain c r q n (Nat.lt_of_succ_lt h)]
      rw [show (n + 1) % 8 = n % 8 + 1 by omega, show (n + 1) / 8 = n / 8 by omega]
      show _ + _ = Cert.Lib.chain _ (n % 8) + prod0 V c r q (8 * (n / 8) + (n % 8 + 1))
      rw [show 8 * (n / 8) + (n % 8 + 1) = n + 1 by omega, prod0_of_lt V c r q _ h]

/-- What the first output ends holding: the matrix times the vector. -/
abbrev xpOut0 (c : Dev nD) : FVec Ideal S8192x16 .f32 :=
  Host.dotGeneral (F := Ideal) (φ₁ := .f32) (φ₂ := .f32) Cert.ReferenceIdeal.dot_S8192x8192_S8192x16_S8192x16_1_0_0_1_n_n none (V c main_arg1) (V c main_arg0)

/-- At the last point of a row tile the accumulator's entry `(r, q)` is the matrix's row `1024·(t / 8) + r` times the
    vector's column `q`: the eight blocks' partial sums are the whole sum. -/
theorem acc0_rows (c : Dev nD) (t : Fin cfg0.N) (h7 : t.val % 8 = 7) (r : Fin 1024) (q : Fin 16) (i : Fin 8192)
    (hi : i.val = 1024 * (t.val / 8) + r.val) :
    acc0 V c t.val t.isLt (ix2 r q) = xpOut0 V c (ix2 i q) := by
  have hN : cfg0.N = 64 := N_0
  have ht := t.isLt
  rw [acc0_chain V c r q t.val t.isLt, h7, Cert.Lib.chain_eq_sum_fin]
  unfold xpOut0
  rw [Cert.Lib.dotGeneral_apply Cert.Dots.r_LX, Cert.Lib.sum_blocks' 8 1024 (rfl : 8192 = 8 * 1024)]
  refine Finset.sum_congr rfl fun b _ => ?_
  have hb := b.isLt
  have hlt : 8 * (t.val / 8) + b.val < cfg0.N := by omega
  show prod0 V c r q (8 * (t.val / 8) + b.val) = _
  rw [prod0_of_lt V c r q _ hlt]
  refine Finset.sum_congr rfl fun kk _ => ?_
  have hk := kk.isLt
  rw [blk0_L V c ⟨_, hlt⟩ r kk i ⟨1024 * b.val + kk.val, by omega⟩
      (by show i.val = 1024 * ((8 * (t.val / 8) + b.val) / 8) + r.val; omega)
      (by show 1024 * b.val + kk.val = 1024 * ((8 * (t.val / 8) + b.val) % 8) + kk.val; omega),
    blk0_X V c ⟨_, hlt⟩ kk q ⟨1024 * b.val + kk.val, by omega⟩
      (by show 1024 * b.val + kk.val = 1024 * ((8 * (t.val / 8) + b.val) % 8) + kk.val; omega)]

/-- The same with the row written out: the accumulator at the last contraction tile of row tile `t / 8` holds the
    whole product's rows. -/
theorem acc0_last (c : Dev nD) (t : Fin cfg0.N) (h1 : t.val % 8 = 7) (r : Fin 1024) (q : Fin 16) :
    acc0 V c t.val t.isLt (ix2 r q)
      = Host.dotGeneral (F := Ideal) (φ₁ := .f32) (φ₂ := .f32) Cert.ReferenceIdeal.dot_S8192x8192_S8192x16_S8192x16_1_0_0_1_n_n none (V c main_arg1) (V c main_arg0)
          (ix2 (⟨1024 * (t.val / 8) + r.val, by have := t.isLt; have := r.isLt; have : cfg0.N = 64 := N_0; omega⟩ : Fin 8192) q) :=
  acc0_rows V c t h1 r q _ rfl

/-! ## The first output -/

/-- What the write-back at a last contraction tile writes is its block of the matrix times the vector. -/
theorem flushed0_4 (c : Dev nD) (t : Fin cfg0.N) (hf : (cfg0.win 4).flush t = true) :
    (dat0 V c).flushed 4 t = ((cfg0.win 4).blk t).view.read (Elt Ideal) (xpOut0 V c) := by
  have h7 : t.val % 8 = 7 := (flush0_4 t).mp hf
  have hN : cfg0.N = 64 := N_0
  have ht := t.isLt
  obtain ⟨e0, e1⟩ := hidx0_4 t
  show (cfg0.win 4).cut (grid0.coords t) ((dat0 V c).after 4 t) = _
  rw [after0_4, outsAt0_out4 V c t h7]
  funext j
  have hj0 : (j 0).val < 1024 := (j 0).isLt
  have hj1 : (j 1).val < 16 := (j 1).isLt
  have el : ((cfg0.win 4).xinj (grid0.coords t) j : S1024x16.Idx) = ix2 ⟨(j 0).val, hj0⟩ ⟨(j 1).val, hj1⟩ :=
    funext fun a => by match a with | ⟨0, _⟩ => rfl | ⟨1, _⟩ => rfl
  have er : (((cfg0.win 4).blk t).view.emb j : S8192x16.Idx)
      = ix2 (⟨1024 * (t.val / 8) + (j 0).val, by omega⟩ : Fin 8192) ⟨(j 1).val, hj1⟩ := by
    funext a
    apply Fin.ext
    match a with
    | ⟨0, _⟩ => show win0_4.index t 0 * 1024 + 1 * (j 0).val = 1024 * (t.val / 8) + (j 0).val; rw [e0]; omega
    | ⟨1, _⟩ => show win0_4.index t 1 * 16 + 1 * (j 1).val = (j 1).val; rw [e1]; omega
  rw [View.read_apply]
  show acc0 V c t.val t.isLt ((cfg0.win 4).xinj (grid0.coords t) j) = xpOut0 V c (((cfg0.win 4).blk t).view.emb j)
  rw [el, er]
  exact acc0_rows V c t h7 _ _ _ rfl

/-- An index of the array is in point `t`'s block iff each coordinate is in the block's range on its axis. -/
theorem blk0_mem4 (t : Fin cfg0.N) (i : S8192x16.Idx) :
    i ∈ ((cfg0.win 4).blk t).view.set ↔ ∀ a : Fin 2, win0_4.index t a * S1024x16.size a ≤ (i a).val ∧ (i a).val < win0_4.index t a * S1024x16.size a + S1024x16.size a := by
  show i ∈ ((View.whole main_v6_0).slice (win0_4.rect t)).set ↔ _
  rw [View.set_slice_whole, Rect.mem_set_unit]
  exact Iff.rfl

/-- Row `R` of the array lies in the block written back at the last contraction tile of row tile `R / 1024`. -/
theorem cover_arr0_4 (i : S8192x16.Idx) :
    ∃ t : Fin cfg0.N, (cfg0.win 4).flush t = true ∧ i ∈ ((cfg0.win 4).blk t).view.set := by
  have hN : cfg0.N = 64 := N_0
  have hi0 : (i 0).val < 8192 := (i 0).isLt
  have hi1 : (i 1).val < 16 := (i 1).isLt
  obtain ⟨t, ht⟩ : ∃ t : Fin cfg0.N, t.val = 8 * ((i 0).val / 1024) + 7 := ⟨⟨8 * ((i 0).val / 1024) + 7, by omega⟩, rfl⟩
  obtain ⟨e0, e1⟩ := hidx0_4 t
  refine ⟨t, (flush0_4 t).mpr (by omega), ?_⟩
  rw [blk0_mem4]
  intro a
  match a with
  | ⟨0, _⟩ => show win0_4.index t 0 * 1024 ≤ (i 0).val ∧ (i 0).val < win0_4.index t 0 * 1024 + 1024; rw [e0]; omega
  | ⟨1, _⟩ => show win0_4.index t 1 * 16 ≤ (i 1).val ∧ (i 1).val < win0_4.index t 1 * 16 + 16; rw [e1]; omega

/-- The first output array ends holding the matrix times the vector. -/
theorem final0_4 (c : Dev nD) :
    ((dat0 (F := Ideal) V c).arrAt 4 cfg0.N : FVec Ideal S8192x16 .f32)
      = Host.dotGeneral (F := Ideal) (φ₁ := .f32) (φ₂ := .f32) Cert.ReferenceIdeal.dot_S8192x8192_S8192x16_S8192x16_1_0_0_1_n_n none (V c main_arg1) (V c main_arg0) :=
  (dat0 V c).arrAt_eq_of_cover 4 (xpOut0 V c) (flushed0_4 V c) cover_arr0_4

end Region0

end Cert.KernelIdeal.H

end
-- ==== Proof.KernelIdeal.R0.Value5.lean ====
/-
  The region's second result array at the ideal values.

  The grid is 8 by 8, the point `t = 8 i + k`. The output's blocks are the eight row blocks `[1024, 16]` of the
  `[8192, 16]` array, block `i` written back at the last point `k = 7` of row tile `i`, where it holds the residual
  block plus the positive part of the product of the accumulator — row tile `i` of the whole product `L · X` — by the
  weights. Read at an index these are the rows `1024 i + r` of one function of the arrays the region is entered with,
  and the eight blocks cover the array.
-/
-- layout: arrays
import proofs.«163433_j78743930404901_1_alg».proof.Proof.KernelIdeal.R0.Value
import proofs.«163433_j78743930404901_1_alg».proof.Proof.KernelIdeal.R0.Payloads
import proofs.«163433_j78743930404901_1_alg».proof.Proof.Dots
import proofs.«163433_j78743930404901_1_alg».proof.Proof.LibAffineRows
import proofs.«163433_j78743930404901_1_alg».proof.ReferenceIdeal
import proofs.«163433_j78743930404901_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.H

open Cert.KernelIdeal Cert.KernelIdeal.Gen
open Idealize.ShloMosaic Idealize.ShloMosaic.TcCoe Idealize.SL.Sem Idealize.ShloMosaic.ValueIdx
open Idealize.ShloMosaic.Pipeline (Dat)

section Region0

variable (V : (c : Dev nD) → (b : Ref sig .tc) → Buf (Elt Ideal) ((c : Thread nD τ).loc b))

/-! ## The printed index maps, decided once over the grid -/

/-- The weights' window is the whole `[16, 16]` array at every point. -/
theorem hidx0_W : ∀ t : Fin cfg0.N, win0_2.index t 0 = 0 ∧ win0_2.index t 1 = 0 :=
  (by decide +kernel : ∀ t : Fin grid0.N, _)

/-- The residual's window is at row block `t / 8`. -/
theorem hidx0_A : ∀ t : Fin cfg0.N, win0_3.index t 0 = t.val / 8 ∧ win0_3.index t 1 = 0 :=
  (by decide +kernel : ∀ t : Fin grid0.N, _)

/-- The second output's window is at row block `t / 8`. -/
theorem hidx0_5 : ∀ t : Fin cfg0.N, win0_5.index t 0 = t.val / 8 ∧ win0_5.index t 1 = 0 :=
  (by decide +kernel : ∀ t : Fin grid0.N, _)

/-! ## The blocks the last point of a row tile reads -/

/-- The weight block at any point, entry `(a, b)`, is the weights there. -/
theorem blk0_W (c : Dev nD) (t : Fin cfg0.N) (a b : Fin 16) : wblk0 V c t (ix2 a b) = V c main_v5 (ix2 a b) := by
  obtain ⟨e0, e1⟩ := hidx0_W t
  unfold wblk0 iblk0
  rw [View.read_apply]
  show V c main_v5 (((cfg0.win 2).blk t).view.emb (ix2 a b)) = V c main_v5 (ix2 a b)
  refine congrArg (V c main_v5) (funext fun x => Fin.ext ?_)
  match x with
  | ⟨0, _⟩ => show win0_2.index t 0 * 16 + 1 * a.val = a.val; rw [e0]; omega
  | ⟨1, _⟩ => show win0_2.index t 1 * 16 + 1 * b.val = b.val; rw [e1]; omega

/-- The residual block at point `t`, entry `(r, q)`, is the residual at row `1024·(t / 8) + r`, column `q`. -/
theorem blk0_A (c : Dev nD) (t : Fin cfg0.N) (r : Fin 1024) (q : Fin 16) (i : Fin 8192)
    (hi : i.val = 1024 * (t.val / 8) + r.val) : ablk0 V c t (ix2 r q) = V c main_v3 (ix2 i q) := by
  obtain ⟨e0, e1⟩ := hidx0_A t
  unfold ablk0 iblk0
  rw [View.read_apply]
  show V c main_v3 (((cfg0.win 3).blk t).view.emb (ix2 r q)) = V c main_v3 (ix2 i q)
  refine congrArg (V c main_v3) (funext fun x => Fin.ext ?_)
  match x with
  | ⟨0, _⟩ => show win0_3.index t 0 * 1024 + 1 * r.val = i.val; rw [e0, hi]; omega
  | ⟨1, _⟩ => show win0_3.index t 1 * 16 + 1 * q.val = q.val; rw [e1]; omega

/-! ## The second output -/

/-- The residual, at its literal type. -/
abbrev resid0 (c : Dev nD) : FVec Ideal S8192x16 .f32 := V c main_v3
/-- The weights, at their literal type. -/
abbrev wts0 (c : Dev nD) : FVec Ideal S16x16 .f32 := V c main_v5

/-- What the second output ends holding: the residual plus the positive part of the whole product (the left matrix by
    the right one) times the weights. -/
abbrev arr0_5 (c : Dev nD) : FVec Ideal S8192x16 .f32 :=
  addf (F := Ideal) (V c main_v3) (maximumf (F := Ideal) (Host.dotGeneral (F := Ideal) (φ₁ := .f32) (φ₂ := .f32) dot_S8192x16_S16x16_S8192x16_1_0_0_1_n_n none
        (Host.dotGeneral (F := Ideal) (φ₁ := .f32) (φ₂ := .f32) Cert.ReferenceIdeal.dot_S8192x8192_S8192x16_S8192x16_1_0_0_1_n_n none (V c main_arg1) (V c main_arg0)) (V c main_v5))
      (broadcastInDim S8192x16 ![] Cert.KernelIdeal.Facts₀.bcast_S_S8192x16 (constant (F := Ideal) S_ .f32 0x00000000#32)))

/-- It reads, at `(i, q)`, the residual there plus the positive part of row `i` of the whole product against column
    `q` of the weights. -/
theorem arr0_5_apply (c : Dev nD) (i : Fin 8192) (q : Fin 16) :
    arr0_5 V c (ix2 i q)
      = resid0 V c (ix2 i q) + max (∑ a : Fin 16, xpOut0 V c (ix2 i a) * wts0 V c (ix2 a q)) 0 := by
  unfold arr0_5
  rw [addf_apply, maximumf_apply, Cert.Lib.dotGeneral_apply Cert.Dots.k_host_XW,
    broadcastInDim_apply _ _ _ (ix2 i q) (fun a => a.elim0) (fun a => a.elim0), constant_apply, Ideal.ofBits_zero_f32]

/-- What the last point of a row tile stores for the second output, entry `(r, q)`, is the array's function at row
    `1024·(t / 8) + r`. -/
theorem out0_5_rows (c : Dev nD) (t : Fin cfg0.N) (h7 : t.val % 8 = 7) (r : Fin 1024) (q : Fin 16) (i : Fin 8192)
    (hi : i.val = 1024 * (t.val / 8) + r.val) :
    k0_pay3 (acc0 V c t.val t.isLt) (wblk0 V c t) (ablk0 V c t) (ix2 r q) = arr0_5 V c (ix2 i q) := by
  rw [arr0_5_apply]
  refine (pay30_apply (acc0 V c t.val t.isLt) (wblk0 V c t) (ablk0 V c t) r q).trans ?_
  rw [blk0_A V c t r q i hi]
  refine congrArg (fun z => resid0 V c (ix2 i q) + max z 0) (Finset.sum_congr rfl fun a _ => ?_)
  rw [acc0_rows V c t h7 r a i hi, blk0_W V c t a q]

/-- What the write-back at the last point of a row tile writes is its block of the array's function. -/
theorem flushed0_5 (c : Dev nD) (t : Fin cfg0.N) (hf : (cfg0.win 5).flush t = true) :
    (dat0 V c).flushed 5 t = ((cfg0.win 5).blk t).view.read (Elt Ideal) (arr0_5 V c) := by
  have h7 : t.val % 8 = 7 := (flush0_5 t).mp hf
  have hN : cfg0.N = 64 := N_0
  have ht := t.isLt
  obtain ⟨e0, e1⟩ := hidx0_5 t
  show (cfg0.win 5).cut (grid0.coords t) ((dat0 V c).after 5 t) = _
  rw [after0_5, outsAt0_out5 V c t h7]
  funext j
  have hj0 : (j 0).val < 1024 := (j 0).isLt
  have hj1 : (j 1).val < 16 := (j 1).isLt
  have el : ((cfg0.win 5).xinj (grid0.coords t) j : S1024x16.Idx) = ix2 ⟨(j 0).val, hj0⟩ ⟨(j 1).val, hj1⟩ :=
    funext fun a => by match a with | ⟨0, _⟩ => rfl | ⟨1, _⟩ => rfl
  have er : (((cfg0.win 5).blk t).view.emb j : S8192x16.Idx)
      = ix2 (⟨1024 * (t.val / 8) + (j 0).val, by omega⟩ : Fin 8192) ⟨(j 1).val, hj1⟩ := by
    funext a
    apply Fin.ext
    match a with
    | ⟨0, _⟩ => show win0_5.index t 0 * 1024 + 1 * (j 0).val = 1024 * (t.val / 8) + (j 0).val; rw [e0]; omega
    | ⟨1, _⟩ => show win0_5.index t 1 * 16 + 1 * (j 1).val = (j 1).val; rw [e1]; omega
  rw [View.read_apply]
  show k0_pay3 (acc0 V c t.val t.isLt) (wblk0 V c t) (ablk0 V c t) ((cfg0.win 5).xinj (grid0.coords t) j)
    = arr0_5 V c (((cfg0.win 5).blk t).view.emb j)
  rw [el, er]
  exact out0_5_rows V c t h7 _ _ _ rfl

/-- An index of the array is in point `t`'s block iff each coordinate is in the block's range on its axis. -/
theorem blk0_mem5 (t : Fin cfg0.N) (i : S8192x16.Idx) :
    i ∈ ((cfg0.win 5).blk t).view.set ↔ ∀ a : Fin 2, win0_5.index t a * S1024x16.size a ≤ (i a).val ∧ (i a).val < win0_5.index t a * S1024x16.size a + S1024x16.size a := by
  show i ∈ ((View.whole main_v6_1).slice (win0_5.rect t)).set ↔ _
  rw [View.set_slice_whole, Rect.mem_set_unit]
  exact Iff.rfl

/-- Row `R` of the array lies in the block written back at the last point of row tile `R / 1024`. -/
theorem cover_arr0_5 (i : S8192x16.Idx) :
    ∃ t : Fin cfg0.N, (cfg0.win 5).flush t = true ∧ i ∈ ((cfg0.win 5).blk t).view.set := by
  have hN : cfg0.N = 64 := N_0
  have hi0 : (i 0).val < 8192 := (i 0).isLt
  have hi1 : (i 1).val < 16 := (i 1).isLt
  obtain ⟨t, ht⟩ : ∃ t : Fin cfg0.N, t.val = 8 * ((i 0).val / 1024) + 7 := ⟨⟨8 * ((i 0).val / 1024) + 7, by omega⟩, rfl⟩
  obtain ⟨e0, e1⟩ := hidx0_5 t
  refine ⟨t, (flush0_5 t).mpr (by omega), ?_⟩
  rw [blk0_mem5]
  intro a
  match a with
  | ⟨0, _⟩ => show win0_5.index t 0 * 1024 ≤ (i 0).val ∧ (i 0).val < win0_5.index t 0 * 1024 + 1024; rw [e0]; omega
  | ⟨1, _⟩ => show win0_5.index t 1 * 16 ≤ (i 1).val ∧ (i 1).val < win0_5.index t 1 * 16 + 16; rw [e1]; omega

/-- The second output array ends holding the residual plus the positive part of the whole product times the
    weights. -/
theorem final0_5 (c : Dev nD) :
    ((dat0 (F := Ideal) V c).arrAt 5 cfg0.N : FVec Ideal S8192x16 .f32)
      = addf (F := Ideal) (V c main_v3) (maximumf (F := Ideal) (Host.dotGeneral (F := Ideal) (φ₁ := .f32) (φ₂ := .f32) dot_S8192x16_S16x16_S8192x16_1_0_0_1_n_n none
            (Host.dotGeneral (F := Ideal) (φ₁ := .f32) (φ₂ := .f32) Cert.ReferenceIdeal.dot_S8192x8192_S8192x16_S8192x16_1_0_0_1_n_n none (V c main_arg1) (V c main_arg0)) (V c main_v5))
          (broadcastInDim S8192x16 ![] Cert.KernelIdeal.Facts₀.bcast_S_S8192x16 (constant (F := Ideal) S_ .f32 0x00000000#32))) :=
  (dat0 V c).arrAt_eq_of_cover 5 (arr0_5 V c) (flushed0_5 V c) cover_arr0_5

end Region0

end Cert.KernelIdeal.H

end
-- ==== Proof.KernelIdeal.R1.Pieces.lean ====
/-
  What the pieces found by the region's three runs hold, as values. At a point with k = 0 the accumulator ends at the point's
  product added to the zero block; at a point with k > 0 at the point's product added to what the accumulator
  held on entry; at a point with k = 7 the first output is that same accumulator and the second output is the
  residual block plus the rectified product of the (rounded) accumulator with the weight block. Hence the
  accumulator after point n is the closed recursion acc1: restarted from the zero block at every point with
  k = 0, and otherwise carried from the point before.
-/
import proofs.«163433_j78743930404901_1_alg».proof.Proof.KernelIdeal.R1.Data
import Idealize.ShloMosaic.Lib.Pipeline.Value

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- The two-coordinate zero offset, as the constant function. -/
theorem hz1 : (![0, 0] : Fin 2 → Nat) = fun _ => 0 := funext fun a => by fin_cases a <;> rfl

/-! ## The found pieces, read back as the payloads -/

/-- A point with `k = 0`: the zero block is stored, read back, and the point's product added to it. -/
theorem pieceS1_A (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond1_0 i) (hc1 : ¬cond1_1 i) (x0 : Vec F S1024x1024 .f32) (x1 : Vec F S1024x16 .f32) (x2 : Vec F S16x16 .f32) (x3 : Vec F S1024x16 .f32) :
    sout1_A c i arg2 harg2 arg3 harg3 arg4 harg4 arg5 harg5 arg6 harg6 arg7 harg7 arg8 harg8 hc0 hc1 x0 x1 x2 x3 = k1_pay2 x0 x1 (k1_pay1 (F := F)) := by
  unfold sout1_A
  rw [View.read_writes_eq_canon _ _ _ (scover1_A c i arg2 harg2 arg3 harg3 arg4 harg4 arg5 harg5 arg6 harg6 arg7 harg7 arg8 harg8 hc0 hc1 x0 x1 x2 x3)]
  unfold kernelRun1_A
  dsimp only
  sl_unfold_words
  rw [View.canon_cons_unit_zero (S := S1024x16) hz1, View.readCov_unit_zero (S := S1024x16) _ hz1]
  simp only [View.readAt_eq_ld, harg2.read_unread, harg3.read_unread, harg4.read_unread, harg5.read_unread, harg6.read_unread, harg7.read_unread, harg8.read_unread, View.ld_unit_zero (S := S1024x16) hz1, View.ld_unit_zero (S := S1024x1024) hz1, View.ld_unit_zero (S := S16x16) hz1, View.readCov_unit_zero (S := S1024x16) _ hz1]

/-- A point with `0 < k < 7`: the point's product is added to what the accumulator held on entry. -/
theorem pieceS1_B (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : ¬cond1_1 i) (x0 : Vec F S1024x1024 .f32) (x1 : Vec F S1024x16 .f32) (x2 : Vec F S16x16 .f32) (x3 : Vec F S1024x16 .f32) (xs0 : Vec F S1024x16 .f32) :
    sout1_B c i arg2 harg2 arg3 harg3 arg4 harg4 arg5 harg5 arg6 harg6 arg7 harg7 arg8 harg8 hc0 hc1 x0 x1 x2 x3 xs0 = k1_pay2 x0 x1 xs0 := by
  unfold sout1_B
  rw [View.read_writes_eq_canon _ _ _ (scover1_B c i arg2 harg2 arg3 harg3 arg4 harg4 arg5 harg5 arg6 harg6 arg7 harg7 arg8 harg8 hc0 hc1 x0 x1 x2 x3 xs0)]
  unfold kernelRun1_B
  dsimp only
  rw [View.canon_unit_zero hz1]
  simp only [View.readAt_eq_ld, harg2.read_unread, harg3.read_unread, harg4.read_unread, harg5.read_unread, harg6.read_unread, harg7.read_unread, harg8.read_unread, View.ld_unit_zero (S := S1024x16) hz1, View.ld_unit_zero (S := S1024x1024) hz1, View.ld_unit_zero (S := S16x16) hz1, View.readCov_unit_zero (S := S1024x16) _ hz1]

/-- A point with `k = 7`: the accumulator, as at `0 < k < 7`. -/
theorem pieceS1_C (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i) (x0 : Vec F S1024x1024 .f32) (x1 : Vec F S1024x16 .f32) (x2 : Vec F S16x16 .f32) (x3 : Vec F S1024x16 .f32) (xs0 : Vec F S1024x16 .f32) :
    sout1_C c i arg2 harg2 arg3 harg3 arg4 harg4 arg5 harg5 arg6 harg6 arg7 harg7 arg8 harg8 hc0 hc1 x0 x1 x2 x3 xs0 = k1_pay2 x0 x1 xs0 := by
  unfold sout1_C
  rw [View.read_writes_eq_canon _ _ _ (scover1_C c i arg2 harg2 arg3 harg3 arg4 harg4 arg5 harg5 arg6 harg6 arg7 harg7 arg8 harg8 hc0 hc1 x0 x1 x2 x3 xs0)]
  unfold kernelRun1_C
  dsimp only
  sl_unfold_words
  rw [View.canon_unit_zero hz1]
  simp only [View.readAt_eq_ld, harg2.read_unread, harg3.read_unread, harg4.read_unread, harg5.read_unread, harg6.read_unread, harg7.read_unread, harg8.read_unread, View.ld_unit_zero (S := S1024x16) hz1, View.ld_unit_zero (S := S1024x1024) hz1, View.ld_unit_zero (S := S16x16) hz1, View.readCov_unit_zero (S := S1024x16) _ hz1]

/-- A point with `k = 7`: the first output is the accumulator just stored, read back. -/
theorem piece41_C (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i) (x0 : Vec F S1024x1024 .f32) (x1 : Vec F S1024x16 .f32) (x2 : Vec F S16x16 .f32) (x3 : Vec F S1024x16 .f32) (xs0 : Vec F S1024x16 .f32) :
    out1_C_4 c i arg2 harg2 arg3 harg3 arg4 harg4 arg5 harg5 arg6 harg6 arg7 harg7 arg8 harg8 hc0 hc1 x0 x1 x2 x3 xs0 = k1_pay2 x0 x1 xs0 := by
  unfold out1_C_4
  rw [View.read_writes_eq_canon _ _ _ (cover1_C_4 c i arg2 harg2 arg3 harg3 arg4 harg4 arg5 harg5 arg6 harg6 arg7 harg7 arg8 harg8 hc0 hc1 x0 x1 x2 x3 xs0)]
  unfold kernelRun1_C
  dsimp only
  sl_unfold_words
  rw [View.canon_unit_zero hz1]
  simp only [View.readAt_eq_ld, harg2.read_unread, harg3.read_unread, harg4.read_unread, harg5.read_unread, harg6.read_unread, harg7.read_unread, harg8.read_unread, View.ld_unit_zero (S := S1024x16) hz1, View.ld_unit_zero (S := S1024x1024) hz1, View.ld_unit_zero (S := S16x16) hz1, View.readCov_unit_zero (S := S1024x16) _ hz1]

/-- A point with `k = 7`: the second output is the residual block plus the rectified product of the accumulator
    just stored with the weight block. -/
theorem piece51_C (c : Dev nD) (i : grid1.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond1_0 i) (hc1 : cond1_1 i) (x0 : Vec F S1024x1024 .f32) (x1 : Vec F S1024x16 .f32) (x2 : Vec F S16x16 .f32) (x3 : Vec F S1024x16 .f32) (xs0 : Vec F S1024x16 .f32) :
    out1_C_5 c i arg2 harg2 arg3 harg3 arg4 harg4 arg5 harg5 arg6 harg6 arg7 harg7 arg8 harg8 hc0 hc1 x0 x1 x2 x3 xs0 = k1_pay3 (k1_pay2 x0 x1 xs0) x2 x3 := by
  unfold out1_C_5
  rw [View.read_writes_eq_canon _ _ _ (cover1_C_5 c i arg2 harg2 arg3 harg3 arg4 harg4 arg5 harg5 arg6 harg6 arg7 harg7 arg8 harg8 hc0 hc1 x0 x1 x2 x3 xs0)]
  unfold kernelRun1_C
  dsimp only
  sl_unfold_words
  rw [View.canon_unit_zero hz1]
  simp only [View.readAt_eq_ld, harg2.read_unread, harg3.read_unread, harg4.read_unread, harg5.read_unread, harg6.read_unread, harg7.read_unread, harg8.read_unread, View.ld_unit_zero (S := S1024x16) hz1, View.ld_unit_zero (S := S1024x1024) hz1, View.ld_unit_zero (S := S16x16) hz1, View.readCov_unit_zero (S := S1024x16) _ hz1]

/-! ## The blocks at a point, at their literal types -/

/-- The left factor's block at point `t`. -/
abbrev lblk1 (c : Dev nD) (t : Fin cfg1.N) : Vec F S1024x1024 .f32 := iblk1 V c 0 t
/-- The right factor's block at point `t`. -/
abbrev xblk1 (c : Dev nD) (t : Fin cfg1.N) : Vec F S1024x16 .f32 := iblk1 V c 1 t
/-- The weight block at point `t`. -/
abbrev wblk1 (c : Dev nD) (t : Fin cfg1.N) : Vec F S16x16 .f32 := iblk1 V c 2 t
/-- The residual block at point `t`. -/
abbrev ablk1 (c : Dev nD) (t : Fin cfg1.N) : Vec F S1024x16 .f32 := iblk1 V c 3 t

/-! ## The accumulator's closed recursion -/

/-- The accumulator after point `n`: the point's product added to the zero block when `k = 0`, and to the
    accumulator after the point before otherwise. -/
def acc1 (c : Dev nD) : (n : ℕ) → n < cfg1.N → Vec F S1024x16 .f32
  | 0, h => k1_pay2 (lblk1 V c ⟨0, h⟩) (xblk1 V c ⟨0, h⟩) k1_pay1
  | n + 1, h =>
    if (n + 1) % 8 = 0 then k1_pay2 (lblk1 V c ⟨n + 1, h⟩) (xblk1 V c ⟨n + 1, h⟩) k1_pay1
    else k1_pay2 (lblk1 V c ⟨n + 1, h⟩) (xblk1 V c ⟨n + 1, h⟩) (acc1 c n (Nat.lt_of_succ_lt h))

theorem acc1_zero (c : Dev nD) (h : 0 < cfg1.N) :
    acc1 V c 0 h = k1_pay2 (lblk1 V c ⟨0, h⟩) (xblk1 V c ⟨0, h⟩) k1_pay1 := rfl
theorem acc1_reset (c : Dev nD) (n : ℕ) (h : n + 1 < cfg1.N) (h0 : (n + 1) % 8 = 0) :
    acc1 V c (n + 1) h = k1_pay2 (lblk1 V c ⟨n + 1, h⟩) (xblk1 V c ⟨n + 1, h⟩) k1_pay1 := by
  rw [acc1]; exact if_pos h0
theorem acc1_carry (c : Dev nD) (n : ℕ) (h : n + 1 < cfg1.N) (h0 : ¬(n + 1) % 8 = 0) :
    acc1 V c (n + 1) h
      = k1_pay2 (lblk1 V c ⟨n + 1, h⟩) (xblk1 V c ⟨n + 1, h⟩) (acc1 V c n (Nat.lt_of_succ_lt h)) := by
  rw [acc1]; exact if_neg h0

/-- What the recursion over the cases' found pieces leaves in the accumulator after point `n` is `acc1`: by
    induction on the point. -/
theorem outsAt1_acc (c : Dev nD) : ∀ (n : ℕ) (h : n < cfg1.N), (outsAt1 V c n h).2.2 = acc1 V c n h
  | 0, h => by
    rw [outsAt1_A V c ⟨0, h⟩ (Nat.zero_mod _) (by simp), acc1_zero]
    dsimp only
    unfold soutAt1_A
    exact pieceS1_A (F := F) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) scM1_0 (Memref.isWhole_whole _) ((hcond1_0 ⟨0, h⟩).mpr (Nat.zero_mod _)) (fun hh => (by simp : ¬(⟨0, h⟩ : Fin cfg1.N).val % 8 = 7) ((hcond1_1 ⟨0, h⟩).mp hh)) (iblk1 V c 0 ⟨0, h⟩) (iblk1 V c 1 ⟨0, h⟩) (iblk1 V c 2 ⟨0, h⟩) (iblk1 V c 3 ⟨0, h⟩)
  | n + 1, h => by
    by_cases h0 : (n + 1) % 8 = 0
    · have h1 : ¬(n + 1) % 8 = 7 := by omega
      rw [outsAt1_A V c ⟨n + 1, h⟩ h0 h1, acc1_reset V c n h h0]
      dsimp only
      unfold soutAt1_A
      exact pieceS1_A (F := F) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) scM1_0 (Memref.isWhole_whole _) ((hcond1_0 ⟨n + 1, h⟩).mpr h0) (fun hh => h1 ((hcond1_1 ⟨n + 1, h⟩).mp hh)) (iblk1 V c 0 ⟨n + 1, h⟩) (iblk1 V c 1 ⟨n + 1, h⟩) (iblk1 V c 2 ⟨n + 1, h⟩) (iblk1 V c 3 ⟨n + 1, h⟩)
    · by_cases h1 : (n + 1) % 8 = 7
      · rw [outsAt1_C V c ⟨n + 1, h⟩ h0 h1, acc1_carry V c n h h0, ← outsAt1_acc c n (Nat.lt_of_succ_lt h)]
        dsimp only
        unfold soutAt1_C
        exact pieceS1_C (F := F) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) scM1_0 (Memref.isWhole_whole _) (fun hh => h0 ((hcond1_0 ⟨n + 1, h⟩).mp hh)) ((hcond1_1 ⟨n + 1, h⟩).mpr h1) (iblk1 V c 0 ⟨n + 1, h⟩) (iblk1 V c 1 ⟨n + 1, h⟩) (iblk1 V c 2 ⟨n + 1, h⟩) (iblk1 V c 3 ⟨n + 1, h⟩) ((outsAt1 V c n (Nat.lt_of_succ_lt h)).2.2)
      · rw [outsAt1_B V c ⟨n + 1, h⟩ h0 h1, acc1_carry V c n h h0, ← outsAt1_acc c n (Nat.lt_of_succ_lt h)]
        dsimp only
        unfold soutAt1_B
        exact pieceS1_B (F := F) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) scM1_0 (Memref.isWhole_whole _) (fun hh => h0 ((hcond1_0 ⟨n + 1, h⟩).mp hh)) (fun hh => h1 ((hcond1_1 ⟨n + 1, h⟩).mp hh)) (iblk1 V c 0 ⟨n + 1, h⟩) (iblk1 V c 1 ⟨n + 1, h⟩) (iblk1 V c 2 ⟨n + 1, h⟩) (iblk1 V c 3 ⟨n + 1, h⟩) ((outsAt1 V c n (Nat.lt_of_succ_lt h)).2.2)

/-- At a point with `k = 7` the first output's buffer is left holding the accumulator. -/
theorem outsAt1_out4 (c : Dev nD) (t : Fin cfg1.N) (h1 : t.val % 8 = 7) :
    (outsAt1 V c t.val t.isLt).1 = acc1 V c t.val t.isLt := by
  have h0 : ¬t.val % 8 = 0 := by omega
  obtain ⟨n, hn⟩ := t
  cases n with
  | zero => exact absurd (Nat.zero_mod _) h0
  | succ n =>
    dsimp only at h0 h1 ⊢
    rw [outsAt1_C V c ⟨n + 1, hn⟩ h0 h1, acc1_carry V c n hn h0, ← outsAt1_acc V c n (Nat.lt_of_succ_lt hn)]
    dsimp only
    unfold out4At1_C
    exact piece41_C (F := F) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun hh => h0 ((hcond1_0 ⟨n + 1, hn⟩).mp hh)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) ((outsAt1 V c n (Nat.lt_of_succ_lt hn)).2.2)

/-- At a point with `k = 7` the second output's buffer is left holding the residual block plus the rectified
    product of the accumulator with the weight block. -/
theorem outsAt1_out5 (c : Dev nD) (t : Fin cfg1.N) (h1 : t.val % 8 = 7) :
    (outsAt1 V c t.val t.isLt).2.1 = k1_pay3 (acc1 V c t.val t.isLt) (wblk1 V c t) (ablk1 V c t) := by
  have h0 : ¬t.val % 8 = 0 := by omega
  obtain ⟨n, hn⟩ := t
  cases n with
  | zero => exact absurd (Nat.zero_mod _) h0
  | succ n =>
    dsimp only at h0 h1 ⊢
    rw [outsAt1_C V c ⟨n + 1, hn⟩ h0 h1, acc1_carry V c n hn h0, ← outsAt1_acc V c n (Nat.lt_of_succ_lt hn)]
    dsimp only
    unfold out5At1_C
    exact piece51_C (F := F) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun hh => h0 ((hcond1_0 ⟨n + 1, hn⟩).mp hh)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) ((outsAt1 V c n (Nat.lt_of_succ_lt hn)).2.2)

end Region1

end Cert.KernelIdeal.H

end
-- ==== Proof.KernelIdeal.R1.Payloads.lean ====
/-
  The three values the region's kernel stores, read at an index over the extended reals.

  The first is a block of zeros. The second is the accumulator block plus the product of a `[1024, 1024]` block of
  the left matrix by a `[1024, 16]` block of the right one, the matrix unit's operands narrowed and its accumulator
  zero: over the extended reals the textbook sum. The third is the output block plus the positive part of the product
  of the `[1024, 16]` tile by the `[16, 16]` weights.
-/
import proofs.«163433_j78743930404901_1_alg».proof.Proof.Gen.KernelIdeal.Skeleton
import proofs.«163433_j78743930404901_1_alg».proof.Proof.Gen.KernelIdeal
import proofs.«163433_j78743930404901_1_alg».proof.Proof.Dots
import proofs.«163433_j78743930404901_1_alg».proof.Proof.LibAffineRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.H

open Cert.KernelIdeal Cert.KernelIdeal.Gen Idealize.ShloMosaic Idealize.ShloMosaic.ValueIdx

/-- The zero block at `(r, q)`. -/
theorem pay11_apply (r : Fin 1024) (q : Fin 16) : k1_pay1 (F := Ideal) (ix2 r q) = 0 := by
  unfold k1_pay1
  simp only [shapeCast_self, broadcast_apply]
  exact Ideal.ofBits_zero_f32

/-- The accumulator plus the block product at `(r, q)`. -/
theorem pay21_apply (v3 : Vec Ideal S1024x1024 .f32) (v5 v7 : Vec Ideal S1024x16 .f32) (r : Fin 1024) (q : Fin 16) :
    k1_pay2 v3 v5 v7 (ix2 r q) = v7 (ix2 r q) + ∑ kk : Fin 1024, v3 (ix2 r kk) * v5 (ix2 kk q) := by
  unfold k1_pay2
  simp only [shapeCast_self, addf_apply]
  rw [Cert.Lib.matmul_zero_apply Cert.Dots.k_LX]

/-- The output block plus the positive part of the tile's product by the weights at `(r, q)`. -/
theorem pay31_apply (v16 : Vec Ideal S1024x16 .f32) (v19 : Vec Ideal S16x16 .f32) (v25 : Vec Ideal S1024x16 .f32)
    (r : Fin 1024) (q : Fin 16) :
    k1_pay3 v16 v19 v25 (ix2 r q) = v25 (ix2 r q) + max (∑ a : Fin 16, v16 (ix2 r a) * v19 (ix2 a q)) 0 := by
  unfold k1_pay3
  simp only [shapeCast_self, addf_apply, maximumf_apply, broadcast_apply]
  rw [Cert.Lib.matmul_zero_apply Cert.Dots.k_XW,
    show (FloatOps.ofBits (F := Ideal) .f32 0x00000000#32 : Ideal .f32) = 0 from Ideal.ofBits_zero_f32]

end Cert.KernelIdeal.H

end
-- ==== Proof.KernelIdeal.R1.Value.lean ====
/-
  The first output of this region as a value at the ideal instance.

  The grid is 8 × 8, point t = 8·i + k. The matrix's block at t is rows 1024·i …, columns 1024·k …; the vector's block
  is rows 1024·k …. The accumulator is reset where k = 0 and takes, at every point, the product of the point's two blocks;
  so after point t it holds the partial sums over the column blocks 0 … k of row tile i, added in order to a zero
  (`acc1_chain`). At k = 7 these eight partial sums are the whole sum over the 8192 columns, which is the host's product
  of the matrix and the vector read at row 1024·i + r (`acc1_rows`, `acc1_last`). The first output's block (i, 0) is
  written back exactly there, the eight blocks cover the array, and so the array ends holding the product (`final1_4`).
-/
-- layout: arrays
import proofs.«163433_j78743930404901_1_alg».proof.Proof.KernelIdeal.R1.Pieces
import proofs.«163433_j78743930404901_1_alg».proof.Proof.KernelIdeal.R1.Payloads
import proofs.«163433_j78743930404901_1_alg».proof.Proof.Dots
import proofs.«163433_j78743930404901_1_alg».proof.Proof.LibBlockedSum
import proofs.«163433_j78743930404901_1_alg».proof.Proof.LibAffineRows
import proofs.«163433_j78743930404901_1_alg».proof.ReferenceIdeal
import proofs.«163433_j78743930404901_1_alg».proof.Proof.Gen.KernelIdeal
import proofs.«163433_j78743930404901_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window BodyObligation cellOf)

section Region1

variable (V : (c : Dev nD) → (b : Ref sig .tc) → Buf (Elt Ideal) ((c : Thread nD τ).loc b))

/-! ## Where the blocks lie -/

/-- The block index at point `t = 8·i + k`: the matrix's block is `(i, k)`, the vector's `(k, 0)`, the first output's
    `(i, 0)`. -/
theorem hidx1_L : ∀ t : Fin cfg1.N, win1_0.index t 0 = t.val / 8 ∧ win1_0.index t 1 = t.val % 8 :=
  (by decide +kernel : ∀ t : Fin grid1.N, _)
theorem hidx1_X : ∀ t : Fin cfg1.N, win1_1.index t 0 = t.val % 8 ∧ win1_1.index t 1 = 0 :=
  (by decide +kernel : ∀ t : Fin grid1.N, _)
theorem hidx1_4 : ∀ t : Fin cfg1.N, win1_4.index t 0 = t.val / 8 ∧ win1_4.index t 1 = 0 :=
  (by decide +kernel : ∀ t : Fin grid1.N, _)

/-- The matrix's block at point `t`, entry `(r, kk)`, is the matrix at row `1024·(t / 8) + r`, column `1024·(t % 8) + kk`. -/
theorem blk1_L (c : Dev nD) (t : Fin cfg1.N) (r kk : Fin 1024) (i j : Fin 8192)
    (hi : i.val = 1024 * (t.val / 8) + r.val) (hj : j.val = 1024 * (t.val % 8) + kk.val) :
    lblk1 V c t (ix2 r kk) = (V c main_arg1 : FVec Ideal S8192x8192 .f32) (ix2 i j) := by
  obtain ⟨e0, e1⟩ := hidx1_L t
  unfold lblk1 iblk1
  rw [View.read_apply]
  show (V c main_arg1 : FVec Ideal S8192x8192 .f32) _ = _
  congr 1
  funext a
  apply Fin.ext
  match a with
  | ⟨0, _⟩ => show win1_0.index t 0 * 1024 + 1 * r.val = i.val; rw [e0, hi]; omega
  | ⟨1, _⟩ => show win1_0.index t 1 * 1024 + 1 * kk.val = j.val; rw [e1, hj]; omega

/-- The vector's block at point `t`, entry `(kk, q)`, is the vector at row `1024·(t % 8) + kk`, column `q`. -/
theorem blk1_X (c : Dev nD) (t : Fin cfg1.N) (kk : Fin 1024) (q : Fin 16) (j : Fin 8192)
    (hj : j.val = 1024 * (t.val % 8) + kk.val) :
    xblk1 V c t (ix2 kk q) = (V c main_v6_0 : FVec Ideal S8192x16 .f32) (ix2 j q) := by
  obtain ⟨e0, e1⟩ := hidx1_X t
  unfold xblk1 iblk1
  rw [View.read_apply]
  show (V c main_v6_0 : FVec Ideal S8192x16 .f32) _ = _
  congr 1
  funext a
  apply Fin.ext
  match a with
  | ⟨0, _⟩ => show win1_1.index t 0 * 1024 + 1 * kk.val = j.val; rw [e0, hj]; omega
  | ⟨1, _⟩ => show win1_1.index t 1 * 16 + 1 * q.val = q.val; rw [e1]; omega

/-! ## The accumulator -/

/-- The product of the two blocks of point `n` at entry `(r, q)`; zero past the grid. -/
def prod1 (c : Dev nD) (r : Fin 1024) (q : Fin 16) (n : ℕ) : EReal :=
  if h : n < cfg1.N then ∑ kk : Fin 1024, lblk1 V c ⟨n, h⟩ (ix2 r kk) * xblk1 V c ⟨n, h⟩ (ix2 kk q) else 0

theorem prod1_of_lt (c : Dev nD) (r : Fin 1024) (q : Fin 16) (n : ℕ) (h : n < cfg1.N) :
    prod1 V c r q n = ∑ kk : Fin 1024, lblk1 V c ⟨n, h⟩ (ix2 r kk) * xblk1 V c ⟨n, h⟩ (ix2 kk q) := dif_pos h

/-- After point `n` the accumulator holds the products of the points of `n`'s row tile up to `n`, added in order to a
    zero. -/
theorem acc1_chain (c : Dev nD) (r : Fin 1024) (q : Fin 16) : ∀ (n : ℕ) (h : n < cfg1.N),
    acc1 V c n h (ix2 r q) = Cert.Lib.chain (fun j => prod1 V c r q (8 * (n / 8) + j)) (n % 8)
  | 0, h => by
    rw [acc1_zero, pay21_apply, pay11_apply]
    show 0 + _ = 0 + prod1 V c r q (8 * (0 / 8) + 0)
    rw [show 8 * (0 / 8) + 0 = 0 from rfl, prod1_of_lt V c r q 0 h]
  | n + 1, h => by
    by_cases h8 : (n + 1) % 8 = 0
    · rw [acc1_reset V c n h h8, pay21_apply, pay11_apply, h8]
      show 0 + _ = 0 + prod1 V c r q (8 * ((n + 1) / 8) + 0)
      rw [show 8 * ((n + 1) / 8) + 0 = n + 1 by omega, prod1_of_lt V c r q _ h]
    · rw [acc1_carry V c n h h8, pay21_apply, acc1_chain c r q n (Nat.lt_of_succ_lt h)]
      rw [show (n + 1) % 8 = n % 8 + 1 by omega, show (n + 1) / 8 = n / 8 by omega]
      show _ + _ = Cert.Lib.chain _ (n % 8) + prod1 V c r q (8 * (n / 8) + (n % 8 + 1))
      rw [show 8 * (n / 8) + (n % 8 + 1) = n + 1 by omega, prod1_of_lt V c r q _ h]

/-- What the first output ends holding: the matrix times the vector. -/
abbrev xpOut1 (c : Dev nD) : FVec Ideal S8192x16 .f32 :=
  Host.dotGeneral (F := Ideal) (φ₁ := .f32) (φ₂ := .f32) Cert.ReferenceIdeal.dot_S8192x8192_S8192x16_S8192x16_1_0_0_1_n_n none (V c main_arg1) (V c main_v6_0)

/-- At the last point of a row tile the accumulator's entry `(r, q)` is the matrix's row `1024·(t / 8) + r` times the
    vector's column `q`: the eight blocks' partial sums are the whole sum. -/
theorem acc1_rows (c : Dev nD) (t : Fin cfg1.N) (h7 : t.val % 8 = 7) (r : Fin 1024) (q : Fin 16) (i : Fin 8192)
    (hi : i.val = 1024 * (t.val / 8) + r.val) :
    acc1 V c t.val t.isLt (ix2 r q) = xpOut1 V c (ix2 i q) := by
  have hN : cfg1.N = 64 := N_1
  have ht := t.isLt
  rw [acc1_chain V c r q t.val t.isLt, h7, Cert.Lib.chain_eq_sum_fin]
  unfold xpOut1
  rw [Cert.Lib.dotGeneral_apply Cert.Dots.r_LX, Cert.Lib.sum_blocks' 8 1024 (rfl : 8192 = 8 * 1024)]
  refine Finset.sum_congr rfl fun b _ => ?_
  have hb := b.isLt
  have hlt : 8 * (t.val / 8) + b.val < cfg1.N := by omega
  show prod1 V c r q (8 * (t.val / 8) + b.val) = _
  rw [prod1_of_lt V c r q _ hlt]
  refine Finset.sum_congr rfl fun kk _ => ?_
  have hk := kk.isLt
  rw [blk1_L V c ⟨_, hlt⟩ r kk i ⟨1024 * b.val + kk.val, by omega⟩
      (by show i.val = 1024 * ((8 * (t.val / 8) + b.val) / 8) + r.val; omega)
      (by show 1024 * b.val + kk.val = 1024 * ((8 * (t.val / 8) + b.val) % 8) + kk.val; omega),
    blk1_X V c ⟨_, hlt⟩ kk q ⟨1024 * b.val + kk.val, by omega⟩
      (by show 1024 * b.val + kk.val = 1024 * ((8 * (t.val / 8) + b.val) % 8) + kk.val; omega)]

/-- The same with the row written out: the accumulator at the last contraction tile of row tile `t / 8` holds the
    whole product's rows. -/
theorem acc1_last (c : Dev nD) (t : Fin cfg1.N) (h1 : t.val % 8 = 7) (r : Fin 1024) (q : Fin 16) :
    acc1 V c t.val t.isLt (ix2 r q)
      = Host.dotGeneral (F := Ideal) (φ₁ := .f32) (φ₂ := .f32) Cert.ReferenceIdeal.dot_S8192x8192_S8192x16_S8192x16_1_0_0_1_n_n none (V c main_arg1) (V c main_v6_0)
          (ix2 (⟨1024 * (t.val / 8) + r.val, by have := t.isLt; have := r.isLt; have : cfg1.N = 64 := N_1; omega⟩ : Fin 8192) q) :=
  acc1_rows V c t h1 r q _ rfl

/-! ## The first output -/

/-- What the write-back at a last contraction tile writes is its block of the matrix times the vector. -/
theorem flushed1_4 (c : Dev nD) (t : Fin cfg1.N) (hf : (cfg1.win 4).flush t = true) :
    (dat1 V c).flushed 4 t = ((cfg1.win 4).blk t).view.read (Elt Ideal) (xpOut1 V c) := by
  have h7 : t.val % 8 = 7 := (flush1_4 t).mp hf
  have hN : cfg1.N = 64 := N_1
  have ht := t.isLt
  obtain ⟨e0, e1⟩ := hidx1_4 t
  show (cfg1.win 4).cut (grid1.coords t) ((dat1 V c).after 4 t) = _
  rw [after1_4, outsAt1_out4 V c t h7]
  funext j
  have hj0 : (j 0).val < 1024 := (j 0).isLt
  have hj1 : (j 1).val < 16 := (j 1).isLt
  have el : ((cfg1.win 4).xinj (grid1.coords t) j : S1024x16.Idx) = ix2 ⟨(j 0).val, hj0⟩ ⟨(j 1).val, hj1⟩ :=
    funext fun a => by match a with | ⟨0, _⟩ => rfl | ⟨1, _⟩ => rfl
  have er : (((cfg1.win 4).blk t).view.emb j : S8192x16.Idx)
      = ix2 (⟨1024 * (t.val / 8) + (j 0).val, by omega⟩ : Fin 8192) ⟨(j 1).val, hj1⟩ := by
    funext a
    apply Fin.ext
    match a with
    | ⟨0, _⟩ => show win1_4.index t 0 * 1024 + 1 * (j 0).val = 1024 * (t.val / 8) + (j 0).val; rw [e0]; omega
    | ⟨1, _⟩ => show win1_4.index t 1 * 16 + 1 * (j 1).val = (j 1).val; rw [e1]; omega
  rw [View.read_apply]
  show acc1 V c t.val t.isLt ((cfg1.win 4).xinj (grid1.coords t) j) = xpOut1 V c (((cfg1.win 4).blk t).view.emb j)
  rw [el, er]
  exact acc1_rows V c t h7 _ _ _ rfl

/-- An index of the array is in point `t`'s block iff each coordinate is in the block's range on its axis. -/
theorem blk1_mem4 (t : Fin cfg1.N) (i : S8192x16.Idx) :
    i ∈ ((cfg1.win 4).blk t).view.set ↔ ∀ a : Fin 2, win1_4.index t a * S1024x16.size a ≤ (i a).val ∧ (i a).val < win1_4.index t a * S1024x16.size a + S1024x16.size a := by
  show i ∈ ((View.whole main_v9_0).slice (win1_4.rect t)).set ↔ _
  rw [View.set_slice_whole, Rect.mem_set_unit]
  exact Iff.rfl

/-- Row `R` of the array lies in the block written back at the last contraction tile of row tile `R / 1024`. -/
theorem cover_arr1_4 (i : S8192x16.Idx) :
    ∃ t : Fin cfg1.N, (cfg1.win 4).flush t = true ∧ i ∈ ((cfg1.win 4).blk t).view.set := by
  have hN : cfg1.N = 64 := N_1
  have hi0 : (i 0).val < 8192 := (i 0).isLt
  have hi1 : (i 1).val < 16 := (i 1).isLt
  obtain ⟨t, ht⟩ : ∃ t : Fin cfg1.N, t.val = 8 * ((i 0).val / 1024) + 7 := ⟨⟨8 * ((i 0).val / 1024) + 7, by omega⟩, rfl⟩
  obtain ⟨e0, e1⟩ := hidx1_4 t
  refine ⟨t, (flush1_4 t).mpr (by omega), ?_⟩
  rw [blk1_mem4]
  intro a
  match a with
  | ⟨0, _⟩ => show win1_4.index t 0 * 1024 ≤ (i 0).val ∧ (i 0).val < win1_4.index t 0 * 1024 + 1024; rw [e0]; omega
  | ⟨1, _⟩ => show win1_4.index t 1 * 16 ≤ (i 1).val ∧ (i 1).val < win1_4.index t 1 * 16 + 16; rw [e1]; omega

/-- The first output array ends holding the matrix times the vector. -/
theorem final1_4 (c : Dev nD) :
    ((dat1 (F := Ideal) V c).arrAt 4 cfg1.N : FVec Ideal S8192x16 .f32)
      = Host.dotGeneral (F := Ideal) (φ₁ := .f32) (φ₂ := .f32) Cert.ReferenceIdeal.dot_S8192x8192_S8192x16_S8192x16_1_0_0_1_n_n none (V c main_arg1) (V c main_v6_0) :=
  (dat1 V c).arrAt_eq_of_cover 4 (xpOut1 V c) (flushed1_4 V c) cover_arr1_4

end Region1

end Cert.KernelIdeal.H

end
-- ==== Proof.KernelIdeal.R1.Value5.lean ====
/-
  The region's second result array at the ideal values.

  The grid is 8 by 8, the point `t = 8 i + k`. The output's blocks are the eight row blocks `[1024, 16]` of the
  `[8192, 16]` array, block `i` written back at the last point `k = 7` of row tile `i`, where it holds the residual
  block plus the positive part of the product of the accumulator — row tile `i` of the whole product `L · X` — by the
  weights. Read at an index these are the rows `1024 i + r` of one function of the arrays the region is entered with,
  and the eight blocks cover the array.
-/
-- layout: arrays
import proofs.«163433_j78743930404901_1_alg».proof.Proof.KernelIdeal.R1.Value
import proofs.«163433_j78743930404901_1_alg».proof.Proof.KernelIdeal.R1.Payloads
import proofs.«163433_j78743930404901_1_alg».proof.Proof.Dots
import proofs.«163433_j78743930404901_1_alg».proof.Proof.LibAffineRows
import proofs.«163433_j78743930404901_1_alg».proof.ReferenceIdeal
import proofs.«163433_j78743930404901_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.H

open Cert.KernelIdeal Cert.KernelIdeal.Gen
open Idealize.ShloMosaic Idealize.ShloMosaic.TcCoe Idealize.SL.Sem Idealize.ShloMosaic.ValueIdx
open Idealize.ShloMosaic.Pipeline (Dat)

section Region1

variable (V : (c : Dev nD) → (b : Ref sig .tc) → Buf (Elt Ideal) ((c : Thread nD τ).loc b))

/-! ## The printed index maps, decided once over the grid -/

/-- The weights' window is the whole `[16, 16]` array at every point. -/
theorem hidx1_W : ∀ t : Fin cfg1.N, win1_2.index t 0 = 0 ∧ win1_2.index t 1 = 0 :=
  (by decide +kernel : ∀ t : Fin grid1.N, _)

/-- The residual's window is at row block `t / 8`. -/
theorem hidx1_A : ∀ t : Fin cfg1.N, win1_3.index t 0 = t.val / 8 ∧ win1_3.index t 1 = 0 :=
  (by decide +kernel : ∀ t : Fin grid1.N, _)

/-- The second output's window is at row block `t / 8`. -/
theorem hidx1_5 : ∀ t : Fin cfg1.N, win1_5.index t 0 = t.val / 8 ∧ win1_5.index t 1 = 0 :=
  (by decide +kernel : ∀ t : Fin grid1.N, _)

/-! ## The blocks the last point of a row tile reads -/

/-- The weight block at any point, entry `(a, b)`, is the weights there. -/
theorem blk1_W (c : Dev nD) (t : Fin cfg1.N) (a b : Fin 16) : wblk1 V c t (ix2 a b) = V c main_v8 (ix2 a b) := by
  obtain ⟨e0, e1⟩ := hidx1_W t
  unfold wblk1 iblk1
  rw [View.read_apply]
  show V c main_v8 (((cfg1.win 2).blk t).view.emb (ix2 a b)) = V c main_v8 (ix2 a b)
  refine congrArg (V c main_v8) (funext fun x => Fin.ext ?_)
  match x with
  | ⟨0, _⟩ => show win1_2.index t 0 * 16 + 1 * a.val = a.val; rw [e0]; omega
  | ⟨1, _⟩ => show win1_2.index t 1 * 16 + 1 * b.val = b.val; rw [e1]; omega

/-- The residual block at point `t`, entry `(r, q)`, is the residual at row `1024·(t / 8) + r`, column `q`. -/
theorem blk1_A (c : Dev nD) (t : Fin cfg1.N) (r : Fin 1024) (q : Fin 16) (i : Fin 8192)
    (hi : i.val = 1024 * (t.val / 8) + r.val) : ablk1 V c t (ix2 r q) = V c main_v6_1 (ix2 i q) := by
  obtain ⟨e0, e1⟩ := hidx1_A t
  unfold ablk1 iblk1
  rw [View.read_apply]
  show V c main_v6_1 (((cfg1.win 3).blk t).view.emb (ix2 r q)) = V c main_v6_1 (ix2 i q)
  refine congrArg (V c main_v6_1) (funext fun x => Fin.ext ?_)
  match x with
  | ⟨0, _⟩ => show win1_3.index t 0 * 1024 + 1 * r.val = i.val; rw [e0, hi]; omega
  | ⟨1, _⟩ => show win1_3.index t 1 * 16 + 1 * q.val = q.val; rw [e1]; omega

/-! ## The second output -/

/-- The residual, at its literal type. -/
abbrev resid1 (c : Dev nD) : FVec Ideal S8192x16 .f32 := V c main_v6_1
/-- The weights, at their literal type. -/
abbrev wts1 (c : Dev nD) : FVec Ideal S16x16 .f32 := V c main_v8

/-- What the second output ends holding: the residual plus the positive part of the whole product (the left matrix by
    the right one) times the weights. -/
abbrev arr1_5 (c : Dev nD) : FVec Ideal S8192x16 .f32 :=
  addf (F := Ideal) (V c main_v6_1) (maximumf (F := Ideal) (Host.dotGeneral (F := Ideal) (φ₁ := .f32) (φ₂ := .f32) dot_S8192x16_S16x16_S8192x16_1_0_0_1_n_n none
        (Host.dotGeneral (F := Ideal) (φ₁ := .f32) (φ₂ := .f32) Cert.ReferenceIdeal.dot_S8192x8192_S8192x16_S8192x16_1_0_0_1_n_n none (V c main_arg1) (V c main_v6_0)) (V c main_v8))
      (broadcastInDim S8192x16 ![] Cert.KernelIdeal.Facts₀.bcast_S_S8192x16 (constant (F := Ideal) S_ .f32 0x00000000#32)))

/-- It reads, at `(i, q)`, the residual there plus the positive part of row `i` of the whole product against column
    `q` of the weights. -/
theorem arr1_5_apply (c : Dev nD) (i : Fin 8192) (q : Fin 16) :
    arr1_5 V c (ix2 i q)
      = resid1 V c (ix2 i q) + max (∑ a : Fin 16, xpOut1 V c (ix2 i a) * wts1 V c (ix2 a q)) 0 := by
  unfold arr1_5
  rw [addf_apply, maximumf_apply, Cert.Lib.dotGeneral_apply Cert.Dots.k_host_XW,
    broadcastInDim_apply _ _ _ (ix2 i q) (fun a => a.elim0) (fun a => a.elim0), constant_apply, Ideal.ofBits_zero_f32]

/-- What the last point of a row tile stores for the second output, entry `(r, q)`, is the array's function at row
    `1024·(t / 8) + r`. -/
theorem out1_5_rows (c : Dev nD) (t : Fin cfg1.N) (h7 : t.val % 8 = 7) (r : Fin 1024) (q : Fin 16) (i : Fin 8192)
    (hi : i.val = 1024 * (t.val / 8) + r.val) :
    k1_pay3 (acc1 V c t.val t.isLt) (wblk1 V c t) (ablk1 V c t) (ix2 r q) = arr1_5 V c (ix2 i q) := by
  rw [arr1_5_apply]
  refine (pay31_apply (acc1 V c t.val t.isLt) (wblk1 V c t) (ablk1 V c t) r q).trans ?_
  rw [blk1_A V c t r q i hi]
  refine congrArg (fun z => resid1 V c (ix2 i q) + max z 0) (Finset.sum_congr rfl fun a _ => ?_)
  rw [acc1_rows V c t h7 r a i hi, blk1_W V c t a q]

/-- What the write-back at the last point of a row tile writes is its block of the array's function. -/
theorem flushed1_5 (c : Dev nD) (t : Fin cfg1.N) (hf : (cfg1.win 5).flush t = true) :
    (dat1 V c).flushed 5 t = ((cfg1.win 5).blk t).view.read (Elt Ideal) (arr1_5 V c) := by
  have h7 : t.val % 8 = 7 := (flush1_5 t).mp hf
  have hN : cfg1.N = 64 := N_1
  have ht := t.isLt
  obtain ⟨e0, e1⟩ := hidx1_5 t
  show (cfg1.win 5).cut (grid1.coords t) ((dat1 V c).after 5 t) = _
  rw [after1_5, outsAt1_out5 V c t h7]
  funext j
  have hj0 : (j 0).val < 1024 := (j 0).isLt
  have hj1 : (j 1).val < 16 := (j 1).isLt
  have el : ((cfg1.win 5).xinj (grid1.coords t) j : S1024x16.Idx) = ix2 ⟨(j 0).val, hj0⟩ ⟨(j 1).val, hj1⟩ :=
    funext fun a => by match a with | ⟨0, _⟩ => rfl | ⟨1, _⟩ => rfl
  have er : (((cfg1.win 5).blk t).view.emb j : S8192x16.Idx)
      = ix2 (⟨1024 * (t.val / 8) + (j 0).val, by omega⟩ : Fin 8192) ⟨(j 1).val, hj1⟩ := by
    funext a
    apply Fin.ext
    match a with
    | ⟨0, _⟩ => show win1_5.index t 0 * 1024 + 1 * (j 0).val = 1024 * (t.val / 8) + (j 0).val; rw [e0]; omega
    | ⟨1, _⟩ => show win1_5.index t 1 * 16 + 1 * (j 1).val = (j 1).val; rw [e1]; omega
  rw [View.read_apply]
  show k1_pay3 (acc1 V c t.val t.isLt) (wblk1 V c t) (ablk1 V c t) ((cfg1.win 5).xinj (grid1.coords t) j)
    = arr1_5 V c (((cfg1.win 5).blk t).view.emb j)
  rw [el, er]
  exact out1_5_rows V c t h7 _ _ _ rfl

/-- An index of the array is in point `t`'s block iff each coordinate is in the block's range on its axis. -/
theorem blk1_mem5 (t : Fin cfg1.N) (i : S8192x16.Idx) :
    i ∈ ((cfg1.win 5).blk t).view.set ↔ ∀ a : Fin 2, win1_5.index t a * S1024x16.size a ≤ (i a).val ∧ (i a).val < win1_5.index t a * S1024x16.size a + S1024x16.size a := by
  show i ∈ ((View.whole main_v9_1).slice (win1_5.rect t)).set ↔ _
  rw [View.set_slice_whole, Rect.mem_set_unit]
  exact Iff.rfl

/-- Row `R` of the array lies in the block written back at the last point of row tile `R / 1024`. -/
theorem cover_arr1_5 (i : S8192x16.Idx) :
    ∃ t : Fin cfg1.N, (cfg1.win 5).flush t = true ∧ i ∈ ((cfg1.win 5).blk t).view.set := by
  have hN : cfg1.N = 64 := N_1
  have hi0 : (i 0).val < 8192 := (i 0).isLt
  have hi1 : (i 1).val < 16 := (i 1).isLt
  obtain ⟨t, ht⟩ : ∃ t : Fin cfg1.N, t.val = 8 * ((i 0).val / 1024) + 7 := ⟨⟨8 * ((i 0).val / 1024) + 7, by omega⟩, rfl⟩
  obtain ⟨e0, e1⟩ := hidx1_5 t
  refine ⟨t, (flush1_5 t).mpr (by omega), ?_⟩
  rw [blk1_mem5]
  intro a
  match a with
  | ⟨0, _⟩ => show win1_5.index t 0 * 1024 ≤ (i 0).val ∧ (i 0).val < win1_5.index t 0 * 1024 + 1024; rw [e0]; omega
  | ⟨1, _⟩ => show win1_5.index t 1 * 16 ≤ (i 1).val ∧ (i 1).val < win1_5.index t 1 * 16 + 16; rw [e1]; omega

/-- The second output array ends holding the residual plus the positive part of the whole product times the
    weights. -/
theorem final1_5 (c : Dev nD) :
    ((dat1 (F := Ideal) V c).arrAt 5 cfg1.N : FVec Ideal S8192x16 .f32)
      = addf (F := Ideal) (V c main_v6_1) (maximumf (F := Ideal) (Host.dotGeneral (F := Ideal) (φ₁ := .f32) (φ₂ := .f32) dot_S8192x16_S16x16_S8192x16_1_0_0_1_n_n none
            (Host.dotGeneral (F := Ideal) (φ₁ := .f32) (φ₂ := .f32) Cert.ReferenceIdeal.dot_S8192x8192_S8192x16_S8192x16_1_0_0_1_n_n none (V c main_arg1) (V c main_v6_0)) (V c main_v8))
          (broadcastInDim S8192x16 ![] Cert.KernelIdeal.Facts₀.bcast_S_S8192x16 (constant (F := Ideal) S_ .f32 0x00000000#32))) :=
  (dat1 V c).arrAt_eq_of_cover 5 (arr1_5 V c) (flushed1_5 V c) cover_arr1_5

end Region1

end Cert.KernelIdeal.H

end
-- ==== Proof.KernelIdeal.R2.Pieces.lean ====
/-
  What the pieces found by the region's three runs hold, as values. At a point with k = 0 the accumulator ends at the point's
  product added to the zero block; at a point with k > 0 at the point's product added to what the accumulator
  held on entry; at a point with k = 7 the first output is that same accumulator and the second output is the
  residual block plus the rectified product of the (rounded) accumulator with the weight block. Hence the
  accumulator after point n is the closed recursion acc2: restarted from the zero block at every point with
  k = 0, and otherwise carried from the point before.
-/
import proofs.«163433_j78743930404901_1_alg».proof.Proof.KernelIdeal.R2.Data
import Idealize.ShloMosaic.Lib.Pipeline.Value

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- The two-coordinate zero offset, as the constant function. -/
theorem hz2 : (![0, 0] : Fin 2 → Nat) = fun _ => 0 := funext fun a => by fin_cases a <;> rfl

/-! ## The found pieces, read back as the payloads -/

/-- A point with `k = 0`: the zero block is stored, read back, and the point's product added to it. -/
theorem pieceS2_A (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i) (x0 : Vec F S1024x1024 .f32) (x1 : Vec F S1024x16 .f32) (x2 : Vec F S16x16 .f32) (x3 : Vec F S1024x16 .f32) :
    sout2_A c i arg2 harg2 arg3 harg3 arg4 harg4 arg5 harg5 arg6 harg6 arg7 harg7 arg8 harg8 hc0 hc1 x0 x1 x2 x3 = k2_pay2 x0 x1 (k2_pay1 (F := F)) := by
  unfold sout2_A
  rw [View.read_writes_eq_canon _ _ _ (scover2_A c i arg2 harg2 arg3 harg3 arg4 harg4 arg5 harg5 arg6 harg6 arg7 harg7 arg8 harg8 hc0 hc1 x0 x1 x2 x3)]
  unfold kernelRun2_A
  dsimp only
  sl_unfold_words
  rw [View.canon_cons_unit_zero (S := S1024x16) hz2, View.readCov_unit_zero (S := S1024x16) _ hz2]
  simp only [View.readAt_eq_ld, harg2.read_unread, harg3.read_unread, harg4.read_unread, harg5.read_unread, harg6.read_unread, harg7.read_unread, harg8.read_unread, View.ld_unit_zero (S := S1024x16) hz2, View.ld_unit_zero (S := S1024x1024) hz2, View.ld_unit_zero (S := S16x16) hz2, View.readCov_unit_zero (S := S1024x16) _ hz2]

/-- A point with `0 < k < 7`: the point's product is added to what the accumulator held on entry. -/
theorem pieceS2_B (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i) (x0 : Vec F S1024x1024 .f32) (x1 : Vec F S1024x16 .f32) (x2 : Vec F S16x16 .f32) (x3 : Vec F S1024x16 .f32) (xs0 : Vec F S1024x16 .f32) :
    sout2_B c i arg2 harg2 arg3 harg3 arg4 harg4 arg5 harg5 arg6 harg6 arg7 harg7 arg8 harg8 hc0 hc1 x0 x1 x2 x3 xs0 = k2_pay2 x0 x1 xs0 := by
  unfold sout2_B
  rw [View.read_writes_eq_canon _ _ _ (scover2_B c i arg2 harg2 arg3 harg3 arg4 harg4 arg5 harg5 arg6 harg6 arg7 harg7 arg8 harg8 hc0 hc1 x0 x1 x2 x3 xs0)]
  unfold kernelRun2_B
  dsimp only
  rw [View.canon_unit_zero hz2]
  simp only [View.readAt_eq_ld, harg2.read_unread, harg3.read_unread, harg4.read_unread, harg5.read_unread, harg6.read_unread, harg7.read_unread, harg8.read_unread, View.ld_unit_zero (S := S1024x16) hz2, View.ld_unit_zero (S := S1024x1024) hz2, View.ld_unit_zero (S := S16x16) hz2, View.readCov_unit_zero (S := S1024x16) _ hz2]

/-- A point with `k = 7`: the accumulator, as at `0 < k < 7`. -/
theorem pieceS2_C (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i) (x0 : Vec F S1024x1024 .f32) (x1 : Vec F S1024x16 .f32) (x2 : Vec F S16x16 .f32) (x3 : Vec F S1024x16 .f32) (xs0 : Vec F S1024x16 .f32) :
    sout2_C c i arg2 harg2 arg3 harg3 arg4 harg4 arg5 harg5 arg6 harg6 arg7 harg7 arg8 harg8 hc0 hc1 x0 x1 x2 x3 xs0 = k2_pay2 x0 x1 xs0 := by
  unfold sout2_C
  rw [View.read_writes_eq_canon _ _ _ (scover2_C c i arg2 harg2 arg3 harg3 arg4 harg4 arg5 harg5 arg6 harg6 arg7 harg7 arg8 harg8 hc0 hc1 x0 x1 x2 x3 xs0)]
  unfold kernelRun2_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x16) hz2, View.ld_unit_zero (S := S1024x1024) hz2, View.ld_unit_zero (S := S16x16) hz2, View.readCov_unit_zero (S := S1024x16) _ hz2]

/-- A point with `k = 7`: the first output is the accumulator just stored, read back. -/
theorem piece42_C (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i) (x0 : Vec F S1024x1024 .f32) (x1 : Vec F S1024x16 .f32) (x2 : Vec F S16x16 .f32) (x3 : Vec F S1024x16 .f32) (xs0 : Vec F S1024x16 .f32) :
    out2_C_4 c i arg2 harg2 arg3 harg3 arg4 harg4 arg5 harg5 arg6 harg6 arg7 harg7 arg8 harg8 hc0 hc1 x0 x1 x2 x3 xs0 = k2_pay2 x0 x1 xs0 := by
  unfold out2_C_4
  rw [View.read_writes_eq_canon _ _ _ (cover2_C_4 c i arg2 harg2 arg3 harg3 arg4 harg4 arg5 harg5 arg6 harg6 arg7 harg7 arg8 harg8 hc0 hc1 x0 x1 x2 x3 xs0)]
  unfold kernelRun2_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x16) hz2, View.ld_unit_zero (S := S1024x1024) hz2, View.ld_unit_zero (S := S16x16) hz2, View.readCov_unit_zero (S := S1024x16) _ hz2]

/-- A point with `k = 7`: the second output is the residual block plus the rectified product of the accumulator
    just stored with the weight block. -/
theorem piece52_C (c : Dev nD) (i : grid2.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i) (x0 : Vec F S1024x1024 .f32) (x1 : Vec F S1024x16 .f32) (x2 : Vec F S16x16 .f32) (x3 : Vec F S1024x16 .f32) (xs0 : Vec F S1024x16 .f32) :
    out2_C_5 c i arg2 harg2 arg3 harg3 arg4 harg4 arg5 harg5 arg6 harg6 arg7 harg7 arg8 harg8 hc0 hc1 x0 x1 x2 x3 xs0 = k2_pay3 (k2_pay2 x0 x1 xs0) x2 x3 := by
  unfold out2_C_5
  rw [View.read_writes_eq_canon _ _ _ (cover2_C_5 c i arg2 harg2 arg3 harg3 arg4 harg4 arg5 harg5 arg6 harg6 arg7 harg7 arg8 harg8 hc0 hc1 x0 x1 x2 x3 xs0)]
  unfold kernelRun2_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x16) hz2, View.ld_unit_zero (S := S1024x1024) hz2, View.ld_unit_zero (S := S16x16) hz2, View.readCov_unit_zero (S := S1024x16) _ hz2]

/-! ## The blocks at a point, at their literal types -/

/-- The left factor's block at point `t`. -/
abbrev lblk2 (c : Dev nD) (t : Fin cfg2.N) : Vec F S1024x1024 .f32 := iblk2 V c 0 t
/-- The right factor's block at point `t`. -/
abbrev xblk2 (c : Dev nD) (t : Fin cfg2.N) : Vec F S1024x16 .f32 := iblk2 V c 1 t
/-- The weight block at point `t`. -/
abbrev wblk2 (c : Dev nD) (t : Fin cfg2.N) : Vec F S16x16 .f32 := iblk2 V c 2 t
/-- The residual block at point `t`. -/
abbrev ablk2 (c : Dev nD) (t : Fin cfg2.N) : Vec F S1024x16 .f32 := iblk2 V c 3 t

/-! ## The accumulator's closed recursion -/

/-- The accumulator after point `n`: the point's product added to the zero block when `k = 0`, and to the
    accumulator after the point before otherwise. -/
def acc2 (c : Dev nD) : (n : ℕ) → n < cfg2.N → Vec F S1024x16 .f32
  | 0, h => k2_pay2 (lblk2 V c ⟨0, h⟩) (xblk2 V c ⟨0, h⟩) k2_pay1
  | n + 1, h =>
    if (n + 1) % 8 = 0 then k2_pay2 (lblk2 V c ⟨n + 1, h⟩) (xblk2 V c ⟨n + 1, h⟩) k2_pay1
    else k2_pay2 (lblk2 V c ⟨n + 1, h⟩) (xblk2 V c ⟨n + 1, h⟩) (acc2 c n (Nat.lt_of_succ_lt h))

theorem acc2_zero (c : Dev nD) (h : 0 < cfg2.N) :
    acc2 V c 0 h = k2_pay2 (lblk2 V c ⟨0, h⟩) (xblk2 V c ⟨0, h⟩) k2_pay1 := rfl
theorem acc2_reset (c : Dev nD) (n : ℕ) (h : n + 1 < cfg2.N) (h0 : (n + 1) % 8 = 0) :
    acc2 V c (n + 1) h = k2_pay2 (lblk2 V c ⟨n + 1, h⟩) (xblk2 V c ⟨n + 1, h⟩) k2_pay1 := by
  rw [acc2]; exact if_pos h0
theorem acc2_carry (c : Dev nD) (n : ℕ) (h : n + 1 < cfg2.N) (h0 : ¬(n + 1) % 8 = 0) :
    acc2 V c (n + 1) h
      = k2_pay2 (lblk2 V c ⟨n + 1, h⟩) (xblk2 V c ⟨n + 1, h⟩) (acc2 V c n (Nat.lt_of_succ_lt h)) := by
  rw [acc2]; exact if_neg h0

/-- What the recursion over the cases' found pieces leaves in the accumulator after point `n` is `acc2`: by
    induction on the point. -/
theorem outsAt2_acc (c : Dev nD) : ∀ (n : ℕ) (h : n < cfg2.N), (outsAt2 V c n h).2.2 = acc2 V c n h
  | 0, h => by
    rw [outsAt2_A V c ⟨0, h⟩ (Nat.zero_mod _) (by simp), acc2_zero]
    dsimp only
    unfold soutAt2_A
    exact pieceS2_A (F := F) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) scM2_0 (Memref.isWhole_whole _) ((hcond2_0 ⟨0, h⟩).mpr (Nat.zero_mod _)) (fun hh => (by simp : ¬(⟨0, h⟩ : Fin cfg2.N).val % 8 = 7) ((hcond2_1 ⟨0, h⟩).mp hh)) (iblk2 V c 0 ⟨0, h⟩) (iblk2 V c 1 ⟨0, h⟩) (iblk2 V c 2 ⟨0, h⟩) (iblk2 V c 3 ⟨0, h⟩)
  | n + 1, h => by
    by_cases h0 : (n + 1) % 8 = 0
    · have h1 : ¬(n + 1) % 8 = 7 := by omega
      rw [outsAt2_A V c ⟨n + 1, h⟩ h0 h1, acc2_reset V c n h h0]
      dsimp only
      unfold soutAt2_A
      exact pieceS2_A (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) scM2_0 (Memref.isWhole_whole _) ((hcond2_0 ⟨n + 1, h⟩).mpr h0) (fun hh => h1 ((hcond2_1 ⟨n + 1, h⟩).mp hh)) (iblk2 V c 0 ⟨n + 1, h⟩) (iblk2 V c 1 ⟨n + 1, h⟩) (iblk2 V c 2 ⟨n + 1, h⟩) (iblk2 V c 3 ⟨n + 1, h⟩)
    · by_cases h1 : (n + 1) % 8 = 7
      · rw [outsAt2_C V c ⟨n + 1, h⟩ h0 h1, acc2_carry V c n h h0, ← outsAt2_acc c n (Nat.lt_of_succ_lt h)]
        dsimp only
        unfold soutAt2_C
        exact pieceS2_C (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) scM2_0 (Memref.isWhole_whole _) (fun hh => h0 ((hcond2_0 ⟨n + 1, h⟩).mp hh)) ((hcond2_1 ⟨n + 1, h⟩).mpr h1) (iblk2 V c 0 ⟨n + 1, h⟩) (iblk2 V c 1 ⟨n + 1, h⟩) (iblk2 V c 2 ⟨n + 1, h⟩) (iblk2 V c 3 ⟨n + 1, h⟩) ((outsAt2 V c n (Nat.lt_of_succ_lt h)).2.2)
      · rw [outsAt2_B V c ⟨n + 1, h⟩ h0 h1, acc2_carry V c n h h0, ← outsAt2_acc c n (Nat.lt_of_succ_lt h)]
        dsimp only
        unfold soutAt2_B
        exact pieceS2_B (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) scM2_0 (Memref.isWhole_whole _) (fun hh => h0 ((hcond2_0 ⟨n + 1, h⟩).mp hh)) (fun hh => h1 ((hcond2_1 ⟨n + 1, h⟩).mp hh)) (iblk2 V c 0 ⟨n + 1, h⟩) (iblk2 V c 1 ⟨n + 1, h⟩) (iblk2 V c 2 ⟨n + 1, h⟩) (iblk2 V c 3 ⟨n + 1, h⟩) ((outsAt2 V c n (Nat.lt_of_succ_lt h)).2.2)

/-- At a point with `k = 7` the first output's buffer is left holding the accumulator. -/
theorem outsAt2_out4 (c : Dev nD) (t : Fin cfg2.N) (h1 : t.val % 8 = 7) :
    (outsAt2 V c t.val t.isLt).1 = acc2 V c t.val t.isLt := by
  have h0 : ¬t.val % 8 = 0 := by omega
  obtain ⟨n, hn⟩ := t
  cases n with
  | zero => exact absurd (Nat.zero_mod _) h0
  | succ n =>
    dsimp only at h0 h1 ⊢
    rw [outsAt2_C V c ⟨n + 1, hn⟩ h0 h1, acc2_carry V c n hn h0, ← outsAt2_acc V c n (Nat.lt_of_succ_lt hn)]
    dsimp only
    unfold out4At2_C
    exact piece42_C (F := F) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun hh => h0 ((hcond2_0 ⟨n + 1, hn⟩).mp hh)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) ((outsAt2 V c n (Nat.lt_of_succ_lt hn)).2.2)

/-- At a point with `k = 7` the second output's buffer is left holding the residual block plus the rectified
    product of the accumulator with the weight block. -/
theorem outsAt2_out5 (c : Dev nD) (t : Fin cfg2.N) (h1 : t.val % 8 = 7) :
    (outsAt2 V c t.val t.isLt).2.1 = k2_pay3 (acc2 V c t.val t.isLt) (wblk2 V c t) (ablk2 V c t) := by
  have h0 : ¬t.val % 8 = 0 := by omega
  obtain ⟨n, hn⟩ := t
  cases n with
  | zero => exact absurd (Nat.zero_mod _) h0
  | succ n =>
    dsimp only at h0 h1 ⊢
    rw [outsAt2_C V c ⟨n + 1, hn⟩ h0 h1, acc2_carry V c n hn h0, ← outsAt2_acc V c n (Nat.lt_of_succ_lt hn)]
    dsimp only
    unfold out5At2_C
    exact piece52_C (F := F) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun hh => h0 ((hcond2_0 ⟨n + 1, hn⟩).mp hh)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) ((outsAt2 V c n (Nat.lt_of_succ_lt hn)).2.2)

end Region2

end Cert.KernelIdeal.H

end
-- ==== Proof.KernelIdeal.R2.Payloads.lean ====
/-
  The three values the region's kernel stores, read at an index over the extended reals.

  The first is a block of zeros. The second is the accumulator block plus the product of a `[1024, 1024]` block of
  the left matrix by a `[1024, 16]` block of the right one, the matrix unit's operands narrowed and its accumulator
  zero: over the extended reals the textbook sum. The third is the output block plus the positive part of the product
  of the `[1024, 16]` tile by the `[16, 16]` weights.
-/
import proofs.«163433_j78743930404901_1_alg».proof.Proof.Gen.KernelIdeal.Skeleton
import proofs.«163433_j78743930404901_1_alg».proof.Proof.Gen.KernelIdeal
import proofs.«163433_j78743930404901_1_alg».proof.Proof.Dots
import proofs.«163433_j78743930404901_1_alg».proof.Proof.LibAffineRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.H

open Cert.KernelIdeal Cert.KernelIdeal.Gen Idealize.ShloMosaic Idealize.ShloMosaic.ValueIdx

/-- The zero block at `(r, q)`. -/
theorem pay12_apply (r : Fin 1024) (q : Fin 16) : k2_pay1 (F := Ideal) (ix2 r q) = 0 := by
  unfold k2_pay1
  simp only [shapeCast_self, broadcast_apply]
  exact Ideal.ofBits_zero_f32

/-- The accumulator plus the block product at `(r, q)`. -/
theorem pay22_apply (v3 : Vec Ideal S1024x1024 .f32) (v5 v7 : Vec Ideal S1024x16 .f32) (r : Fin 1024) (q : Fin 16) :
    k2_pay2 v3 v5 v7 (ix2 r q) = v7 (ix2 r q) + ∑ kk : Fin 1024, v3 (ix2 r kk) * v5 (ix2 kk q) := by
  unfold k2_pay2
  simp only [shapeCast_self, addf_apply]
  rw [Cert.Lib.matmul_zero_apply Cert.Dots.k_LX]

/-- The output block plus the positive part of the tile's product by the weights at `(r, q)`. -/
theorem pay32_apply (v16 : Vec Ideal S1024x16 .f32) (v19 : Vec Ideal S16x16 .f32) (v25 : Vec Ideal S1024x16 .f32)
    (r : Fin 1024) (q : Fin 16) :
    k2_pay3 v16 v19 v25 (ix2 r q) = v25 (ix2 r q) + max (∑ a : Fin 16, v16 (ix2 r a) * v19 (ix2 a q)) 0 := by
  unfold k2_pay3
  simp only [shapeCast_self, addf_apply, maximumf_apply, broadcast_apply]
  rw [Cert.Lib.matmul_zero_apply Cert.Dots.k_XW,
    show (FloatOps.ofBits (F := Ideal) .f32 0x00000000#32 : Ideal .f32) = 0 from Ideal.ofBits_zero_f32]

end Cert.KernelIdeal.H

end
-- ==== Proof.KernelIdeal.R2.Value.lean ====
/-
  The first output of this region as a value at the ideal instance.

  The grid is 8 × 8, point t = 8·i + k. The matrix's block at t is rows 1024·i …, columns 1024·k …; the vector's block
  is rows 1024·k …. The accumulator is reset where k = 0 and takes, at every point, the product of the point's two blocks;
  so after point t it holds the partial sums over the column blocks 0 … k of row tile i, added in order to a zero
  (`acc2_chain`). At k = 7 these eight partial sums are the whole sum over the 8192 columns, which is the host's product
  of the matrix and the vector read at row 1024·i + r (`acc2_rows`, `acc2_last`). The first output's block (i, 0) is
  written back exactly there, the eight blocks cover the array, and so the array ends holding the product (`final2_4`).
-/
-- layout: arrays
import proofs.«163433_j78743930404901_1_alg».proof.Proof.KernelIdeal.R2.Pieces
import proofs.«163433_j78743930404901_1_alg».proof.Proof.KernelIdeal.R2.Payloads
import proofs.«163433_j78743930404901_1_alg».proof.Proof.Dots
import proofs.«163433_j78743930404901_1_alg».proof.Proof.LibBlockedSum
import proofs.«163433_j78743930404901_1_alg».proof.Proof.LibAffineRows
import proofs.«163433_j78743930404901_1_alg».proof.ReferenceIdeal
import proofs.«163433_j78743930404901_1_alg».proof.Proof.Gen.KernelIdeal
import proofs.«163433_j78743930404901_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window BodyObligation cellOf)

section Region2

variable (V : (c : Dev nD) → (b : Ref sig .tc) → Buf (Elt Ideal) ((c : Thread nD τ).loc b))

/-! ## Where the blocks lie -/

/-- The block index at point `t = 8·i + k`: the matrix's block is `(i, k)`, the vector's `(k, 0)`, the first output's
    `(i, 0)`. -/
theorem hidx2_L : ∀ t : Fin cfg2.N, win2_0.index t 0 = t.val / 8 ∧ win2_0.index t 1 = t.val % 8 :=
  (by decide +kernel : ∀ t : Fin grid2.N, _)
theorem hidx2_X : ∀ t : Fin cfg2.N, win2_1.index t 0 = t.val % 8 ∧ win2_1.index t 1 = 0 :=
  (by decide +kernel : ∀ t : Fin grid2.N, _)
theorem hidx2_4 : ∀ t : Fin cfg2.N, win2_4.index t 0 = t.val / 8 ∧ win2_4.index t 1 = 0 :=
  (by decide +kernel : ∀ t : Fin grid2.N, _)

/-- The matrix's block at point `t`, entry `(r, kk)`, is the matrix at row `1024·(t / 8) + r`, column `1024·(t % 8) + kk`. -/
theorem blk2_L (c : Dev nD) (t : Fin cfg2.N) (r kk : Fin 1024) (i j : Fin 8192)
    (hi : i.val = 1024 * (t.val / 8) + r.val) (hj : j.val = 1024 * (t.val % 8) + kk.val) :
    lblk2 V c t (ix2 r kk) = (V c main_arg1 : FVec Ideal S8192x8192 .f32) (ix2 i j) := by
  obtain ⟨e0, e1⟩ := hidx2_L t
  unfold lblk2 iblk2
  rw [View.read_apply]
  show (V c main_arg1 : FVec Ideal S8192x8192 .f32) _ = _
  congr 1
  funext a
  apply Fin.ext
  match a with
  | ⟨0, _⟩ => show win2_0.index t 0 * 1024 + 1 * r.val = i.val; rw [e0, hi]; omega
  | ⟨1, _⟩ => show win2_0.index t 1 * 1024 + 1 * kk.val = j.val; rw [e1, hj]; omega

/-- The vector's block at point `t`, entry `(kk, q)`, is the vector at row `1024·(t % 8) + kk`, column `q`. -/
theorem blk2_X (c : Dev nD) (t : Fin cfg2.N) (kk : Fin 1024) (q : Fin 16) (j : Fin 8192)
    (hj : j.val = 1024 * (t.val % 8) + kk.val) :
    xblk2 V c t (ix2 kk q) = (V c main_v9_0 : FVec Ideal S8192x16 .f32) (ix2 j q) := by
  obtain ⟨e0, e1⟩ := hidx2_X t
  unfold xblk2 iblk2
  rw [View.read_apply]
  show (V c main_v9_0 : FVec Ideal S8192x16 .f32) _ = _
  congr 1
  funext a
  apply Fin.ext
  match a with
  | ⟨0, _⟩ => show win2_1.index t 0 * 1024 + 1 * kk.val = j.val; rw [e0, hj]; omega
  | ⟨1, _⟩ => show win2_1.index t 1 * 16 + 1 * q.val = q.val; rw [e1]; omega

/-! ## The accumulator -/

/-- The product of the two blocks of point `n` at entry `(r, q)`; zero past the grid. -/
def prod2 (c : Dev nD) (r : Fin 1024) (q : Fin 16) (n : ℕ) : EReal :=
  if h : n < cfg2.N then ∑ kk : Fin 1024, lblk2 V c ⟨n, h⟩ (ix2 r kk) * xblk2 V c ⟨n, h⟩ (ix2 kk q) else 0

theorem prod2_of_lt (c : Dev nD) (r : Fin 1024) (q : Fin 16) (n : ℕ) (h : n < cfg2.N) :
    prod2 V c r q n = ∑ kk : Fin 1024, lblk2 V c ⟨n, h⟩ (ix2 r kk) * xblk2 V c ⟨n, h⟩ (ix2 kk q) := dif_pos h

/-- After point `n` the accumulator holds the products of the points of `n`'s row tile up to `n`, added in order to a
    zero. -/
theorem acc2_chain (c : Dev nD) (r : Fin 1024) (q : Fin 16) : ∀ (n : ℕ) (h : n < cfg2.N),
    acc2 V c n h (ix2 r q) = Cert.Lib.chain (fun j => prod2 V c r q (8 * (n / 8) + j)) (n % 8)
  | 0, h => by
    rw [acc2_zero, pay22_apply, pay12_apply]
    show 0 + _ = 0 + prod2 V c r q (8 * (0 / 8) + 0)
    rw [show 8 * (0 / 8) + 0 = 0 from rfl, prod2_of_lt V c r q 0 h]
  | n + 1, h => by
    by_cases h8 : (n + 1) % 8 = 0
    · rw [acc2_reset V c n h h8, pay22_apply, pay12_apply, h8]
      show 0 + _ = 0 + prod2 V c r q (8 * ((n + 1) / 8) + 0)
      rw [show 8 * ((n + 1) / 8) + 0 = n + 1 by omega, prod2_of_lt V c r q _ h]
    · rw [acc2_carry V c n h h8, pay22_apply, acc2_chain c r q n (Nat.lt_of_succ_lt h)]
      rw [show (n + 1) % 8 = n % 8 + 1 by omega, show (n + 1) / 8 = n / 8 by omega]
      show _ + _ = Cert.Lib.chain _ (n % 8) + prod2 V c r q (8 * (n / 8) + (n % 8 + 1))
      rw [show 8 * (n / 8) + (n % 8 + 1) = n + 1 by omega, prod2_of_lt V c r q _ h]

/-- What the first output ends holding: the matrix times the vector. -/
abbrev xpOut2 (c : Dev nD) : FVec Ideal S8192x16 .f32 :=
  Host.dotGeneral (F := Ideal) (φ₁ := .f32) (φ₂ := .f32) Cert.ReferenceIdeal.dot_S8192x8192_S8192x16_S8192x16_1_0_0_1_n_n none (V c main_arg1) (V c main_v9_0)

/-- At the last point of a row tile the accumulator's entry `(r, q)` is the matrix's row `1024·(t / 8) + r` times the
    vector's column `q`: the eight blocks' partial sums are the whole sum. -/
theorem acc2_rows (c : Dev nD) (t : Fin cfg2.N) (h7 : t.val % 8 = 7) (r : Fin 1024) (q : Fin 16) (i : Fin 8192)
    (hi : i.val = 1024 * (t.val / 8) + r.val) :
    acc2 V c t.val t.isLt (ix2 r q) = xpOut2 V c (ix2 i q) := by
  have hN : cfg2.N = 64 := N_2
  have ht := t.isLt
  rw [acc2_chain V c r q t.val t.isLt, h7, Cert.Lib.chain_eq_sum_fin]
  unfold xpOut2
  rw [Cert.Lib.dotGeneral_apply Cert.Dots.r_LX, Cert.Lib.sum_blocks' 8 1024 (rfl : 8192 = 8 * 1024)]
  refine Finset.sum_congr rfl fun b _ => ?_
  have hb := b.isLt
  have hlt : 8 * (t.val / 8) + b.val < cfg2.N := by omega
  show prod2 V c r q (8 * (t.val / 8) + b.val) = _
  rw [prod2_of_lt V c r q _ hlt]
  refine Finset.sum_congr rfl fun kk _ => ?_
  have hk := kk.isLt
  rw [blk2_L V c ⟨_, hlt⟩ r kk i ⟨1024 * b.val + kk.val, by omega⟩
      (by show i.val = 1024 * ((8 * (t.val / 8) + b.val) / 8) + r.val; omega)
      (by show 1024 * b.val + kk.val = 1024 * ((8 * (t.val / 8) + b.val) % 8) + kk.val; omega),
    blk2_X V c ⟨_, hlt⟩ kk q ⟨1024 * b.val + kk.val, by omega⟩
      (by show 1024 * b.val + kk.val = 1024 * ((8 * (t.val / 8) + b.val) % 8) + kk.val; omega)]

/-- The same with the row written out: the accumulator at the last contraction tile of row tile `t / 8` holds the
    whole product's rows. -/
theorem acc2_last (c : Dev nD) (t : Fin cfg2.N) (h1 : t.val % 8 = 7) (r : Fin 1024) (q : Fin 16) :
    acc2 V c t.val t.isLt (ix2 r q)
      = Host.dotGeneral (F := Ideal) (φ₁ := .f32) (φ₂ := .f32) Cert.ReferenceIdeal.dot_S8192x8192_S8192x16_S8192x16_1_0_0_1_n_n none (V c main_arg1) (V c main_v9_0)
          (ix2 (⟨1024 * (t.val / 8) + r.val, by have := t.isLt; have := r.isLt; have : cfg2.N = 64 := N_2; omega⟩ : Fin 8192) q) :=
  acc2_rows V c t h1 r q _ rfl

/-! ## The first output -/

/-- What the write-back at a last contraction tile writes is its block of the matrix times the vector. -/
theorem flushed2_4 (c : Dev nD) (t : Fin cfg2.N) (hf : (cfg2.win 4).flush t = true) :
    (dat2 V c).flushed 4 t = ((cfg2.win 4).blk t).view.read (Elt Ideal) (xpOut2 V c) := by
  have h7 : t.val % 8 = 7 := (flush2_4 t).mp hf
  have hN : cfg2.N = 64 := N_2
  have ht := t.isLt
  obtain ⟨e0, e1⟩ := hidx2_4 t
  show (cfg2.win 4).cut (grid2.coords t) ((dat2 V c).after 4 t) = _
  rw [after2_4, outsAt2_out4 V c t h7]
  funext j
  have hj0 : (j 0).val < 1024 := (j 0).isLt
  have hj1 : (j 1).val < 16 := (j 1).isLt
  have el : ((cfg2.win 4).xinj (grid2.coords t) j : S1024x16.Idx) = ix2 ⟨(j 0).val, hj0⟩ ⟨(j 1).val, hj1⟩ :=
    funext fun a => by match a with | ⟨0, _⟩ => rfl | ⟨1, _⟩ => rfl
  have er : (((cfg2.win 4).blk t).view.emb j : S8192x16.Idx)
      = ix2 (⟨1024 * (t.val / 8) + (j 0).val, by omega⟩ : Fin 8192) ⟨(j 1).val, hj1⟩ := by
    funext a
    apply Fin.ext
    match a with
    | ⟨0, _⟩ => show win2_4.index t 0 * 1024 + 1 * (j 0).val = 1024 * (t.val / 8) + (j 0).val; rw [e0]; omega
    | ⟨1, _⟩ => show win2_4.index t 1 * 16 + 1 * (j 1).val = (j 1).val; rw [e1]; omega
  rw [View.read_apply]
  show acc2 V c t.val t.isLt ((cfg2.win 4).xinj (grid2.coords t) j) = xpOut2 V c (((cfg2.win 4).blk t).view.emb j)
  rw [el, er]
  exact acc2_rows V c t h7 _ _ _ rfl

/-- An index of the array is in point `t`'s block iff each coordinate is in the block's range on its axis. -/
theorem blk2_mem4 (t : Fin cfg2.N) (i : S8192x16.Idx) :
    i ∈ ((cfg2.win 4).blk t).view.set ↔ ∀ a : Fin 2, win2_4.index t a * S1024x16.size a ≤ (i a).val ∧ (i a).val < win2_4.index t a * S1024x16.size a + S1024x16.size a := by
  show i ∈ ((View.whole main_v12_0).slice (win2_4.rect t)).set ↔ _
  rw [View.set_slice_whole, Rect.mem_set_unit]
  exact Iff.rfl

/-- Row `R` of the array lies in the block written back at the last contraction tile of row tile `R / 1024`. -/
theorem cover_arr2_4 (i : S8192x16.Idx) :
    ∃ t : Fin cfg2.N, (cfg2.win 4).flush t = true ∧ i ∈ ((cfg2.win 4).blk t).view.set := by
  have hN : cfg2.N = 64 := N_2
  have hi0 : (i 0).val < 8192 := (i 0).isLt
  have hi1 : (i 1).val < 16 := (i 1).isLt
  obtain ⟨t, ht⟩ : ∃ t : Fin cfg2.N, t.val = 8 * ((i 0).val / 1024) + 7 := ⟨⟨8 * ((i 0).val / 1024) + 7, by omega⟩, rfl⟩
  obtain ⟨e0, e1⟩ := hidx2_4 t
  refine ⟨t, (flush2_4 t).mpr (by omega), ?_⟩
  rw [blk2_mem4]
  intro a
  match a with
  | ⟨0, _⟩ => show win2_4.index t 0 * 1024 ≤ (i 0).val ∧ (i 0).val < win2_4.index t 0 * 1024 + 1024; rw [e0]; omega
  | ⟨1, _⟩ => show win2_4.index t 1 * 16 ≤ (i 1).val ∧ (i 1).val < win2_4.index t 1 * 16 + 16; rw [e1]; omega

/-- The first output array ends holding the matrix times the vector. -/
theorem final2_4 (c : Dev nD) :
    ((dat2 (F := Ideal) V c).arrAt 4 cfg2.N : FVec Ideal S8192x16 .f32)
      = Host.dotGeneral (F := Ideal) (φ₁ := .f32) (φ₂ := .f32) Cert.ReferenceIdeal.dot_S8192x8192_S8192x16_S8192x16_1_0_0_1_n_n none (V c main_arg1) (V c main_v9_0) :=
  (dat2 V c).arrAt_eq_of_cover 4 (xpOut2 V c) (flushed2_4 V c) cover_arr2_4

end Region2

end Cert.KernelIdeal.H

end
-- ==== Proof.KernelIdeal.R2.Value5.lean ====
/-
  The region's second result array at the ideal values.

  The grid is 8 by 8, the point `t = 8 i + k`. The output's blocks are the eight row blocks `[1024, 16]` of the
  `[8192, 16]` array, block `i` written back at the last point `k = 7` of row tile `i`, where it holds the residual
  block plus the positive part of the product of the accumulator — row tile `i` of the whole product `L · X` — by the
  weights. Read at an index these are the rows `1024 i + r` of one function of the arrays the region is entered with,
  and the eight blocks cover the array.
-/
-- layout: arrays
import proofs.«163433_j78743930404901_1_alg».proof.Proof.KernelIdeal.R2.Value
import proofs.«163433_j78743930404901_1_alg».proof.Proof.KernelIdeal.R2.Payloads
import proofs.«163433_j78743930404901_1_alg».proof.Proof.Dots
import proofs.«163433_j78743930404901_1_alg».proof.Proof.LibAffineRows
import proofs.«163433_j78743930404901_1_alg».proof.ReferenceIdeal
import proofs.«163433_j78743930404901_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.H

open Cert.KernelIdeal Cert.KernelIdeal.Gen
open Idealize.ShloMosaic Idealize.ShloMosaic.TcCoe Idealize.SL.Sem Idealize.ShloMosaic.ValueIdx
open Idealize.ShloMosaic.Pipeline (Dat)

section Region2

variable (V : (c : Dev nD) → (b : Ref sig .tc) → Buf (Elt Ideal) ((c : Thread nD τ).loc b))

/-! ## The printed index maps, decided once over the grid -/

/-- The weights' window is the whole `[16, 16]` array at every point. -/
theorem hidx2_W : ∀ t : Fin cfg2.N, win2_2.index t 0 = 0 ∧ win2_2.index t 1 = 0 :=
  (by decide +kernel : ∀ t : Fin grid2.N, _)

/-- The residual's window is at row block `t / 8`. -/
theorem hidx2_A : ∀ t : Fin cfg2.N, win2_3.index t 0 = t.val / 8 ∧ win2_3.index t 1 = 0 :=
  (by decide +kernel : ∀ t : Fin grid2.N, _)

/-- The second output's window is at row block `t / 8`. -/
theorem hidx2_5 : ∀ t : Fin cfg2.N, win2_5.index t 0 = t.val / 8 ∧ win2_5.index t 1 = 0 :=
  (by decide +kernel : ∀ t : Fin grid2.N, _)

/-! ## The blocks the last point of a row tile reads -/

/-- The weight block at any point, entry `(a, b)`, is the weights there. -/
theorem blk2_W (c : Dev nD) (t : Fin cfg2.N) (a b : Fin 16) : wblk2 V c t (ix2 a b) = V c main_v11 (ix2 a b) := by
  obtain ⟨e0, e1⟩ := hidx2_W t
  unfold wblk2 iblk2
  rw [View.read_apply]
  show V c main_v11 (((cfg2.win 2).blk t).view.emb (ix2 a b)) = V c main_v11 (ix2 a b)
  refine congrArg (V c main_v11) (funext fun x => Fin.ext ?_)
  match x with
  | ⟨0, _⟩ => show win2_2.index t 0 * 16 + 1 * a.val = a.val; rw [e0]; omega
  | ⟨1, _⟩ => show win2_2.index t 1 * 16 + 1 * b.val = b.val; rw [e1]; omega

/-- The residual block at point `t`, entry `(r, q)`, is the residual at row `1024·(t / 8) + r`, column `q`. -/
theorem blk2_A (c : Dev nD) (t : Fin cfg2.N) (r : Fin 1024) (q : Fin 16) (i : Fin 8192)
    (hi : i.val = 1024 * (t.val / 8) + r.val) : ablk2 V c t (ix2 r q) = V c main_v9_1 (ix2 i q) := by
  obtain ⟨e0, e1⟩ := hidx2_A t
  unfold ablk2 iblk2
  rw [View.read_apply]
  show V c main_v9_1 (((cfg2.win 3).blk t).view.emb (ix2 r q)) = V c main_v9_1 (ix2 i q)
  refine congrArg (V c main_v9_1) (funext fun x => Fin.ext ?_)
  match x with
  | ⟨0, _⟩ => show win2_3.index t 0 * 1024 + 1 * r.val = i.val; rw [e0, hi]; omega
  | ⟨1, _⟩ => show win2_3.index t 1 * 16 + 1 * q.val = q.val; rw [e1]; omega

/-! ## The second output -/

/-- The residual, at its literal type. -/
abbrev resid2 (c : Dev nD) : FVec Ideal S8192x16 .f32 := V c main_v9_1
/-- The weights, at their literal type. -/
abbrev wts2 (c : Dev nD) : FVec Ideal S16x16 .f32 := V c main_v11

/-- What the second output ends holding: the residual plus the positive part of the whole product (the left matrix by
    the right one) times the weights. -/
abbrev arr2_5 (c : Dev nD) : FVec Ideal S8192x16 .f32 :=
  addf (F := Ideal) (V c main_v9_1) (maximumf (F := Ideal) (Host.dotGeneral (F := Ideal) (φ₁ := .f32) (φ₂ := .f32) dot_S8192x16_S16x16_S8192x16_1_0_0_1_n_n none
        (Host.dotGeneral (F := Ideal) (φ₁ := .f32) (φ₂ := .f32) Cert.ReferenceIdeal.dot_S8192x8192_S8192x16_S8192x16_1_0_0_1_n_n none (V c main_arg1) (V c main_v9_0)) (V c main_v11))
      (broadcastInDim S8192x16 ![] Cert.KernelIdeal.Facts₀.bcast_S_S8192x16 (constant (F := Ideal) S_ .f32 0x00000000#32)))

/-- It reads, at `(i, q)`, the residual there plus the positive part of row `i` of the whole product against column
    `q` of the weights. -/
theorem arr2_5_apply (c : Dev nD) (i : Fin 8192) (q : Fin 16) :
    arr2_5 V c (ix2 i q)
      = resid2 V c (ix2 i q) + max (∑ a : Fin 16, xpOut2 V c (ix2 i a) * wts2 V c (ix2 a q)) 0 := by
  unfold arr2_5
  rw [addf_apply, maximumf_apply, Cert.Lib.dotGeneral_apply Cert.Dots.k_host_XW,
    broadcastInDim_apply _ _ _ (ix2 i q) (fun a => a.elim0) (fun a => a.elim0), constant_apply, Ideal.ofBits_zero_f32]

/-- What the last point of a row tile stores for the second output, entry `(r, q)`, is the array's function at row
    `1024·(t / 8) + r`. -/
theorem out2_5_rows (c : Dev nD) (t : Fin cfg2.N) (h7 : t.val % 8 = 7) (r : Fin 1024) (q : Fin 16) (i : Fin 8192)
    (hi : i.val = 1024 * (t.val / 8) + r.val) :
    k2_pay3 (acc2 V c t.val t.isLt) (wblk2 V c t) (ablk2 V c t) (ix2 r q) = arr2_5 V c (ix2 i q) := by
  rw [arr2_5_apply]
  refine (pay32_apply (acc2 V c t.val t.isLt) (wblk2 V c t) (ablk2 V c t) r q).trans ?_
  rw [blk2_A V c t r q i hi]
  refine congrArg (fun z => resid2 V c (ix2 i q) + max z 0) (Finset.sum_congr rfl fun a _ => ?_)
  rw [acc2_rows V c t h7 r a i hi, blk2_W V c t a q]

/-- What the write-back at the last point of a row tile writes is its block of the array's function. -/
theorem flushed2_5 (c : Dev nD) (t : Fin cfg2.N) (hf : (cfg2.win 5).flush t = true) :
    (dat2 V c).flushed 5 t = ((cfg2.win 5).blk t).view.read (Elt Ideal) (arr2_5 V c) := by
  have h7 : t.val % 8 = 7 := (flush2_5 t).mp hf
  have hN : cfg2.N = 64 := N_2
  have ht := t.isLt
  obtain ⟨e0, e1⟩ := hidx2_5 t
  show (cfg2.win 5).cut (grid2.coords t) ((dat2 V c).after 5 t) = _
  rw [after2_5, outsAt2_out5 V c t h7]
  funext j
  have hj0 : (j 0).val < 1024 := (j 0).isLt
  have hj1 : (j 1).val < 16 := (j 1).isLt
  have el : ((cfg2.win 5).xinj (grid2.coords t) j : S1024x16.Idx) = ix2 ⟨(j 0).val, hj0⟩ ⟨(j 1).val, hj1⟩ :=
    funext fun a => by match a with | ⟨0, _⟩ => rfl | ⟨1, _⟩ => rfl
  have er : (((cfg2.win 5).blk t).view.emb j : S8192x16.Idx)
      = ix2 (⟨1024 * (t.val / 8) + (j 0).val, by omega⟩ : Fin 8192) ⟨(j 1).val, hj1⟩ := by
    funext a
    apply Fin.ext
    match a with
    | ⟨0, _⟩ => show win2_5.index t 0 * 1024 + 1 * (j 0).val = 1024 * (t.val / 8) + (j 0).val; rw [e0]; omega
    | ⟨1, _⟩ => show win2_5.index t 1 * 16 + 1 * (j 1).val = (j 1).val; rw [e1]; omega
  rw [View.read_apply]
  show k2_pay3 (acc2 V c t.val t.isLt) (wblk2 V c t) (ablk2 V c t) ((cfg2.win 5).xinj (grid2.coords t) j)
    = arr2_5 V c (((cfg2.win 5).blk t).view.emb j)
  rw [el, er]
  exact out2_5_rows V c t h7 _ _ _ rfl

/-- An index of the array is in point `t`'s block iff each coordinate is in the block's range on its axis. -/
theorem blk2_mem5 (t : Fin cfg2.N) (i : S8192x16.Idx) :
    i ∈ ((cfg2.win 5).blk t).view.set ↔ ∀ a : Fin 2, win2_5.index t a * S1024x16.size a ≤ (i a).val ∧ (i a).val < win2_5.index t a * S1024x16.size a + S1024x16.size a := by
  show i ∈ ((View.whole main_v12_1).slice (win2_5.rect t)).set ↔ _
  rw [View.set_slice_whole, Rect.mem_set_unit]
  exact Iff.rfl

/-- Row `R` of the array lies in the block written back at the last point of row tile `R / 1024`. -/
theorem cover_arr2_5 (i : S8192x16.Idx) :
    ∃ t : Fin cfg2.N, (cfg2.win 5).flush t = true ∧ i ∈ ((cfg2.win 5).blk t).view.set := by
  have hN : cfg2.N = 64 := N_2
  have hi0 : (i 0).val < 8192 := (i 0).isLt
  have hi1 : (i 1).val < 16 := (i 1).isLt
  obtain ⟨t, ht⟩ : ∃ t : Fin cfg2.N, t.val = 8 * ((i 0).val / 1024) + 7 := ⟨⟨8 * ((i 0).val / 1024) + 7, by omega⟩, rfl⟩
  obtain ⟨e0, e1⟩ := hidx2_5 t
  refine ⟨t, (flush2_5 t).mpr (by omega), ?_⟩
  rw [blk2_mem5]
  intro a
  match a with
  | ⟨0, _⟩ => show win2_5.index t 0 * 1024 ≤ (i 0).val ∧ (i 0).val < win2_5.index t 0 * 1024 + 1024; rw [e0]; omega
  | ⟨1, _⟩ => show win2_5.index t 1 * 16 ≤ (i 1).val ∧ (i 1).val < win2_5.index t 1 * 16 + 16; rw [e1]; omega

/-- The second output array ends holding the residual plus the positive part of the whole product times the
    weights. -/
theorem final2_5 (c : Dev nD) :
    ((dat2 (F := Ideal) V c).arrAt 5 cfg2.N : FVec Ideal S8192x16 .f32)
      = addf (F := Ideal) (V c main_v9_1) (maximumf (F := Ideal) (Host.dotGeneral (F := Ideal) (φ₁ := .f32) (φ₂ := .f32) dot_S8192x16_S16x16_S8192x16_1_0_0_1_n_n none
            (Host.dotGeneral (F := Ideal) (φ₁ := .f32) (φ₂ := .f32) Cert.ReferenceIdeal.dot_S8192x8192_S8192x16_S8192x16_1_0_0_1_n_n none (V c main_arg1) (V c main_v9_0)) (V c main_v11))
          (broadcastInDim S8192x16 ![] Cert.KernelIdeal.Facts₀.bcast_S_S8192x16 (constant (F := Ideal) S_ .f32 0x00000000#32))) :=
  (dat2 V c).arrAt_eq_of_cover 5 (arr2_5 V c) (flushed2_5 V c) cover_arr2_5

end Region2

end Cert.KernelIdeal.H

end
-- ==== Proof.KernelIdeal.R3.Pieces.lean ====
/-
  What the pieces found by the region's three runs hold, as values. At a point with k = 0 the accumulator ends at the point's
  product added to the zero block; at a point with k > 0 at the point's product added to what the accumulator
  held on entry; at a point with k = 7 the first output is that same accumulator and the second output is the
  residual block plus the rectified product of the (rounded) accumulator with the weight block. Hence the
  accumulator after point n is the closed recursion acc3: restarted from the zero block at every point with
  k = 0, and otherwise carried from the point before.
-/
import proofs.«163433_j78743930404901_1_alg».proof.Proof.KernelIdeal.R3.Data
import Idealize.ShloMosaic.Lib.Pipeline.Value

-- membership in a rectangle of the kernel's extents is checked coordinate by coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- The two-coordinate zero offset, as the constant function. -/
theorem hz3 : (![0, 0] : Fin 2 → Nat) = fun _ => 0 := funext fun a => by fin_cases a <;> rfl

/-! ## The found pieces, read back as the payloads -/

/-- A point with `k = 0`: the zero block is stored, read back, and the point's product added to it. -/
theorem pieceS3_A (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : cond3_0 i) (hc1 : ¬cond3_1 i) (x0 : Vec F S1024x1024 .f32) (x1 : Vec F S1024x16 .f32) (x2 : Vec F S16x16 .f32) (x3 : Vec F S1024x16 .f32) :
    sout3_A c i arg2 harg2 arg3 harg3 arg4 harg4 arg5 harg5 arg6 harg6 arg7 harg7 arg8 harg8 hc0 hc1 x0 x1 x2 x3 = k3_pay2 x0 x1 (k3_pay1 (F := F)) := by
  unfold sout3_A
  rw [View.read_writes_eq_canon _ _ _ (scover3_A c i arg2 harg2 arg3 harg3 arg4 harg4 arg5 harg5 arg6 harg6 arg7 harg7 arg8 harg8 hc0 hc1 x0 x1 x2 x3)]
  unfold kernelRun3_A
  dsimp only
  sl_unfold_words
  rw [View.canon_cons_unit_zero (S := S1024x16) hz3, View.readCov_unit_zero (S := S1024x16) _ hz3]
  simp only [View.readAt_eq_ld, harg2.read_unread, harg3.read_unread, harg4.read_unread, harg5.read_unread, harg6.read_unread, harg7.read_unread, harg8.read_unread, View.ld_unit_zero (S := S1024x16) hz3, View.ld_unit_zero (S := S1024x1024) hz3, View.ld_unit_zero (S := S16x16) hz3, View.readCov_unit_zero (S := S1024x16) _ hz3]

/-- A point with `0 < k < 7`: the point's product is added to what the accumulator held on entry. -/
theorem pieceS3_B (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : ¬cond3_1 i) (x0 : Vec F S1024x1024 .f32) (x1 : Vec F S1024x16 .f32) (x2 : Vec F S16x16 .f32) (x3 : Vec F S1024x16 .f32) (xs0 : Vec F S1024x16 .f32) :
    sout3_B c i arg2 harg2 arg3 harg3 arg4 harg4 arg5 harg5 arg6 harg6 arg7 harg7 arg8 harg8 hc0 hc1 x0 x1 x2 x3 xs0 = k3_pay2 x0 x1 xs0 := by
  unfold sout3_B
  rw [View.read_writes_eq_canon _ _ _ (scover3_B c i arg2 harg2 arg3 harg3 arg4 harg4 arg5 harg5 arg6 harg6 arg7 harg7 arg8 harg8 hc0 hc1 x0 x1 x2 x3 xs0)]
  unfold kernelRun3_B
  dsimp only
  rw [View.canon_unit_zero hz3]
  simp only [View.readAt_eq_ld, harg2.read_unread, harg3.read_unread, harg4.read_unread, harg5.read_unread, harg6.read_unread, harg7.read_unread, harg8.read_unread, View.ld_unit_zero (S := S1024x16) hz3, View.ld_unit_zero (S := S1024x1024) hz3, View.ld_unit_zero (S := S16x16) hz3, View.readCov_unit_zero (S := S1024x16) _ hz3]

/-- A point with `k = 7`: the accumulator, as at `0 < k < 7`. -/
theorem pieceS3_C (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i) (x0 : Vec F S1024x1024 .f32) (x1 : Vec F S1024x16 .f32) (x2 : Vec F S16x16 .f32) (x3 : Vec F S1024x16 .f32) (xs0 : Vec F S1024x16 .f32) :
    sout3_C c i arg2 harg2 arg3 harg3 arg4 harg4 arg5 harg5 arg6 harg6 arg7 harg7 arg8 harg8 hc0 hc1 x0 x1 x2 x3 xs0 = k3_pay2 x0 x1 xs0 := by
  unfold sout3_C
  rw [View.read_writes_eq_canon _ _ _ (scover3_C c i arg2 harg2 arg3 harg3 arg4 harg4 arg5 harg5 arg6 harg6 arg7 harg7 arg8 harg8 hc0 hc1 x0 x1 x2 x3 xs0)]
  unfold kernelRun3_C
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1024x16) hz3, View.ld_unit_zero (S := S1024x1024) hz3, View.ld_unit_zero (S := S16x16) hz3, View.readCov_unit_zero (S := S1024x16) _ hz3]

/-- A point with `k = 7`: the first output is the accumulator just stored, read back. -/
theorem piece43_C (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i) (x0 : Vec F S1024x1024 .f32) (x1 : Vec F S1024x16 .f32) (x2 : Vec F S16x16 .f32) (x3 : Vec F S1024x16 .f32) (xs0 : Vec F S1024x16 .f32) :
    out3_C_4 c i arg2 harg2 arg3 harg3 arg4 harg4 arg5 harg5 arg6 harg6 arg7 harg7 arg8 harg8 hc0 hc1 x0 x1 x2 x3 xs0 = k3_pay2 x0 x1 xs0 := by
  unfold out3_C_4
  rw [View.read_writes_eq_canon _ _ _ (cover3_C_4 c i arg2 harg2 arg3 harg3 arg4 harg4 arg5 harg5 arg6 harg6 arg7 harg7 arg8 harg8 hc0 hc1 x0 x1 x2 x3 xs0)]
  unfold kernelRun3_C
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1024x16) hz3, View.ld_unit_zero (S := S1024x1024) hz3, View.ld_unit_zero (S := S16x16) hz3, View.readCov_unit_zero (S := S1024x16) _ hz3]

/-- A point with `k = 7`: the second output is the residual block plus the rectified product of the accumulator
    just stored with the weight block. -/
theorem piece53_C (c : Dev nD) (i : grid3.Coords) (arg2 : Memref sig .tc .vmem S1024x1024 .f32) (harg2 : arg2.IsWhole) (arg3 : Memref sig .tc .vmem S1024x16 .f32) (harg3 : arg3.IsWhole) (arg4 : Memref sig .tc .vmem S16x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x16 .f32) (harg8 : arg8.IsWhole) (hc0 : ¬cond3_0 i) (hc1 : cond3_1 i) (x0 : Vec F S1024x1024 .f32) (x1 : Vec F S1024x16 .f32) (x2 : Vec F S16x16 .f32) (x3 : Vec F S1024x16 .f32) (xs0 : Vec F S1024x16 .f32) :
    out3_C_5 c i arg2 harg2 arg3 harg3 arg4 harg4 arg5 harg5 arg6 harg6 arg7 harg7 arg8 harg8 hc0 hc1 x0 x1 x2 x3 xs0 = k3_pay3 (k3_pay2 x0 x1 xs0) x2 x3 := by
  unfold out3_C_5
  rw [View.read_writes_eq_canon _ _ _ (cover3_C_5 c i arg2 harg2 arg3 harg3 arg4 harg4 arg5 harg5 arg6 harg6 arg7 harg7 arg8 harg8 hc0 hc1 x0 x1 x2 x3 xs0)]
  unfold kernelRun3_C
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1024x16) hz3, View.ld_unit_zero (S := S1024x1024) hz3, View.ld_unit_zero (S := S16x16) hz3, View.readCov_unit_zero (S := S1024x16) _ hz3]

/-! ## The blocks at a point, at their literal types -/

/-- The left factor's block at point `t`. -/
abbrev lblk3 (c : Dev nD) (t : Fin cfg3.N) : Vec F S1024x1024 .f32 := iblk3 V c 0 t
/-- The right factor's block at point `t`. -/
abbrev xblk3 (c : Dev nD) (t : Fin cfg3.N) : Vec F S1024x16 .f32 := iblk3 V c 1 t
/-- The weight block at point `t`. -/
abbrev wblk3 (c : Dev nD) (t : Fin cfg3.N) : Vec F S16x16 .f32 := iblk3 V c 2 t
/-- The residual block at point `t`. -/
abbrev ablk3 (c : Dev nD) (t : Fin cfg3.N) : Vec F S1024x16 .f32 := iblk3 V c 3 t

/-! ## The accumulator's closed recursion -/

/-- The accumulator after point `n`: the point's product added to the zero block when `k = 0`, and to the
    accumulator after the point before otherwise. -/
def acc3 (c : Dev nD) : (n : ℕ) → n < cfg3.N → Vec F S1024x16 .f32
  | 0, h => k3_pay2 (lblk3 V c ⟨0, h⟩) (xblk3 V c ⟨0, h⟩) k3_pay1
  | n + 1, h =>
    if (n + 1) % 8 = 0 then k3_pay2 (lblk3 V c ⟨n + 1, h⟩) (xblk3 V c ⟨n + 1, h⟩) k3_pay1
    else k3_pay2 (lblk3 V c ⟨n + 1, h⟩) (xblk3 V c ⟨n + 1, h⟩) (acc3 c n (Nat.lt_of_succ_lt h))

theorem acc3_zero (c : Dev nD) (h : 0 < cfg3.N) :
    acc3 V c 0 h = k3_pay2 (lblk3 V c ⟨0, h⟩) (xblk3 V c ⟨0, h⟩) k3_pay1 := rfl
theorem acc3_reset (c : Dev nD) (n : ℕ) (h : n + 1 < cfg3.N) (h0 : (n + 1) % 8 = 0) :
    acc3 V c (n + 1) h = k3_pay2 (lblk3 V c ⟨n + 1, h⟩) (xblk3 V c ⟨n + 1, h⟩) k3_pay1 := by
  rw [acc3]; exact if_pos h0
theorem acc3_carry (c : Dev nD) (n : ℕ) (h : n + 1 < cfg3.N) (h0 : ¬(n + 1) % 8 = 0) :
    acc3 V c (n + 1) h
      = k3_pay2 (lblk3 V c ⟨n + 1, h⟩) (xblk3 V c ⟨n + 1, h⟩) (acc3 V c n (Nat.lt_of_succ_lt h)) := by
  rw [acc3]; exact if_neg h0

/-- What the recursion over the cases' found pieces leaves in the accumulator after point `n` is `acc3`: by
    induction on the point. -/
theorem outsAt3_acc (c : Dev nD) : ∀ (n : ℕ) (h : n < cfg3.N), (outsAt3 V c n h).2.2 = acc3 V c n h
  | 0, h => by
    rw [outsAt3_A V c ⟨0, h⟩ (Nat.zero_mod _) (by simp), acc3_zero]
    dsimp only
    unfold soutAt3_A
    exact pieceS3_A (F := F) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) scM3_0 (Memref.isWhole_whole _) ((hcond3_0 ⟨0, h⟩).mpr (Nat.zero_mod _)) (fun hh => (by simp : ¬(⟨0, h⟩ : Fin cfg3.N).val % 8 = 7) ((hcond3_1 ⟨0, h⟩).mp hh)) (iblk3 V c 0 ⟨0, h⟩) (iblk3 V c 1 ⟨0, h⟩) (iblk3 V c 2 ⟨0, h⟩) (iblk3 V c 3 ⟨0, h⟩)
  | n + 1, h => by
    by_cases h0 : (n + 1) % 8 = 0
    · have h1 : ¬(n + 1) % 8 = 7 := by omega
      rw [outsAt3_A V c ⟨n + 1, h⟩ h0 h1, acc3_reset V c n h h0]
      dsimp only
      unfold soutAt3_A
      exact pieceS3_A (F := F) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) scM3_0 (Memref.isWhole_whole _) ((hcond3_0 ⟨n + 1, h⟩).mpr h0) (fun hh => h1 ((hcond3_1 ⟨n + 1, h⟩).mp hh)) (iblk3 V c 0 ⟨n + 1, h⟩) (iblk3 V c 1 ⟨n + 1, h⟩) (iblk3 V c 2 ⟨n + 1, h⟩) (iblk3 V c 3 ⟨n + 1, h⟩)
    · by_cases h1 : (n + 1) % 8 = 7
      · rw [outsAt3_C V c ⟨n + 1, h⟩ h0 h1, acc3_carry V c n h h0, ← outsAt3_acc c n (Nat.lt_of_succ_lt h)]
        dsimp only
        unfold soutAt3_C
        exact pieceS3_C (F := F) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) scM3_0 (Memref.isWhole_whole _) (fun hh => h0 ((hcond3_0 ⟨n + 1, h⟩).mp hh)) ((hcond3_1 ⟨n + 1, h⟩).mpr h1) (iblk3 V c 0 ⟨n + 1, h⟩) (iblk3 V c 1 ⟨n + 1, h⟩) (iblk3 V c 2 ⟨n + 1, h⟩) (iblk3 V c 3 ⟨n + 1, h⟩) ((outsAt3 V c n (Nat.lt_of_succ_lt h)).2.2)
      · rw [outsAt3_B V c ⟨n + 1, h⟩ h0 h1, acc3_carry V c n h h0, ← outsAt3_acc c n (Nat.lt_of_succ_lt h)]
        dsimp only
        unfold soutAt3_B
        exact pieceS3_B (F := F) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) scM3_0 (Memref.isWhole_whole _) (fun hh => h0 ((hcond3_0 ⟨n + 1, h⟩).mp hh)) (fun hh => h1 ((hcond3_1 ⟨n + 1, h⟩).mp hh)) (iblk3 V c 0 ⟨n + 1, h⟩) (iblk3 V c 1 ⟨n + 1, h⟩) (iblk3 V c 2 ⟨n + 1, h⟩) (iblk3 V c 3 ⟨n + 1, h⟩) ((outsAt3 V c n (Nat.lt_of_succ_lt h)).2.2)

/-- At a point with `k = 7` the first output's buffer is left holding the accumulator. -/
theorem outsAt3_out4 (c : Dev nD) (t : Fin cfg3.N) (h1 : t.val % 8 = 7) :
    (outsAt3 V c t.val t.isLt).1 = acc3 V c t.val t.isLt := by
  have h0 : ¬t.val % 8 = 0 := by omega
  obtain ⟨n, hn⟩ := t
  cases n with
  | zero => exact absurd (Nat.zero_mod _) h0
  | succ n =>
    dsimp only at h0 h1 ⊢
    rw [outsAt3_C V c ⟨n + 1, hn⟩ h0 h1, acc3_carry V c n hn h0, ← outsAt3_acc V c n (Nat.lt_of_succ_lt hn)]
    dsimp only
    unfold out4At3_C
    exact piece43_C (F := F) c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun hh => h0 ((hcond3_0 ⟨n + 1, hn⟩).mp hh)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) ((outsAt3 V c n (Nat.lt_of_succ_lt hn)).2.2)

/-- At a point with `k = 7` the second output's buffer is left holding the residual block plus the rectified
    product of the accumulator with the weight block. -/
theorem outsAt3_out5 (c : Dev nD) (t : Fin cfg3.N) (h1 : t.val % 8 = 7) :
    (outsAt3 V c t.val t.isLt).2.1 = k3_pay3 (acc3 V c t.val t.isLt) (wblk3 V c t) (ablk3 V c t) := by
  have h0 : ¬t.val % 8 = 0 := by omega
  obtain ⟨n, hn⟩ := t
  cases n with
  | zero => exact absurd (Nat.zero_mod _) h0
  | succ n =>
    dsimp only at h0 h1 ⊢
    rw [outsAt3_C V c ⟨n + 1, hn⟩ h0 h1, acc3_carry V c n hn h0, ← outsAt3_acc V c n (Nat.lt_of_succ_lt hn)]
    dsimp only
    unfold out5At3_C
    exact piece53_C (F := F) c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun hh => h0 ((hcond3_0 ⟨n + 1, hn⟩).mp hh)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) ((outsAt3 V c n (Nat.lt_of_succ_lt hn)).2.2)

end Region3

end Cert.KernelIdeal.H

end
-- ==== Proof.KernelIdeal.R3.Payloads.lean ====
/-
  The three values the region's kernel stores, read at an index over the extended reals.

  The first is a block of zeros. The second is the accumulator block plus the product of a `[1024, 1024]` block of
  the left matrix by a `[1024, 16]` block of the right one, the matrix unit's operands narrowed and its accumulator
  zero: over the extended reals the textbook sum. The third is the output block plus the positive part of the product
  of the `[1024, 16]` tile by the `[16, 16]` weights.
-/
import proofs.«163433_j78743930404901_1_alg».proof.Proof.Gen.KernelIdeal.Skeleton
import proofs.«163433_j78743930404901_1_alg».proof.Proof.Gen.KernelIdeal
import proofs.«163433_j78743930404901_1_alg».proof.Proof.Dots
import proofs.«163433_j78743930404901_1_alg».proof.Proof.LibAffineRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.H

open Cert.KernelIdeal Cert.KernelIdeal.Gen Idealize.ShloMosaic Idealize.ShloMosaic.ValueIdx

/-- The zero block at `(r, q)`. -/
theorem pay13_apply (r : Fin 1024) (q : Fin 16) : k3_pay1 (F := Ideal) (ix2 r q) = 0 := by
  unfold k3_pay1
  simp only [shapeCast_self, broadcast_apply]
  exact Ideal.ofBits_zero_f32

/-- The accumulator plus the block product at `(r, q)`. -/
theorem pay23_apply (v3 : Vec Ideal S1024x1024 .f32) (v5 v7 : Vec Ideal S1024x16 .f32) (r : Fin 1024) (q : Fin 16) :
    k3_pay2 v3 v5 v7 (ix2 r q) = v7 (ix2 r q) + ∑ kk : Fin 1024, v3 (ix2 r kk) * v5 (ix2 kk q) := by
  unfold k3_pay2
  simp only [shapeCast_self, addf_apply]
  rw [Cert.Lib.matmul_zero_apply Cert.Dots.k_LX]

/-- The output block plus the positive part of the tile's product by the weights at `(r, q)`. -/
theorem pay33_apply (v16 : Vec Ideal S1024x16 .f32) (v19 : Vec Ideal S16x16 .f32) (v25 : Vec Ideal S1024x16 .f32)
    (r : Fin 1024) (q : Fin 16) :
    k3_pay3 v16 v19 v25 (ix2 r q) = v25 (ix2 r q) + max (∑ a : Fin 16, v16 (ix2 r a) * v19 (ix2 a q)) 0 := by
  unfold k3_pay3
  simp only [shapeCast_self, addf_apply, maximumf_apply, broadcast_apply]
  rw [Cert.Lib.matmul_zero_apply Cert.Dots.k_XW,
    show (FloatOps.ofBits (F := Ideal) .f32 0x00000000#32 : Ideal .f32) = 0 from Ideal.ofBits_zero_f32]

end Cert.KernelIdeal.H

end
-- ==== Proof.KernelIdeal.R3.Value.lean ====
/-
  The first output of this region as a value at the ideal instance.

  The grid is 8 × 8, point t = 8·i + k. The matrix's block at t is rows 1024·i …, columns 1024·k …; the vector's block
  is rows 1024·k …. The accumulator is reset where k = 0 and takes, at every point, the product of the point's two blocks;
  so after point t it holds the partial sums over the column blocks 0 … k of row tile i, added in order to a zero
  (`acc3_chain`). At k = 7 these eight partial sums are the whole sum over the 8192 columns, which is the host's product
  of the matrix and the vector read at row 1024·i + r (`acc3_rows`, `acc3_last`). The first output's block (i, 0) is
  written back exactly there, the eight blocks cover the array, and so the array ends holding the product (`final3_4`).
-/
-- layout: arrays
import proofs.«163433_j78743930404901_1_alg».proof.Proof.KernelIdeal.R3.Pieces
import proofs.«163433_j78743930404901_1_alg».proof.Proof.KernelIdeal.R3.Payloads
import proofs.«163433_j78743930404901_1_alg».proof.Proof.Dots
import proofs.«163433_j78743930404901_1_alg».proof.Proof.LibBlockedSum
import proofs.«163433_j78743930404901_1_alg».proof.Proof.LibAffineRows
import proofs.«163433_j78743930404901_1_alg».proof.ReferenceIdeal
import proofs.«163433_j78743930404901_1_alg».proof.Proof.Gen.KernelIdeal
import proofs.«163433_j78743930404901_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window BodyObligation cellOf)

section Region3

variable (V : (c : Dev nD) → (b : Ref sig .tc) → Buf (Elt Ideal) ((c : Thread nD τ).loc b))

/-! ## Where the blocks lie -/

/-- The block index at point `t = 8·i + k`: the matrix's block is `(i, k)`, the vector's `(k, 0)`, the first output's
    `(i, 0)`. -/
theorem hidx3_L : ∀ t : Fin cfg3.N, win3_0.index t 0 = t.val / 8 ∧ win3_0.index t 1 = t.val % 8 :=
  (by decide +kernel : ∀ t : Fin grid3.N, _)
theorem hidx3_X : ∀ t : Fin cfg3.N, win3_1.index t 0 = t.val % 8 ∧ win3_1.index t 1 = 0 :=
  (by decide +kernel : ∀ t : Fin grid3.N, _)
theorem hidx3_4 : ∀ t : Fin cfg3.N, win3_4.index t 0 = t.val / 8 ∧ win3_4.index t 1 = 0 :=
  (by decide +kernel : ∀ t : Fin grid3.N, _)

/-- The matrix's block at point `t`, entry `(r, kk)`, is the matrix at row `1024·(t / 8) + r`, column `1024·(t % 8) + kk`. -/
theorem blk3_L (c : Dev nD) (t : Fin cfg3.N) (r kk : Fin 1024) (i j : Fin 8192)
    (hi : i.val = 1024 * (t.val / 8) + r.val) (hj : j.val = 1024 * (t.val % 8) + kk.val) :
    lblk3 V c t (ix2 r kk) = (V c main_arg1 : FVec Ideal S8192x8192 .f32) (ix2 i j) := by
  obtain ⟨e0, e1⟩ := hidx3_L t
  unfold lblk3 iblk3
  rw [View.read_apply]
  show (V c main_arg1 : FVec Ideal S8192x8192 .f32) _ = _
  congr 1
  funext a
  apply Fin.ext
  match a with
  | ⟨0, _⟩ => show win3_0.index t 0 * 1024 + 1 * r.val = i.val; rw [e0, hi]; omega
  | ⟨1, _⟩ => show win3_0.index t 1 * 1024 + 1 * kk.val = j.val; rw [e1, hj]; omega

/-- The vector's block at point `t`, entry `(kk, q)`, is the vector at row `1024·(t % 8) + kk`, column `q`. -/
theorem blk3_X (c : Dev nD) (t : Fin cfg3.N) (kk : Fin 1024) (q : Fin 16) (j : Fin 8192)
    (hj : j.val = 1024 * (t.val % 8) + kk.val) :
    xblk3 V c t (ix2 kk q) = (V c main_v12_0 : FVec Ideal S8192x16 .f32) (ix2 j q) := by
  obtain ⟨e0, e1⟩ := hidx3_X t
  unfold xblk3 iblk3
  rw [View.read_apply]
  show (V c main_v12_0 : FVec Ideal S8192x16 .f32) _ = _
  congr 1
  funext a
  apply Fin.ext
  match a with
  | ⟨0, _⟩ => show win3_1.index t 0 * 1024 + 1 * kk.val = j.val; rw [e0, hj]; omega
  | ⟨1, _⟩ => show win3_1.index t 1 * 16 + 1 * q.val = q.val; rw [e1]; omega

/-! ## The accumulator -/

/-- The product of the two blocks of point `n` at entry `(r, q)`; zero past the grid. -/
def prod3 (c : Dev nD) (r : Fin 1024) (q : Fin 16) (n : ℕ) : EReal :=
  if h : n < cfg3.N then ∑ kk : Fin 1024, lblk3 V c ⟨n, h⟩ (ix2 r kk) * xblk3 V c ⟨n, h⟩ (ix2 kk q) else 0

theorem prod3_of_lt (c : Dev nD) (r : Fin 1024) (q : Fin 16) (n : ℕ) (h : n < cfg3.N) :
    prod3 V c r q n = ∑ kk : Fin 1024, lblk3 V c ⟨n, h⟩ (ix2 r kk) * xblk3 V c ⟨n, h⟩ (ix2 kk q) := dif_pos h

/-- After point `n` the accumulator holds the products of the points of `n`'s row tile up to `n`, added in order to a
    zero. -/
theorem acc3_chain (c : Dev nD) (r : Fin 1024) (q : Fin 16) : ∀ (n : ℕ) (h : n < cfg3.N),
    acc3 V c n h (ix2 r q) = Cert.Lib.chain (fun j => prod3 V c r q (8 * (n / 8) + j)) (n % 8)
  | 0, h => by
    rw [acc3_zero, pay23_apply, pay13_apply]
    show 0 + _ = 0 + prod3 V c r q (8 * (0 / 8) + 0)
    rw [show 8 * (0 / 8) + 0 = 0 from rfl, prod3_of_lt V c r q 0 h]
  | n + 1, h => by
    by_cases h8 : (n + 1) % 8 = 0
    · rw [acc3_reset V c n h h8, pay23_apply, pay13_apply, h8]
      show 0 + _ = 0 + prod3 V c r q (8 * ((n + 1) / 8) + 0)
      rw [show 8 * ((n + 1) / 8) + 0 = n + 1 by omega, prod3_of_lt V c r q _ h]
    · rw [acc3_carry V c n h h8, pay23_apply, acc3_chain c r q n (Nat.lt_of_succ_lt h)]
      rw [show (n + 1) % 8 = n % 8 + 1 by omega, show (n + 1) / 8 = n / 8 by omega]
      show _ + _ = Cert.Lib.chain _ (n % 8) + prod3 V c r q (8 * (n / 8) + (n % 8 + 1))
      rw [show 8 * (n / 8) + (n % 8 + 1) = n + 1 by omega, prod3_of_lt V c r q _ h]

/-- What the first output ends holding: the matrix times the vector. -/
abbrev xpOut3 (c : Dev nD) : FVec Ideal S8192x16 .f32 :=
  Host.dotGeneral (F := Ideal) (φ₁ := .f32) (φ₂ := .f32) Cert.ReferenceIdeal.dot_S8192x8192_S8192x16_S8192x16_1_0_0_1_n_n none (V c main_arg1) (V c main_v12_0)

/-- At the last point of a row tile the accumulator's entry `(r, q)` is the matrix's row `1024·(t / 8) + r` times the
    vector's column `q`: the eight blocks' partial sums are the whole sum. -/
theorem acc3_rows (c : Dev nD) (t : Fin cfg3.N) (h7 : t.val % 8 = 7) (r : Fin 1024) (q : Fin 16) (i : Fin 8192)
    (hi : i.val = 1024 * (t.val / 8) + r.val) :
    acc3 V c t.val t.isLt (ix2 r q) = xpOut3 V c (ix2 i q) := by
  have hN : cfg3.N = 64 := N_3
  have ht := t.isLt
  rw [acc3_chain V c r q t.val t.isLt, h7, Cert.Lib.chain_eq_sum_fin]
  unfold xpOut3
  rw [Cert.Lib.dotGeneral_apply Cert.Dots.r_LX, Cert.Lib.sum_blocks' 8 1024 (rfl : 8192 = 8 * 1024)]
  refine Finset.sum_congr rfl fun b _ => ?_
  have hb := b.isLt
  have hlt : 8 * (t.val / 8) + b.val < cfg3.N := by omega
  show prod3 V c r q (8 * (t.val / 8) + b.val) = _
  rw [prod3_of_lt V c r q _ hlt]
  refine Finset.sum_congr rfl fun kk _ => ?_
  have hk := kk.isLt
  rw [blk3_L V c ⟨_, hlt⟩ r kk i ⟨1024 * b.val + kk.val, by omega⟩
      (by show i.val = 1024 * ((8 * (t.val / 8) + b.val) / 8) + r.val; omega)
      (by show 1024 * b.val + kk.val = 1024 * ((8 * (t.val / 8) + b.val) % 8) + kk.val; omega),
    blk3_X V c ⟨_, hlt⟩ kk q ⟨1024 * b.val + kk.val, by omega⟩
      (by show 1024 * b.val + kk.val = 1024 * ((8 * (t.val / 8) + b.val) % 8) + kk.val; omega)]

/-- The same with the row written out: the accumulator at the last contraction tile of row tile `t / 8` holds the
    whole product's rows. -/
theorem acc3_last (c : Dev nD) (t : Fin cfg3.N) (h1 : t.val % 8 = 7) (r : Fin 1024) (q : Fin 16) :
    acc3 V c t.val t.isLt (ix2 r q)
      = Host.dotGeneral (F := Ideal) (φ₁ := .f32) (φ₂ := .f32) Cert.ReferenceIdeal.dot_S8192x8192_S8192x16_S8192x16_1_0_0_1_n_n none (V c main_arg1) (V c main_v12_0)
          (ix2 (⟨1024 * (t.val / 8) + r.val, by have := t.isLt; have := r.isLt; have : cfg3.N = 64 := N_3; omega⟩ : Fin 8192) q) :=
  acc3_rows V c t h1 r q _ rfl

/-! ## The first output -/

/-- What the write-back at a last contraction tile writes is its block of the matrix times the vector. -/
theorem flushed3_4 (c : Dev nD) (t : Fin cfg3.N) (hf : (cfg3.win 4).flush t = true) :
    (dat3 V c).flushed 4 t = ((cfg3.win 4).blk t).view.read (Elt Ideal) (xpOut3 V c) := by
  have h7 : t.val % 8 = 7 := (flush3_4 t).mp hf
  have hN : cfg3.N = 64 := N_3
  have ht := t.isLt
  obtain ⟨e0, e1⟩ := hidx3_4 t
  show (cfg3.win 4).cut (grid3.coords t) ((dat3 V c).after 4 t) = _
  rw [after3_4, outsAt3_out4 V c t h7]
  funext j
  have hj0 : (j 0).val < 1024 := (j 0).isLt
  have hj1 : (j 1).val < 16 := (j 1).isLt
  have el : ((cfg3.win 4).xinj (grid3.coords t) j : S1024x16.Idx) = ix2 ⟨(j 0).val, hj0⟩ ⟨(j 1).val, hj1⟩ :=
    funext fun a => by match a with | ⟨0, _⟩ => rfl | ⟨1, _⟩ => rfl
  have er : (((cfg3.win 4).blk t).view.emb j : S8192x16.Idx)
      = ix2 (⟨1024 * (t.val / 8) + (j 0).val, by omega⟩ : Fin 8192) ⟨(j 1).val, hj1⟩ := by
    funext a
    apply Fin.ext
    match a with
    | ⟨0, _⟩ => show win3_4.index t 0 * 1024 + 1 * (j 0).val = 1024 * (t.val / 8) + (j 0).val; rw [e0]; omega
    | ⟨1, _⟩ => show win3_4.index t 1 * 16 + 1 * (j 1).val = (j 1).val; rw [e1]; omega
  rw [View.read_apply]
  show acc3 V c t.val t.isLt ((cfg3.win 4).xinj (grid3.coords t) j) = xpOut3 V c (((cfg3.win 4).blk t).view.emb j)
  rw [el, er]
  exact acc3_rows V c t h7 _ _ _ rfl

/-- An index of the array is in point `t`'s block iff each coordinate is in the block's range on its axis. -/
theorem blk3_mem4 (t : Fin cfg3.N) (i : S8192x16.Idx) :
    i ∈ ((cfg3.win 4).blk t).view.set ↔ ∀ a : Fin 2, win3_4.index t a * S1024x16.size a ≤ (i a).val ∧ (i a).val < win3_4.index t a * S1024x16.size a + S1024x16.size a := by
  show i ∈ ((View.whole main_v15_0).slice (win3_4.rect t)).set ↔ _
  rw [View.set_slice_whole, Rect.mem_set_unit]
  exact Iff.rfl

/-- Row `R` of the array lies in the block written back at the last contraction tile of row tile `R / 1024`. -/
theorem cover_arr3_4 (i : S8192x16.Idx) :
    ∃ t : Fin cfg3.N, (cfg3.win 4).flush t = true ∧ i ∈ ((cfg3.win 4).blk t).view.set := by
  have hN : cfg3.N = 64 := N_3
  have hi0 : (i 0).val < 8192 := (i 0).isLt
  have hi1 : (i 1).val < 16 := (i 1).isLt
  obtain ⟨t, ht⟩ : ∃ t : Fin cfg3.N, t.val = 8 * ((i 0).val / 1024) + 7 := ⟨⟨8 * ((i 0).val / 1024) + 7, by omega⟩, rfl⟩
  obtain ⟨e0, e1⟩ := hidx3_4 t
  refine ⟨t, (flush3_4 t).mpr (by omega), ?_⟩
  rw [blk3_mem4]
  intro a
  match a with
  | ⟨0, _⟩ => show win3_4.index t 0 * 1024 ≤ (i 0).val ∧ (i 0).val < win3_4.index t 0 * 1024 + 1024; rw [e0]; omega
  | ⟨1, _⟩ => show win3_4.index t 1 * 16 ≤ (i 1).val ∧ (i 1).val < win3_4.index t 1 * 16 + 16; rw [e1]; omega

/-- The first output array ends holding the matrix times the vector. -/
theorem final3_4 (c : Dev nD) :
    ((dat3 (F := Ideal) V c).arrAt 4 cfg3.N : FVec Ideal S8192x16 .f32)
      = Host.dotGeneral (F := Ideal) (φ₁ := .f32) (φ₂ := .f32) Cert.ReferenceIdeal.dot_S8192x8192_S8192x16_S8192x16_1_0_0_1_n_n none (V c main_arg1) (V c main_v12_0) :=
  (dat3 V c).arrAt_eq_of_cover 4 (xpOut3 V c) (flushed3_4 V c) cover_arr3_4

end Region3

end Cert.KernelIdeal.H

end
-- ==== Proof.KernelIdeal.R3.Value5.lean ====
/-
  The region's second result array at the ideal values.

  The grid is 8 by 8, the point `t = 8 i + k`. The output's blocks are the eight row blocks `[1024, 16]` of the
  `[8192, 16]` array, block `i` written back at the last point `k = 7` of row tile `i`, where it holds the residual
  block plus the positive part of the product of the accumulator — row tile `i` of the whole product `L · X` — by the
  weights. Read at an index these are the rows `1024 i + r` of one function of the arrays the region is entered with,
  and the eight blocks cover the array.
-/
-- layout: arrays
import proofs.«163433_j78743930404901_1_alg».proof.Proof.KernelIdeal.R3.Value
import proofs.«163433_j78743930404901_1_alg».proof.Proof.KernelIdeal.R3.Payloads
import proofs.«163433_j78743930404901_1_alg».proof.Proof.Dots
import proofs.«163433_j78743930404901_1_alg».proof.Proof.LibAffineRows
import proofs.«163433_j78743930404901_1_alg».proof.ReferenceIdeal
import proofs.«163433_j78743930404901_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.H

open Cert.KernelIdeal Cert.KernelIdeal.Gen
open Idealize.ShloMosaic Idealize.ShloMosaic.TcCoe Idealize.SL.Sem Idealize.ShloMosaic.ValueIdx
open Idealize.ShloMosaic.Pipeline (Dat)

section Region3

variable (V : (c : Dev nD) → (b : Ref sig .tc) → Buf (Elt Ideal) ((c : Thread nD τ).loc b))

/-! ## The printed index maps, decided once over the grid -/

/-- The weights' window is the whole `[16, 16]` array at every point. -/
theorem hidx3_W : ∀ t : Fin cfg3.N, win3_2.index t 0 = 0 ∧ win3_2.index t 1 = 0 :=
  (by decide +kernel : ∀ t : Fin grid3.N, _)

/-- The residual's window is at row block `t / 8`. -/
theorem hidx3_A : ∀ t : Fin cfg3.N, win3_3.index t 0 = t.val / 8 ∧ win3_3.index t 1 = 0 :=
  (by decide +kernel : ∀ t : Fin grid3.N, _)

/-- The second output's window is at row block `t / 8`. -/
theorem hidx3_5 : ∀ t : Fin cfg3.N, win3_5.index t 0 = t.val / 8 ∧ win3_5.index t 1 = 0 :=
  (by decide +kernel : ∀ t : Fin grid3.N, _)

/-! ## The blocks the last point of a row tile reads -/

/-- The weight block at any point, entry `(a, b)`, is the weights there. -/
theorem blk3_W (c : Dev nD) (t : Fin cfg3.N) (a b : Fin 16) : wblk3 V c t (ix2 a b) = V c main_v14 (ix2 a b) := by
  obtain ⟨e0, e1⟩ := hidx3_W t
  unfold wblk3 iblk3
  rw [View.read_apply]
  show V c main_v14 (((cfg3.win 2).blk t).view.emb (ix2 a b)) = V c main_v14 (ix2 a b)
  refine congrArg (V c main_v14) (funext fun x => Fin.ext ?_)
  match x with
  | ⟨0, _⟩ => show win3_2.index t 0 * 16 + 1 * a.val = a.val; rw [e0]; omega
  | ⟨1, _⟩ => show win3_2.index t 1 * 16 + 1 * b.val = b.val; rw [e1]; omega

/-- The residual block at point `t`, entry `(r, q)`, is the residual at row `1024·(t / 8) + r`, column `q`. -/
theorem blk3_A (c : Dev nD) (t : Fin cfg3.N) (r : Fin 1024) (q : Fin 16) (i : Fin 8192)
    (hi : i.val = 1024 * (t.val / 8) + r.val) : ablk3 V c t (ix2 r q) = V c main_v12_1 (ix2 i q) := by
  obtain ⟨e0, e1⟩ := hidx3_A t
  unfold ablk3 iblk3
  rw [View.read_apply]
  show V c main_v12_1 (((cfg3.win 3).blk t).view.emb (ix2 r q)) = V c main_v12_1 (ix2 i q)
  refine congrArg (V c main_v12_1) (funext fun x => Fin.ext ?_)
  match x with
  | ⟨0, _⟩ => show win3_3.index t 0 * 1024 + 1 * r.val = i.val; rw [e0, hi]; omega
  | ⟨1, _⟩ => show win3_3.index t 1 * 16 + 1 * q.val = q.val; rw [e1]; omega

/-! ## The second output -/

/-- The residual, at its literal type. -/
abbrev resid3 (c : Dev nD) : FVec Ideal S8192x16 .f32 := V c main_v12_1
/-- The weights, at their literal type. -/
abbrev wts3 (c : Dev nD) : FVec Ideal S16x16 .f32 := V c main_v14

/-- What the second output ends holding: the residual plus the positive part of the whole product (the left matrix by
    the right one) times the weights. -/
abbrev arr3_5 (c : Dev nD) : FVec Ideal S8192x16 .f32 :=
  addf (F := Ideal) (V c main_v12_1) (maximumf (F := Ideal) (Host.dotGeneral (F := Ideal) (φ₁ := .f32) (φ₂ := .f32) dot_S8192x16_S16x16_S8192x16_1_0_0_1_n_n none
        (Host.dotGeneral (F := Ideal) (φ₁ := .f32) (φ₂ := .f32) Cert.ReferenceIdeal.dot_S8192x8192_S8192x16_S8192x16_1_0_0_1_n_n none (V c main_arg1) (V c main_v12_0)) (V c main_v14))
      (broadcastInDim S8192x16 ![] Cert.KernelIdeal.Facts₀.bcast_S_S8192x16 (constant (F := Ideal) S_ .f32 0x00000000#32)))

/-- It reads, at `(i, q)`, the residual there plus the positive part of row `i` of the whole product against column
    `q` of the weights. -/
theorem arr3_5_apply (c : Dev nD) (i : Fin 8192) (q : Fin 16) :
    arr3_5 V c (ix2 i q)
      = resid3 V c (ix2 i q) + max (∑ a : Fin 16, xpOut3 V c (ix2 i a) * wts3 V c (ix2 a q)) 0 := by
  unfold arr3_5
  rw [addf_apply, maximumf_apply, Cert.Lib.dotGeneral_apply Cert.Dots.k_host_XW,
    broadcastInDim_apply _ _ _ (ix2 i q) (fun a => a.elim0) (fun a => a.elim0), constant_apply, Ideal.ofBits_zero_f32]

/-- What the last point of a row tile stores for the second output, entry `(r, q)`, is the array's function at row
    `1024·(t / 8) + r`. -/
theorem out3_5_rows (c : Dev nD) (t : Fin cfg3.N) (h7 : t.val % 8 = 7) (r : Fin 1024) (q : Fin 16) (i : Fin 8192)
    (hi : i.val = 1024 * (t.val / 8) + r.val) :
    k3_pay3 (acc3 V c t.val t.isLt) (wblk3 V c t) (ablk3 V c t) (ix2 r q) = arr3_5 V c (ix2 i q) := by
  rw [arr3_5_apply]
  refine (pay33_apply (acc3 V c t.val t.isLt) (wblk3 V c t) (ablk3 V c t) r q).trans ?_
  rw [blk3_A V c t r q i hi]
  refine congrArg (fun z => resid3 V c (ix2 i q) + max z 0) (Finset.sum_congr rfl fun a _ => ?_)
  rw [acc3_rows V c t h7 r a i hi, blk3_W V c t a q]

/-- What the write-back at the last point of a row tile writes is its block of the array's function. -/
theorem flushed3_5 (c : Dev nD) (t : Fin cfg3.N) (hf : (cfg3.win 5).flush t = true) :
    (dat3 V c).flushed 5 t = ((cfg3.win 5).blk t).view.read (Elt Ideal) (arr3_5 V c) := by
  have h7 : t.val % 8 = 7 := (flush3_5 t).mp hf
  have hN : cfg3.N = 64 := N_3
  have ht := t.isLt
  obtain ⟨e0, e1⟩ := hidx3_5 t
  show (cfg3.win 5).cut (grid3.coords t) ((dat3 V c).after 5 t) = _
  rw [after3_5, outsAt3_out5 V c t h7]
  funext j
  have hj0 : (j 0).val < 1024 := (j 0).isLt
  have hj1 : (j 1).val < 16 := (j 1).isLt
  have el : ((cfg3.win 5).xinj (grid3.coords t) j : S1024x16.Idx) = ix2 ⟨(j 0).val, hj0⟩ ⟨(j 1).val, hj1⟩ :=
    funext fun a => by match a with | ⟨0, _⟩ => rfl | ⟨1, _⟩ => rfl
  have er : (((cfg3.win 5).blk t).view.emb j : S8192x16.Idx)
      = ix2 (⟨1024 * (t.val / 8) + (j 0).val, by omega⟩ : Fin 8192) ⟨(j 1).val, hj1⟩ := by
    funext a
    apply Fin.ext
    match a with
    | ⟨0, _⟩ => show win3_5.index t 0 * 1024 + 1 * (j 0).val = 1024 * (t.val / 8) + (j 0).val; rw [e0]; omega
    | ⟨1, _⟩ => show win3_5.index t 1 * 16 + 1 * (j 1).val = (j 1).val; rw [e1]; omega
  rw [View.read_apply]
  show k3_pay3 (acc3 V c t.val t.isLt) (wblk3 V c t) (ablk3 V c t) ((cfg3.win 5).xinj (grid3.coords t) j)
    = arr3_5 V c (((cfg3.win 5).blk t).view.emb j)
  rw [el, er]
  exact out3_5_rows V c t h7 _ _ _ rfl

/-- An index of the array is in point `t`'s block iff each coordinate is in the block's range on its axis. -/
theorem blk3_mem5 (t : Fin cfg3.N) (i : S8192x16.Idx) :
    i ∈ ((cfg3.win 5).blk t).view.set ↔ ∀ a : Fin 2, win3_5.index t a * S1024x16.size a ≤ (i a).val ∧ (i a).val < win3_5.index t a * S1024x16.size a + S1024x16.size a := by
  show i ∈ ((View.whole main_v15_1).slice (win3_5.rect t)).set ↔ _
  rw [View.set_slice_whole, Rect.mem_set_unit]
  exact Iff.rfl

/-- Row `R` of the array lies in the block written back at the last point of row tile `R / 1024`. -/
theorem cover_arr3_5 (i : S8192x16.Idx) :
    ∃ t : Fin cfg3.N, (cfg3.win 5).flush t = true ∧ i ∈ ((cfg3.win 5).blk t).view.set := by
  have hN : cfg3.N = 64 := N_3
  have hi0 : (i 0).val < 8192 := (i 0).isLt
  have hi1 : (i 1).val < 16 := (i 1).isLt
  obtain ⟨t, ht⟩ : ∃ t : Fin cfg3.N, t.val = 8 * ((i 0).val / 1024) + 7 := ⟨⟨8 * ((i 0).val / 1024) + 7, by omega⟩, rfl⟩
  obtain ⟨e0, e1⟩ := hidx3_5 t
  refine ⟨t, (flush3_5 t).mpr (by omega), ?_⟩
  rw [blk3_mem5]
  intro a
  match a with
  | ⟨0, _⟩ => show win3_5.index t 0 * 1024 ≤ (i 0).val ∧ (i 0).val < win3_5.index t 0 * 1024 + 1024; rw [e0]; omega
  | ⟨1, _⟩ => show win3_5.index t 1 * 16 ≤ (i 1).val ∧ (i 1).val < win3_5.index t 1 * 16 + 16; rw [e1]; omega

/-- The second output array ends holding the residual plus the positive part of the whole product times the
    weights. -/
theorem final3_5 (c : Dev nD) :
    ((dat3 (F := Ideal) V c).arrAt 5 cfg3.N : FVec Ideal S8192x16 .f32)
      = addf (F := Ideal) (V c main_v12_1) (maximumf (F := Ideal) (Host.dotGeneral (F := Ideal) (φ₁ := .f32) (φ₂ := .f32) dot_S8192x16_S16x16_S8192x16_1_0_0_1_n_n none
            (Host.dotGeneral (F := Ideal) (φ₁ := .f32) (φ₂ := .f32) Cert.ReferenceIdeal.dot_S8192x8192_S8192x16_S8192x16_1_0_0_1_n_n none (V c main_arg1) (V c main_v12_0)) (V c main_v14))
          (broadcastInDim S8192x16 ![] Cert.KernelIdeal.Facts₀.bcast_S_S8192x16 (constant (F := Ideal) S_ .f32 0x00000000#32))) :=
  (dat3 V c).arrAt_eq_of_cover 5 (arr3_5 V c) (flushed3_5 V c) cover_arr3_5

end Region3

end Cert.KernelIdeal.H

end
-- ==== Proof.KernelIdeal.Chain.lean ====
/-
  The result buffer at the end of @main, at the ideal values, as ONE term of the three launch arguments: the
  reference's own operations composed. Each region is entered with the arrays the items before it left and
  leaves xp ↦ L·xp and acc ↦ acc + relu((L·xp)·W_p); the host stretches slice the weights and apply the first
  and the last relu.
-/
import proofs.«163433_j78743930404901_1_alg».proof.Proof.KernelIdeal.Run
import proofs.«163433_j78743930404901_1_alg».proof.Proof.KernelIdeal.Terms
import proofs.«163433_j78743930404901_1_alg».proof.Proof.KernelIdeal.R0.Value5
import proofs.«163433_j78743930404901_1_alg».proof.Proof.KernelIdeal.R1.Value5
import proofs.«163433_j78743930404901_1_alg».proof.Proof.KernelIdeal.R2.Value5
import proofs.«163433_j78743930404901_1_alg».proof.Proof.KernelIdeal.R3.Value5
import Idealize.ShloMosaic.Lib.StableHlo.Run

set_option maxRecDepth 16384

noncomputable section

namespace Cert.KernelIdeal.H

open Cert.KernelIdeal Cert.KernelIdeal.Gen
open Cert.KernelIdeal.Facts₀ Cert.KernelIdeal.Facts
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The arguments at each region's entry -/

theorem W3_main_arg1 (c : Dev nD) : W3 m ρ c (Proc.devRef .tc main_arg1) = m ((c : Thread nD τ).loc main_arg1) :=
  (W3_of m ρ c main_arg1 (by decide)).trans <| (W2_of m ρ c main_arg1 (by decide)).trans <| (W1_of m ρ c main_arg1 (by decide)).trans rfl
theorem W5_main_arg1 (c : Dev nD) : W5 m ρ c (Proc.devRef .tc main_arg1) = m ((c : Thread nD τ).loc main_arg1) :=
  (W5_of m ρ c main_arg1 (by decide)).trans <| (W4_of m ρ c main_arg1 (by decide) (by decide)).trans <| (W3_of m ρ c main_arg1 (by decide)).trans <| (W2_of m ρ c main_arg1 (by decide)).trans <| (W1_of m ρ c main_arg1 (by decide)).trans rfl
theorem W7_main_arg1 (c : Dev nD) : W7 m ρ c (Proc.devRef .tc main_arg1) = m ((c : Thread nD τ).loc main_arg1) :=
  (W7_of m ρ c main_arg1 (by decide)).trans <| (W6_of m ρ c main_arg1 (by decide) (by decide)).trans <| (W5_of m ρ c main_arg1 (by decide)).trans <| (W4_of m ρ c main_arg1 (by decide) (by decide)).trans <| (W3_of m ρ c main_arg1 (by decide)).trans <| (W2_of m ρ c main_arg1 (by decide)).trans <| (W1_of m ρ c main_arg1 (by decide)).trans rfl
theorem W9_main_arg1 (c : Dev nD) : W9 m ρ c (Proc.devRef .tc main_arg1) = m ((c : Thread nD τ).loc main_arg1) :=
  (W9_of m ρ c main_arg1 (by decide)).trans <| (W8_of m ρ c main_arg1 (by decide) (by decide)).trans <| (W7_of m ρ c main_arg1 (by decide)).trans <| (W6_of m ρ c main_arg1 (by decide) (by decide)).trans <| (W5_of m ρ c main_arg1 (by decide)).trans <| (W4_of m ρ c main_arg1 (by decide) (by decide)).trans <| (W3_of m ρ c main_arg1 (by decide)).trans <| (W2_of m ρ c main_arg1 (by decide)).trans <| (W1_of m ρ c main_arg1 (by decide)).trans rfl
theorem W2_main_arg2 (c : Dev nD) : W2 m ρ c (Proc.devRef .tc main_arg2) = m ((c : Thread nD τ).loc main_arg2) :=
  (W2_of m ρ c main_arg2 (by decide)).trans <| (W1_of m ρ c main_arg2 (by decide)).trans rfl
theorem W4_main_arg2 (c : Dev nD) : W4 m ρ c (Proc.devRef .tc main_arg2) = m ((c : Thread nD τ).loc main_arg2) :=
  (W4_of m ρ c main_arg2 (by decide) (by decide)).trans <| (W3_of m ρ c main_arg2 (by decide)).trans <| (W2_of m ρ c main_arg2 (by decide)).trans <| (W1_of m ρ c main_arg2 (by decide)).trans rfl
theorem W6_main_arg2 (c : Dev nD) : W6 m ρ c (Proc.devRef .tc main_arg2) = m ((c : Thread nD τ).loc main_arg2) :=
  (W6_of m ρ c main_arg2 (by decide) (by decide)).trans <| (W5_of m ρ c main_arg2 (by decide)).trans <| (W4_of m ρ c main_arg2 (by decide) (by decide)).trans <| (W3_of m ρ c main_arg2 (by decide)).trans <| (W2_of m ρ c main_arg2 (by decide)).trans <| (W1_of m ρ c main_arg2 (by decide)).trans rfl
theorem W8_main_arg2 (c : Dev nD) : W8 m ρ c (Proc.devRef .tc main_arg2) = m ((c : Thread nD τ).loc main_arg2) :=
  (W8_of m ρ c main_arg2 (by decide) (by decide)).trans <| (W7_of m ρ c main_arg2 (by decide)).trans <| (W6_of m ρ c main_arg2 (by decide) (by decide)).trans <| (W5_of m ρ c main_arg2 (by decide)).trans <| (W4_of m ρ c main_arg2 (by decide) (by decide)).trans <| (W3_of m ρ c main_arg2 (by decide)).trans <| (W2_of m ρ c main_arg2 (by decide)).trans <| (W1_of m ρ c main_arg2 (by decide)).trans rfl
theorem W3_main_arg0 (c : Dev nD) : W3 m ρ c (Proc.devRef .tc main_arg0) = m ((c : Thread nD τ).loc main_arg0) :=
  (W3_of m ρ c main_arg0 (by decide)).trans <| (W2_of m ρ c main_arg0 (by decide)).trans <| (W1_of m ρ c main_arg0 (by decide)).trans rfl
theorem W1_main_arg0 (c : Dev nD) : W1 m ρ c (Proc.devRef .tc main_arg0) = m ((c : Thread nD τ).loc main_arg0) :=
  (W1_of m ρ c main_arg0 (by decide)).trans rfl
theorem W1_main_arg2 (c : Dev nD) : W1 m ρ c (Proc.devRef .tc main_arg2) = m ((c : Thread nD τ).loc main_arg2) :=
  (W1_of m ρ c main_arg2 (by decide)).trans rfl

/-! ## Region 0: entered after the first three host stretches -/

theorem in0_W (c : Dev nD) : Vin0 m ρ c main_v5 = wmat1 (m ((c : Thread nD τ).loc main_arg2)) := by
  show StableHlo.after hostOps0_2 (W2 m ρ c) (Proc.devRef .tc main_v5) = _
  after_results
  rfl

theorem in0_A (c : Dev nD) : Vin0 m ρ c main_v3 = acc_0 (m ((c : Thread nD τ).loc main_arg0)) (m ((c : Thread nD τ).loc main_arg2)) := by
  show W3 m ρ c (Proc.devRef .tc main_v3) = _
  rw [W3_of m ρ c main_v3 (by decide)]
  show StableHlo.after hostOps0_1 (W1 m ρ c) (Proc.devRef .tc main_v3) = _
  after_results
  rfl

theorem out0_X (c : Dev nD) : W4 m ρ c (Proc.devRef .tc main_v6_0) = xp1 (m ((c : Thread nD τ).loc main_arg0)) (m ((c : Thread nD τ).loc main_arg1)) := by
  refine (W4_arr m ρ c 4).trans ((final0_4 (Vin0 m ρ) c).trans ?_)
  rw [show Vin0 m ρ c main_arg1 = m ((c : Thread nD τ).loc main_arg1) from W3_main_arg1 m ρ c,
    show Vin0 m ρ c main_arg0 = m ((c : Thread nD τ).loc main_arg0) from W3_main_arg0 m ρ c]

theorem out0_A (c : Dev nD) : W4 m ρ c (Proc.devRef .tc main_v6_1)
    = acc_1 (m ((c : Thread nD τ).loc main_arg0)) (m ((c : Thread nD τ).loc main_arg1)) (m ((c : Thread nD τ).loc main_arg2)) := by
  refine (W4_arr m ρ c 5).trans ((final0_5 (Vin0 m ρ) c).trans ?_)
  rw [show Vin0 m ρ c main_arg1 = m ((c : Thread nD τ).loc main_arg1) from W3_main_arg1 m ρ c,
    show Vin0 m ρ c main_arg0 = m ((c : Thread nD τ).loc main_arg0) from W3_main_arg0 m ρ c, in0_W, in0_A]

/-! ## Region 1 -/

theorem in1_X (c : Dev nD) : Vin1 m ρ c main_v6_0 = xp1 (m ((c : Thread nD τ).loc main_arg0)) (m ((c : Thread nD τ).loc main_arg1)) :=
  (W5_of m ρ c main_v6_0 (by decide)).trans (out0_X m ρ c)

theorem in1_A (c : Dev nD) : Vin1 m ρ c main_v6_1 = acc_1 (m ((c : Thread nD τ).loc main_arg0)) (m ((c : Thread nD τ).loc main_arg1)) (m ((c : Thread nD τ).loc main_arg2)) :=
  (W5_of m ρ c main_v6_1 (by decide)).trans (out0_A m ρ c)

theorem in1_W (c : Dev nD) : Vin1 m ρ c main_v8 = wmat2 (m ((c : Thread nD τ).loc main_arg2)) := by
  show StableHlo.after hostOps1 (W4 m ρ c) (Proc.devRef .tc main_v8) = _
  after_results
  rw [W4_main_arg2 m ρ c]
  rfl

theorem out1_X (c : Dev nD) : W6 m ρ c (Proc.devRef .tc main_v9_0) = xp2 (m ((c : Thread nD τ).loc main_arg0)) (m ((c : Thread nD τ).loc main_arg1)) := by
  refine (W6_arr m ρ c 4).trans ((final1_4 (Vin1 m ρ) c).trans ?_)
  rw [show Vin1 m ρ c main_arg1 = (m ((c : Thread nD τ).loc main_arg1)) from W5_main_arg1 m ρ c, in1_X]

theorem out1_A (c : Dev nD) : W6 m ρ c (Proc.devRef .tc main_v9_1) = acc_2 (m ((c : Thread nD τ).loc main_arg0)) (m ((c : Thread nD τ).loc main_arg1)) (m ((c : Thread nD τ).loc main_arg2)) := by
  refine (W6_arr m ρ c 5).trans ((final1_5 (Vin1 m ρ) c).trans ?_)
  rw [show Vin1 m ρ c main_arg1 = (m ((c : Thread nD τ).loc main_arg1)) from W5_main_arg1 m ρ c, in1_X, in1_W, in1_A]

/-! ## Region 2 -/

theorem in2_X (c : Dev nD) : Vin2 m ρ c main_v9_0 = xp2 (m ((c : Thread nD τ).loc main_arg0)) (m ((c : Thread nD τ).loc main_arg1)) :=
  (W7_of m ρ c main_v9_0 (by decide)).trans (out1_X m ρ c)

theorem in2_A (c : Dev nD) : Vin2 m ρ c main_v9_1 = acc_2 (m ((c : Thread nD τ).loc main_arg0)) (m ((c : Thread nD τ).loc main_arg1)) (m ((c : Thread nD τ).loc main_arg2)) :=
  (W7_of m ρ c main_v9_1 (by decide)).trans (out1_A m ρ c)

theorem in2_W (c : Dev nD) : Vin2 m ρ c main_v11 = wmat3 (m ((c : Thread nD τ).loc main_arg2)) := by
  show StableHlo.after hostOps2 (W6 m ρ c) (Proc.devRef .tc main_v11) = _
  after_results
  rw [W6_main_arg2 m ρ c]
  rfl

theorem out2_X (c : Dev nD) : W8 m ρ c (Proc.devRef .tc main_v12_0) = xp3 (m ((c : Thread nD τ).loc main_arg0)) (m ((c : Thread nD τ).loc main_arg1)) := by
  refine (W8_arr m ρ c 4).trans ((final2_4 (Vin2 m ρ) c).trans ?_)
  rw [show Vin2 m ρ c main_arg1 = (m ((c : Thread nD τ).loc main_arg1)) from W7_main_arg1 m ρ c, in2_X]

theorem out2_A (c : Dev nD) : W8 m ρ c (Proc.devRef .tc main_v12_1) = acc_3 (m ((c : Thread nD τ).loc main_arg0)) (m ((c : Thread nD τ).loc main_arg1)) (m ((c : Thread nD τ).loc main_arg2)) := by
  refine (W8_arr m ρ c 5).trans ((final2_5 (Vin2 m ρ) c).trans ?_)
  rw [show Vin2 m ρ c main_arg1 = (m ((c : Thread nD τ).loc main_arg1)) from W7_main_arg1 m ρ c, in2_X, in2_W, in2_A]

/-! ## Region 3 -/

theorem in3_X (c : Dev nD) : Vin3 m ρ c main_v12_0 = xp3 (m ((c : Thread nD τ).loc main_arg0)) (m ((c : Thread nD τ).loc main_arg1)) :=
  (W9_of m ρ c main_v12_0 (by decide)).trans (out2_X m ρ c)

theorem in3_A (c : Dev nD) : Vin3 m ρ c main_v12_1 = acc_3 (m ((c : Thread nD τ).loc main_arg0)) (m ((c : Thread nD τ).loc main_arg1)) (m ((c : Thread nD τ).loc main_arg2)) :=
  (W9_of m ρ c main_v12_1 (by decide)).trans (out2_A m ρ c)

theorem in3_W (c : Dev nD) : Vin3 m ρ c main_v14 = wmat4 (m ((c : Thread nD τ).loc main_arg2)) := by
  show StableHlo.after hostOps3 (W8 m ρ c) (Proc.devRef .tc main_v14) = _
  after_results
  rw [W8_main_arg2 m ρ c]
  rfl

theorem out3_X (c : Dev nD) : W10 m ρ c (Proc.devRef .tc main_v15_0) = xp4 (m ((c : Thread nD τ).loc main_arg0)) (m ((c : Thread nD τ).loc main_arg1)) := by
  refine (W10_arr m ρ c 4).trans ((final3_4 (Vin3 m ρ) c).trans ?_)
  rw [show Vin3 m ρ c main_arg1 = (m ((c : Thread nD τ).loc main_arg1)) from W9_main_arg1 m ρ c, in3_X]

theorem out3_A (c : Dev nD) : W10 m ρ c (Proc.devRef .tc main_v15_1) = acc_4 (m ((c : Thread nD τ).loc main_arg0)) (m ((c : Thread nD τ).loc main_arg1)) (m ((c : Thread nD τ).loc main_arg2)) := by
  refine (W10_arr m ρ c 5).trans ((final3_5 (Vin3 m ρ) c).trans ?_)
  rw [show Vin3 m ρ c main_arg1 = (m ((c : Thread nD τ).loc main_arg1)) from W9_main_arg1 m ρ c, in3_X, in3_W, in3_A]

/-! ## The result -/

theorem W11_main_v16 (c : Dev nD) : W11 m ρ c (Proc.devRef .tc main_v16) = layer (m ((c : Thread nD τ).loc main_arg0)) (m ((c : Thread nD τ).loc main_arg1)) (m ((c : Thread nD τ).loc main_arg2)) := by
  show StableHlo.after hostOps4 (W10 m ρ c) (Proc.devRef .tc main_v16) = _
  after_results
  rw [out3_A m ρ c]
  rfl

/-- Every weakly fair execution of @main terminates with the result buffer at the layer's term of the launch
    arguments, and the arguments as launched. -/
theorem value_run : θ_run defs (onTc (τ := τ) (main (F := Ideal))) ⟨m, fun _ => 0, ρ⟩ (fun r => ∀ c : Dev nD,
      r.2.mem ((c.tc : Thread nD τ).loc main_v16) = layer (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v16 (by decide))).trans (W11_main_v16 m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c)⟩) (run_all m ρ)

end Cert.KernelIdeal.H

end
-- ==== Proof.Bridge.lean ====
/-
  The plain program's run, its result stated as the layer's term.
-/
import proofs.«163433_j78743930404901_1_alg».proof.Defs
import proofs.«163433_j78743930404901_1_alg».proof.Proof.KernelIdeal.Terms
import proofs.«163433_j78743930404901_1_alg».proof.Proof.Gen.ReferenceIdeal.Run

noncomputable section

namespace Cert.ReferenceIdeal.RefValue

open Idealize.ShloMosaic Idealize.ShloMosaic.TcCoe Idealize.SL.Sem
open Cert.ReferenceIdeal Cert.ReferenceIdeal.Facts₀ Cert.ReferenceIdeal.Facts

/-- The two programs' records of the [8192,16] by [16,16] product are one record. -/
theorem dot_eq : Cert.KernelIdeal.dot_S8192x16_S16x16_S8192x16_1_0_0_1_n_n = Cert.ReferenceIdeal.dot_S8192x16_S16x16_S8192x16_1_0_0_1_n_n := rfl

/-- The plain program's composed term is the layer's term: the same operations, spelt over either program's
    constants. -/
theorem term_eq (x : FVec Ideal S8192x16 .f32) (L : FVec Ideal S8192x8192 .f32) (w : FVec Ideal S5x16x16 .f32) :
    (maximumf (addf (addf (addf (addf (maximumf (Host.dotGeneral dot_S8192x16_S16x16_S8192x16_1_0_0_1_n_n none x (shapeCast _ (extractStridedSlice S1x16x16 ![0, 0, 0] w slices_S5x16x16_S1x16x16_0_0_0) shapeCasts_S1x16x16_S16x16)) (broadcastInDim S8192x16 ![] bcast_S_S8192x16 (constant S_ .f32 0x00000000#32))) (maximumf (Host.dotGeneral dot_S8192x16_S16x16_S8192x16_1_0_0_1_n_n none (Host.dotGeneral dot_S8192x8192_S8192x16_S8192x16_1_0_0_1_n_n none L x) (shapeCast _ (extractStridedSlice S1x16x16 ![1, 0, 0] w slices_S5x16x16_S1x16x16_1_0_0) shapeCasts_S1x16x16_S16x16)) (broadcastInDim S8192x16 ![] bcast_S_S8192x16 (constant S_ .f32 0x00000000#32)))) (maximumf (Host.dotGeneral dot_S8192x16_S16x16_S8192x16_1_0_0_1_n_n none (Host.dotGeneral dot_S8192x8192_S8192x16_S8192x16_1_0_0_1_n_n none L (Host.dotGeneral dot_S8192x8192_S8192x16_S8192x16_1_0_0_1_n_n none L x)) (shapeCast _ (extractStridedSlice S1x16x16 ![2, 0, 0] w slices_S5x16x16_S1x16x16_2_0_0) shapeCasts_S1x16x16_S16x16)) (broadcastInDim S8192x16 ![] bcast_S_S8192x16 (constant S_ .f32 0x00000000#32)))) (maximumf (Host.dotGeneral dot_S8192x16_S16x16_S8192x16_1_0_0_1_n_n none (Host.dotGeneral dot_S8192x8192_S8192x16_S8192x16_1_0_0_1_n_n none L (Host.dotGeneral dot_S8192x8192_S8192x16_S8192x16_1_0_0_1_n_n none L (Host.dotGeneral dot_S8192x8192_S8192x16_S8192x16_1_0_0_1_n_n none L x))) (shapeCast _ (extractStridedSlice S1x16x16 ![3, 0, 0] w slices_S5x16x16_S1x16x16_3_0_0) shapeCasts_S1x16x16_S16x16)) (broadcastInDim S8192x16 ![] bcast_S_S8192x16 (constant S_ .f32 0x00000000#32)))) (maximumf (Host.dotGeneral dot_S8192x16_S16x16_S8192x16_1_0_0_1_n_n none (Host.dotGeneral dot_S8192x8192_S8192x16_S8192x16_1_0_0_1_n_n none L (Host.dotGeneral dot_S8192x8192_S8192x16_S8192x16_1_0_0_1_n_n none L (Host.dotGeneral dot_S8192x8192_S8192x16_S8192x16_1_0_0_1_n_n none L (Host.dotGeneral dot_S8192x8192_S8192x16_S8192x16_1_0_0_1_n_n none L x)))) (shapeCast _ (extractStridedSlice S1x16x16 ![4, 0, 0] w slices_S5x16x16_S1x16x16_4_0_0) shapeCasts_S1x16x16_S16x16)) (broadcastInDim S8192x16 ![] bcast_S_S8192x16 (constant S_ .f32 0x00000000#32)))) (broadcastInDim S8192x16 ![] bcast_S_S8192x16 (constant S_ .f32 0x00000000#32)) : FVec Ideal S8192x16 .f32)
      = Cert.KernelIdeal.H.layer x L w := rfl

/-- Every weakly fair execution of the plain program ends with its result at the layer's term of the arguments'
    launch contents, and the arguments unchanged. -/
theorem run_layer (m : (ℓ : Loc Cert.ReferenceIdeal.nD Cert.ReferenceIdeal.τ Cert.ReferenceIdeal.sig) → Buf (Elt Ideal) ℓ) (ρ : Dev Cert.ReferenceIdeal.nD → PrngReg) :
      θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_v28)
            = Cert.KernelIdeal.H.layer (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono (fun _ h c => ⟨(h c).1.trans (term_eq (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))), (h c).2⟩) (Cert.ReferenceIdeal.Value.run (F := Ideal) m ρ)

end Cert.ReferenceIdeal.RefValue

end
-- ==== Proof.lean ====
/-
  The certificate. A spectral graph layer out = relu(Σ_p relu(L^p x · W_p)), p = 0..4, computed by four launches of one
  Pallas kernel — each a row-tiled, contraction-blocked product xp ← L·xp accumulated in a scratch buffer over eight
  grid points, with the hop's contribution relu(xp·W_p) added to a running sum at the last of them — against the plain
  program that applies the same operations to whole arrays.

  Frames. Each kernel region is run once per control case (the accumulator reset at the first contraction tile,
  carried at the middle ones, copied out and used at the last) and the cases are stitched over the 64 grid points by an
  invariant that carries the accumulator; the four regions and the seven stretches of host operations between them are
  composed from the launch to the return, at any float type, so the word-level program and its idealization share one
  text. The plain program has no kernel: its frame is its run with the result dropped.

  Values, over the extended reals. Narrowing to bf16 is the identity and a matrix unit's product into zeros is the
  textbook sum, so the accumulator after the eight contraction tiles of a row tile is
  ((0 + P₀) + P₁) + … + P₇, P_k the partial product over the k-th block of 1024 columns; addition of extended reals is
  associative and commutative, so this is the whole sum over the 8192 columns, the plain program's dot_general. Each
  region therefore maps (xp, acc) to (L·xp, acc + relu((L·xp)·W_p)) in the plain program's own operations, and @main's
  result is the plain program's composed term, literally.
-/
import proofs.«163433_j78743930404901_1_alg».proof.Defs
import proofs.«163433_j78743930404901_1_alg».proof.Proof.Gen.Kernel
import proofs.«163433_j78743930404901_1_alg».proof.Proof.Gen.KernelIdeal
import proofs.«163433_j78743930404901_1_alg».proof.Proof.Gen.ReferenceIdeal
import proofs.«163433_j78743930404901_1_alg».proof.Proof.Gen.Pre_finite_inputs
import proofs.«163433_j78743930404901_1_alg».proof.Proof.Kernel.Run
import proofs.«163433_j78743930404901_1_alg».proof.Proof.KernelIdeal.Chain
import proofs.«163433_j78743930404901_1_alg».proof.Proof.Bridge
import Idealize.ShloMosaic.Adequacy
import Idealize.ShloMosaic.Init

noncomputable section

namespace Cert.Proof

open Idealize.ShloMosaic Idealize.SL.Sem

/-- The word-level program runs and leaves its arguments alone. -/
theorem frame_k : Cert.frame_Kernel := fun m ρ _ => Cert.Kernel.H.frame (F := Bits) m ρ

/-- So does its idealization. -/
theorem frame_ki : Cert.frame_KernelIdeal := fun m ρ _ => Cert.KernelIdeal.H.frame (F := Ideal) m ρ

/-- The plain program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the layer's term of arguments that agree. -/
theorem algebraic : Cert.algebraic_KernelIdeal_ReferenceIdeal := by
  intro m ρ m' ρ' _ hagree
  refine ⟨fun c => Cert.KernelIdeal.H.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.H.value_run m ρ, ?_⟩
  refine (θ_run Cert.ReferenceIdeal.defs _ _).mono (fun _ h c => ⟨(h c).1.trans ?_, (h c).2⟩)
    (Cert.ReferenceIdeal.RefValue.run_layer m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
